-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v125) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x128 : Shape := ⟨2, ![12000, 128]⟩
abbrev S2x384000 : Shape := ⟨2, ![2, 384000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S32x7 : Shape := ⟨2, ![32, 7]⟩
abbrev S7 : Shape := ⟨1, ![7]⟩
abbrev S_ : Shape := ⟨0, ![]⟩

class Facts : Prop where
  bcast_S_S12000x128 : S_.BroadcastsInDim S12000x128 (![] : Fin 0 → Fin S12000x128.rank)
  reducesTo_S12000x128_S_d0_1 : S12000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_
  bcast_S_S32x7 : S_.BroadcastsInDim S32x7 (![] : Fin 0 → Fin S32x7.rank)
  reducesTo_S32x7_S_d0_1 : S32x7.ReducesTo [0, 1] S_
  bcast_S_S7 : S_.BroadcastsInDim S7 (![] : Fin 0 → Fin S7.rank)
  reducesTo_S7_S_d0 : S7.ReducesTo [0] S_
  bcast_S_S2x384000 : S_.BroadcastsInDim S2x384000 (![] : Fin 0 → Fin S2x384000.rank)
  reducesTo_S2x384000_S_d0_1 : S2x384000.ReducesTo [0, 1] S_

variable [Facts]

def fn_part2 {F : FTy → Type} [FloatOps F] (main_arg1 : IVec S2x384000 32) (main_arg8 : FVec F S32x7 .f32) (main_arg9 : FVec F S7 .f32) (main_v33 : IVec S_ 1) : IVec S_ 1 :=
  let main_v34 : FVec F S32x7 .f32 := Host.absf main_arg8
  let main_cst_12 : FVec F S_ .f32 := constant S_ .f32 0x7F800000#32
  let main_v35 : FVec F S32x7 .f32 := broadcastInDim S32x7 ![] bcast_S_S32x7 main_cst_12
  let main_v36 : IVec S32x7 1 := cmpf .olt main_v34 main_v35
  let main_c_13 : IVec S_ 1 := constantI S_ 1 1#1
  let main_v37 : IVec S_ 1 := (fun x v => Host.reduce IntOp.andi x v reducesTo_S32x7_S_d0_1 h_S_) main_v36 main_c_13
  let main_v38 : IVec S_ 1 := andi main_v33 main_v37
  let main_v39 : FVec F S7 .f32 := Host.absf main_arg9
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_c_16 : IVec S_ 32 := constantI S_ 32 0#32
  let main_v44 : IVec S2x384000 32 := broadcastInDim S2x384000 ![] bcast_S_S2x384000 main_c_16
  let main_v45 : IVec S2x384000 1 := cmpi .sge main_arg1 main_v44
  let main_c_17 : IVec S_ 32 := constantI S_ 32 12000#32
  let main_v46 : IVec S2x384000 32 := broadcastInDim S2x384000 ![] bcast_S_S2x384000 main_c_17
  let main_v47 : IVec S2x384000 1 := cmpi .slt main_arg1 main_v46
  let main_v48 : IVec S2x384000 1 := andi main_v45 main_v47
  let main_c_18 : IVec S_ 1 := constantI S_ 1 1#1
  let main_v49 : IVec S_ 1 := (fun x v => Host.reduce IntOp.andi x v reducesTo_S2x384000_S_d0_1 h_S_) main_v48 main_c_18
  let main_v50 : IVec S_ 1 := andi main_v43 main_v49
  main_v50

def fn_part1 {F : FTy → Type} [FloatOps F] (main_arg1 : IVec S2x384000 32) (main_arg5 : FVec F S32 .f32) (main_arg6 : FVec F S32x10 .f32) (main_arg7 : FVec F S10 .f32) (main_arg8 : FVec F S32x7 .f32) (main_arg9 : FVec F S7 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x10 .f32 := Host.absf main_arg6
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_arg8 main_arg9 main_v33

def fn {F : FTy → Type} [FloatOps F] (main_arg0 : FVec F S12000x128 .f32) (main_arg1 : IVec S2x384000 32) (main_arg2 : FVec F S128x32 .f32) (main_arg3 : FVec F S32 .f32) (main_arg4 : FVec F S32x32 .f32) (main_arg5 : FVec F S32 .f32) (main_arg6 : FVec F S32x10 .f32) (main_arg7 : FVec F S10 .f32) (main_arg8 : FVec F S32x7 .f32) (main_arg9 : FVec F S7 .f32) : IVec S_ 1 :=
  let main_v0 : FVec F S12000x128 .f32 := Host.absf main_arg0
  let main_cst : FVec F S_ .f32 := constant S_ .f32 0x7F800000#32
  let main_v1 : FVec F S12000x128 .f32 := broadcastInDim S12000x128 ![] bcast_S_S12000x128 main_cst
  let main_v2 : IVec S12000x128 1 := cmpf .olt main_v0 main_v1
  let main_c : IVec S_ 1 := constantI S_ 1 1#1
  let main_v3 : IVec S_ 1 := (fun x v => Host.reduce IntOp.andi x v reducesTo_S12000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_arg8 main_arg9 main_v13 main_v16
-- ==== Kernel.lean ====
abbrev S12000x128 : Shape := ⟨2, ![12000, 128]⟩
abbrev S2x384000 : Shape := ⟨2, ![2, 384000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S32x7 : Shape := ⟨2, ![32, 7]⟩
abbrev S7 : Shape := ⟨1, ![7]⟩
abbrev S1x384000 : Shape := ⟨2, ![1, 384000]⟩
abbrev S384000 : Shape := ⟨1, ![384000]⟩
abbrev S_ : Shape := ⟨0, ![]⟩
abbrev S12000 : Shape := ⟨1, ![12000]⟩
abbrev S384000x1 : Shape := ⟨2, ![384000, 1]⟩
abbrev S12288x12288 : Shape := ⟨2, ![12288, 12288]⟩
abbrev S384000x2 : Shape := ⟨2, ![384000, 2]⟩
abbrev S12000x32 : Shape := ⟨2, ![12000, 32]⟩
abbrev S12000x1 : Shape := ⟨2, ![12000, 1]⟩
abbrev S12288x32 : Shape := ⟨2, ![12288, 32]⟩
abbrev S2048x4096 : Shape := ⟨2, ![2048, 4096]⟩
abbrev S4096x32 : Shape := ⟨2, ![4096, 32]⟩
abbrev S2048x32 : Shape := ⟨2, ![2048, 32]⟩
abbrev S1x32 : Shape := ⟨2, ![1, 32]⟩
abbrev S12000x10 : Shape := ⟨2, ![12000, 10]⟩
abbrev S1x10 : Shape := ⟨2, ![1, 10]⟩
abbrev S12288x10 : Shape := ⟨2, ![12288, 10]⟩
abbrev S4096x2048 : Shape := ⟨2, ![4096, 2048]⟩
abbrev S4096x10 : Shape := ⟨2, ![4096, 10]⟩
abbrev S2048x10 : Shape := ⟨2, ![2048, 10]⟩
abbrev S10x12000 : Shape := ⟨2, ![10, 12000]⟩
abbrev S10x10 : Shape := ⟨2, ![10, 10]⟩
abbrev S12000x7 : Shape := ⟨2, ![12000, 7]⟩
abbrev S1x7 : Shape := ⟨2, ![1, 7]⟩

abbrev nBuf : Space → Nat
  | .hbm => 193
  | .vmem => 21
  | .smem => 0
  | _ => 0

abbrev hbmTy0_0 (i : Nat) : BufTy := match i % 128 with
  | 0 => ⟨S12000x128, .f32⟩
  | 1 => ⟨S2x384000, .i32⟩
  | 2 => ⟨S128x32, .f32⟩
  | 3 => ⟨S32, .f32⟩
  | 4 => ⟨S32x32, .f32⟩
  | 5 => ⟨S32, .f32⟩
  | 6 => ⟨S32x10, .f32⟩
  | 7 => ⟨S10, .f32⟩
  | 8 => ⟨S32x7, .f32⟩
  | 9 => ⟨S7, .f32⟩
  | 10 => ⟨S1x384000, .i32⟩
  | 11 => ⟨S384000, .i32⟩
  | 12 => ⟨S1x384000, .i32⟩
  | 13 => ⟨S384000, .i32⟩
  | 14 => ⟨S_, .f32⟩
  | 15 => ⟨S12000, .f32⟩
  | 16 => ⟨S_, .f32⟩
  | 17 => ⟨S384000, .f32⟩
  | 18 => ⟨S_, .i32⟩
  | 19 => ⟨S384000, .i32⟩
  | 20 => ⟨S384000, .i1⟩
  | 21 => ⟨S_, .i32⟩
  | 22 => ⟨S384000, .i32⟩
  | 23 => ⟨S384000, .i32⟩
  | 24 => ⟨S384000, .i32⟩
  | 25 => ⟨S384000x1, .i32⟩
  | 26 => ⟨S12000, .f32⟩
  | 27 => ⟨S_, .f32⟩
  | 28 => ⟨S12000, .f32⟩
  | 29 => ⟨S12000, .f32⟩
  | 30 => ⟨S12000, .f32⟩
  | 31 => ⟨S_, .f32⟩
  | 32 => ⟨S384000, .f32⟩
  | 33 => ⟨S_, .f32⟩
  | 34 => ⟨S12288x12288, .f32⟩
  | 35 => ⟨S_, .i32⟩
  | 36 => ⟨S384000, .i32⟩
  | 37 => ⟨S384000, .i1⟩
  | 38 => ⟨S_, .i32⟩
  | 39 => ⟨S384000, .i32⟩
  | 40 => ⟨S384000, .i32⟩
  | 41 => ⟨S384000, .i32⟩
  | 42 => ⟨S_, .i32⟩
  | 43 => ⟨S384000, .i32⟩
  | 44 => ⟨S384000, .i1⟩
  | 45 => ⟨S_, .i32⟩
  | 46 => ⟨S384000, .i32⟩
  | 47 => ⟨S384000, .i32⟩
  | 48 => ⟨S384000, .i32⟩
  | 49 => ⟨S384000x1, .i32⟩
  | 50 => ⟨S384000x1, .i32⟩
  | 51 => ⟨S384000x2, .i32⟩
  | 52 => ⟨S12288x12288, .f32⟩
  | 53 => ⟨S12288x12288, .bf16⟩
  | 54 => ⟨S12000x32, .f32⟩
  | 55 => ⟨S12000x1, .f32⟩
  | 56 => ⟨S12000x32, .f32⟩
  | 57 => ⟨S12000x32, .f32⟩
  | 58 => ⟨S12000x32, .bf16⟩
  | 59 => ⟨S_, .i32⟩
  | 60 => ⟨S_, .bf16⟩
  | 61 => ⟨S12288x32, .bf16⟩
  | 62 => ⟨S12288x32, .f32⟩
  | 63 => ⟨S12000x32, .f32⟩
  | 64 => ⟨S12000x1, .f32⟩
  | 65 => ⟨S12000x32, .f32⟩
  | 66 => ⟨S12000x32, .f32⟩
  | 67 => ⟨S12000, .f32⟩
  | 68 => ⟨S12000x1, .f32⟩
  | 69 => ⟨S12000x32, .f32⟩
  | 70 => ⟨S12000x32, .f32⟩
  | 71 => ⟨S12000x32, .f32⟩
  | 72 => ⟨S1x32, .f32⟩
  | 73 => ⟨S12000x32, .f32⟩
  | 74 => ⟨S12000x32, .f32⟩
  | 75 => ⟨S_, .f32⟩
  | 76 => ⟨S12000x32, .f32⟩
  | 77 => ⟨S12000x32, .f32⟩
  | 78 => ⟨S12000x32, .f32⟩
  | 79 => ⟨S12000x1, .f32⟩
  | 80 => ⟨S12000x32, .f32⟩
  | 81 => ⟨S12000x32, .f32⟩
  | 82 => ⟨S12000x32, .bf16⟩
  | 83 => ⟨S_, .i32⟩
  | 84 => ⟨S_, .bf16⟩
  | 85 => ⟨S12288x32, .bf16⟩
  | 86 => ⟨S12288x32, .f32⟩
  | 87 => ⟨S12000x32, .f32⟩
  | 88 => ⟨S12000x1, .f32⟩
  | 89 => ⟨S12000x32, .f32⟩
  | 90 => ⟨S12000x32, .f32⟩
  | 91 => ⟨S12000, .f32⟩
  | 92 => ⟨S12000x1, .f32⟩
  | 93 => ⟨S12000x32, .f32⟩
  | 94 => ⟨S12000x32, .f32⟩
  | 95 => ⟨S12000x32, .f32⟩
  | 96 => ⟨S1x32, .f32⟩
  | 97 => ⟨S12000x32, .f32⟩
  | 98 => ⟨S12000x32, .f32⟩
  | 99 => ⟨S_, .f32⟩
  | 100 => ⟨S12000x32, .f32⟩
  | 101 => ⟨S12000x32, .f32⟩
  | 102 => ⟨S12000x10, .f32⟩
  | 103 => ⟨S1x10, .f32⟩
  | 104 => ⟨S12000x10, .f32⟩
  | 105 => ⟨S12000x10, .f32⟩
  | 106 => ⟨S_, .f32⟩
  | 107 => ⟨S12000, .f32⟩
  | 108 => ⟨S_, .f32⟩
  | 109 => ⟨S12000, .f32⟩
  | 110 => ⟨S12000, .f32⟩
  | 111 => ⟨S12000x1, .f32⟩
  | 112 => ⟨S12000x10, .f32⟩
  | 113 => ⟨S12000x10, .f32⟩
  | 114 => ⟨S12000x10, .f32⟩
  | 115 => ⟨S_, .f32⟩
  | 116 => ⟨S12000, .f32⟩
  | 117 => ⟨S12000x1, .f32⟩
  | 118 => ⟨S12000x10, .f32⟩
  | 119 => ⟨S12000x10, .f32⟩
  | 120 => ⟨S_, .f32⟩
  | 121 => ⟨S12000, .f32⟩
  | 122 => ⟨S_, .f32⟩
  | 123 => ⟨S384000, .f32⟩
  | 124 => ⟨S_, .i32⟩
  | 125 => ⟨S384000, .i32⟩
  | 126 => ⟨S384000, .i1⟩
  | 127 => ⟨S_, .i32⟩
  | _ => ⟨S12000x128, .f32⟩

abbrev hbmTy0_1 (i : Nat) : BufTy := match i % 128 with
  | 0 => ⟨S384000, .i32⟩
  | 1 => ⟨S384000, .i32⟩
  | 2 => ⟨S384000, .i32⟩
  | 3 => ⟨S384000x1, .i32⟩
  | 4 => ⟨S12000, .f32⟩
  | 5 => ⟨S12000x10, .bf16⟩
  | 6 => ⟨S_, .i32⟩
  | 7 => ⟨S_, .bf16⟩
  | 8 => ⟨S12288x10, .bf16⟩
  | 9 => ⟨S12288x10, .f32⟩
  | 10 => ⟨S12000x10, .f32⟩
  | 11 => ⟨S12000x10, .f32⟩
  | 12 => ⟨S_, .f32⟩
  | 13 => ⟨S_, .f32⟩
  | 14 => ⟨S12000x1, .f32⟩
  | 15 => ⟨S12000x10, .f32⟩
  | 16 => ⟨S12000x10, .f32⟩
  | 17 => ⟨S12000x10, .f32⟩
  | 18 => ⟨S_, .f32⟩
  | 19 => ⟨S_, .f32⟩
  | 20 => ⟨S_, .f32⟩
  | 21 => ⟨S_, .f32⟩
  | 22 => ⟨S10x12000, .f32⟩
  | 23 => ⟨S10x10, .f32⟩
  | 24 => ⟨S10x10, .i32⟩
  | 25 => ⟨S10x10, .i32⟩
  | 26 => ⟨S_, .i32⟩
  | 27 => ⟨S10x10, .i32⟩
  | 28 => ⟨S10x10, .i32⟩
  | 29 => ⟨S10x10, .i1⟩
  | 30 => ⟨S10x10, .f32⟩
  | 31 => ⟨S_, .f32⟩
  | 32 => ⟨S_, .f32⟩
  | 33 => ⟨S10x10, .f32⟩
  | 34 => ⟨S10x10, .f32⟩
  | 35 => ⟨S10x10, .f32⟩
  | 36 => ⟨S_, .f32⟩
  | 37 => ⟨S_, .f32⟩
  | 38 => ⟨S_, .f32⟩
  | 39 => ⟨S10x10, .f32⟩
  | 40 => ⟨S10x10, .f32⟩
  | 41 => ⟨S10x10, .f32⟩
  | 42 => ⟨S10x10, .f32⟩
  | 43 => ⟨S_, .f32⟩
  | 44 => ⟨S_, .f32⟩
  | 45 => ⟨S_, .f32⟩
  | 46 => ⟨S12000x7, .f32⟩
  | 47 => ⟨S1x7, .f32⟩
  | 48 => ⟨S12000x7, .f32⟩
  | 49 => ⟨S12000x7, .f32⟩
  | 50 => ⟨S_, .f32⟩
  | 51 => ⟨S12000, .f32⟩
  | 52 => ⟨S_, .f32⟩
  | 53 => ⟨S12000, .f32⟩
  | 54 => ⟨S12000, .f32⟩
  | 55 => ⟨S12000x1, .f32⟩
  | 56 => ⟨S12000x7, .f32⟩
  | 57 => ⟨S12000x7, .f32⟩
  | 58 => ⟨S12000x7, .f32⟩
  | 59 => ⟨S_, .f32⟩
  | 60 => ⟨S12000, .f32⟩
  | 61 => ⟨S12000x1, .f32⟩
  | 62 => ⟨S12000x1, .f32⟩
  | 63 => ⟨S12000x7, .f32⟩
  | 64 => ⟨S12000x7, .f32⟩
  | _ => ⟨S12000x128, .f32⟩

abbrev hbmTy (i : Nat) : BufTy := match i / 128 with
  | 0 => hbmTy0_0 i
  | 1 => hbmTy0_1 i
  | _ => ⟨S12000x128, .f32⟩

abbrev bufTy : (tb : Table) → Fin (tcTables nBuf tb) → BufTy
  | .hbm, ⟨i, _⟩ => hbmTy i
  | .local _ .vmem, ⟨0, _⟩ => ⟨S2048x4096, .bf16⟩
  | .local _ .vmem, ⟨1, _⟩ => ⟨S2048x4096, .bf16⟩
  | .local _ .vmem, ⟨2, _⟩ => ⟨S4096x32, .bf16⟩
  | .local _ .vmem, ⟨3, _⟩ => ⟨S4096x32, .bf16⟩
  | .local _ .vmem, ⟨4, _⟩ => ⟨S2048x32, .f32⟩
  | .local _ .vmem, ⟨5, _⟩ => ⟨S2048x32, .f32⟩
  | .local _ .vmem, ⟨6, _⟩ => ⟨S2048x32, .f32⟩
  | .local _ .vmem, ⟨7, _⟩ => ⟨S2048x4096, .bf16⟩
  | .local _ .vmem, ⟨8, _⟩ => ⟨S2048x4096, .bf16⟩
  | .local _ .vmem, ⟨9, _⟩ => ⟨S4096x32, .bf16⟩
  | .local _ .vmem, ⟨10, _⟩ => ⟨S4096x32, .bf16⟩
  | .local _ .vmem, ⟨11, _⟩ => ⟨S2048x32, .f32⟩
  | .local _ .vmem, ⟨12, _⟩ => ⟨S2048x32, .f32⟩
  | .local _ .vmem, ⟨13, _⟩ => ⟨S2048x32, .f32⟩
  | .local _ .vmem, ⟨14, _⟩ => ⟨S4096x2048, .bf16⟩
  | .local _ .vmem, ⟨15, _⟩ => ⟨S4096x2048, .bf16⟩
  | .local _ .vmem, ⟨16, _⟩ => ⟨S4096x10, .bf16⟩
  | .local _ .vmem, ⟨17, _⟩ => ⟨S4096x10, .bf16⟩
  | .local _ .vmem, ⟨18, _⟩ => ⟨S2048x10, .f32⟩
  | .local _ .vmem, ⟨19, _⟩ => ⟨S2048x10, .f32⟩
  | .local _ .vmem, ⟨20, _⟩ => ⟨S2048x10, .f32⟩
  | _, _ => ⟨S12000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_call2_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call3_cst : Ref sig .tc := ⟨.hbm, 99, rfl⟩
abbrev main_call3_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_11 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_c_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_18 : Ref sig .tc := ⟨.hbm, 134, rfl⟩
abbrev main_call4_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_21 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_22 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_call5_v0 : Ref sig .tc := ⟨.hbm, 163, rfl⟩
abbrev main_call5_cst : Ref sig .tc := ⟨.hbm, 164, rfl⟩
abbrev main_call5_v1 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_call6_v0 : Ref sig .tc := ⟨.hbm, 170, rfl⟩
abbrev main_call6_cst : Ref sig .tc := ⟨.hbm, 171, rfl⟩
abbrev main_call6_v1 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_call7_cst : Ref sig .tc := ⟨.hbm, 178, rfl⟩
abbrev main_call7_v0 : Ref sig .tc := ⟨.hbm, 179, rfl⟩
abbrev main_call7_cst_0 : Ref sig .tc := ⟨.hbm, 180, rfl⟩
abbrev main_call7_v1 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_v6 : Ref sig .tc := ⟨.hbm, 186, rfl⟩
abbrev main_call7_cst_1 : Ref sig .tc := ⟨.hbm, 187, rfl⟩
abbrev main_call7_v7 : Ref sig .tc := ⟨.hbm, 188, rfl⟩
abbrev main_call7_v8 : Ref sig .tc := ⟨.hbm, 189, rfl⟩
abbrev main_call7_v9 : Ref sig .tc := ⟨.hbm, 190, rfl⟩
abbrev main_call7_v10 : Ref sig .tc := ⟨.hbm, 191, rfl⟩
abbrev main_v130 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![6, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![6, 3], ![false, false]⟩

def k1_cond2 (i : grid1.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![6, 3], ![false, false]⟩

def k2_cond2 (i : grid2.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x10 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2x384000_S1x384000_0_0 : S2x384000.Slices ![0, 0] S1x384000
  shapeCasts_S1x384000_S384000 : S1x384000.ShapeCasts S384000
  slices_S2x384000_S1x384000_1_0 : S2x384000.Slices ![1, 0] S1x384000
  bcast_S_S12000 : S_.BroadcastsInDim S12000 (![] : Fin 0 → Fin S12000.rank)
  bcast_S_S384000 : S_.BroadcastsInDim S384000 (![] : Fin 0 → Fin S384000.rank)
  bcast_S384000_S384000x1_0 : S384000.BroadcastsInDim S384000x1 (![0] : Fin 1 → Fin S384000x1.rank)
  bcast_S_S12288x12288 : S_.BroadcastsInDim S12288x12288 (![] : Fin 0 → Fin S12288x12288.rank)
  concatenates_S384000x1_S384000x1_S384000x2_d1 : Shape.Concatenates [S384000x1, S384000x1] S384000x2 1
  bitsLt_bf16_f32 : FTy.bits .bf16 < FTy.bits .f32
  bcast_S12000_S12000x1_0 : S12000.BroadcastsInDim S12000x1 (![0] : Fin 1 → Fin S12000x1.rank)
  bcast_S12000x1_S12000x32_0_1 : S12000x1.BroadcastsInDim S12000x32 (![0, 1] : Fin 2 → Fin S12000x32.rank)
  pads_S12000x32_S12288x32_02880_000 : S12000x32.Pads (![0, 0] : Fin 2 → Nat) ![288, 0] ![0, 0] S12288x32
  h_S_ : 0 < S_.numel
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  slices_S12288x32_S12000x32_0_0 : S12288x32.Slices ![0, 0] S12000x32
  bcast_S32_S1x32_1 : S32.BroadcastsInDim S1x32 (![1] : Fin 1 → Fin S1x32.rank)
  bcast_S1x32_S12000x32_0_1 : S1x32.BroadcastsInDim S12000x32 (![0, 1] : Fin 2 → Fin S12000x32.rank)
  bcast_S_S12000x32 : S_.BroadcastsInDim S12000x32 (![] : Fin 0 → Fin S12000x32.rank)
  bcast_S10_S1x10_1 : S10.BroadcastsInDim S1x10 (![1] : Fin 1 → Fin S1x10.rank)
  bcast_S1x10_S12000x10_0_1 : S1x10.BroadcastsInDim S12000x10 (![0, 1] : Fin 2 → Fin S12000x10.rank)
  reducesTo_S12000x10_S12000_d1 : S12000x10.ReducesTo [1] S12000
  bcast_S12000x1_S12000x10_0_1 : S12000x1.BroadcastsInDim S12000x10 (![0, 1] : Fin 2 → Fin S12000x10.rank)
  pads_S12000x10_S12288x10_02880_000 : S12000x10.Pads (![0, 0] : Fin 2 → Nat) ![288, 0] ![0, 0] S12288x10
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x10_S4096x10_0_0 : ∀ a, (![0, 0] : Fin 2 → Nat) a + S4096x10.size a ≤ S4096x10.size a
  h_S4096x10 : 0 < S4096x10.numel
  shapeCasts_S4096x10_S4096x10 : S4096x10.ShapeCasts S4096x10
  slices_S12288x10_S12000x10_0_0 : S12288x10.Slices ![0, 0] S12000x10
  reducesTo_S12000x10_S_d0_1 : S12000x10.ReducesTo [0, 1] S_
  transposes_S12000x10_S10x12000_1_0 : S12000x10.Transposes [1, 0] S10x12000
  bcast_S_S10x10 : S_.BroadcastsInDim S10x10 (![] : Fin 0 → Fin S10x10.rank)
  reducesTo_S10x10_S_d0_1 : S10x10.ReducesTo [0, 1] S_
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  bcast_S12000x1_S12000x7_0_1 : S12000x1.BroadcastsInDim S12000x7 (![0, 1] : Fin 2 → Fin S12000x7.rank)
  scatter_S12000_S384000x1_S384000_n_0_0_1_wf : ScatterDims.WF S12000 S384000x1 S384000 [] [0] [0] 1
  scatter_S12288x12288_S384000x2_S384000_n_01_01_1_wf : ScatterDims.WF S12288x12288 S384000x2 S384000 [] [0, 1] [0, 1] 1
  dot_S12000x128_S128x32_S12000x32_1_0_0_1_n_n_wf : DotDims.WF S12000x128 S128x32 S12000x32 [1] [0] [0] [1] [] []
  dot_S2048x4096_S4096x32_S2048x32_1_0_0_1_n_n_wf : DotDims.WF S2048x4096 S4096x32 S2048x32 [1] [0] [0] [1] [] []
  dot_S12000x32_S32x32_S12000x32_1_0_0_1_n_n_wf : DotDims.WF S12000x32 S32x32 S12000x32 [1] [0] [0] [1] [] []
  dot_S12000x32_S32x10_S12000x10_1_0_0_1_n_n_wf : DotDims.WF S12000x32 S32x10 S12000x10 [1] [0] [0] [1] [] []
  dot_S4096x2048_S4096x10_S2048x10_0_0_1_1_n_n_wf : DotDims.WF S4096x2048 S4096x10 S2048x10 [0] [0] [1] [1] [] []
  dot_S10x12000_S12000x10_S10x10_1_0_0_1_n_n_wf : DotDims.WF S10x12000 S12000x10 S10x10 [1] [0] [0] [1] [] []
  dot_S12000x32_S32x7_S12000x7_1_0_0_1_n_n_wf : DotDims.WF S12000x32 S32x7 S12000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S12288x12288.size a
  hwx0_0 : ∀ i : grid0.Coords, EltTy.bits .bf16 = 32 ∨ (Rect.block (s := S12288x12288) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S12288x32.size a
  hwx0_1 : ∀ i : grid0.Coords, EltTy.bits .bf16 = 32 ∨ (Rect.block (s := S12288x32) S4096x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S12288x32.size a
  hwx0_2 : ∀ i : grid0.Coords, EltTy.bits .f32 = 32 ∨ (Rect.block (s := S12288x32) S2048x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S12288x12288.size a
  hwx1_0 : ∀ i : grid1.Coords, EltTy.bits .bf16 = 32 ∨ (Rect.block (s := S12288x12288) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x32.size a ≤ S12288x32.size a
  hwx1_1 : ∀ i : grid1.Coords, EltTy.bits .bf16 = 32 ∨ (Rect.block (s := S12288x32) S4096x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x32.size a ≤ S12288x32.size a
  hwx1_2 : ∀ i : grid1.Coords, EltTy.bits .f32 = 32 ∨ (Rect.block (s := S12288x32) S2048x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x2048.size a ≤ S12288x12288.size a
  hwx2_0 : ∀ i : grid2.Coords, EltTy.bits .bf16 = 32 ∨ (Rect.block (s := S12288x12288) S4096x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x10.size a ≤ S12288x10.size a
  hwx2_1 : ∀ i : grid2.Coords, EltTy.bits .bf16 = 32 ∨ (Rect.block (s := S12288x10) S4096x10.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x10.size a ≤ S12288x10.size a
  hwx2_2 : ∀ i : grid2.Coords, EltTy.bits .f32 = 32 ∨ (Rect.block (s := S12288x10) S2048x10.size (cc2_transform_2 i) (hinb2_2 i)).WholeWords (EltTy.packing .f32)

variable [Facts₀]

def scatter_S12000_S384000x1_S384000_n_0_0_1 : ScatterDims S12000 S384000x1 S384000 where
  updateWindowDims := []
  insertedWindowDims := [0]
  scatterDimsToOperandDims := [0]
  indexVectorDim := 1
  wf := scatter_S12000_S384000x1_S384000_n_0_0_1_wf
def scatter_S12288x12288_S384000x2_S384000_n_01_01_1 : ScatterDims S12288x12288 S384000x2 S384000 where
  updateWindowDims := []
  insertedWindowDims := [0, 1]
  scatterDimsToOperandDims := [0, 1]
  indexVectorDim := 1
  wf := scatter_S12288x12288_S384000x2_S384000_n_01_01_1_wf
def dot_S12000x128_S128x32_S12000x32_1_0_0_1_n_n : DotDims S12000x128 S128x32 S12000x32 where
  lhsContracting := [1]
  rhsContracting := [0]
  lhsNonContracting := [0]
  rhsNonContracting := [1]
  lhsBatch := []
  rhsBatch := []
  wf := dot_S12000x128_S128x32_S12000x32_1_0_0_1_n_n_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf
def dot_S12000x32_S32x32_S12000x32_1_0_0_1_n_n : DotDims S12000x32 S32x32 S12000x32 where
  lhsContracting := [1]
  rhsContracting := [0]
  lhsNonContracting := [0]
  rhsNonContracting := [1]
  lhsBatch := []
  rhsBatch := []
  wf := dot_S12000x32_S32x32_S12000x32_1_0_0_1_n_n_wf
def dot_S12000x32_S32x10_S12000x10_1_0_0_1_n_n : DotDims S12000x32 S32x10 S12000x10 where
  lhsContracting := [1]
  rhsContracting := [0]
  lhsNonContracting := [0]
  rhsNonContracting := [1]
  lhsBatch := []
  rhsBatch := []
  wf := dot_S12000x32_S32x10_S12000x10_1_0_0_1_n_n_wf
def dot_S4096x2048_S4096x10_S2048x10_0_0_1_1_n_n : DotDims S4096x2048 S4096x10 S2048x10 where
  lhsContracting := [0]
  rhsContracting := [0]
  lhsNonContracting := [1]
  rhsNonContracting := [1]
  lhsBatch := []
  rhsBatch := []
  wf := dot_S4096x2048_S4096x10_S2048x10_0_0_1_1_n_n_wf
def dot_S10x12000_S12000x10_S10x10_1_0_0_1_n_n : DotDims S10x12000 S12000x10 S10x10 where
  lhsContracting := [1]
  rhsContracting := [0]
  lhsNonContracting := [0]
  rhsNonContracting := [1]
  lhsBatch := []
  rhsBatch := []
  wf := dot_S10x12000_S12000x10_S10x10_1_0_0_1_n_n_wf
def dot_S12000x32_S32x7_S12000x7_1_0_0_1_n_n : DotDims S12000x32 S32x7 S12000x7 where
  lhsContracting := [1]
  rhsContracting := [0]
  lhsNonContracting := [0]
  rhsNonContracting := [1]
  lhsBatch := []
  rhsBatch := []
  wf := dot_S12000x32_S32x7_S12000x7_1_0_0_1_n_n_wf

abbrev win0_0 : Pipeline.Window sig grid0 :=
  Pipeline.Window.ofSpec (Memref.whole main_v32) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v32) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4096x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2048x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v32) S4096x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v98) S4096x10.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v99) S2048x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S12000x128 : Shape := ⟨2, ![12000, 128]⟩
abbrev S2x384000 : Shape := ⟨2, ![2, 384000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S32x7 : Shape := ⟨2, ![32, 7]⟩
abbrev S7 : Shape := ⟨1, ![7]⟩
abbrev S1x384000 : Shape := ⟨2, ![1, 384000]⟩
abbrev S384000 : Shape := ⟨1, ![384000]⟩
abbrev S_ : Shape := ⟨0, ![]⟩
abbrev S12000 : Shape := ⟨1, ![12000]⟩
abbrev S384000x1 : Shape := ⟨2, ![384000, 1]⟩
abbrev S12000x32 : Shape := ⟨2, ![12000, 32]⟩
abbrev S384000x32 : Shape := ⟨2, ![384000, 32]⟩
abbrev S12000x1 : Shape := ⟨2, ![12000, 1]⟩
abbrev S1x32 : Shape := ⟨2, ![1, 32]⟩
abbrev S12000x10 : Shape := ⟨2, ![12000, 10]⟩
abbrev S1x10 : Shape := ⟨2, ![1, 10]⟩
abbrev S12000x12000 : Shape := ⟨2, ![12000, 12000]⟩
abbrev S384000x2 : Shape := ⟨2, ![384000, 2]⟩
abbrev S10x12000 : Shape := ⟨2, ![10, 12000]⟩
abbrev S10x10 : Shape := ⟨2, ![10, 10]⟩
abbrev S12000x7 : Shape := ⟨2, ![12000, 7]⟩
abbrev S1x7 : Shape := ⟨2, ![1, 7]⟩

abbrev nBuf : Space → Nat
  | .hbm => 236
  | .vmem => 0
  | .smem => 0
  | _ => 0

abbrev hbmTy0_0 (i : Nat) : BufTy := match i % 128 with
  | 0 => ⟨S12000x128, .f32⟩
  | 1 => ⟨S2x384000, .i32⟩
  | 2 => ⟨S128x32, .f32⟩
  | 3 => ⟨S32, .f32⟩
  | 4 => ⟨S32x32, .f32⟩
  | 5 => ⟨S32, .f32⟩
  | 6 => ⟨S32x10, .f32⟩
  | 7 => ⟨S10, .f32⟩
  | 8 => ⟨S32x7, .f32⟩
  | 9 => ⟨S7, .f32⟩
  | 10 => ⟨S1x384000, .i32⟩
  | 11 => ⟨S384000, .i32⟩
  | 12 => ⟨S1x384000, .i32⟩
  | 13 => ⟨S384000, .i32⟩
  | 14 => ⟨S_, .f32⟩
  | 15 => ⟨S12000, .f32⟩
  | 16 => ⟨S_, .f32⟩
  | 17 => ⟨S384000, .f32⟩
  | 18 => ⟨S_, .i32⟩
  | 19 => ⟨S384000, .i32⟩
  | 20 => ⟨S384000, .i1⟩
  | 21 => ⟨S_, .i32⟩
  | 22 => ⟨S384000, .i32⟩
  | 23 => ⟨S384000, .i32⟩
  | 24 => ⟨S384000, .i32⟩
  | 25 => ⟨S384000x1, .i32⟩
  | 26 => ⟨S12000, .f32⟩
  | 27 => ⟨S_, .f32⟩
  | 28 => ⟨S12000, .f32⟩
  | 29 => ⟨S12000, .f32⟩
  | 30 => ⟨S12000, .f32⟩
  | 31 => ⟨S12000x32, .f32⟩
  | 32 => ⟨S_, .i32⟩
  | 33 => ⟨S384000, .i32⟩
  | 34 => ⟨S384000, .i1⟩
  | 35 => ⟨S_, .i32⟩
  | 36 => ⟨S384000, .i32⟩
  | 37 => ⟨S384000, .i32⟩
  | 38 => ⟨S384000, .i32⟩
  | 39 => ⟨S384000x1, .i32⟩
  | 40 => ⟨S384000, .f32⟩
  | 41 => ⟨S_, .i32⟩
  | 42 => ⟨S384000, .i32⟩
  | 43 => ⟨S384000, .i1⟩
  | 44 => ⟨S_, .i32⟩
  | 45 => ⟨S384000, .i32⟩
  | 46 => ⟨S384000, .i32⟩
  | 47 => ⟨S384000, .i32⟩
  | 48 => ⟨S384000x1, .i32⟩
  | 49 => ⟨S384000, .f32⟩
  | 50 => ⟨S384000, .f32⟩
  | 51 => ⟨S384000x1, .f32⟩
  | 52 => ⟨S_, .f32⟩
  | 53 => ⟨S12000x32, .f32⟩
  | 54 => ⟨S_, .i32⟩
  | 55 => ⟨S384000, .i32⟩
  | 56 => ⟨S384000, .i1⟩
  | 57 => ⟨S_, .i32⟩
  | 58 => ⟨S384000, .i32⟩
  | 59 => ⟨S384000, .i32⟩
  | 60 => ⟨S384000, .i32⟩
  | 61 => ⟨S384000x1, .i32⟩
  | 62 => ⟨S384000x32, .f32⟩
  | 63 => ⟨S384000x32, .f32⟩
  | 64 => ⟨S384000x32, .f32⟩
  | 65 => ⟨S_, .i32⟩
  | 66 => ⟨S384000, .i32⟩
  | 67 => ⟨S384000, .i1⟩
  | 68 => ⟨S_, .i32⟩
  | 69 => ⟨S384000, .i32⟩
  | 70 => ⟨S384000, .i32⟩
  | 71 => ⟨S384000, .i32⟩
  | 72 => ⟨S384000x1, .i32⟩
  | 73 => ⟨S12000x32, .f32⟩
  | 74 => ⟨S12000, .f32⟩
  | 75 => ⟨S12000x1, .f32⟩
  | 76 => ⟨S12000x32, .f32⟩
  | 77 => ⟨S12000x32, .f32⟩
  | 78 => ⟨S12000x32, .f32⟩
  | 79 => ⟨S1x32, .f32⟩
  | 80 => ⟨S12000x32, .f32⟩
  | 81 => ⟨S12000x32, .f32⟩
  | 82 => ⟨S_, .f32⟩
  | 83 => ⟨S12000x32, .f32⟩
  | 84 => ⟨S12000x32, .f32⟩
  | 85 => ⟨S12000x32, .f32⟩
  | 86 => ⟨S_, .i32⟩
  | 87 => ⟨S384000, .i32⟩
  | 88 => ⟨S384000, .i1⟩
  | 89 => ⟨S_, .i32⟩
  | 90 => ⟨S384000, .i32⟩
  | 91 => ⟨S384000, .i32⟩
  | 92 => ⟨S384000, .i32⟩
  | 93 => ⟨S384000x1, .i32⟩
  | 94 => ⟨S384000, .f32⟩
  | 95 => ⟨S_, .i32⟩
  | 96 => ⟨S384000, .i32⟩
  | 97 => ⟨S384000, .i1⟩
  | 98 => ⟨S_, .i32⟩
  | 99 => ⟨S384000, .i32⟩
  | 100 => ⟨S384000, .i32⟩
  | 101 => ⟨S384000, .i32⟩
  | 102 => ⟨S384000x1, .i32⟩
  | 103 => ⟨S384000, .f32⟩
  | 104 => ⟨S384000, .f32⟩
  | 105 => ⟨S384000x1, .f32⟩
  | 106 => ⟨S_, .f32⟩
  | 107 => ⟨S12000x32, .f32⟩
  | 108 => ⟨S_, .i32⟩
  | 109 => ⟨S384000, .i32⟩
  | 110 => ⟨S384000, .i1⟩
  | 111 => ⟨S_, .i32⟩
  | 112 => ⟨S384000, .i32⟩
  | 113 => ⟨S384000, .i32⟩
  | 114 => ⟨S384000, .i32⟩
  | 115 => ⟨S384000x1, .i32⟩
  | 116 => ⟨S384000x32, .f32⟩
  | 117 => ⟨S384000x32, .f32⟩
  | 118 => ⟨S384000x32, .f32⟩
  | 119 => ⟨S_, .i32⟩
  | 120 => ⟨S384000, .i32⟩
  | 121 => ⟨S384000, .i1⟩
  | 122 => ⟨S_, .i32⟩
  | 123 => ⟨S384000, .i32⟩
  | 124 => ⟨S384000, .i32⟩
  | 125 => ⟨S384000, .i32⟩
  | 126 => ⟨S384000x1, .i32⟩
  | 127 => ⟨S12000x32, .f32⟩
  | _ => ⟨S12000x128, .f32⟩

abbrev hbmTy0_1 (i : Nat) : BufTy := match i % 128 with
  | 0 => ⟨S12000, .f32⟩
  | 1 => ⟨S12000x1, .f32⟩
  | 2 => ⟨S12000x32, .f32⟩
  | 3 => ⟨S12000x32, .f32⟩
  | 4 => ⟨S12000x32, .f32⟩
  | 5 => ⟨S1x32, .f32⟩
  | 6 => ⟨S12000x32, .f32⟩
  | 7 => ⟨S12000x32, .f32⟩
  | 8 => ⟨S_, .f32⟩
  | 9 => ⟨S12000x32, .f32⟩
  | 10 => ⟨S12000x32, .f32⟩
  | 11 => ⟨S12000x10, .f32⟩
  | 12 => ⟨S1x10, .f32⟩
  | 13 => ⟨S12000x10, .f32⟩
  | 14 => ⟨S12000x10, .f32⟩
  | 15 => ⟨S_, .f32⟩
  | 16 => ⟨S12000, .f32⟩
  | 17 => ⟨S_, .f32⟩
  | 18 => ⟨S12000, .f32⟩
  | 19 => ⟨S12000, .f32⟩
  | 20 => ⟨S12000x1, .f32⟩
  | 21 => ⟨S12000x10, .f32⟩
  | 22 => ⟨S12000x10, .f32⟩
  | 23 => ⟨S12000x10, .f32⟩
  | 24 => ⟨S_, .f32⟩
  | 25 => ⟨S12000, .f32⟩
  | 26 => ⟨S12000x1, .f32⟩
  | 27 => ⟨S12000x10, .f32⟩
  | 28 => ⟨S12000x10, .f32⟩
  | 29 => ⟨S_, .f32⟩
  | 30 => ⟨S12000x12000, .f32⟩
  | 31 => ⟨S_, .i32⟩
  | 32 => ⟨S384000, .i32⟩
  | 33 => ⟨S384000, .i1⟩
  | 34 => ⟨S_, .i32⟩
  | 35 => ⟨S384000, .i32⟩
  | 36 => ⟨S384000, .i32⟩
  | 37 => ⟨S384000, .i32⟩
  | 38 => ⟨S_, .i32⟩
  | 39 => ⟨S384000, .i32⟩
  | 40 => ⟨S384000, .i1⟩
  | 41 => ⟨S_, .i32⟩
  | 42 => ⟨S384000, .i32⟩
  | 43 => ⟨S384000, .i32⟩
  | 44 => ⟨S384000, .i32⟩
  | 45 => ⟨S384000x1, .i32⟩
  | 46 => ⟨S384000x1, .i32⟩
  | 47 => ⟨S384000x2, .i32⟩
  | 48 => ⟨S_, .f32⟩
  | 49 => ⟨S384000, .f32⟩
  | 50 => ⟨S12000x12000, .f32⟩
  | 51 => ⟨S12000x10, .f32⟩
  | 52 => ⟨S12000x10, .f32⟩
  | 53 => ⟨S_, .f32⟩
  | 54 => ⟨S_, .f32⟩
  | 55 => ⟨S_, .f32⟩
  | 56 => ⟨S12000, .f32⟩
  | 57 => ⟨S12000x1, .f32⟩
  | 58 => ⟨S12000x10, .f32⟩
  | 59 => ⟨S12000x10, .f32⟩
  | 60 => ⟨S12000x10, .f32⟩
  | 61 => ⟨S_, .f32⟩
  | 62 => ⟨S_, .f32⟩
  | 63 => ⟨S_, .f32⟩
  | 64 => ⟨S_, .f32⟩
  | 65 => ⟨S10x12000, .f32⟩
  | 66 => ⟨S10x10, .f32⟩
  | 67 => ⟨S10x10, .i32⟩
  | 68 => ⟨S10x10, .i32⟩
  | 69 => ⟨S_, .i32⟩
  | 70 => ⟨S10x10, .i32⟩
  | 71 => ⟨S10x10, .i32⟩
  | 72 => ⟨S10x10, .i1⟩
  | 73 => ⟨S10x10, .f32⟩
  | 74 => ⟨S_, .f32⟩
  | 75 => ⟨S_, .f32⟩
  | 76 => ⟨S10x10, .f32⟩
  | 77 => ⟨S10x10, .f32⟩
  | 78 => ⟨S10x10, .f32⟩
  | 79 => ⟨S_, .f32⟩
  | 80 => ⟨S_, .f32⟩
  | 81 => ⟨S_, .f32⟩
  | 82 => ⟨S10x10, .f32⟩
  | 83 => ⟨S10x10, .f32⟩
  | 84 => ⟨S10x10, .f32⟩
  | 85 => ⟨S10x10, .f32⟩
  | 86 => ⟨S_, .f32⟩
  | 87 => ⟨S_, .f32⟩
  | 88 => ⟨S_, .f32⟩
  | 89 => ⟨S12000x7, .f32⟩
  | 90 => ⟨S1x7, .f32⟩
  | 91 => ⟨S12000x7, .f32⟩
  | 92 => ⟨S12000x7, .f32⟩
  | 93 => ⟨S_, .f32⟩
  | 94 => ⟨S12000, .f32⟩
  | 95 => ⟨S_, .f32⟩
  | 96 => ⟨S12000, .f32⟩
  | 97 => ⟨S12000, .f32⟩
  | 98 => ⟨S12000x1, .f32⟩
  | 99 => ⟨S12000x7, .f32⟩
  | 100 => ⟨S12000x7, .f32⟩
  | 101 => ⟨S12000x7, .f32⟩
  | 102 => ⟨S_, .f32⟩
  | 103 => ⟨S12000, .f32⟩
  | 104 => ⟨S12000x1, .f32⟩
  | 105 => ⟨S12000x1, .f32⟩
  | 106 => ⟨S12000x7, .f32⟩
  | 107 => ⟨S12000x7, .f32⟩
  | _ => ⟨S12000x128, .f32⟩

abbrev hbmTy (i : Nat) : BufTy := match i / 128 with
  | 0 => hbmTy0_0 i
  | 1 => hbmTy0_1 i
  | _ => ⟨S12000x128, .f32⟩

abbrev bufTy : (tb : Table) → Fin (tcTables nBuf tb) → BufTy
  | .hbm, ⟨i, _⟩ => hbmTy i
  | _, _ => ⟨S12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_c_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call0_cst : Ref sig .tc := ⟨.hbm, 82, rfl⟩
abbrev main_call0_v0 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_c_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call1_cst : Ref sig .tc := ⟨.hbm, 136, rfl⟩
abbrev main_call1_v0 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_21 : Ref sig .tc := ⟨.hbm, 143, rfl⟩
abbrev main_v106 : Ref sig .tc := ⟨.hbm, 144, rfl⟩
abbrev main_cst_22 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_23 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_c_25 : Ref sig .tc := ⟨.hbm, 159, rfl⟩
abbrev main_v118 : Ref sig .tc := ⟨.hbm, 160, rfl⟩
abbrev main_v119 : Ref sig .tc := ⟨.hbm, 161, rfl⟩
abbrev main_c_26 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_27 : Ref sig .tc := ⟨.hbm, 166, rfl⟩
abbrev main_v123 : Ref sig .tc := ⟨.hbm, 167, rfl⟩
abbrev main_v124 : Ref sig .tc := ⟨.hbm, 168, rfl⟩
abbrev main_c_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_29 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_30 : Ref sig .tc := ⟨.hbm, 181, rfl⟩
abbrev main_v135 : Ref sig .tc := ⟨.hbm, 182, rfl⟩
abbrev main_cst_31 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_32 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_c_33 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_34 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_call2_v0 : Ref sig .tc := ⟨.hbm, 206, rfl⟩
abbrev main_call2_cst : Ref sig .tc := ⟨.hbm, 207, rfl⟩
abbrev main_call2_v1 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_call3_v0 : Ref sig .tc := ⟨.hbm, 213, rfl⟩
abbrev main_call3_cst : Ref sig .tc := ⟨.hbm, 214, rfl⟩
abbrev main_call3_v1 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_call4_cst : Ref sig .tc := ⟨.hbm, 221, rfl⟩
abbrev main_call4_v0 : Ref sig .tc := ⟨.hbm, 222, rfl⟩
abbrev main_call4_cst_0 : Ref sig .tc := ⟨.hbm, 223, rfl⟩
abbrev main_call4_v1 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_call4_v5 : Ref sig .tc := ⟨.hbm, 228, rfl⟩
abbrev main_call4_v6 : Ref sig .tc := ⟨.hbm, 229, rfl⟩
abbrev main_call4_cst_1 : Ref sig .tc := ⟨.hbm, 230, rfl⟩
abbrev main_call4_v7 : Ref sig .tc := ⟨.hbm, 231, rfl⟩
abbrev main_call4_v8 : Ref sig .tc := ⟨.hbm, 232, rfl⟩
abbrev main_call4_v9 : Ref sig .tc := ⟨.hbm, 233, rfl⟩
abbrev main_call4_v10 : Ref sig .tc := ⟨.hbm, 234, rfl⟩
abbrev main_v164 : Ref sig .tc := ⟨.hbm, 235, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  slices_S2x384000_S1x384000_1_0 : S2x384000.Slices ![1, 0] S1x384000
  bcast_S_S12000 : S_.BroadcastsInDim S12000 (![] : Fin 0 → Fin S12000.rank)
  bcast_S_S384000 : S_.BroadcastsInDim S384000 (![] : Fin 0 → Fin S384000.rank)
  bcast_S384000_S384000x1_0 : S384000.BroadcastsInDim S384000x1 (![0] : Fin 1 → Fin S384000x1.rank)
  bcast_S_S12000x32 : S_.BroadcastsInDim S12000x32 (![] : Fin 0 → Fin S12000x32.rank)
  bcast_S384000x1_S384000x32_0_1 : S384000x1.BroadcastsInDim S384000x32 (![0, 1] : Fin 2 → Fin S384000x32.rank)
  bcast_S12000_S12000x1_0 : S12000.BroadcastsInDim S12000x1 (![0] : Fin 1 → Fin S12000x1.rank)
  bcast_S12000x1_S12000x32_0_1 : S12000x1.BroadcastsInDim S12000x32 (![0, 1] : Fin 2 → Fin S12000x32.rank)
  bcast_S32_S1x32_1 : S32.BroadcastsInDim S1x32 (![1] : Fin 1 → Fin S1x32.rank)
  bcast_S1x32_S12000x32_0_1 : S1x32.BroadcastsInDim S12000x32 (![0, 1] : Fin 2 → Fin S12000x32.rank)
  bcast_S10_S1x10_1 : S10.BroadcastsInDim S1x10 (![1] : Fin 1 → Fin S1x10.rank)
  bcast_S1x10_S12000x10_0_1 : S1x10.BroadcastsInDim S12000x10 (![0, 1] : Fin 2 → Fin S12000x10.rank)
  reducesTo_S12000x10_S12000_d1 : S12000x10.ReducesTo [1] S12000
  h_S_ : 0 < S_.numel
  bcast_S12000x1_S12000x10_0_1 : S12000x1.BroadcastsInDim S12000x10 (![0, 1] : Fin 2 → Fin S12000x10.rank)
  bcast_S_S12000x12000 : S_.BroadcastsInDim S12000x12000 (![] : Fin 0 → Fin S12000x12000.rank)
  concatenates_S384000x1_S384000x1_S384000x2_d1 : Shape.Concatenates [S384000x1, S384000x1] S384000x2 1
  reducesTo_S12000x10_S_d0_1 : S12000x10.ReducesTo [0, 1] S_
  reducesTo_S12000x12000_S12000_d1 : S12000x12000.ReducesTo [1] S12000
  transposes_S12000x10_S10x12000_1_0 : S12000x10.Transposes [1, 0] S10x12000
  bcast_S_S10x10 : S_.BroadcastsInDim S10x10 (![] : Fin 0 → Fin S10x10.rank)
  reducesTo_S10x10_S_d0_1 : S10x10.ReducesTo [0, 1] S_
  bcast_S7_S1x7_1 : S7.BroadcastsInDim S1x7 (![1] : Fin 1 → Fin S1x7.rank)
  bcast_S1x7_S12000x7_0_1 : S1x7.BroadcastsInDim S12000x7 (![0, 1] : Fin 2 → Fin S12000x7.rank)
  reducesTo_S12000x7_S12000_d1 : S12000x7.ReducesTo [1] S12000
  bcast_S12000x1_S12000x7_0_1 : S12000x1.BroadcastsInDim S12000x7 (![0, 1] : Fin 2 → Fin S12000x7.rank)
  scatter_S12000_S384000x1_S384000_n_0_0_1_wf : ScatterDims.WF S12000 S384000x1 S384000 [] [0] [0] 1
  dot_S12000x128_S128x32_S12000x32_1_0_0_1_n_n_wf : DotDims.WF S12000x128 S128x32 S12000x32 [1] [0] [0] [1] [] []
  gather_S12000_S384000x1_S384000_n_0_n_n_0_1_1_wf : GatherDims.WF S12000 S384000x1 S384000 [] [0] [] [0] [] 1 ![1]
  gather_S12000x32_S384000x1_S384000x32_1_0_n_n_0_1_132_wf : GatherDims.WF S12000x32 S384000x1 S384000x32 [1] [0] [] [0] [] 1 ![1, 32]
  scatter_S12000x32_S384000x1_S384000x32_1_0_0_1_wf : ScatterDims.WF S12000x32 S384000x1 S384000x32 [1] [0] [0] 1
  dot_S12000x32_S32x32_S12000x32_1_0_0_1_n_n_wf : DotDims.WF S12000x32 S32x32 S12000x32 [1] [0] [0] [1] [] []
  dot_S12000x32_S32x10_S12000x10_1_0_0_1_n_n_wf : DotDims.WF S12000x32 S32x10 S12000x10 [1] [0] [0] [1] [] []
  scatter_S12000x12000_S384000x2_S384000_n_01_01_1_wf : ScatterDims.WF S12000x12000 S384000x2 S384000 [] [0, 1] [0, 1] 1
  dot_S12000x12000_S12000x10_S12000x10_1_0_0_1_n_n_wf : DotDims.WF S12000x12000 S12000x10 S12000x10 [1] [0] [0] [1] [] []
  dot_S10x12000_S12000x10_S10x10_1_0_0_1_n_n_wf : DotDims.WF S10x12000 S12000x10 S10x10 [1] [0] [0] [1] [] []
  dot_S12000x32_S32x7_S12000x7_1_0_0_1_n_n_wf : DotDims.WF S12000x32 S32x7 S12000x7 [1] [0] [0] [1] [] []

variable [Facts₀]

def scatter_S12000_S384000x1_S384000_n_0_0_1 : ScatterDims S12000 S384000x1 S384000 where
  updateWindowDims := []
  insertedWindowDims := [0]
  scatterDimsToOperandDims := [0]
  indexVectorDim := 1
  wf := scatter_S12000_S384000x1_S384000_n_0_0_1_wf
def dot_S12000x128_S128x32_S12000x32_1_0_0_1_n_n : DotDims S12000x128 S128x32 S12000x32 where
  lhsContracting := [1]
  rhsContracting := [0]
  lhsNonContracting := [0]
  rhsNonContracting := [1]
  lhsBatch := []
  rhsBatch := []
  wf := dot_S12000x128_S128x32_S12000x32_1_0_0_1_n_n_wf
def gather_S12000_S384000x1_S384000_n_0_n_n_0_1_1 : GatherDims S12000 S384000x1 S384000 where
  offsetDims := []
  collapsedSliceDims := [0]
  operandBatchingDims := []
  startIndicesBatchingDims := []
  startIndexMap := [0]
  indexVectorDim := 1
  sliceSizes := ![1]
  wf := gather_S12000_S384000x1_S384000_n_0_n_n_0_1_1_wf
def gather_S12000x32_S384000x1_S384000x32_1_0_n_n_0_1_132 : GatherDims S12000x32 S384000x1 S384000x32 where
  offsetDims := [1]
  collapsedSliceDims := [0]
  operandBatchingDims := []
  startIndicesBatchingDims := []
  startIndexMap := [0]
  indexVectorDim := 1
  sliceSizes := ![1, 32]
  wf := gather_S12000x32_S384000x1_S384000x32_1_0_n_n_0_1_132_wf
def scatter_S12000x32_S384000x1_S384000x32_1_0_0_1 : ScatterDims S12000x32 S384000x1 S384000x32 where
  updateWindowDims := [1]
  insertedWindowDims := [0]
  scatterDimsToOperandDims := [0]
  indexVectorDim := 1
  wf := scatter_S12000x32_S384000x1_S384000x32_1_0_0_1_wf
def dot_S12000x32_S32x32_S12000x32_1_0_0_1_n_n : DotDims S12000x32 S32x32 S12000x32 where
  lhsContracting := [1]
  rhsContracting := [0]
  lhsNonContracting := [0]
  rhsNonContracting := [1]
  lhsBatch := []
  rhsBatch := []
  wf := dot_S12000x32_S32x32_S12000x32_1_0_0_1_n_n_wf
def dot_S12000x32_S32x10_S12000x10_1_0_0_1_n_n : DotDims S12000x32 S32x10 S12000x10 where
  lhsContracting := [1]
  rhsContracting := [0]
  lhsNonContracting := [0]
  rhsNonContracting := [1]
  lhsBatch := []
  rhsBatch := []
  wf := dot_S12000x32_S32x10_S12000x10_1_0_0_1_n_n_wf
def scatter_S12000x12000_S384000x2_S384000_n_01_01_1 : ScatterDims S12000x12000 S384000x2 S384000 where
  updateWindowDims := []
  insertedWindowDims := [0, 1]
  scatterDimsToOperandDims := [0, 1]
  indexVectorDim := 1
  wf := scatter_S12000x12000_S384000x2_S384000_n_01_01_1_wf
def dot_S12000x12000_S12000x10_S12000x10_1_0_0_1_n_n : DotDims S12000x12000 S12000x10 S12000x10 where
  lhsContracting := [1]
  rhsContracting := [0]
  lhsNonContracting := [0]
  rhsNonContracting := [1]
  lhsBatch := []
  rhsBatch := []
  wf := dot_S12000x12000_S12000x10_S12000x10_1_0_0_1_n_n_wf
def dot_S10x12000_S12000x10_S10x10_1_0_0_1_n_n : DotDims S10x12000 S12000x10 S10x10 where
  lhsContracting := [1]
  rhsContracting := [0]
  lhsNonContracting := [0]
  rhsNonContracting := [1]
  lhsBatch := []
  rhsBatch := []
  wf := dot_S10x12000_S12000x10_S10x10_1_0_0_1_n_n_wf
def dot_S12000x32_S32x7_S12000x7_1_0_0_1_n_n : DotDims S12000x32 S32x7 S12000x7 where
  lhsContracting := [1]
  rhsContracting := [0]
  lhsNonContracting := [0]
  rhsNonContracting := [1]
  lhsBatch := []
  rhsBatch := []
  wf := dot_S12000x32_S32x7_S12000x7_1_0_0_1_n_n_wf

class Facts : Prop extends Facts₀ where

variable [Facts]
-- ==== Proof.K.R0Body.lean ====
import proofs.«421346_j24266565222650_2_alg».proof.Proof.Gen.Kernel.Launch
import proofs.«421346_j24266565222650_2_alg».proof.Proof.Gen.Kernel.Skeleton
import proofs.«421346_j24266565222650_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond0_0 (i : grid0.Coords) : Prop :=
  (Scalar.cmpi .ne (Scalar.extui (Scalar.cmpi .eq (BitVec.ofNat 32 (i 1).val) 0#32)) 0#32) = 1#1
/-- It holds exactly at the points with `t % 3 = 0`. -/
theorem hcond0_0 : ∀ t : Fin cfg0.N, cond0_0 (grid0.coords t) ↔ t.val % 3 = 0 :=
  (by decide +kernel : ∀ t : Fin grid0.N, cond0_0 (grid0.coords t) ↔ t.val % 3 = 0)

/-- The second conditional's test: `k = 2`. -/
abbrev cond0_1 (i : grid0.Coords) : Prop := k0_cond2 i = 1#1
/-- It holds exactly at the points with `t % 3 = 2`. -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

/-- The two input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step nothing is stored into the output block: the window is idle there, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last reduction step the output block is stored. -/
theorem liveAt0_2 : ∀ t : Fin cfg0.N, cond0_1 (grid0.coords t) → cfg0.idle 2 (grid0.coords t) = false := by decide +kernel

/-! ## The memrefs the body is called with -/

/-- Each window's current staging memref at point `t`, and that it is a whole buffer. -/
abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .f32 := win0_2.stage (cfg0.slots t 2)
abbrev hs0_2 (t : Fin cfg0.N) : (ms0_2 t).IsWhole := hstage0_2 ((cfg0.slots t 2).cast nbuf0_2)
/-- The accumulator: a whole scratch buffer of the kernel's own, the same at every point. -/
abbrev scM0_0 : Memref sig .tc .vmem S2048x32 .f32 := Memref.whole cc0_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, fun xi E K => ?run⟩
  case run =>
    simp only [cc0__spmm_kernel_eq_skeleton]; unfold cc0__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, fun xi E K => ?run⟩
  case run =>
    simp only [cc0__spmm_kernel_eq_skeleton]; unfold cc0__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    Σ' (L2 : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, ?_, fun E K => ?run⟩
  case run =>
    simp only [cc0__spmm_kernel_eq_skeleton]; unfold cc0__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_0 : (![0, 0] : Fin 2 → ℕ) = fun _ => 0 := by funext a; fin_cases a <;> rfl

/-- The first step's two stores into the accumulator cover it. -/
theorem scover0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) (y : S2048x32.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x32.size (by sl_kernel_rfl) y

/-- They leave the product of the blocks added to the zero splat: the later store covers, and the load between the
    two reads the splat back. -/
theorem canon0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) :
    View.canon (kernelRun0_A c i arg2 harg2 arg3 harg3 arg4 harg4 arg5 harg5 hc0 hc1 x0 x1).1 = k0_pay2 x0 x1 (k0_pay1 (F := F)) := by
  unfold kernelRun0_A; dsimp only; sl_unfold_words
  rw [View.canon_cons_unit_zero (S := S2048x32) off00_0]
  simp only [View.readAt_eq_ld, harg2.read_unread, harg3.read_unread, View.ld_unit_zero (S := S2048x4096) off00_0,
    View.ld_unit_zero (S := S4096x32) off00_0, View.readCov_unit_zero (S := S2048x32) _ off00_0]

/-- A middle step's one store into the accumulator covers it. -/
theorem scover0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) (y : S2048x32.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S2048x32.size (by sl_kernel_rfl) y

/-- It leaves the product of the blocks added to what the accumulator held. -/
theorem canon0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) :
    View.canon (kernelRun0_B c i arg2 harg2 arg3 harg3 arg4 harg4 arg5 harg5 hc0 hc1 x0 x1 xs).1 = k0_pay2 x0 x1 xs := by
  unfold kernelRun0_B; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0]

/-- The last step's store into the accumulator covers it, -/
theorem scover0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) (y : S2048x32.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S2048x32.size (by sl_kernel_rfl) y

/-- and its store into the output block covers that. -/
theorem cover0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) (y : S2048x32.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S2048x32.size (by sl_kernel_rfl) y

/-- The accumulator ends with the product added to what it held; -/
theorem scanon0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    View.canon (kernelRun0_C c i arg2 harg2 arg3 harg3 arg4 harg4 arg5 harg5 hc0 hc1 x0 x1 xs).2.1 = k0_pay2 x0 x1 xs := by
  unfold kernelRun0_C; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0]

/-- and the output block with the same: the accumulator read back after its store. -/
theorem canon0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    View.canon (kernelRun0_C c i arg2 harg2 arg3 harg3 arg4 harg4 arg5 harg5 hc0 hc1 x0 x1 xs).1 = k0_pay2 x0 x1 xs := by
  unfold kernelRun0_C; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0, View.readCov_unit_zero (S := S2048x32) _ off00_0]

variable (V : (c : Dev nD) → (b : Ref sig .tc) → Buf (Elt F) ((c : Thread nD τ).loc b))

/-! ## The windows' blocks -/

/-- Window w's block of region 0 at point t, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two input blocks at their literal vector types. -/
abbrev lhs0 (c : Dev nD) (t : Fin cfg0.N) : Vec F S2048x4096 .bf16 := iblk0 V c 0 t
abbrev rhs0 (c : Dev nD) (t : Fin cfg0.N) : Vec F S4096x32 .bf16 := iblk0 V c 1 t

/-- An input window's current buffer holds its block at every point, whether the pipeline fetched it there or
    the block index did not move: for any proof data with the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- THE ACCUMULATOR after the body at position `n`: at the first step of a row block (`n % 3 = 0`) the zero
    splat plus the product of the point's blocks; at a later step what the step before left plus the product. -/
def acc0 (c : Dev nD) : (n : ℕ) → n < cfg0.N → Vec F S2048x32 .f32
  | 0, hn => k0_pay2 (lhs0 V c ⟨0, hn⟩) (rhs0 V c ⟨0, hn⟩) (k0_pay1 (F := F))
  | n + 1, hn =>
    if (n + 1) % 3 = 0 then k0_pay2 (lhs0 V c ⟨n + 1, hn⟩) (rhs0 V c ⟨n + 1, hn⟩) (k0_pay1 (F := F))
    else k0_pay2 (lhs0 V c ⟨n + 1, hn⟩) (rhs0 V c ⟨n + 1, hn⟩) (acc0 c n (Nat.lt_of_succ_lt hn))

/-- (output window 2's staging buffer, the accumulator scratch) after the body at position n. The output block
    is stored only at the last step of a row block, with the accumulator; at the other points, where the window
    is idle and nothing reads this component, it is given the same value. -/
def outsAt0 (c : Dev nD) (n : ℕ) (hn : n < cfg0.N) : Vec F S2048x32 .f32 × Vec F S2048x32 .f32 :=
  (acc0 V c n hn, acc0 V c n hn)

theorem acc0_A (c : Dev nD) (t : Fin cfg0.N) (h : t.val % 3 = 0) :
    acc0 V c t.val t.isLt = k0_pay2 (lhs0 V c t) (rhs0 V c t) (k0_pay1 (F := F)) := by
  obtain ⟨n, hn⟩ := t
  cases n with
  | zero => rfl
  | succ n => exact (if_pos h).trans rfl

theorem acc0_B (c : Dev nD) (t : Fin cfg0.N) (h : t.val % 3 ≠ 0) :
    acc0 V c t.val t.isLt = k0_pay2 (lhs0 V c t) (rhs0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS0 (c : Dev nD) : sProp 𝕄 :=
  Pipeline.scopedRestBut (Ix := Unit) (Name := ℕ) (U := UR sig nD τ) (Lvl := ℕ) (Val := Elt F) spec0 c [cc0_scratch0]

/-- The region's invariant as the launch hands it over: the accumulator at some contents, the other scoped
    buffers, the generator register at some state. -/
theorem PhiA0_eq (c : Dev nD) :
    (Pipeline.ΦA spec0 c : sProp 𝕄)
      = iprop(iprop((∃ d, owns (c : Thread nD τ) scM0_0 fullShare d) ∗ othersS0 c) ∗ (∃ r, prngReg c r)) := by
  unfold Pipeline.ΦA othersS0
  rw [Pipeline.scopedRest_split_of_list spec0 c [cc0_scratch0] (by decide) (by decide)]
  simp only [scM0_0, owns_whole, bigSepL_singleton]; try rfl

/-- The invariant before position `n`: before the first point what the launch hands over; afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ othersS0 c) ∗ (∃ r, prngReg c r))

theorem PhiS0_succ (c : Dev nD) (n : ℕ) (hn : n < cfg0.N) :
    PhiS0 V c (n + 1) hn = iprop(iprop(owns (c : Thread nD τ) scM0_0 fullShare (acc0 V c n hn) ∗ othersS0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ othersS0 c) ∗ (∃ r, prngReg c r)) := by
  cases n with
  | zero => exact absurd rfl hz
  | succ n => rfl

/-- At any position the invariant holds the accumulator at SOME contents. -/
theorem PhiS0_any (c : Dev nD) (n : ℕ) (h : n ≤ cfg0.N) :
    PhiS0 V c n h ⊢ iprop(iprop((∃ d, owns (c : Thread nD τ) scM0_0 fullShare d) ∗ othersS0 c) ∗ (∃ r, prngReg c r)) := by
  cases n with
  | zero => rw [show PhiS0 V c 0 h = Pipeline.ΦA spec0 c from rfl, PhiA0_eq]
  | succ n =>
    rw [PhiS0_succ]
    iintro ⟨⟨HS, Hr⟩, Hg⟩
    isplitl [HS Hr]
    · isplitl [HS]
      · iexists _; iexact HS
      iexact Hr
    iexact Hg

/-! ## The proof data -/

/-- The proof data of region 0 on core `c`: the arrays as the region finds them; after the body each input's
    buffer at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [PhiS0_castSucc V c t]
  have hN : t.val < 18 := lt_of_lt_of_eq t.isLt (show cfg0.N = 18 from N_0)
  by_cases h0 : t.val % 3 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_A V c t h0]
    refine BIBase.Entails.trans (sep_mono_left (PhiS0_any V c _ _)) ?_
    iintro ⟨⟨⟨HS, Hr⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) hc0 hc1 (lhs0 V c t) (rhs0 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover0_A c (grid0.coords t) (ms0_0 t) (hs0_0 t) (ms0_1 t) (hs0_1 t) (ms0_2 t) (hs0_2 t) scM0_0 (Memref.isWhole_whole _) hc0 hc1 (lhs0 V c t) (rhs0 V c t))).trans
            (canon0_A c (grid0.coords t) (ms0_0 t) (hs0_0 t) (ms0_1 t) (hs0_1 t) (ms0_2 t) (hs0_2 t) scM0_0 (Memref.isWhole_whole _) hc0 hc1 (lhs0 V c t) (rhs0 V c t))
        iexact Hr
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    have hz : t.val ≠ 0 := fun h => h0 (by rw [h])
    rw [PhiS0_pos V c _ _ hz, acc0_B V c t h0]
    by_cases h1 : t.val % 3 = 2
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (outsAt0 V c t.val t.isLt).1 = acc0 V c t.val t.isLt from rfl, acc0_B V c t h0]
      iintro ⟨⟨⟨HS, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
              (scanon0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
        (canon0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
              (canon0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends, shares, tallies -/

/-- Before the first point the invariant is what the launch hands over. -/
theorem Phi0_first (c : Dev nD) : (dat0 V c).Φ 0 = Pipeline.ΦA spec0 c :=
  (show (dat0 V c).Φ 0 = PhiS0 V c 0 (Nat.zero_le _) from rfl).trans rfl

/-- After the last point it gives that back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

theorem share0 (c : Dev nD) (w : Fin cfg0.W) : (dat0 V c).q w = fullShare := by dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-! ## The values, generic in the float family -/

/-- What the accumulator holds after each point, generic in F: at the first point of a row block (k = 0) the
    zero splat plus the product of the blocks; afterwards the previous contents plus the product. -/
theorem acc0_first (c : Dev nD) (t : Fin cfg0.N) (h : t.val % 3 = 0) :
    (outsAt0 V c t.val t.isLt).2 = k0_pay2 (lhs0 V c t) (rhs0 V c t) (k0_pay1 (F := F)) := acc0_A V c t h
theorem acc0_next (c : Dev nD) (t : Fin cfg0.N) (h : t.val % 3 ≠ 0) :
    (outsAt0 V c t.val t.isLt).2 = k0_pay2 (lhs0 V c t) (rhs0 V c t) (outsAt0 V c (t.val - 1) (Nat.lt_of_le_of_lt (Nat.sub_le _ _) t.isLt)).2 := acc0_B V c t h
/-- At the last point of a row block (k = 2) the output window's buffer is the accumulator. -/
theorem out0_last (c : Dev nD) (t : Fin cfg0.N) (h : t.val % 3 = 2) :
    (outsAt0 V c t.val t.isLt).1 = (outsAt0 V c t.val t.isLt).2 := rfl

end Cert.Kernel.Hand

end
-- ==== Proof.K.R1Body.lean ====
import proofs.«421346_j24266565222650_2_alg».proof.Proof.Gen.Kernel.Launch
import proofs.«421346_j24266565222650_2_alg».proof.Proof.Gen.Kernel.Skeleton
import proofs.«421346_j24266565222650_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond1_0 (i : grid1.Coords) : Prop :=
  (Scalar.cmpi .ne (Scalar.extui (Scalar.cmpi .eq (BitVec.ofNat 32 (i 1).val) 0#32)) 0#32) = 1#1
/-- It holds exactly at the points with `t % 3 = 0`. -/
theorem hcond1_0 : ∀ t : Fin cfg1.N, cond1_0 (grid1.coords t) ↔ t.val % 3 = 0 :=
  (by decide +kernel : ∀ t : Fin grid1.N, cond1_0 (grid1.coords t) ↔ t.val % 3 = 0)

/-- The second conditional's test: `k = 2`. -/
abbrev cond1_1 (i : grid1.Coords) : Prop := k1_cond2 i = 1#1
/-- It holds exactly at the points with `t % 3 = 2`. -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

/-- The two input windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step nothing is stored into the output block: the window is idle there, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- At the last reduction step the output block is stored. -/
theorem liveAt1_2 : ∀ t : Fin cfg1.N, cond1_1 (grid1.coords t) → cfg1.idle 2 (grid1.coords t) = false := by decide +kernel

/-! ## The memrefs the body is called with -/

/-- Each window's current staging memref at point `t`, and that it is a whole buffer. -/
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
/-- The accumulator: a whole scratch buffer of the kernel's own, the same at every point. -/
abbrev scM1_0 : Memref sig .tc .vmem S2048x32 .f32 := Memref.whole cc1_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi E K => ?run⟩
  case run =>
    simp only [cc1__spmm_kernel_eq_skeleton]; unfold cc1__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi E K => ?run⟩
  case run =>
    simp only [cc1__spmm_kernel_eq_skeleton]; unfold cc1__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    Σ' (L2 : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_1 : (![0, 0] : Fin 2 → ℕ) = fun _ => 0 := by funext a; fin_cases a <;> rfl

/-- The first step's two stores into the accumulator cover it. -/
theorem scover1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) (y : S2048x32.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x32.size (by sl_kernel_rfl) y

/-- They leave the product of the blocks added to the zero splat: the later store covers, and the load between the
    two reads the splat back. -/
theorem canon1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) :
    View.canon (kernelRun1_A c i arg2 harg2 arg3 harg3 arg4 harg4 arg5 harg5 hc0 hc1 x0 x1).1 = k1_pay2 x0 x1 (k1_pay1 (F := F)) := by
  unfold kernelRun1_A; dsimp only; sl_unfold_words
  rw [View.canon_cons_unit_zero (S := S2048x32) off00_1]
  simp only [View.readAt_eq_ld, harg2.read_unread, harg3.read_unread, View.ld_unit_zero (S := S2048x4096) off00_1,
    View.ld_unit_zero (S := S4096x32) off00_1, View.readCov_unit_zero (S := S2048x32) _ off00_1]

/-- A middle step's one store into the accumulator covers it. -/
theorem scover1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) (y : S2048x32.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S2048x32.size (by sl_kernel_rfl) y

/-- It leaves the product of the blocks added to what the accumulator held. -/
theorem canon1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) :
    View.canon (kernelRun1_B c i arg2 harg2 arg3 harg3 arg4 harg4 arg5 harg5 hc0 hc1 x0 x1 xs).1 = k1_pay2 x0 x1 xs := by
  unfold kernelRun1_B; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1]

/-- The last step's store into the accumulator covers it, -/
theorem scover1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) (y : S2048x32.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x32.size (by sl_kernel_rfl) y

/-- and its store into the output block covers that. -/
theorem cover1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) (y : S2048x32.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x32.size (by sl_kernel_rfl) y

/-- The accumulator ends with the product added to what it held; -/
theorem scanon1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    View.canon (kernelRun1_C c i arg2 harg2 arg3 harg3 arg4 harg4 arg5 harg5 hc0 hc1 x0 x1 xs).2.1 = k1_pay2 x0 x1 xs := by
  unfold kernelRun1_C; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1]

/-- and the output block with the same: the accumulator read back after its store. -/
theorem canon1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    View.canon (kernelRun1_C c i arg2 harg2 arg3 harg3 arg4 harg4 arg5 harg5 hc0 hc1 x0 x1 xs).1 = k1_pay2 x0 x1 xs := by
  unfold kernelRun1_C; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1, View.readCov_unit_zero (S := S2048x32) _ off00_1]

variable (V : (c : Dev nD) → (b : Ref sig .tc) → Buf (Elt F) ((c : Thread nD τ).loc b))

/-! ## The windows' blocks -/

/-- Window w's block of region 1 at point t, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two input blocks at their literal vector types. -/
abbrev lhs1 (c : Dev nD) (t : Fin cfg1.N) : Vec F S2048x4096 .bf16 := iblk1 V c 0 t
abbrev rhs1 (c : Dev nD) (t : Fin cfg1.N) : Vec F S4096x32 .bf16 := iblk1 V c 1 t

/-- An input window's current buffer holds its block at every point, whether the pipeline fetched it there or
    the block index did not move: for any proof data with the region's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- THE ACCUMULATOR after the body at position `n`: at the first step of a row block (`n % 3 = 0`) the zero
    splat plus the product of the point's blocks; at a later step what the step before left plus the product. -/
def acc1 (c : Dev nD) : (n : ℕ) → n < cfg1.N → Vec F S2048x32 .f32
  | 0, hn => k1_pay2 (lhs1 V c ⟨0, hn⟩) (rhs1 V c ⟨0, hn⟩) (k1_pay1 (F := F))
  | n + 1, hn =>
    if (n + 1) % 3 = 0 then k1_pay2 (lhs1 V c ⟨n + 1, hn⟩) (rhs1 V c ⟨n + 1, hn⟩) (k1_pay1 (F := F))
    else k1_pay2 (lhs1 V c ⟨n + 1, hn⟩) (rhs1 V c ⟨n + 1, hn⟩) (acc1 c n (Nat.lt_of_succ_lt hn))

/-- (output window 2's staging buffer, the accumulator scratch) after the body at position n. The output block
    is stored only at the last step of a row block, with the accumulator; at the other points, where the window
    is idle and nothing reads this component, it is given the same value. -/
def outsAt1 (c : Dev nD) (n : ℕ) (hn : n < cfg1.N) : Vec F S2048x32 .f32 × Vec F S2048x32 .f32 :=
  (acc1 V c n hn, acc1 V c n hn)

theorem acc1_A (c : Dev nD) (t : Fin cfg1.N) (h : t.val % 3 = 0) :
    acc1 V c t.val t.isLt = k1_pay2 (lhs1 V c t) (rhs1 V c t) (k1_pay1 (F := F)) := by
  obtain ⟨n, hn⟩ := t
  cases n with
  | zero => rfl
  | succ n => exact (if_pos h).trans rfl

theorem acc1_B (c : Dev nD) (t : Fin cfg1.N) (h : t.val % 3 ≠ 0) :
    acc1 V c t.val t.isLt = k1_pay2 (lhs1 V c t) (rhs1 V c t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS1 (c : Dev nD) : sProp 𝕄 :=
  Pipeline.scopedRestBut (Ix := Unit) (Name := ℕ) (U := UR sig nD τ) (Lvl := ℕ) (Val := Elt F) spec1 c [cc1_scratch0]

/-- The region's invariant as the launch hands it over: the accumulator at some contents, the other scoped
    buffers, the generator register at some state. -/
theorem PhiA1_eq (c : Dev nD) :
    (Pipeline.ΦA spec1 c : sProp 𝕄)
      = iprop(iprop((∃ d, owns (c : Thread nD τ) scM1_0 fullShare d) ∗ othersS1 c) ∗ (∃ r, prngReg c r)) := by
  unfold Pipeline.ΦA othersS1
  rw [Pipeline.scopedRest_split_of_list spec1 c [cc1_scratch0] (by decide) (by decide)]
  simp only [scM1_0, owns_whole, bigSepL_singleton]; try rfl

/-- The invariant before position `n`: before the first point what the launch hands over; afterwards the same with
    the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ othersS1 c) ∗ (∃ r, prngReg c r))

theorem PhiS1_succ (c : Dev nD) (n : ℕ) (hn : n < cfg1.N) :
    PhiS1 V c (n + 1) hn = iprop(iprop(owns (c : Thread nD τ) scM1_0 fullShare (acc1 V c n hn) ∗ othersS1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ othersS1 c) ∗ (∃ r, prngReg c r)) := by
  cases n with
  | zero => exact absurd rfl hz
  | succ n => rfl

/-- At any position the invariant holds the accumulator at SOME contents. -/
theorem PhiS1_any (c : Dev nD) (n : ℕ) (h : n ≤ cfg1.N) :
    PhiS1 V c n h ⊢ iprop(iprop((∃ d, owns (c : Thread nD τ) scM1_0 fullShare d) ∗ othersS1 c) ∗ (∃ r, prngReg c r)) := by
  cases n with
  | zero => rw [show PhiS1 V c 0 h = Pipeline.ΦA spec1 c from rfl, PhiA1_eq]
  | succ n =>
    rw [PhiS1_succ]
    iintro ⟨⟨HS, Hr⟩, Hg⟩
    isplitl [HS Hr]
    · isplitl [HS]
      · iexists _; iexact HS
      iexact Hr
    iexact Hg

/-! ## The proof data -/

/-- The proof data of region 1 on core `c`: the arrays as the region finds them; after the body each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  have hN : t.val < 18 := lt_of_lt_of_eq t.isLt (show cfg1.N = 18 from N_1)
  by_cases h0 : t.val % 3 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_A V c t h0]
    refine BIBase.Entails.trans (sep_mono_left (PhiS1_any V c _ _)) ?_
    iintro ⟨⟨⟨HS, Hr⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1_0 (Memref.isWhole_whole _) hc0 hc1 (lhs1 V c t) (rhs1 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover1_A c (grid1.coords t) (ms1_0 t) (hs1_0 t) (ms1_1 t) (hs1_1 t) (ms1_2 t) (hs1_2 t) scM1_0 (Memref.isWhole_whole _) hc0 hc1 (lhs1 V c t) (rhs1 V c t))).trans
            (canon1_A c (grid1.coords t) (ms1_0 t) (hs1_0 t) (ms1_1 t) (hs1_1 t) (ms1_2 t) (hs1_2 t) scM1_0 (Memref.isWhole_whole _) hc0 hc1 (lhs1 V c t) (rhs1 V c t))
        iexact Hr
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun h => h0 (by rw [h])
    rw [PhiS1_pos V c _ _ hz, acc1_B V c t h0]
    by_cases h1 : t.val % 3 = 2
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [show (outsAt1 V c t.val t.isLt).1 = acc1 V c t.val t.isLt from rfl, acc1_B V c t h0]
      iintro ⟨⟨⟨HS, Hr⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
              (scanon1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
        (canon1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
              (canon1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends, shares, tallies -/

/-- Before the first point the invariant is what the launch hands over. -/
theorem Phi1_first (c : Dev nD) : (dat1 V c).Φ 0 = Pipeline.ΦA spec1 c :=
  (show (dat1 V c).Φ 0 = PhiS1 V c 0 (Nat.zero_le _) from rfl).trans rfl

/-- After the last point it gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

theorem share1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

/-! ## The values, generic in the float family -/

/-- What the accumulator holds after each point, generic in F: at the first point of a row block (k = 0) the
    zero splat plus the product of the blocks; afterwards the previous contents plus the product. -/
theorem acc1_first (c : Dev nD) (t : Fin cfg1.N) (h : t.val % 3 = 0) :
    (outsAt1 V c t.val t.isLt).2 = k1_pay2 (lhs1 V c t) (rhs1 V c t) (k1_pay1 (F := F)) := acc1_A V c t h
theorem acc1_next (c : Dev nD) (t : Fin cfg1.N) (h : t.val % 3 ≠ 0) :
    (outsAt1 V c t.val t.isLt).2 = k1_pay2 (lhs1 V c t) (rhs1 V c t) (outsAt1 V c (t.val - 1) (Nat.lt_of_le_of_lt (Nat.sub_le _ _) t.isLt)).2 := acc1_B V c t h
/-- At the last point of a row block (k = 2) the output window's buffer is the accumulator. -/
theorem out1_last (c : Dev nD) (t : Fin cfg1.N) (h : t.val % 3 = 2) :
    (outsAt1 V c t.val t.isLt).1 = (outsAt1 V c t.val t.isLt).2 := rfl

end Cert.Kernel.Hand

end
-- ==== Proof.K.R2Body.lean ====
import proofs.«421346_j24266565222650_2_alg».proof.Proof.Gen.Kernel.Launch
import proofs.«421346_j24266565222650_2_alg».proof.Proof.Gen.Kernel.Skeleton
import proofs.«421346_j24266565222650_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond2_0 (i : grid2.Coords) : Prop :=
  (Scalar.cmpi .ne (Scalar.extui (Scalar.cmpi .eq (BitVec.ofNat 32 (i 1).val) 0#32)) 0#32) = 1#1
/-- It holds exactly at the points with `t % 3 = 0`. -/
theorem hcond2_0 : ∀ t : Fin cfg2.N, cond2_0 (grid2.coords t) ↔ t.val % 3 = 0 :=
  (by decide +kernel : ∀ t : Fin grid2.N, cond2_0 (grid2.coords t) ↔ t.val % 3 = 0)

/-- The second conditional's test: `k = 2`. -/
abbrev cond2_1 (i : grid2.Coords) : Prop := k2_cond2 i = 1#1
/-- It holds exactly at the points with `t % 3 = 2`. -/
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

/-- The two input windows are read at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last reduction step nothing is stored into the output block: the window is idle there, -/
theorem idleAt2_2 : ∀ t : Fin cfg2.N, ¬cond2_1 (grid2.coords t) → cfg2.idle 2 (grid2.coords t) = true := by decide +kernel
/-- and its block is not written back there. -/
theorem noFlush2_2 : ∀ t : Fin cfg2.N, ¬cond2_1 (grid2.coords t) → (cfg2.win 2).flush t = false := by decide +kernel
/-- At the last reduction step the output block is stored. -/
theorem liveAt2_2 : ∀ t : Fin cfg2.N, cond2_1 (grid2.coords t) → cfg2.idle 2 (grid2.coords t) = false := by decide +kernel

/-! ## The memrefs the body is called with -/

/-- Each window's current staging memref at point `t`, and that it is a whole buffer. -/
abbrev ms2_0 (t : Fin cfg2.N) : Memref sig .tc .vmem S4096x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x10 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x10 .f32 := win2_2.stage (cfg2.slots t 2)
abbrev hs2_2 (t : Fin cfg2.N) : (ms2_2 t).IsWhole := hstage2_2 ((cfg2.slots t 2).cast nbuf2_2)
/-- The accumulator: a whole scratch buffer of the kernel's own, the same at every point. -/
abbrev scM2_0 : Memref sig .tc .vmem S2048x10 .f32 := Memref.whole cc2_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) :
    { LS : List (View.Piece (Elt F) S2048x10 .f32) //
      ∀ (xi : Vec F S2048x10 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xi E K => ?run⟩
  case run =>
    simp only [cc2__spmm_kernel_eq_skeleton]; unfold cc2__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) :
    { LS : List (View.Piece (Elt F) S2048x10 .f32) //
      ∀ (xi : Vec F S2048x10 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xi E K => ?run⟩
  case run =>
    simp only [cc2__spmm_kernel_eq_skeleton]; unfold cc2__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    Σ' (L2 : List (View.Piece (Elt F) S2048x10 .f32)), { LS : List (View.Piece (Elt F) S2048x10 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_2 : (![0, 0] : Fin 2 → ℕ) = fun _ => 0 := by funext a; fin_cases a <;> rfl

/-- The first step's two stores into the accumulator cover it. -/
theorem scover2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) (y : S2048x10.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S2048x10.size (by sl_kernel_rfl) y

/-- They leave the product of the blocks added to the zero splat: the later store covers, and the load between the
    two reads the splat back. -/
theorem canon2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) :
    View.canon (kernelRun2_A c i arg2 harg2 arg3 harg3 arg4 harg4 arg5 harg5 hc0 hc1 x0 x1).1 = k2_pay2 x0 x1 (k2_pay1 (F := F)) := by
  unfold kernelRun2_A; dsimp only; sl_unfold_words
  rw [View.canon_cons_unit_zero (S := S2048x10) off00_2]
  simp only [View.readAt_eq_ld, harg2.read_unread, harg3.read_unread, View.ld_unit_zero (S := S4096x2048) off00_2,
    View.ld_unit_zero (S := S4096x10) off00_2, View.readCov_unit_zero (S := S2048x10) _ off00_2]

/-- A middle step's one store into the accumulator covers it. -/
theorem scover2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) (y : S2048x10.Idx) :
    ∃ pc ∈ (kernelRun2_B c i arg2 harg2 arg3 harg3 arg4 harg4 arg5 harg5 hc0 hc1 x0 x1 xs).1, y ∈ pc.1.set :=
  View.cover_of_tiledL (kernelRun2_B c i arg2 harg2 arg3 harg3 arg4 harg4 arg5 harg5 hc0 hc1 x0 x1 xs).1 S2048x10.size (by sl_kernel_rfl) y

/-- It leaves the product of the blocks added to what the accumulator held. -/
theorem canon2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) :
    View.canon (kernelRun2_B c i arg2 harg2 arg3 harg3 arg4 harg4 arg5 harg5 hc0 hc1 x0 x1 xs).1 = k2_pay2 x0 x1 xs := by
  unfold kernelRun2_B; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2]

/-- The last step's store into the accumulator covers it, -/
theorem scover2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) (y : S2048x10.Idx) :
    ∃ pc ∈ (kernelRun2_C c i arg2 harg2 arg3 harg3 arg4 harg4 arg5 harg5 hc0 hc1 x0 x1 xs).2.1, y ∈ pc.1.set :=
  View.cover_of_tiledL (kernelRun2_C c i arg2 harg2 arg3 harg3 arg4 harg4 arg5 harg5 hc0 hc1 x0 x1 xs).2.1 S2048x10.size (by sl_kernel_rfl) y

/-- and its store into the output block covers that. -/
theorem cover2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) (y : S2048x10.Idx) :
    ∃ pc ∈ (kernelRun2_C c i arg2 harg2 arg3 harg3 arg4 harg4 arg5 harg5 hc0 hc1 x0 x1 xs).1, y ∈ pc.1.set :=
  View.cover_of_tiledL (kernelRun2_C c i arg2 harg2 arg3 harg3 arg4 harg4 arg5 harg5 hc0 hc1 x0 x1 xs).1 S2048x10.size (by sl_kernel_rfl) y

/-- The accumulator ends with the product added to what it held; -/
theorem scanon2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    View.canon (kernelRun2_C c i arg2 harg2 arg3 harg3 arg4 harg4 arg5 harg5 hc0 hc1 x0 x1 xs).2.1 = k2_pay2 x0 x1 xs := by
  unfold kernelRun2_C; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2]

/-- and the output block with the same: the accumulator read back after its store. -/
theorem canon2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    View.canon (kernelRun2_C c i arg2 harg2 arg3 harg3 arg4 harg4 arg5 harg5 hc0 hc1 x0 x1 xs).1 = k2_pay2 x0 x1 xs := by
  unfold kernelRun2_C; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2, View.readCov_unit_zero (S := S2048x10) _ off00_2]

variable (V : (c : Dev nD) → (b : Ref sig .tc) → Buf (Elt F) ((c : Thread nD τ).loc b))

/-! ## The windows' blocks -/

/-- Window w's block of region 2 at point t, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two input blocks at their literal vector types. -/
abbrev lhs2 (c : Dev nD) (t : Fin cfg2.N) : Vec F S4096x2048 .bf16 := iblk2 V c 0 t
abbrev rhs2 (c : Dev nD) (t : Fin cfg2.N) : Vec F S4096x10 .bf16 := iblk2 V c 1 t

/-- An input window's current buffer holds its block at every point, whether the pipeline fetched it there or
    the block index did not move: for any proof data with the region's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- THE ACCUMULATOR after the body at position `n`: at the first step of a row block (`n % 3 = 0`) the zero
    splat plus the product of the point's blocks; at a later step what the step before left plus the product. -/
def acc2 (c : Dev nD) : (n : ℕ) → n < cfg2.N → Vec F S2048x10 .f32
  | 0, hn => k2_pay2 (lhs2 V c ⟨0, hn⟩) (rhs2 V c ⟨0, hn⟩) (k2_pay1 (F := F))
  | n + 1, hn =>
    if (n + 1) % 3 = 0 then k2_pay2 (lhs2 V c ⟨n + 1, hn⟩) (rhs2 V c ⟨n + 1, hn⟩) (k2_pay1 (F := F))
    else k2_pay2 (lhs2 V c ⟨n + 1, hn⟩) (rhs2 V c ⟨n + 1, hn⟩) (acc2 c n (Nat.lt_of_succ_lt hn))

/-- (output window 2's staging buffer, the accumulator scratch) after the body at position n. The output block
    is stored only at the last step of a row block, with the accumulator; at the other points, where the window
    is idle and nothing reads this component, it is given the same value. -/
def outsAt2 (c : Dev nD) (n : ℕ) (hn : n < cfg2.N) : Vec F S2048x10 .f32 × Vec F S2048x10 .f32 :=
  (acc2 V c n hn, acc2 V c n hn)

theorem acc2_A (c : Dev nD) (t : Fin cfg2.N) (h : t.val % 3 = 0) :
    acc2 V c t.val t.isLt = k2_pay2 (lhs2 V c t) (rhs2 V c t) (k2_pay1 (F := F)) := by
  obtain ⟨n, hn⟩ := t
  cases n with
  | zero => rfl
  | succ n => exact (if_pos h).trans rfl

theorem acc2_B (c : Dev nD) (t : Fin cfg2.N) (h : t.val % 3 ≠ 0) :
    acc2 V c t.val t.isLt = k2_pay2 (lhs2 V c t) (rhs2 V c t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS2 (c : Dev nD) : sProp 𝕄 :=
  Pipeline.scopedRestBut (Ix := Unit) (Name := ℕ) (U := UR sig nD τ) (Lvl := ℕ) (Val := Elt F) spec2 c [cc2_scratch0]

/-- The region's invariant as the launch hands it over: the accumulator at some contents, the other scoped
    buffers, the generator register at some state. -/
theorem PhiA2_eq (c : Dev nD) :
    (Pipeline.ΦA spec2 c : sProp 𝕄)
      = iprop(iprop((∃ d, owns (c : Thread nD τ) scM2_0 fullShare d) ∗ othersS2 c) ∗ (∃ r, prngReg c r)) := by
  unfold Pipeline.ΦA othersS2
  rw [Pipeline.scopedRest_split_of_list spec2 c [cc2_scratch0] (by decide) (by decide)]
  simp only [scM2_0, owns_whole, bigSepL_singleton]; try rfl

/-- The invariant before position `n`: before the first point what the launch hands over; afterwards the same with
    the accumulator at what the point before left in it. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ othersS2 c) ∗ (∃ r, prngReg c r))

theorem PhiS2_succ (c : Dev nD) (n : ℕ) (hn : n < cfg2.N) :
    PhiS2 V c (n + 1) hn = iprop(iprop(owns (c : Thread nD τ) scM2_0 fullShare (acc2 V c n hn) ∗ othersS2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ othersS2 c) ∗ (∃ r, prngReg c r)) := by
  cases n with
  | zero => exact absurd rfl hz
  | succ n => rfl

/-- At any position the invariant holds the accumulator at SOME contents. -/
theorem PhiS2_any (c : Dev nD) (n : ℕ) (h : n ≤ cfg2.N) :
    PhiS2 V c n h ⊢ iprop(iprop((∃ d, owns (c : Thread nD τ) scM2_0 fullShare d) ∗ othersS2 c) ∗ (∃ r, prngReg c r)) := by
  cases n with
  | zero => rw [show PhiS2 V c 0 h = Pipeline.ΦA spec2 c from rfl, PhiA2_eq]
  | succ n =>
    rw [PhiS2_succ]
    iintro ⟨⟨HS, Hr⟩, Hg⟩
    isplitl [HS Hr]
    · isplitl [HS]
      · iexists _; iexact HS
      iexact Hr
    iexact Hg

/-! ## The proof data -/

/-- The proof data of region 2 on core `c`: the arrays as the region finds them; after the body each input's
    buffer at its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [PhiS2_castSucc V c t]
  have hN : t.val < 18 := lt_of_lt_of_eq t.isLt (show cfg2.N = 18 from N_2)
  by_cases h0 : t.val % 3 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_A V c t h0]
    refine BIBase.Entails.trans (sep_mono_left (PhiS2_any V c _ _)) ?_
    iintro ⟨⟨⟨HS, Hr⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2_0 (Memref.isWhole_whole _) hc0 hc1 (lhs2 V c t) (rhs2 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover2_A c (grid2.coords t) (ms2_0 t) (hs2_0 t) (ms2_1 t) (hs2_1 t) (ms2_2 t) (hs2_2 t) scM2_0 (Memref.isWhole_whole _) hc0 hc1 (lhs2 V c t) (rhs2 V c t))).trans
            (canon2_A c (grid2.coords t) (ms2_0 t) (hs2_0 t) (ms2_1 t) (hs2_1 t) (ms2_2 t) (hs2_2 t) scM2_0 (Memref.isWhole_whole _) hc0 hc1 (lhs2 V c t) (rhs2 V c t))
        iexact Hr
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    have hz : t.val ≠ 0 := fun h => h0 (by rw [h])
    rw [PhiS2_pos V c _ _ hz, acc2_B V c t h0]
    by_cases h1 : t.val % 3 = 2
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [show (outsAt2 V c t.val t.isLt).1 = acc2 V c t.val t.isLt from rfl, acc2_B V c t h0]
      iintro ⟨⟨⟨HS, Hr⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
              (scanon2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
        (canon2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS, Hr⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
              (canon2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends, shares, tallies -/

/-- Before the first point the invariant is what the launch hands over. -/
theorem Phi2_first (c : Dev nD) : (dat2 V c).Φ 0 = Pipeline.ΦA spec2 c :=
  (show (dat2 V c).Φ 0 = PhiS2 V c 0 (Nat.zero_le _) from rfl).trans rfl

/-- After the last point it gives that back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

theorem share2 (c : Dev nD) (w : Fin cfg2.W) : (dat2 V c).q w = fullShare := by dsimp only [dat2]
theorem owed2 (c : Dev nD) (t : Fin (cfg2.N + 1)) : (dat2 V c).owed t = 0 := by dsimp only [dat2]
theorem recorded2 (c : Dev nD) (t : Fin (cfg2.N + 1)) : (dat2 V c).recorded t = Set.univ := by dsimp only [dat2]

/-! ## The values, generic in the float family -/

/-- What the accumulator holds after each point, generic in F: at the first point of a row block (k = 0) the
    zero splat plus the product of the blocks; afterwards the previous contents plus the product. -/
theorem acc2_first (c : Dev nD) (t : Fin cfg2.N) (h : t.val % 3 = 0) :
    (outsAt2 V c t.val t.isLt).2 = k2_pay2 (lhs2 V c t) (rhs2 V c t) (k2_pay1 (F := F)) := acc2_A V c t h
theorem acc2_next (c : Dev nD) (t : Fin cfg2.N) (h : t.val % 3 ≠ 0) :
    (outsAt2 V c t.val t.isLt).2 = k2_pay2 (lhs2 V c t) (rhs2 V c t) (outsAt2 V c (t.val - 1) (Nat.lt_of_le_of_lt (Nat.sub_le _ _) t.isLt)).2 := acc2_B V c t h
/-- At the last point of a row block (k = 2) the output window's buffer is the accumulator. -/
theorem out2_last (c : Dev nD) (t : Fin cfg2.N) (h : t.val % 3 = 2) :
    (outsAt2 V c t.val t.isLt).1 = (outsAt2 V c t.val t.isLt).2 := rfl

end Cert.Kernel.Hand

end
-- ==== Proof.K.Regs.lean ====
import proofs.«421346_j24266565222650_2_alg».proof.Proof.Gen.Kernel.Regions
import proofs.«421346_j24266565222650_2_alg».proof.Proof.K.R0Body
import proofs.«421346_j24266565222650_2_alg».proof.Proof.K.R1Body
import proofs.«421346_j24266565222650_2_alg».proof.Proof.K.R2Body
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the three regions leave

Each region writes one array: region 0 the array main_v39, region 1 main_v59, region 2 main_v99. What it
leaves there is the fold of its output window's write-backs over all 18 points, computed from the contents
the region is entered at. Region 1 is entered at contents that depend on what region 0 left, region 2 at
contents that depend on both, so the family of left contents is built in three stages. -/

/-- The contents region 0 is entered at: the launch memory after the first two host stretches. -/
abbrev E0 : (c : Dev nD) → (b : Ref sig .tc) → Buf (Elt F) ((c : Thread nD τ).loc b) := fun c b => Gen.V2 m c b

/-- What region 0 leaves in main_v39. -/
def res0 (c : Dev nD) : Buf (Elt F) ((c : Thread nD τ).loc main_v39) := (dat0 (E0 m) c).arrAt 2 cfg0.N

/-- Stage one: every buffer as region 0's exit has it. -/
def outsA : Gen.Outs (F := F) := fun _ r c => Function.update (Gen.V2 m c) main_v39 (res0 m c) r

/-- The contents region 1 is entered at. -/
abbrev E1 : (c : Dev nD) → (b : Ref sig .tc) → Buf (Elt F) ((c : Thread nD τ).loc b) := fun c b => Gen.V7 m (outsA m) c b

/-- What region 1 leaves in main_v59. -/
def res1 (c : Dev nD) : Buf (Elt F) ((c : Thread nD τ).loc main_v59) := (dat1 (E1 m) c).arrAt 2 cfg1.N

/-- Stage two: at item 8 every buffer as region 1's exit has it, elsewhere stage one. -/
def outsB : Gen.Outs (F := F) := fun J r c =>
  if J = 8 then Function.update (Gen.V7 m (outsA m) c) main_v59 (res1 m c) r else outsA m J r c

/-- The contents region 2 is entered at. -/
abbrev E2 : (c : Dev nD) → (b : Ref sig .tc) → Buf (Elt F) ((c : Thread nD τ).loc b) := fun c b => Gen.V12 m (outsB m) c b

/-- What region 2 leaves in main_v99. -/
def res2 (c : Dev nD) : Buf (Elt F) ((c : Thread nD τ).loc main_v99) := (dat2 (E2 m) c).arrAt 2 cfg2.N

/-- The contents the regions really leave: at item 13 every buffer as region 2's exit has it, elsewhere stage two. -/
def outsH : Gen.Outs (F := F) := fun J r c =>
  if J = 13 then Function.update (Gen.V12 m (outsB m) c) main_v99 (res2 m c) r else outsB m J r c

theorem outsH_3 (c : Dev nD) : outsH m 3 main_v39 c = res0 m c := by
  show Function.update (Gen.V2 m c) main_v39 (res0 m c) main_v39 = _
  exact Function.update_self ..
theorem outsB_3 (c : Dev nD) : outsB m 3 main_v39 c = res0 m c := by
  show Function.update (Gen.V2 m c) main_v39 (res0 m c) main_v39 = _
  exact Function.update_self ..
theorem outsA_3 (c : Dev nD) : outsA m 3 main_v39 c = res0 m c := by
  show Function.update (Gen.V2 m c) main_v39 (res0 m c) main_v39 = _
  exact Function.update_self ..
theorem outsH_8 (c : Dev nD) : outsH m 8 main_v59 c = res1 m c := by
  show Function.update (Gen.V7 m (outsA m) c) main_v59 (res1 m c) main_v59 = _
  exact Function.update_self ..
theorem outsB_8 (c : Dev nD) : outsB m 8 main_v59 c = res1 m c := by
  show Function.update (Gen.V7 m (outsA m) c) main_v59 (res1 m c) main_v59 = _
  exact Function.update_self ..
theorem outsH_13 (c : Dev nD) : outsH m 13 main_v99 c = res2 m c := by
  show Function.update (Gen.V12 m (outsB m) c) main_v99 (res2 m c) main_v99 = _
  exact Function.update_self ..

/-- The valuations before each region read only the stages already fixed. -/
theorem V3_H (c : Dev nD) : Gen.V3 m (outsH m) c = Function.update (Gen.V2 m c) main_v39 (res0 m c) := by
  show Function.update (Gen.V2 m c) main_v39 (outsH m 3 main_v39 c) = _
  rw [outsH_3]
theorem V3_B (c : Dev nD) : Gen.V3 m (outsB m) c = Function.update (Gen.V2 m c) main_v39 (res0 m c) := by
  show Function.update (Gen.V2 m c) main_v39 (outsB m 3 main_v39 c) = _
  rw [outsB_3]
theorem V3_A (c : Dev nD) : Gen.V3 m (outsA m) c = Function.update (Gen.V2 m c) main_v39 (res0 m c) := by
  show Function.update (Gen.V2 m c) main_v39 (outsA m 3 main_v39 c) = _
  rw [outsA_3]
theorem V7_H (c : Dev nD) : Gen.V7 m (outsH m) c = Gen.V7 m (outsA m) c := by
  show StableHlo.after hostOps1_3 (StableHlo.after hostOps1_2 (StableHlo.after hostOps1_1 (StableHlo.after hostOps1 (Gen.V3 m (outsH m) c)))) = StableHlo.after hostOps1_3 (StableHlo.after hostOps1_2 (StableHlo.after hostOps1_1 (StableHlo.after hostOps1 (Gen.V3 m (outsA m) c))))
  rw [V3_H, V3_A]
theorem V7_B (c : Dev nD) : Gen.V7 m (outsB m) c = Gen.V7 m (outsA m) c := by
  show StableHlo.after hostOps1_3 (StableHlo.after hostOps1_2 (StableHlo.after hostOps1_1 (StableHlo.after hostOps1 (Gen.V3 m (outsB m) c)))) = StableHlo.after hostOps1_3 (StableHlo.after hostOps1_2 (StableHlo.after hostOps1_1 (StableHlo.after hostOps1 (Gen.V3 m (outsA m) c))))
  rw [V3_B, V3_A]
theorem V8_H (c : Dev nD) : Gen.V8 m (outsH m) c = Function.update (Gen.V7 m (outsA m) c) main_v59 (res1 m c) := by
  show Function.update (Gen.V7 m (outsH m) c) main_v59 (outsH m 8 main_v59 c) = _
  rw [outsH_8, V7_H]
theorem V8_B (c : Dev nD) : Gen.V8 m (outsB m) c = Function.update (Gen.V7 m (outsA m) c) main_v59 (res1 m c) := by
  show Function.update (Gen.V7 m (outsB m) c) main_v59 (outsB m 8 main_v59 c) = _
  rw [outsB_8, V7_B]
theorem V12_H (c : Dev nD) : Gen.V12 m (outsH m) c = Gen.V12 m (outsB m) c := by
  show StableHlo.after hostOps2_3 (StableHlo.after hostOps2_2 (StableHlo.after hostOps2_1 (StableHlo.after hostOps2 (Gen.V8 m (outsH m) c)))) = StableHlo.after hostOps2_3 (StableHlo.after hostOps2_2 (StableHlo.after hostOps2_1 (StableHlo.after hostOps2 (Gen.V8 m (outsB m) c))))
  rw [V8_H, V8_B]
theorem V13_H (c : Dev nD) : Gen.V13 m (outsH m) c = Function.update (Gen.V12 m (outsB m) c) main_v99 (res2 m c) := by
  show Function.update (Gen.V12 m (outsH m) c) main_v99 (outsH m 13 main_v99 c) = _
  rw [outsH_13, V12_H]

/-! ## The proof data of the three pipelines, and what rides beside the buffers -/

/-- Every pipeline's proof data, each at the contents its region is entered at. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its
    dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A core owing nothing, whatever pairs its waits have recorded, owes what a proof data says at a point where
    the data owes nothing and bounds the recorded pairs by everything. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (by rw [hr]; trivial)
  iexact HO
/-- And back: at a point where the data owes nothing, the core owes nothing. -/
theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-! ## The exit contents of each region, against the valuations between the items -/

/-- The contents each region is left at, read at the TensorCore's references. -/
abbrev X0 : (c : Dev nD) → (b : Ref sig .tc) → Buf (Elt F) ((c : Thread nD τ).loc b) := fun c b => Gen.V3 m (outsH m) c b
abbrev X1 : (c : Dev nD) → (b : Ref sig .tc) → Buf (Elt F) ((c : Thread nD τ).loc b) := fun c b => Gen.V8 m (outsH m) c b
abbrev X2 : (c : Dev nD) → (b : Ref sig .tc) → Buf (Elt F) ((c : Thread nD τ).loc b) := fun c b => Gen.V13 m (outsH m) c b

/-- At region 0's exit each of its arrays holds what the pipeline leaves: the two operands what they held (an
    input array is never written), the result array the fold of the write-backs. -/
theorem hF0 (c : Dev nD) : ∀ w : Fin cfg0.W, (dat0 (E0 m) c).arrAt w cfg0.N = X0 m c (Pipeline.arrRef spec0 w)
  | 0 => ((dat0 (E0 m) c).arrAt_in 0 rfl _).trans ((A_eq0 (E0 m) c 0).trans (Gen.V3_of m (outsH m) c main_v32 (by decide)).symm)
  | 1 => ((dat0 (E0 m) c).arrAt_in 1 rfl _).trans ((A_eq0 (E0 m) c 1).trans (Gen.V3_of m (outsH m) c main_v38 (by decide)).symm)
  | 2 => by
    show res0 m c = Gen.V3 m (outsH m) c main_v39
    rw [V3_H, Function.update_self]
  | ⟨_ + 3, h⟩ => absurd h (Nat.not_lt.2 (Nat.le_add_left _ _))
/-- Every other buffer is as the region found it. -/
theorem hrest0 (c : Dev nD) : ∀ b, b ∉ Finset.univ.image (Pipeline.arrRef spec0) → X0 m c b = E0 m c b := by
  intro b hb
  refine Gen.V3_of m (outsH m) c b fun h => hb ?_
  rw [List.mem_singleton] at h
  subst h
  exact Finset.mem_image.mpr ⟨2, Finset.mem_univ _, rfl⟩

theorem hF1 (c : Dev nD) : ∀ w : Fin cfg1.W, (dat1 (E1 m) c).arrAt w cfg1.N = X1 m c (Pipeline.arrRef spec1 w)
  | 0 => ((dat1 (E1 m) c).arrAt_in 0 rfl _).trans ((A_eq1 (E1 m) c 0).trans
      ((congrFun (V7_H m c) _).symm.trans (Gen.V8_of m (outsH m) c main_v32 (by decide)).symm))
  | 1 => ((dat1 (E1 m) c).arrAt_in 1 rfl _).trans ((A_eq1 (E1 m) c 1).trans
      ((congrFun (V7_H m c) _).symm.trans (Gen.V8_of m (outsH m) c main_v58 (by decide)).symm))
  | 2 => by
    show res1 m c = Gen.V8 m (outsH m) c main_v59
    rw [V8_H, Function.update_self]
  | ⟨_ + 3, h⟩ => absurd h (Nat.not_lt.2 (Nat.le_add_left _ _))
theorem hrest1 (c : Dev nD) : ∀ b, b ∉ Finset.univ.image (Pipeline.arrRef spec1) → X1 m c b = E1 m c b := by
  intro b hb
  refine (Gen.V8_of m (outsH m) c b fun h => hb ?_).trans (congrFun (V7_H m c) _)
  rw [List.mem_singleton] at h
  subst h
  exact Finset.mem_image.mpr ⟨2, Finset.mem_univ _, rfl⟩

theorem hF2 (c : Dev nD) : ∀ w : Fin cfg2.W, (dat2 (E2 m) c).arrAt w cfg2.N = X2 m c (Pipeline.arrRef spec2 w)
  | 0 => ((dat2 (E2 m) c).arrAt_in 0 rfl _).trans ((A_eq2 (E2 m) c 0).trans
      ((congrFun (V12_H m c) _).symm.trans (Gen.V13_of m (outsH m) c main_v32 (by decide)).symm))
  | 1 => ((dat2 (E2 m) c).arrAt_in 1 rfl _).trans ((A_eq2 (E2 m) c 1).trans
      ((congrFun (V12_H m c) _).symm.trans (Gen.V13_of m (outsH m) c main_v98 (by decide)).symm))
  | 2 => by
    show res2 m c = Gen.V13 m (outsH m) c main_v99
    rw [V13_H, Function.update_self]
  | ⟨_ + 3, h⟩ => absurd h (Nat.not_lt.2 (Nat.le_add_left _ _))
theorem hrest2 (c : Dev nD) : ∀ b, b ∉ Finset.univ.image (Pipeline.arrRef spec2) → X2 m c b = E2 m c b := by
  intro b hb
  refine (Gen.V13_of m (outsH m) c b fun h => hb ?_).trans (congrFun (V12_H m c) _)
  rw [List.mem_singleton] at h
  subst h
  exact Finset.mem_image.mpr ⟨2, Finset.mem_univ _, rfl⟩

/-! ## The regions as segments

Each region is entered from the thread state "every unscoped buffer at the valuation before it, the generator
register at some state, nothing owed" and left at the same with the valuation after it. At the entry the
region's three arrays are split out of the unscoped buffers, the rest bypassing the region; the generator
register goes into the body's invariant at the first point and comes back from it at the last; at the exit the
arrays, the result array now at the fold of its write-backs, are put back among the unscoped buffers. -/

set_option backward.isDefEq.respectTransparency.types false in
/-- REGION 0: entered after the first two host stretches, left with main_v39 at what its write-backs fold to. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (Gen.V2 m c) ∗ R c)
  post c := iprop(StableHlo.held (c : Thread nD τ) (Pipeline.ucRefs τ sig) (Gen.V3 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun w => share0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 0 c) 0 (owed0 (E0 m) c 0) (recorded0 (E0 m) c 0))
      iexact HO
    isplitl [Hp]; · iexact Hp
    iexact Hrest
  hin c := by
    refine BIBase.Entails.trans ?_ (Entails.of_eq (Phi0_first (E0 m) c).symm)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => share0 (E0 m) c w)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 0 c) (Fin.last _) (owed0 (E0 m) c _))
    iexact HO

set_option backward.isDefEq.respectTransparency.types false in
/-- REGION 1: entered after the four host stretches that follow region 0, left with main_v59 at what its write-backs fold to. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed1 (E1 m) c t
  pre c := iprop(StableHlo.held (c : Thread nD τ) (Pipeline.ucRefs τ sig) (Gen.V7 m (outsH m) c) ∗ R c)
  post c := iprop(StableHlo.held (c : Thread nD τ) (Pipeline.ucRefs τ sig) (Gen.V8 m (outsH m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun w => share1 (E1 m) c w) (E1 m c) fun w => A_eq1 (E1 m) c w
    rw [Pipeline.unscopedBufs_held] at hsplit
    rw [V7_H]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 1 c) 0 (owed1 (E1 m) c 0) (recorded1 (E1 m) c 0))
      iexact HO
    isplitl [Hp]; · iexact Hp
    iexact Hrest
  hin c := by
    refine BIBase.Entails.trans ?_ (Entails.of_eq (Phi1_first (E1 m) c).symm)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => share1 (E1 m) c w)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 1 c) (Fin.last _) (owed1 (E1 m) c _))
    iexact HO

set_option backward.isDefEq.respectTransparency.types false in
/-- REGION 2: entered after the four host stretches that follow region 1, left with main_v99 at what its write-backs fold to. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun c t => owed2 (E2 m) c t
  pre c := iprop(StableHlo.held (c : Thread nD τ) (Pipeline.ucRefs τ sig) (Gen.V12 m (outsH m) c) ∗ R c)
  post c := iprop(StableHlo.held (c : Thread nD τ) (Pipeline.ucRefs τ sig) (Gen.V13 m (outsH m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun w => share2 (E2 m) c w) (E2 m c) fun w => A_eq2 (E2 m) c w
    rw [Pipeline.unscopedBufs_held] at hsplit
    rw [V12_H]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 2 c) 0 (owed2 (E2 m) c 0) (recorded2 (E2 m) c 0))
      iexact HO
    isplitl [Hp]; · iexact Hp
    iexact Hrest
  hin c := by
    refine BIBase.Entails.trans ?_ (Entails.of_eq (Phi2_first (E2 m) c).symm)
    unfold Pipeline.ΦA
    iintro ⟨Hp, -, Hr⟩
    isplitl [Hr]; · iexact Hr
    iexact Hp
  hout c := by
    rw [Pipeline.ownSems0_none]
    refine BIBase.Entails.trans (hout2 (E2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => share2 (E2 m) c w)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 2 c) (Fin.last _) (owed2 (E2 m) c _))
    iexact HO

/-! ## The run of @main -/

set_option backward.isDefEq.respectTransparency.types false in
/-- THE RUN: from any memory with zero counters, every weakly fair execution of @main on the TensorCores
    terminates, and in every final memory each unscoped buffer holds what the last valuation says — the three
    result arrays at what the regions leave, every later host result computed from them. The launch deals each
    core its unscoped buffers at the launch memory, its generator register and its dues at nothing; the items
    chain, each left at the valuation the next is entered from; at the end every unscoped buffer is read off the
    last thread state against the final memory. -/
theorem run_all (ρ : Dev nD → PrngReg) :
    θ_run defs (onTc (τ := τ) (main (F := F))) ⟨m, fun _ => 0, ρ⟩ (fun r => ∀ c : Dev nD, ∀ b : Ref sig .tc,
      ¬ (Proc.devRef (τ := τ) .tc b).isScoped → r.2.mem ((c.tc : Thread nD τ).loc b) = Gen.V19 m (outsH m) c (Proc.devRef .tc b)) := by
  refine Pipeline.θ_run_regions_kit_dev (pcfgs (F := F)) Gen.adm (pdats m) () cellOf_inj emb₁ defs₀ 𝒱₀ L lv m ρ main
    (Gen.segs m (outsH m) 𝒱₀ L lv (fun _ => R) () (pdats m) (reg0 m) (reg1 m) (reg2 m))
    (fun c Q => by
      rewrite [main_chain c, Pipeline.Seg.run_eq_chain,
        show (Gen.segs m (outsH m) 𝒱₀ L lv (fun _ => R) () (pdats m) (reg0 m) (reg1 m) (reg2 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V19 m (outsH m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V19 m (outsH m) c b)
    (hfin := fun c s' => by
      iintro ⟨Hh, HSI⟩
      unfold StableHlo.held
      imodintro
      iapply (pointsTo_read_all (Pipeline.ucRefs τ sig) (fun b => ((c : Thread nD τ).1, b)) (Gen.V19 m (outsH m) c) s')
      isplitl [Hh] <;> iassumption)
    (hQ := fun s h c b hb => h c _ (mem_uc b hb))

end Cert.Kernel.Hand

end
-- ==== Proof.KI.R0Body.lean ====
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond0_0 (i : grid0.Coords) : Prop :=
  (Scalar.cmpi .ne (Scalar.extui (Scalar.cmpi .eq (BitVec.ofNat 32 (i 1).val) 0#32)) 0#32) = 1#1
/-- It holds exactly at the points with `t % 3 = 0`. -/
theorem hcond0_0 : ∀ t : Fin cfg0.N, cond0_0 (grid0.coords t) ↔ t.val % 3 = 0 :=
  (by decide +kernel : ∀ t : Fin grid0.N, cond0_0 (grid0.coords t) ↔ t.val % 3 = 0)

/-- The second conditional's test: `k = 2`. -/
abbrev cond0_1 (i : grid0.Coords) : Prop := k0_cond2 i = 1#1
/-- It holds exactly at the points with `t % 3 = 2`. -/
theorem hcond0_1 : ∀ t : Fin cfg0.N, cond0_1 (grid0.coords t) ↔ t.val % 3 = 2 :=
  (by decide +kernel : ∀ t : Fin grid0.N, cond0_1 (grid0.coords t) ↔ t.val % 3 = 2)

/-! ## Where the windows are idle -/

/-- The two input windows are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the last reduction step nothing is stored into the output block: the window is idle there, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last reduction step the output block is stored. -/
theorem liveAt0_2 : ∀ t : Fin cfg0.N, cond0_1 (grid0.coords t) → cfg0.idle 2 (grid0.coords t) = false := by decide +kernel

/-! ## The memrefs the body is called with -/

/-- Each window's current staging memref at point `t`, and that it is a whole buffer. -/
abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x32 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x32 .f32 := win0_2.stage (cfg0.slots t 2)
abbrev hs0_2 (t : Fin cfg0.N) : (ms0_2 t).IsWhole := hstage0_2 ((cfg0.slots t 2).cast nbuf0_2)
/-- The accumulator: a whole scratch buffer of the kernel's own, the same at every point. -/
abbrev scM0_0 : Memref sig .tc .vmem S2048x32 .f32 := Memref.whole cc0_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, fun xi E K => ?run⟩
  case run =>
    simp only [cc0__spmm_kernel_eq_skeleton]; unfold cc0__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, fun xi E K => ?run⟩
  case run =>
    simp only [cc0__spmm_kernel_eq_skeleton]; unfold cc0__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    Σ' (L2 : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc0__spmm_kernel i arg2 harg2 arg3 harg3 arg4 harg4 arg5 harg5) K } := by
  refine ⟨?_, ?_, fun E K => ?run⟩
  case run =>
    simp only [cc0__spmm_kernel_eq_skeleton]; unfold cc0__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_0 : (![0, 0] : Fin 2 → ℕ) = fun _ => 0 := by funext a; fin_cases a <;> rfl

/-- The first step's two stores into the accumulator cover it. -/
theorem scover0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) (y : S2048x32.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x32.size (by sl_kernel_rfl) y

/-- They leave the product of the blocks added to the zero splat: the later store covers, and the load between the
    two reads the splat back. -/
theorem canon0_A (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond0_0 i) (hc1 : ¬cond0_1 i)
    (x0 : Vec F S2048x4096 .bf16) (x1 : Vec F S4096x32 .bf16) :
    View.canon (kernelRun0_A c i arg2 harg2 arg3 harg3 arg4 harg4 arg5 harg5 hc0 hc1 x0 x1).1 = k0_pay2 x0 x1 (k0_pay1 (F := F)) := by
  unfold kernelRun0_A; dsimp only; sl_unfold_words
  rw [View.canon_cons_unit_zero (S := S2048x32) off00_0]
  simp only [View.readAt_eq_ld, harg2.read_unread, harg3.read_unread, View.ld_unit_zero (S := S2048x4096) off00_0,
    View.ld_unit_zero (S := S4096x32) off00_0, View.readCov_unit_zero (S := S2048x32) _ off00_0]

/-- A middle step's one store into the accumulator covers it. -/
theorem scover0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) (y : S2048x32.Idx) :
    ∃ pc ∈ (kernelRun0_B c i arg2 harg2 arg3 harg3 arg4 harg4 arg5 harg5 hc0 hc1 x0 x1 xs).1, y ∈ pc.1.set :=
  View.cover_of_tiledL (kernelRun0_B c i arg2 harg2 arg3 harg3 arg4 harg4 arg5 harg5 hc0 hc1 x0 x1 xs).1 S2048x32.size (by sl_kernel_rfl) y

/-- It leaves the product of the blocks added to what the accumulator held. -/
theorem canon0_B (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : ¬cond0_1 i)
    (x0 : Vec F S2048x4096 .bf16) (x1 : Vec F S4096x32 .bf16) (xs : Vec F S2048x32 .f32) :
    View.canon (kernelRun0_B c i arg2 harg2 arg3 harg3 arg4 harg4 arg5 harg5 hc0 hc1 x0 x1 xs).1 = k0_pay2 x0 x1 xs := by
  unfold kernelRun0_B; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0]

/-- The last step's store into the accumulator covers it, -/
theorem scover0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) (y : S2048x32.Idx) :
    ∃ pc ∈ (kernelRun0_C c i arg2 harg2 arg3 harg3 arg4 harg4 arg5 harg5 hc0 hc1 x0 x1 xs).2.1, y ∈ pc.1.set :=
  View.cover_of_tiledL (kernelRun0_C c i arg2 harg2 arg3 harg3 arg4 harg4 arg5 harg5 hc0 hc1 x0 x1 xs).2.1 S2048x32.size (by sl_kernel_rfl) y

/-- and its store into the output block covers that. -/
theorem cover0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) (y : S2048x32.Idx) :
    ∃ pc ∈ (kernelRun0_C c i arg2 harg2 arg3 harg3 arg4 harg4 arg5 harg5 hc0 hc1 x0 x1 xs).1, y ∈ pc.1.set :=
  View.cover_of_tiledL (kernelRun0_C c i arg2 harg2 arg3 harg3 arg4 harg4 arg5 harg5 hc0 hc1 x0 x1 xs).1 S2048x32.size (by sl_kernel_rfl) y

/-- The accumulator ends with the product added to what it held; -/
theorem scanon0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    View.canon (kernelRun0_C c i arg2 harg2 arg3 harg3 arg4 harg4 arg5 harg5 hc0 hc1 x0 x1 xs).2.1 = k0_pay2 x0 x1 xs := by
  unfold kernelRun0_C; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0]

/-- and the output block with the same: the accumulator read back after its store. -/
theorem canon0_C (c : Dev nD) (i : grid0.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond0_0 i) (hc1 : cond0_1 i)
    (x0 : Vec F S2048x4096 .bf16) (x1 : Vec F S4096x32 .bf16) (xs : Vec F S2048x32 .f32) :
    View.canon (kernelRun0_C c i arg2 harg2 arg3 harg3 arg4 harg4 arg5 harg5 hc0 hc1 x0 x1 xs).1 = k0_pay2 x0 x1 xs := by
  unfold kernelRun0_C; dsimp only; sl_unfold_words
  rw [View.canon_unit_zero (S := S2048x32) off00_0]
  simp only [View.readAt_eq_ld, harg2.read_unread, harg3.read_unread, harg5.read_unread, View.ld_unit_zero (S := S2048x4096) off00_0,
    View.ld_unit_zero (S := S4096x32) off00_0, View.ld_unit_zero (S := S2048x32) off00_0, View.readCov_unit_zero (S := S2048x32) _ off00_0]

variable (V : (c : Dev nD) → (b : Ref sig .tc) → Buf (Elt F) ((c : Thread nD τ).loc b))

/-! ## The windows' blocks -/

/-- Window w's block of region 0 at point t, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two input blocks at their literal vector types. -/
abbrev lhs0 (c : Dev nD) (t : Fin cfg0.N) : Vec F S2048x4096 .bf16 := iblk0 V c 0 t
abbrev rhs0 (c : Dev nD) (t : Fin cfg0.N) : Vec F S4096x32 .bf16 := iblk0 V c 1 t

/-- An input window's current buffer holds its block at every point, whether the pipeline fetched it there or
    the block index did not move: for any proof data with the region's arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation -/

/-- THE ACCUMULATOR after the body at position `n`: at the first step of a row block (`n % 3 = 0`) the zero
    splat plus the product of the point's blocks; at a later step what the step before left plus the product. -/
def acc0 (c : Dev nD) : (n : ℕ) → n < cfg0.N → Vec F S2048x32 .f32
  | 0, hn => k0_pay2 (lhs0 V c ⟨0, hn⟩) (rhs0 V c ⟨0, hn⟩) (k0_pay1 (F := F))
  | n + 1, hn =>
    if (n + 1) % 3 = 0 then k0_pay2 (lhs0 V c ⟨n + 1, hn⟩) (rhs0 V c ⟨n + 1, hn⟩) (k0_pay1 (F := F))
    else k0_pay2 (lhs0 V c ⟨n + 1, hn⟩) (rhs0 V c ⟨n + 1, hn⟩) (acc0 c n (Nat.lt_of_succ_lt hn))

/-- (output window 2's staging buffer, the accumulator scratch) after the body at position n. The output block
    is stored only at the last step of a row block, with the accumulator; at the other points, where the window
    is idle and nothing reads this component, it is given the same value. -/
def outsAt0 (c : Dev nD) (n : ℕ) (hn : n < cfg0.N) : Vec F S2048x32 .f32 × Vec F S2048x32 .f32 :=
  (acc0 V c n hn, acc0 V c n hn)

theorem acc0_A (c : Dev nD) (t : Fin cfg0.N) (h : t.val % 3 = 0) :
    acc0 V c t.val t.isLt = k0_pay2 (lhs0 V c t) (rhs0 V c t) (k0_pay1 (F := F)) := by
  obtain ⟨n, hn⟩ := t
  cases n with
  | zero => rfl
  | succ n => exact (if_pos h).trans rfl

theorem acc0_B (c : Dev nD) (t : Fin cfg0.N) (h : t.val % 3 ≠ 0) :
    acc0 V c t.val t.isLt = k0_pay2 (lhs0 V c t) (rhs0 V c t) (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS0 (c : Dev nD) : sProp 𝕄 :=
  Pipeline.scopedRestBut (Ix := Unit) (Name := ℕ) (U := UR sig nD τ) (Lvl := ℕ) (Val := Elt F) spec0 c [cc0_scratch0]

/-- The region's invariant as the launch hands it over: the accumulator at some contents, the other scoped
    buffers, the generator register at some state. -/
theorem PhiA0_eq (c : Dev nD) :
    (Pipeline.ΦA spec0 c : sProp 𝕄)
      = iprop(iprop((∃ d, owns (c : Thread nD τ) scM0_0 fullShare d) ∗ othersS0 c) ∗ (∃ r, prngReg c r)) := by
  unfold Pipeline.ΦA othersS0
  rw [Pipeline.scopedRest_split_of_list spec0 c [cc0_scratch0] (by decide) (by decide)]
  simp only [scM0_0, owns_whole, bigSepL_singleton]; try rfl

/-- The invariant before position `n`: before the first point what the launch hands over; afterwards the same with
    the accumulator at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ othersS0 c) ∗ (∃ r, prngReg c r))

theorem PhiS0_succ (c : Dev nD) (n : ℕ) (hn : n < cfg0.N) :
    PhiS0 V c (n + 1) hn = iprop(iprop(owns (c : Thread nD τ) scM0_0 fullShare (acc0 V c n hn) ∗ othersS0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ othersS0 c) ∗ (∃ r, prngReg c r)) := by
  cases n with
  | zero => exact absurd rfl hz
  | succ n => rfl

/-- At any position the invariant holds the accumulator at SOME contents. -/
theorem PhiS0_any (c : Dev nD) (n : ℕ) (h : n ≤ cfg0.N) :
    PhiS0 V c n h ⊢ iprop(iprop((∃ d, owns (c : Thread nD τ) scM0_0 fullShare d) ∗ othersS0 c) ∗ (∃ r, prngReg c r)) := by
  cases n with
  | zero => rw [show PhiS0 V c 0 h = Pipeline.ΦA spec0 c from rfl, PhiA0_eq]
  | succ n =>
    rw [PhiS0_succ]
    iintro ⟨⟨HS, Hr⟩, Hg⟩
    isplitl [HS Hr]
    · isplitl [HS]
      · iexists _; iexact HS
      iexact Hr
    iexact Hg

/-! ## The proof data -/

/-- The proof data of region 0 on core `c`: the arrays as the region finds them; after the body each input's
    buffer at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [PhiS0_castSucc V c t]
  have hN : t.val < 18 := lt_of_lt_of_eq t.isLt (show cfg0.N = 18 from N_0)
  by_cases h0 : t.val % 3 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [acc0_A V c t h0]
    refine BIBase.Entails.trans (sep_mono_left (PhiS0_any V c _ _)) ?_
    iintro ⟨⟨⟨HS, Hr⟩, Hg⟩, Ho, ⟨%d0, H0⟩, ⟨%d1, H1⟩, ⟨%d2, H2⟩⟩
    iapply ((kernelRun0_A c (grid0.coords t) (ms0_0 t) (hs0_0 t) (ms0_1 t) (hs0_1 t) (ms0_2 t) (hs0_2 t) scM0_0 (Memref.isWhole_whole _) hc0 hc1 (lhs0 V c t) (rhs0 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover0_A c (grid0.coords t) (ms0_0 t) (hs0_0 t) (ms0_1 t) (hs0_1 t) (ms0_2 t) (hs0_2 t) scM0_0 (Memref.isWhole_whole _) hc0 hc1 (lhs0 V c t) (rhs0 V c t))).trans
            (canon0_A c (grid0.coords t) (ms0_0 t) (hs0_0 t) (ms0_1 t) (hs0_1 t) (ms0_2 t) (hs0_2 t) scM0_0 (Memref.isWhole_whole _) hc0 hc1 (lhs0 V c t) (rhs0 V c t))
        iexact Hr
      iexact Hg
    isplitl [Ho]; · iexact Ho
    isplitl [H0]; · iexact H0
    isplitl [H1]; · iexact H1
    iexists _; iexact H2
  · have hc0 : ¬cond0_0 (grid0.coords t) := fun h => h0 ((hcond0_0 t).mp h)
    have hz : t.val ≠ 0 := fun h => h0 (by rw [h])
    rw [PhiS0_pos V c _ _ hz, acc0_B V c t h0]
    by_cases h1 : t.val % 3 = 2
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [show (outsAt0 V c t.val t.isLt).1 = acc0 V c t.val t.isLt from rfl, acc0_B V c t h0]
      iintro ⟨⟨⟨HS, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
              (scanon0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
        (canon0_C c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))).trans
              (canon0_B c (grid0.coords t) (ms0_0 t) (hs0_0 t) (ms0_1 t) (hs0_1 t) (ms0_2 t) (hs0_2 t) scM0_0 (Memref.isWhole_whole _) hc0 hc1 (lhs0 V c t) (rhs0 V c t) (acc0 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends, shares, tallies -/

/-- Before the first point the invariant is what the launch hands over. -/
theorem Phi0_first (c : Dev nD) : (dat0 V c).Φ 0 = Pipeline.ΦA spec0 c :=
  (show (dat0 V c).Φ 0 = PhiS0 V c 0 (Nat.zero_le _) from rfl).trans rfl

/-- After the last point it gives that back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_any V c _ _

theorem share0 (c : Dev nD) (w : Fin cfg0.W) : (dat0 V c).q w = fullShare := by dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-! ## The values, generic in the float family -/

/-- What the accumulator holds after each point, generic in F: at the first point of a row block (k = 0) the
    zero splat plus the product of the blocks; afterwards the previous contents plus the product. -/
theorem acc0_first (c : Dev nD) (t : Fin cfg0.N) (h : t.val % 3 = 0) :
    (outsAt0 V c t.val t.isLt).2 = k0_pay2 (lhs0 V c t) (rhs0 V c t) (k0_pay1 (F := F)) := acc0_A V c t h
theorem acc0_next (c : Dev nD) (t : Fin cfg0.N) (h : t.val % 3 ≠ 0) :
    (outsAt0 V c t.val t.isLt).2 = k0_pay2 (lhs0 V c t) (rhs0 V c t) (outsAt0 V c (t.val - 1) (Nat.lt_of_le_of_lt (Nat.sub_le _ _) t.isLt)).2 := acc0_B V c t h
/-- At the last point of a row block (k = 2) the output window's buffer is the accumulator. -/
theorem out0_last (c : Dev nD) (t : Fin cfg0.N) (h : t.val % 3 = 2) :
    (outsAt0 V c t.val t.isLt).1 = (outsAt0 V c t.val t.isLt).2 := rfl

end Cert.KernelIdeal.Hand

end
-- ==== Proof.KI.R1Body.lean ====
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond1_0 (i : grid1.Coords) : Prop :=
  (Scalar.cmpi .ne (Scalar.extui (Scalar.cmpi .eq (BitVec.ofNat 32 (i 1).val) 0#32)) 0#32) = 1#1
/-- It holds exactly at the points with `t % 3 = 0`. -/
theorem hcond1_0 : ∀ t : Fin cfg1.N, cond1_0 (grid1.coords t) ↔ t.val % 3 = 0 :=
  (by decide +kernel : ∀ t : Fin grid1.N, cond1_0 (grid1.coords t) ↔ t.val % 3 = 0)

/-- The second conditional's test: `k = 2`. -/
abbrev cond1_1 (i : grid1.Coords) : Prop := k1_cond2 i = 1#1
/-- It holds exactly at the points with `t % 3 = 2`. -/
theorem hcond1_1 : ∀ t : Fin cfg1.N, cond1_1 (grid1.coords t) ↔ t.val % 3 = 2 :=
  (by decide +kernel : ∀ t : Fin grid1.N, cond1_1 (grid1.coords t) ↔ t.val % 3 = 2)

/-! ## Where the windows are idle -/

/-- The two input windows are read at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last reduction step nothing is stored into the output block: the window is idle there, -/
theorem idleAt1_2 : ∀ t : Fin cfg1.N, ¬cond1_1 (grid1.coords t) → cfg1.idle 2 (grid1.coords t) = true := by decide +kernel
/-- and its block is not written back there. -/
theorem noFlush1_2 : ∀ t : Fin cfg1.N, ¬cond1_1 (grid1.coords t) → (cfg1.win 2).flush t = false := by decide +kernel
/-- At the last reduction step the output block is stored. -/
theorem liveAt1_2 : ∀ t : Fin cfg1.N, cond1_1 (grid1.coords t) → cfg1.idle 2 (grid1.coords t) = false := by decide +kernel

/-! ## The memrefs the body is called with -/

/-- Each window's current staging memref at point `t`, and that it is a whole buffer. -/
abbrev ms1_0 (t : Fin cfg1.N) : Memref sig .tc .vmem S2048x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x32 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x32 .f32 := win1_2.stage (cfg1.slots t 2)
abbrev hs1_2 (t : Fin cfg1.N) : (ms1_2 t).IsWhole := hstage1_2 ((cfg1.slots t 2).cast nbuf1_2)
/-- The accumulator: a whole scratch buffer of the kernel's own, the same at every point. -/
abbrev scM1_0 : Memref sig .tc .vmem S2048x32 .f32 := Memref.whole cc1_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi E K => ?run⟩
  case run =>
    simp only [cc1__spmm_kernel_eq_skeleton]; unfold cc1__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) :
    { LS : List (View.Piece (Elt F) S2048x32 .f32) //
      ∀ (xi : Vec F S2048x32 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, fun xi E K => ?run⟩
  case run =>
    simp only [cc1__spmm_kernel_eq_skeleton]; unfold cc1__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    Σ' (L2 : List (View.Piece (Elt F) S2048x32 .f32)), { LS : List (View.Piece (Elt F) S2048x32 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc1__spmm_kernel i arg2 harg2 arg3 harg3 arg4 harg4 arg5 harg5) K } := by
  refine ⟨?_, ?_, fun E K => ?run⟩
  case run =>
    simp only [cc1__spmm_kernel_eq_skeleton]; unfold cc1__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_1 : (![0, 0] : Fin 2 → ℕ) = fun _ => 0 := by funext a; fin_cases a <;> rfl

/-- The first step's two stores into the accumulator cover it. -/
theorem scover1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) (y : S2048x32.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S2048x32.size (by sl_kernel_rfl) y

/-- They leave the product of the blocks added to the zero splat: the later store covers, and the load between the
    two reads the splat back. -/
theorem canon1_A (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : cond1_0 i) (hc1 : ¬cond1_1 i)
    (x0 : Vec F S2048x4096 .bf16) (x1 : Vec F S4096x32 .bf16) :
    View.canon (kernelRun1_A c i arg2 harg2 arg3 harg3 arg4 harg4 arg5 harg5 hc0 hc1 x0 x1).1 = k1_pay2 x0 x1 (k1_pay1 (F := F)) := by
  unfold kernelRun1_A; dsimp only; sl_unfold_words
  rw [View.canon_cons_unit_zero (S := S2048x32) off00_1]
  simp only [View.readAt_eq_ld, harg2.read_unread, harg3.read_unread, View.ld_unit_zero (S := S2048x4096) off00_1,
    View.ld_unit_zero (S := S4096x32) off00_1, View.readCov_unit_zero (S := S2048x32) _ off00_1]

/-- A middle step's one store into the accumulator covers it. -/
theorem scover1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) (y : S2048x32.Idx) :
    ∃ pc ∈ (kernelRun1_B c i arg2 harg2 arg3 harg3 arg4 harg4 arg5 harg5 hc0 hc1 x0 x1 xs).1, y ∈ pc.1.set :=
  View.cover_of_tiledL (kernelRun1_B c i arg2 harg2 arg3 harg3 arg4 harg4 arg5 harg5 hc0 hc1 x0 x1 xs).1 S2048x32.size (by sl_kernel_rfl) y

/-- It leaves the product of the blocks added to what the accumulator held. -/
theorem canon1_B (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : ¬cond1_1 i)
    (x0 : Vec F S2048x4096 .bf16) (x1 : Vec F S4096x32 .bf16) (xs : Vec F S2048x32 .f32) :
    View.canon (kernelRun1_B c i arg2 harg2 arg3 harg3 arg4 harg4 arg5 harg5 hc0 hc1 x0 x1 xs).1 = k1_pay2 x0 x1 xs := by
  unfold kernelRun1_B; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1]

/-- The last step's store into the accumulator covers it, -/
theorem scover1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) (y : S2048x32.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x32.size (by sl_kernel_rfl) y

/-- and its store into the output block covers that. -/
theorem cover1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) (y : S2048x32.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x32.size (by sl_kernel_rfl) y

/-- The accumulator ends with the product added to what it held; -/
theorem scanon1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    View.canon (kernelRun1_C c i arg2 harg2 arg3 harg3 arg4 harg4 arg5 harg5 hc0 hc1 x0 x1 xs).2.1 = k1_pay2 x0 x1 xs := by
  unfold kernelRun1_C; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1]

/-- and the output block with the same: the accumulator read back after its store. -/
theorem canon1_C (c : Dev nD) (i : grid1.Coords) (arg2 : Memref sig .tc .vmem S2048x4096 .bf16) (harg2 : arg2.IsWhole) (arg3 : Memref sig .tc .vmem S4096x32 .bf16) (harg3 : arg3.IsWhole) (arg4 : Memref sig .tc .vmem S2048x32 .f32) (harg4 : arg4.IsWhole) (arg5 : Memref sig .tc .vmem S2048x32 .f32) (harg5 : arg5.IsWhole) (hc0 : ¬cond1_0 i) (hc1 : cond1_1 i)
    (x0 : Vec F S2048x4096 .bf16) (x1 : Vec F S4096x32 .bf16) (xs : Vec F S2048x32 .f32) :
    View.canon (kernelRun1_C c i arg2 harg2 arg3 harg3 arg4 harg4 arg5 harg5 hc0 hc1 x0 x1 xs).1 = k1_pay2 x0 x1 xs := by
  unfold kernelRun1_C; dsimp only; sl_unfold_words
  rw [View.canon_unit_zero (S := S2048x32) off00_1]
  simp only [View.readAt_eq_ld, harg2.read_unread, harg3.read_unread, harg5.read_unread, View.ld_unit_zero (S := S2048x4096) off00_1,
    View.ld_unit_zero (S := S4096x32) off00_1, View.ld_unit_zero (S := S2048x32) off00_1, View.readCov_unit_zero (S := S2048x32) _ off00_1]

variable (V : (c : Dev nD) → (b : Ref sig .tc) → Buf (Elt F) ((c : Thread nD τ).loc b))

/-! ## The windows' blocks -/

/-- Window w's block of region 1 at point t, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two input blocks at their literal vector types. -/
abbrev lhs1 (c : Dev nD) (t : Fin cfg1.N) : Vec F S2048x4096 .bf16 := iblk1 V c 0 t
abbrev rhs1 (c : Dev nD) (t : Fin cfg1.N) : Vec F S4096x32 .bf16 := iblk1 V c 1 t

/-- An input window's current buffer holds its block at every point, whether the pipeline fetched it there or
    the block index did not move: for any proof data with the region's arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- THE ACCUMULATOR after the body at position `n`: at the first step of a row block (`n % 3 = 0`) the zero
    splat plus the product of the point's blocks; at a later step what the step before left plus the product. -/
def acc1 (c : Dev nD) : (n : ℕ) → n < cfg1.N → Vec F S2048x32 .f32
  | 0, hn => k1_pay2 (lhs1 V c ⟨0, hn⟩) (rhs1 V c ⟨0, hn⟩) (k1_pay1 (F := F))
  | n + 1, hn =>
    if (n + 1) % 3 = 0 then k1_pay2 (lhs1 V c ⟨n + 1, hn⟩) (rhs1 V c ⟨n + 1, hn⟩) (k1_pay1 (F := F))
    else k1_pay2 (lhs1 V c ⟨n + 1, hn⟩) (rhs1 V c ⟨n + 1, hn⟩) (acc1 c n (Nat.lt_of_succ_lt hn))

/-- (output window 2's staging buffer, the accumulator scratch) after the body at position n. The output block
    is stored only at the last step of a row block, with the accumulator; at the other points, where the window
    is idle and nothing reads this component, it is given the same value. -/
def outsAt1 (c : Dev nD) (n : ℕ) (hn : n < cfg1.N) : Vec F S2048x32 .f32 × Vec F S2048x32 .f32 :=
  (acc1 V c n hn, acc1 V c n hn)

theorem acc1_A (c : Dev nD) (t : Fin cfg1.N) (h : t.val % 3 = 0) :
    acc1 V c t.val t.isLt = k1_pay2 (lhs1 V c t) (rhs1 V c t) (k1_pay1 (F := F)) := by
  obtain ⟨n, hn⟩ := t
  cases n with
  | zero => rfl
  | succ n => exact (if_pos h).trans rfl

theorem acc1_B (c : Dev nD) (t : Fin cfg1.N) (h : t.val % 3 ≠ 0) :
    acc1 V c t.val t.isLt = k1_pay2 (lhs1 V c t) (rhs1 V c t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS1 (c : Dev nD) : sProp 𝕄 :=
  Pipeline.scopedRestBut (Ix := Unit) (Name := ℕ) (U := UR sig nD τ) (Lvl := ℕ) (Val := Elt F) spec1 c [cc1_scratch0]

/-- The region's invariant as the launch hands it over: the accumulator at some contents, the other scoped
    buffers, the generator register at some state. -/
theorem PhiA1_eq (c : Dev nD) :
    (Pipeline.ΦA spec1 c : sProp 𝕄)
      = iprop(iprop((∃ d, owns (c : Thread nD τ) scM1_0 fullShare d) ∗ othersS1 c) ∗ (∃ r, prngReg c r)) := by
  unfold Pipeline.ΦA othersS1
  rw [Pipeline.scopedRest_split_of_list spec1 c [cc1_scratch0] (by decide) (by decide)]
  simp only [scM1_0, owns_whole, bigSepL_singleton]; try rfl

/-- The invariant before position `n`: before the first point what the launch hands over; afterwards the same with
    the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ othersS1 c) ∗ (∃ r, prngReg c r))

theorem PhiS1_succ (c : Dev nD) (n : ℕ) (hn : n < cfg1.N) :
    PhiS1 V c (n + 1) hn = iprop(iprop(owns (c : Thread nD τ) scM1_0 fullShare (acc1 V c n hn) ∗ othersS1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ othersS1 c) ∗ (∃ r, prngReg c r)) := by
  cases n with
  | zero => exact absurd rfl hz
  | succ n => rfl

/-- At any position the invariant holds the accumulator at SOME contents. -/
theorem PhiS1_any (c : Dev nD) (n : ℕ) (h : n ≤ cfg1.N) :
    PhiS1 V c n h ⊢ iprop(iprop((∃ d, owns (c : Thread nD τ) scM1_0 fullShare d) ∗ othersS1 c) ∗ (∃ r, prngReg c r)) := by
  cases n with
  | zero => rw [show PhiS1 V c 0 h = Pipeline.ΦA spec1 c from rfl, PhiA1_eq]
  | succ n =>
    rw [PhiS1_succ]
    iintro ⟨⟨HS, Hr⟩, Hg⟩
    isplitl [HS Hr]
    · isplitl [HS]
      · iexists _; iexact HS
      iexact Hr
    iexact Hg

/-! ## The proof data -/

/-- The proof data of region 1 on core `c`: the arrays as the region finds them; after the body each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS1_castSucc V c t]
  have hN : t.val < 18 := lt_of_lt_of_eq t.isLt (show cfg1.N = 18 from N_1)
  by_cases h0 : t.val % 3 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_A V c t h0]
    refine BIBase.Entails.trans (sep_mono_left (PhiS1_any V c _ _)) ?_
    iintro ⟨⟨⟨HS, Hr⟩, Hg⟩, Ho, ⟨%d0, H0⟩, ⟨%d1, H1⟩, ⟨%d2, H2⟩⟩
    iapply ((kernelRun1_A c (grid1.coords t) (ms1_0 t) (hs1_0 t) (ms1_1 t) (hs1_1 t) (ms1_2 t) (hs1_2 t) scM1_0 (Memref.isWhole_whole _) hc0 hc1 (lhs1 V c t) (rhs1 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover1_A c (grid1.coords t) (ms1_0 t) (hs1_0 t) (ms1_1 t) (hs1_1 t) (ms1_2 t) (hs1_2 t) scM1_0 (Memref.isWhole_whole _) hc0 hc1 (lhs1 V c t) (rhs1 V c t))).trans
            (canon1_A c (grid1.coords t) (ms1_0 t) (hs1_0 t) (ms1_1 t) (hs1_1 t) (ms1_2 t) (hs1_2 t) scM1_0 (Memref.isWhole_whole _) hc0 hc1 (lhs1 V c t) (rhs1 V c t))
        iexact Hr
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    have hz : t.val ≠ 0 := fun h => h0 (by rw [h])
    rw [PhiS1_pos V c _ _ hz, acc1_B V c t h0]
    by_cases h1 : t.val % 3 = 2
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2]
      rw [show (outsAt1 V c t.val t.isLt).1 = acc1 V c t.val t.isLt from rfl, acc1_B V c t h0]
      iintro ⟨⟨⟨HS, Hr⟩, Hg⟩, Ho, ⟨%d0, H0⟩, ⟨%d1, H1⟩, ⟨%d2, H2⟩⟩
      iapply ((kernelRun1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
              (scanon1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
        (canon1_C c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS, Hr⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))).trans
              (canon1_B c (grid1.coords t) (ms1_0 t) (hs1_0 t) (ms1_1 t) (hs1_1 t) (ms1_2 t) (hs1_2 t) scM1_0 (Memref.isWhole_whole _) hc0 hc1 (lhs1 V c t) (rhs1 V c t) (acc1 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends, shares, tallies -/

/-- Before the first point the invariant is what the launch hands over. -/
theorem Phi1_first (c : Dev nD) : (dat1 V c).Φ 0 = Pipeline.ΦA spec1 c :=
  (show (dat1 V c).Φ 0 = PhiS1 V c 0 (Nat.zero_le _) from rfl).trans rfl

/-- After the last point it gives that back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

theorem share1 (c : Dev nD) (w : Fin cfg1.W) : (dat1 V c).q w = fullShare := by dsimp only [dat1]
theorem owed1 (c : Dev nD) (t : Fin (cfg1.N + 1)) : (dat1 V c).owed t = 0 := by dsimp only [dat1]
theorem recorded1 (c : Dev nD) (t : Fin (cfg1.N + 1)) : (dat1 V c).recorded t = Set.univ := by dsimp only [dat1]

/-! ## The values, generic in the float family -/

/-- What the accumulator holds after each point, generic in F: at the first point of a row block (k = 0) the
    zero splat plus the product of the blocks; afterwards the previous contents plus the product. -/
theorem acc1_first (c : Dev nD) (t : Fin cfg1.N) (h : t.val % 3 = 0) :
    (outsAt1 V c t.val t.isLt).2 = k1_pay2 (lhs1 V c t) (rhs1 V c t) (k1_pay1 (F := F)) := acc1_A V c t h
theorem acc1_next (c : Dev nD) (t : Fin cfg1.N) (h : t.val % 3 ≠ 0) :
    (outsAt1 V c t.val t.isLt).2 = k1_pay2 (lhs1 V c t) (rhs1 V c t) (outsAt1 V c (t.val - 1) (Nat.lt_of_le_of_lt (Nat.sub_le _ _) t.isLt)).2 := acc1_B V c t h
/-- At the last point of a row block (k = 2) the output window's buffer is the accumulator. -/
theorem out1_last (c : Dev nD) (t : Fin cfg1.N) (h : t.val % 3 = 2) :
    (outsAt1 V c t.val t.isLt).1 = (outsAt1 V c t.val t.isLt).2 := rfl

end Cert.KernelIdeal.Hand

end
-- ==== Proof.KI.R2Body.lean ====
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the body, over the grid

The body branches twice on the reduction coordinate `k = i 1`: it clears the accumulator when `k = 0`, and it
copies the accumulator into the output block when `k = 2`, the last reduction step. Point `t` of the 6 × 3 grid
has `k = t % 3`. -/

/-- The first conditional's test, as the body computes it from the coordinates: `k = 0`. -/
abbrev cond2_0 (i : grid2.Coords) : Prop :=
  (Scalar.cmpi .ne (Scalar.extui (Scalar.cmpi .eq (BitVec.ofNat 32 (i 1).val) 0#32)) 0#32) = 1#1
/-- It holds exactly at the points with `t % 3 = 0`. -/
theorem hcond2_0 : ∀ t : Fin cfg2.N, cond2_0 (grid2.coords t) ↔ t.val % 3 = 0 :=
  (by decide +kernel : ∀ t : Fin grid2.N, cond2_0 (grid2.coords t) ↔ t.val % 3 = 0)

/-- The second conditional's test: `k = 2`. -/
abbrev cond2_1 (i : grid2.Coords) : Prop := k2_cond2 i = 1#1
/-- It holds exactly at the points with `t % 3 = 2`. -/
theorem hcond2_1 : ∀ t : Fin cfg2.N, cond2_1 (grid2.coords t) ↔ t.val % 3 = 2 :=
  (by decide +kernel : ∀ t : Fin grid2.N, cond2_1 (grid2.coords t) ↔ t.val % 3 = 2)

/-! ## Where the windows are idle -/

/-- The two input windows are read at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last reduction step nothing is stored into the output block: the window is idle there, -/
theorem idleAt2_2 : ∀ t : Fin cfg2.N, ¬cond2_1 (grid2.coords t) → cfg2.idle 2 (grid2.coords t) = true := by decide +kernel
/-- and its block is not written back there. -/
theorem noFlush2_2 : ∀ t : Fin cfg2.N, ¬cond2_1 (grid2.coords t) → (cfg2.win 2).flush t = false := by decide +kernel
/-- At the last reduction step the output block is stored. -/
theorem liveAt2_2 : ∀ t : Fin cfg2.N, cond2_1 (grid2.coords t) → cfg2.idle 2 (grid2.coords t) = false := by decide +kernel

/-! ## The memrefs the body is called with -/

/-- Each window's current staging memref at point `t`, and that it is a whole buffer. -/
abbrev ms2_0 (t : Fin cfg2.N) : Memref sig .tc .vmem S4096x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x10 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x10 .f32 := win2_2.stage (cfg2.slots t 2)
abbrev hs2_2 (t : Fin cfg2.N) : (ms2_2 t).IsWhole := hstage2_2 ((cfg2.slots t 2).cast nbuf2_2)
/-- The accumulator: a whole scratch buffer of the kernel's own, the same at every point. -/
abbrev scM2_0 : Memref sig .tc .vmem S2048x10 .f32 := Memref.whole cc2_scratch0

set_option maxHeartbeats 1000000 in
/-- THE FIRST REDUCTION STEP (`k = 0`, not the last). On whole memrefs — the two input blocks at `x0`, `x1`, the
    output block's buffer at `xi`, the accumulator at anything — the body runs to a state with the inputs and
    the output buffer as they were and the accumulator with the pieces `LS` written: the zero splat first, then
    the splat read back plus the product of the blocks, which covers it. The pieces are found by running the body. -/
noncomputable def kernelRun2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) :
    { LS : List (View.Piece (Elt F) S2048x10 .f32) //
      ∀ (xi : Vec F S2048x10 .f32) (E : Set ℕ) (K : PUnit → sProp 𝕄),
        iprop(owns (c : Thread nD τ) arg2 fullShare x0 ∗ owns (c : Thread nD τ) arg3 fullShare x1
            ∗ owns (c : Thread nD τ) arg4 fullShare xi ∗ (∃ d, owns (c : Thread nD τ) arg5 fullShare d)
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xi E K => ?run⟩
  case run =>
    simp only [cc2__spmm_kernel_eq_skeleton]; unfold cc2__spmm_kernel_skel
    unfold owns
    iintro ⟨⟨%f0, %hf0, H0⟩, ⟨%f1, %hf1, H1⟩, H2, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- A MIDDLE REDUCTION STEP (`k` neither 0 nor 2). The accumulator holds `xs`, what the step before left; the
    body adds the product of the blocks to it and stores the sum back, the one piece of `LS`. The output
    block's buffer is not touched. -/
noncomputable def kernelRun2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) :
    { LS : List (View.Piece (Elt F) S2048x10 .f32) //
      ∀ (xi : Vec F S2048x10 .f32) (E : Set ℕ) (K : PUnit → sProp 𝕄),
        iprop(owns (c : Thread nD τ) arg2 fullShare x0 ∗ owns (c : Thread nD τ) arg3 fullShare x1
            ∗ owns (c : Thread nD τ) arg4 fullShare xi ∗ owns (c : Thread nD τ) arg5 fullShare xs
            ∗ (iprop(owns (c : Thread nD τ) arg2 fullShare x0 ∗ owns (c : Thread nD τ) arg3 fullShare x1
                ∗ owns (c : Thread nD τ) arg4 fullShare xi
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, fun xi E K => ?run⟩
  case run =>
    simp only [cc2__spmm_kernel_eq_skeleton]; unfold cc2__spmm_kernel_skel
    unfold owns
    iintro ⟨⟨%f0, %hf0, H0⟩, ⟨%f1, %hf1, H1⟩, H2, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexact H2
    iexists _; iexact HS

set_option maxHeartbeats 1000000 in
/-- THE LAST REDUCTION STEP (`k = 2`). As a middle step, and then the accumulator is read back and stored over the
    whole output block, whose buffer may hold anything before: `L2` is that one store, `LS` the accumulator's. -/
noncomputable def kernelRun2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    Σ' (L2 : List (View.Piece (Elt F) S2048x10 .f32)), { LS : List (View.Piece (Elt F) S2048x10 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS)) -∗ K ⟨⟩))
          ⊢ wp frame (wpE (defs₀ (F := F)) Variants.none c none) E (cc2__spmm_kernel i arg2 harg2 arg3 harg3 arg4 harg4 arg5 harg5) K } := by
  refine ⟨?_, ?_, fun E K => ?run⟩
  case run =>
    simp only [cc2__spmm_kernel_eq_skeleton]; unfold cc2__spmm_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-! ## What the runs found, in closed form -/

/-- The whole-buffer rectangle's offsets are zeros. -/
theorem off00_2 : (![0, 0] : Fin 2 → ℕ) = fun _ => 0 := by funext a; fin_cases a <;> rfl

/-- The first step's two stores into the accumulator cover it. -/
theorem scover2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) (y : S2048x10.Idx) :
    ∃ pc ∈ (kernelRun2_A c i arg2 harg2 arg3 harg3 arg4 harg4 arg5 harg5 hc0 hc1 x0 x1).1, y ∈ pc.1.set :=
  View.cover_of_tiledL (kernelRun2_A c i arg2 harg2 arg3 harg3 arg4 harg4 arg5 harg5 hc0 hc1 x0 x1).1 S2048x10.size (by sl_kernel_rfl) y

/-- They leave the product of the blocks added to the zero splat: the later store covers, and the load between the
    two reads the splat back. -/
theorem canon2_A (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : cond2_0 i) (hc1 : ¬cond2_1 i)
    (x0 : Vec F S4096x2048 .bf16) (x1 : Vec F S4096x10 .bf16) :
    View.canon (kernelRun2_A c i arg2 harg2 arg3 harg3 arg4 harg4 arg5 harg5 hc0 hc1 x0 x1).1 = k2_pay2 x0 x1 (k2_pay1 (F := F)) := by
  unfold kernelRun2_A; dsimp only; sl_unfold_words
  rw [View.canon_cons_unit_zero (S := S2048x10) off00_2]
  simp only [View.readAt_eq_ld, harg2.read_unread, harg3.read_unread, View.ld_unit_zero (S := S4096x2048) off00_2,
    View.ld_unit_zero (S := S4096x10) off00_2, View.readCov_unit_zero (S := S2048x10) _ off00_2]

/-- A middle step's one store into the accumulator covers it. -/
theorem scover2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) (y : S2048x10.Idx) :
    ∃ pc ∈ (kernelRun2_B c i arg2 harg2 arg3 harg3 arg4 harg4 arg5 harg5 hc0 hc1 x0 x1 xs).1, y ∈ pc.1.set :=
  View.cover_of_tiledL (kernelRun2_B c i arg2 harg2 arg3 harg3 arg4 harg4 arg5 harg5 hc0 hc1 x0 x1 xs).1 S2048x10.size (by sl_kernel_rfl) y

/-- It leaves the product of the blocks added to what the accumulator held. -/
theorem canon2_B (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : ¬cond2_1 i)
    (x0 : Vec F S4096x2048 .bf16) (x1 : Vec F S4096x10 .bf16) (xs : Vec F S2048x10 .f32) :
    View.canon (kernelRun2_B c i arg2 harg2 arg3 harg3 arg4 harg4 arg5 harg5 hc0 hc1 x0 x1 xs).1 = k2_pay2 x0 x1 xs := by
  unfold kernelRun2_B; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2]

/-- The last step's store into the accumulator covers it, -/
theorem scover2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) (y : S2048x10.Idx) :
    ∃ pc ∈ (kernelRun2_C c i arg2 harg2 arg3 harg3 arg4 harg4 arg5 harg5 hc0 hc1 x0 x1 xs).2.1, y ∈ pc.1.set :=
  View.cover_of_tiledL (kernelRun2_C c i arg2 harg2 arg3 harg3 arg4 harg4 arg5 harg5 hc0 hc1 x0 x1 xs).2.1 S2048x10.size (by sl_kernel_rfl) y

/-- and its store into the output block covers that. -/
theorem cover2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) (y : S2048x10.Idx) :
    ∃ pc ∈ (kernelRun2_C c i arg2 harg2 arg3 harg3 arg4 harg4 arg5 harg5 hc0 hc1 x0 x1 xs).1, y ∈ pc.1.set :=
  View.cover_of_tiledL (kernelRun2_C c i arg2 harg2 arg3 harg3 arg4 harg4 arg5 harg5 hc0 hc1 x0 x1 xs).1 S2048x10.size (by sl_kernel_rfl) y

/-- The accumulator ends with the product added to what it held; -/
theorem scanon2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    View.canon (kernelRun2_C c i arg2 harg2 arg3 harg3 arg4 harg4 arg5 harg5 hc0 hc1 x0 x1 xs).2.1 = k2_pay2 x0 x1 xs := by
  unfold kernelRun2_C; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2]

/-- and the output block with the same: the accumulator read back after its store. -/
theorem canon2_C (c : Dev nD) (i : grid2.Coords) (arg2 : Memref sig .tc .vmem S4096x2048 .bf16) (harg2 : arg2.IsWhole) (arg3 : Memref sig .tc .vmem S4096x10 .bf16) (harg3 : arg3.IsWhole) (arg4 : Memref sig .tc .vmem S2048x10 .f32) (harg4 : arg4.IsWhole) (arg5 : Memref sig .tc .vmem S2048x10 .f32) (harg5 : arg5.IsWhole) (hc0 : ¬cond2_0 i) (hc1 : cond2_1 i)
    (x0 : Vec F S4096x2048 .bf16) (x1 : Vec F S4096x10 .bf16) (xs : Vec F S2048x10 .f32) :
    View.canon (kernelRun2_C c i arg2 harg2 arg3 harg3 arg4 harg4 arg5 harg5 hc0 hc1 x0 x1 xs).1 = k2_pay2 x0 x1 xs := by
  unfold kernelRun2_C; dsimp only; sl_unfold_words
  rw [View.canon_unit_zero (S := S2048x10) off00_2]
  simp only [View.readAt_eq_ld, harg2.read_unread, harg3.read_unread, harg5.read_unread, View.ld_unit_zero (S := S4096x2048) off00_2,
    View.ld_unit_zero (S := S4096x10) off00_2, View.ld_unit_zero (S := S2048x10) off00_2, View.readCov_unit_zero (S := S2048x10) _ off00_2]

variable (V : (c : Dev nD) → (b : Ref sig .tc) → Buf (Elt F) ((c : Thread nD τ).loc b))

/-! ## The windows' blocks -/

/-- Window w's block of region 2 at point t, read off the array the region finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two input blocks at their literal vector types. -/
abbrev lhs2 (c : Dev nD) (t : Fin cfg2.N) : Vec F S4096x2048 .bf16 := iblk2 V c 0 t
abbrev rhs2 (c : Dev nD) (t : Fin cfg2.N) : Vec F S4096x10 .bf16 := iblk2 V c 1 t

/-- An input window's current buffer holds its block at every point, whether the pipeline fetched it there or
    the block index did not move: for any proof data with the region's arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulation -/

/-- THE ACCUMULATOR after the body at position `n`: at the first step of a row block (`n % 3 = 0`) the zero
    splat plus the product of the point's blocks; at a later step what the step before left plus the product. -/
def acc2 (c : Dev nD) : (n : ℕ) → n < cfg2.N → Vec F S2048x10 .f32
  | 0, hn => k2_pay2 (lhs2 V c ⟨0, hn⟩) (rhs2 V c ⟨0, hn⟩) (k2_pay1 (F := F))
  | n + 1, hn =>
    if (n + 1) % 3 = 0 then k2_pay2 (lhs2 V c ⟨n + 1, hn⟩) (rhs2 V c ⟨n + 1, hn⟩) (k2_pay1 (F := F))
    else k2_pay2 (lhs2 V c ⟨n + 1, hn⟩) (rhs2 V c ⟨n + 1, hn⟩) (acc2 c n (Nat.lt_of_succ_lt hn))

/-- (output window 2's staging buffer, the accumulator scratch) after the body at position n. The output block
    is stored only at the last step of a row block, with the accumulator; at the other points, where the window
    is idle and nothing reads this component, it is given the same value. -/
def outsAt2 (c : Dev nD) (n : ℕ) (hn : n < cfg2.N) : Vec F S2048x10 .f32 × Vec F S2048x10 .f32 :=
  (acc2 V c n hn, acc2 V c n hn)

theorem acc2_A (c : Dev nD) (t : Fin cfg2.N) (h : t.val % 3 = 0) :
    acc2 V c t.val t.isLt = k2_pay2 (lhs2 V c t) (rhs2 V c t) (k2_pay1 (F := F)) := by
  obtain ⟨n, hn⟩ := t
  cases n with
  | zero => rfl
  | succ n => exact (if_pos h).trans rfl

theorem acc2_B (c : Dev nD) (t : Fin cfg2.N) (h : t.val % 3 ≠ 0) :
    acc2 V c t.val t.isLt = k2_pay2 (lhs2 V c t) (rhs2 V c t) (acc2 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The invariant -/

/-- The core's scoped buffers other than this region's staging buffers and its accumulator — the staging buffers
    and accumulators of the other two regions — each at some contents: this region's body never touches them. -/
def othersS2 (c : Dev nD) : sProp 𝕄 :=
  Pipeline.scopedRestBut (Ix := Unit) (Name := ℕ) (U := UR sig nD τ) (Lvl := ℕ) (Val := Elt F) spec2 c [cc2_scratch0]

/-- The region's invariant as the launch hands it over: the accumulator at some contents, the other scoped
    buffers, the generator register at some state. -/
theorem PhiA2_eq (c : Dev nD) :
    (Pipeline.ΦA spec2 c : sProp 𝕄)
      = iprop(iprop((∃ d, owns (c : Thread nD τ) scM2_0 fullShare d) ∗ othersS2 c) ∗ (∃ r, prngReg c r)) := by
  unfold Pipeline.ΦA othersS2
  rw [Pipeline.scopedRest_split_of_list spec2 c [cc2_scratch0] (by decide) (by decide)]
  simp only [scM2_0, owns_whole, bigSepL_singleton]; try rfl

/-- The invariant before position `n`: before the first point what the launch hands over; afterwards the same with
    the accumulator at what the point before left in it. -/
def PhiS2 (c : Dev nD) : (n : ℕ) → n ≤ cfg2.N → sProp 𝕄
  | 0, _ => Pipeline.ΦA spec2 c
  | n + 1, hn => iprop(iprop(owns (c : Thread nD τ) scM2_0 fullShare (acc2 V c n hn) ∗ othersS2 c) ∗ (∃ r, prngReg c r))

theorem PhiS2_succ (c : Dev nD) (n : ℕ) (hn : n < cfg2.N) :
    PhiS2 V c (n + 1) hn = iprop(iprop(owns (c : Thread nD τ) scM2_0 fullShare (acc2 V c n hn) ∗ othersS2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (acc2 V c (n - 1) (by omega)) ∗ othersS2 c) ∗ (∃ r, prngReg c r)) := by
  cases n with
  | zero => exact absurd rfl hz
  | succ n => rfl

/-- At any position the invariant holds the accumulator at SOME contents. -/
theorem PhiS2_any (c : Dev nD) (n : ℕ) (h : n ≤ cfg2.N) :
    PhiS2 V c n h ⊢ iprop(iprop((∃ d, owns (c : Thread nD τ) scM2_0 fullShare d) ∗ othersS2 c) ∗ (∃ r, prngReg c r)) := by
  cases n with
  | zero => rw [show PhiS2 V c 0 h = Pipeline.ΦA spec2 c from rfl, PhiA2_eq]
  | succ n =>
    rw [PhiS2_succ]
    iintro ⟨⟨HS, Hr⟩, Hg⟩
    isplitl [HS Hr]
    · isplitl [HS]
      · iexists _; iexact HS
      iexact Hr
    iexact Hg

/-! ## The proof data -/

/-- The proof data of region 2 on core `c`: the arrays as the region finds them; after the body each input's
    buffer at its block and the output's at `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The input buffers hold the point's blocks; `t % 3` says which of the three runs
    applies. At a first step the accumulator may hold anything; at a later step the invariant hands it over at
    what the step before left. The accumulator is taken back at this point's value (its stores cover it and
    read as the closed form); away from the last step the output buffer goes back untouched, at the last step
    it is taken back at the accumulator's value. The other scoped buffers, the generator register and the
    core's tallies pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [PhiS2_castSucc V c t]
  have hN : t.val < 18 := lt_of_lt_of_eq t.isLt (show cfg2.N = 18 from N_2)
  by_cases h0 : t.val % 3 = 0
  · have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_A V c t h0]
    refine BIBase.Entails.trans (sep_mono_left (PhiS2_any V c _ _)) ?_
    iintro ⟨⟨⟨HS, Hr⟩, Hg⟩, Ho, ⟨%d0, H0⟩, ⟨%d1, H1⟩, ⟨%d2, H2⟩⟩
    iapply ((kernelRun2_A c (grid2.coords t) (ms2_0 t) (hs2_0 t) (ms2_1 t) (hs2_1 t) (ms2_2 t) (hs2_2 t) scM2_0 (Memref.isWhole_whole _) hc0 hc1 (lhs2 V c t) (rhs2 V c t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hr Hg]
    · isplitl [HS Hr]
      · isplitl [HS]
        · unfold owns; iexists _; isplitr
          swap; · iexact HS
          ipureintro
          exact (View.read_writes_eq_canon _ _ _ (scover2_A c (grid2.coords t) (ms2_0 t) (hs2_0 t) (ms2_1 t) (hs2_1 t) (ms2_2 t) (hs2_2 t) scM2_0 (Memref.isWhole_whole _) hc0 hc1 (lhs2 V c t) (rhs2 V c t))).trans
            (canon2_A c (grid2.coords t) (ms2_0 t) (hs2_0 t) (ms2_1 t) (hs2_1 t) (ms2_2 t) (hs2_2 t) scM2_0 (Memref.isWhole_whole _) hc0 hc1 (lhs2 V c t) (rhs2 V c t))
        iexact Hr
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    have hz : t.val ≠ 0 := fun h => h0 (by rw [h])
    rw [PhiS2_pos V c _ _ hz, acc2_B V c t h0]
    by_cases h1 : t.val % 3 = 2
    · have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [show (outsAt2 V c t.val t.isLt).1 = acc2 V c t.val t.isLt from rfl, acc2_B V c t h0]
      iintro ⟨⟨⟨HS, Hr⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt))).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS Hr]
        · isplitl [HS]
          · unfold owns; iexists _; isplitr
            swap; · iexact HS
            ipureintro
            exact (View.read_writes_eq_canon _ _ _ (scover2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
              (scanon2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
          iexact Hr
        iexact Hg
      isplitl [Ho]; · iexact Ho
      isplitl [H0]; · iexact H0
      isplitl [H1]; · iexact H1
      unfold owns; iexists _; isplitr
      swap; · iexact H2
      ipureintro
      exact (View.read_writes_eq_canon _ _ _ (cover2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
        (canon2_C c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
    · have hc1 : ¬cond2_1 (grid2.coords t) := fun h => h1 ((hcond2_1 t).mp h)
      rw [Dat.leavesExact_idle (dat2 V c) 2 t (idleAt2_2 t hc1) (noFlush2_2 t hc1)]
      iintro ⟨⟨⟨HS, Hr⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt))).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS Hr]
        · isplitl [HS]
          · unfold owns; iexists _; isplitr
            swap; · iexact HS
            ipureintro
            exact (View.read_writes_eq_canon _ _ _ (scover2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))).trans
              (canon2_B c (grid2.coords t) (ms2_0 t) (hs2_0 t) (ms2_1 t) (hs2_1 t) (ms2_2 t) (hs2_2 t) scM2_0 (Memref.isWhole_whole _) hc0 hc1 (lhs2 V c t) (rhs2 V c t) (acc2 V c (t.val - 1) (Nat.lt_of_le_of_lt (Nat.sub_le _ _) t.isLt)))
          iexact Hr
        iexact Hg
      isplitl [Ho]; · iexact Ho
      isplitl [H0]; · iexact H0
      isplitl [H1]; · iexact H1
      iexists _; iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends, shares, tallies -/

/-- Before the first point the invariant is what the launch hands over. -/
theorem Phi2_first (c : Dev nD) : (dat2 V c).Φ 0 = Pipeline.ΦA spec2 c :=
  (show (dat2 V c).Φ 0 = PhiS2 V c 0 (Nat.zero_le _) from rfl).trans rfl

/-- After the last point it gives that back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

theorem share2 (c : Dev nD) (w : Fin cfg2.W) : (dat2 V c).q w = fullShare := by dsimp only [dat2]
theorem owed2 (c : Dev nD) (t : Fin (cfg2.N + 1)) : (dat2 V c).owed t = 0 := by dsimp only [dat2]
theorem recorded2 (c : Dev nD) (t : Fin (cfg2.N + 1)) : (dat2 V c).recorded t = Set.univ := by dsimp only [dat2]

/-! ## The values, generic in the float family -/

/-- What the accumulator holds after each point, generic in F: at the first point of a row block (k = 0) the
    zero splat plus the product of the blocks; afterwards the previous contents plus the product. -/
theorem acc2_first (c : Dev nD) (t : Fin cfg2.N) (h : t.val % 3 = 0) :
    (outsAt2 V c t.val t.isLt).2 = k2_pay2 (lhs2 V c t) (rhs2 V c t) (k2_pay1 (F := F)) := acc2_A V c t h
theorem acc2_next (c : Dev nD) (t : Fin cfg2.N) (h : t.val % 3 ≠ 0) :
    (outsAt2 V c t.val t.isLt).2 = k2_pay2 (lhs2 V c t) (rhs2 V c t) (outsAt2 V c (t.val - 1) (Nat.lt_of_le_of_lt (Nat.sub_le _ _) t.isLt)).2 := acc2_B V c t h
/-- At the last point of a row block (k = 2) the output window's buffer is the accumulator. -/
theorem out2_last (c : Dev nD) (t : Fin cfg2.N) (h : t.val % 3 = 2) :
    (outsAt2 V c t.val t.isLt).1 = (outsAt2 V c t.val t.isLt).2 := rfl

end Cert.KernelIdeal.Hand

end
-- ==== Proof.KI.Regs.lean ====
import proofs.«421346_j24266565222650_2_alg».proof.Proof.Gen.KernelIdeal.Regions
import proofs.«421346_j24266565222650_2_alg».proof.Proof.KI.R0Body
import proofs.«421346_j24266565222650_2_alg».proof.Proof.KI.R1Body
import proofs.«421346_j24266565222650_2_alg».proof.Proof.KI.R2Body
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the three regions leave

Each region writes one array: region 0 the array main_v39, region 1 main_v59, region 2 main_v99. What it
leaves there is the fold of its output window's write-backs over all 18 points, computed from the contents
the region is entered at. Region 1 is entered at contents that depend on what region 0 left, region 2 at
contents that depend on both, so the family of left contents is built in three stages. -/

/-- The contents region 0 is entered at: the launch memory after the first two host stretches. -/
abbrev E0 : (c : Dev nD) → (b : Ref sig .tc) → Buf (Elt F) ((c : Thread nD τ).loc b) := fun c b => Gen.V2 m c b

/-- What region 0 leaves in main_v39. -/
def res0 (c : Dev nD) : Buf (Elt F) ((c : Thread nD τ).loc main_v39) := (dat0 (E0 m) c).arrAt 2 cfg0.N

/-- Stage one: every buffer as region 0's exit has it. -/
def outsA : Gen.Outs (F := F) := fun _ r c => Function.update (Gen.V2 m c) main_v39 (res0 m c) r

/-- The contents region 1 is entered at. -/
abbrev E1 : (c : Dev nD) → (b : Ref sig .tc) → Buf (Elt F) ((c : Thread nD τ).loc b) := fun c b => Gen.V7 m (outsA m) c b

/-- What region 1 leaves in main_v59. -/
def res1 (c : Dev nD) : Buf (Elt F) ((c : Thread nD τ).loc main_v59) := (dat1 (E1 m) c).arrAt 2 cfg1.N

/-- Stage two: at item 8 every buffer as region 1's exit has it, elsewhere stage one. -/
def outsB : Gen.Outs (F := F) := fun J r c =>
  if J = 8 then Function.update (Gen.V7 m (outsA m) c) main_v59 (res1 m c) r else outsA m J r c

/-- The contents region 2 is entered at. -/
abbrev E2 : (c : Dev nD) → (b : Ref sig .tc) → Buf (Elt F) ((c : Thread nD τ).loc b) := fun c b => Gen.V12 m (outsB m) c b

/-- What region 2 leaves in main_v99. -/
def res2 (c : Dev nD) : Buf (Elt F) ((c : Thread nD τ).loc main_v99) := (dat2 (E2 m) c).arrAt 2 cfg2.N

/-- The contents the regions really leave: at item 13 every buffer as region 2's exit has it, elsewhere stage two. -/
def outsH : Gen.Outs (F := F) := fun J r c =>
  if J = 13 then Function.update (Gen.V12 m (outsB m) c) main_v99 (res2 m c) r else outsB m J r c

theorem outsH_3 (c : Dev nD) : outsH m 3 main_v39 c = res0 m c := by
  show Function.update (Gen.V2 m c) main_v39 (res0 m c) main_v39 = _
  exact Function.update_self ..
theorem outsB_3 (c : Dev nD) : outsB m 3 main_v39 c = res0 m c := by
  show Function.update (Gen.V2 m c) main_v39 (res0 m c) main_v39 = _
  exact Function.update_self ..
theorem outsA_3 (c : Dev nD) : outsA m 3 main_v39 c = res0 m c := by
  show Function.update (Gen.V2 m c) main_v39 (res0 m c) main_v39 = _
  exact Function.update_self ..
theorem outsH_8 (c : Dev nD) : outsH m 8 main_v59 c = res1 m c := by
  show Function.update (Gen.V7 m (outsA m) c) main_v59 (res1 m c) main_v59 = _
  exact Function.update_self ..
theorem outsB_8 (c : Dev nD) : outsB m 8 main_v59 c = res1 m c := by
  show Function.update (Gen.V7 m (outsA m) c) main_v59 (res1 m c) main_v59 = _
  exact Function.update_self ..
theorem outsH_13 (c : Dev nD) : outsH m 13 main_v99 c = res2 m c := by
  show Function.update (Gen.V12 m (outsB m) c) main_v99 (res2 m c) main_v99 = _
  exact Function.update_self ..

/-- The valuations before each region read only the stages already fixed. -/
theorem V3_H (c : Dev nD) : Gen.V3 m (outsH m) c = Function.update (Gen.V2 m c) main_v39 (res0 m c) := by
  show Function.update (Gen.V2 m c) main_v39 (outsH m 3 main_v39 c) = _
  rw [outsH_3]
theorem V3_B (c : Dev nD) : Gen.V3 m (outsB m) c = Function.update (Gen.V2 m c) main_v39 (res0 m c) := by
  show Function.update (Gen.V2 m c) main_v39 (outsB m 3 main_v39 c) = _
  rw [outsB_3]
theorem V3_A (c : Dev nD) : Gen.V3 m (outsA m) c = Function.update (Gen.V2 m c) main_v39 (res0 m c) := by
  show Function.update (Gen.V2 m c) main_v39 (outsA m 3 main_v39 c) = _
  rw [outsA_3]
theorem V7_H (c : Dev nD) : Gen.V7 m (outsH m) c = Gen.V7 m (outsA m) c := by
  show StableHlo.after hostOps1_3 (StableHlo.after hostOps1_2 (StableHlo.after hostOps1_1 (StableHlo.after hostOps1 (Gen.V3 m (outsH m) c)))) = StableHlo.after hostOps1_3 (StableHlo.after hostOps1_2 (StableHlo.after hostOps1_1 (StableHlo.after hostOps1 (Gen.V3 m (outsA m) c))))
  rw [V3_H, V3_A]
theorem V7_B (c : Dev nD) : Gen.V7 m (outsB m) c = Gen.V7 m (outsA m) c := by
  show StableHlo.after hostOps1_3 (StableHlo.after hostOps1_2 (StableHlo.after hostOps1_1 (StableHlo.after hostOps1 (Gen.V3 m (outsB m) c)))) = StableHlo.after hostOps1_3 (StableHlo.after hostOps1_2 (StableHlo.after hostOps1_1 (StableHlo.after hostOps1 (Gen.V3 m (outsA m) c))))
  rw [V3_B, V3_A]
theorem V8_H (c : Dev nD) : Gen.V8 m (outsH m) c = Function.update (Gen.V7 m (outsA m) c) main_v59 (res1 m c) := by
  show Function.update (Gen.V7 m (outsH m) c) main_v59 (outsH m 8 main_v59 c) = _
  rw [outsH_8, V7_H]
theorem V8_B (c : Dev nD) : Gen.V8 m (outsB m) c = Function.update (Gen.V7 m (outsA m) c) main_v59 (res1 m c) := by
  show Function.update (Gen.V7 m (outsB m) c) main_v59 (outsB m 8 main_v59 c) = _
  rw [outsB_8, V7_B]
theorem V12_H (c : Dev nD) : Gen.V12 m (outsH m) c = Gen.V12 m (outsB m) c := by
  show StableHlo.after hostOps2_3 (StableHlo.after hostOps2_2 (StableHlo.after hostOps2_1 (StableHlo.after hostOps2 (Gen.V8 m (outsH m) c)))) = StableHlo.after hostOps2_3 (StableHlo.after hostOps2_2 (StableHlo.after hostOps2_1 (StableHlo.after hostOps2 (Gen.V8 m (outsB m) c))))
  rw [V8_H, V8_B]
theorem V13_H (c : Dev nD) : Gen.V13 m (outsH m) c = Function.update (Gen.V12 m (outsB m) c) main_v99 (res2 m c) := by
  show Function.update (Gen.V12 m (outsH m) c) main_v99 (outsH m 13 main_v99 c) = _
  rw [outsH_13, V12_H]

/-! ## The proof data of the three pipelines, and what rides beside the buffers -/

/-- Every pipeline's proof data, each at the contents its region is entered at. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its
    dues, at nothing. -/
abbrev R (c : Dev nD) : sProp 𝕄 := iprop((∃ r, prngReg c r) ∗ ∃ W, owes (c : Thread nD τ) (0 : CellTallies nD τ sig Unit) W)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A core owing nothing, whatever pairs its waits have recorded, owes what a proof data says at a point where
    the data owes nothing and bounds the recorded pairs by everything. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (by rw [hr]; trivial)
  iexact HO
/-- And back: at a point where the data owes nothing, the core owes nothing. -/
theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-! ## The exit contents of each region, against the valuations between the items -/

/-- The contents each region is left at, read at the TensorCore's references. -/
abbrev X0 : (c : Dev nD) → (b : Ref sig .tc) → Buf (Elt F) ((c : Thread nD τ).loc b) := fun c b => Gen.V3 m (outsH m) c b
abbrev X1 : (c : Dev nD) → (b : Ref sig .tc) → Buf (Elt F) ((c : Thread nD τ).loc b) := fun c b => Gen.V8 m (outsH m) c b
abbrev X2 : (c : Dev nD) → (b : Ref sig .tc) → Buf (Elt F) ((c : Thread nD τ).loc b) := fun c b => Gen.V13 m (outsH m) c b

/-- At region 0's exit each of its arrays holds what the pipeline leaves: the two operands what they held (an
    input array is never written), the result array the fold of the write-backs. -/
theorem hF0 (c : Dev nD) : ∀ w : Fin cfg0.W, (dat0 (E0 m) c).arrAt w cfg0.N = X0 m c (Pipeline.arrRef spec0 w)
  | 0 => ((dat0 (E0 m) c).arrAt_in 0 rfl _).trans ((A_eq0 (E0 m) c 0).trans (Gen.V3_of m (outsH m) c main_v32 (by decide)).symm)
  | 1 => ((dat0 (E0 m) c).arrAt_in 1 rfl _).trans ((A_eq0 (E0 m) c 1).trans (Gen.V3_of m (outsH m) c main_v38 (by decide)).symm)
  | 2 => by
    show res0 m c = Gen.V3 m (outsH m) c main_v39
    rw [V3_H, Function.update_self]
  | ⟨_ + 3, h⟩ => absurd h (Nat.not_lt.2 (Nat.le_add_left _ _))
/-- Every other buffer is as the region found it. -/
theorem hrest0 (c : Dev nD) : ∀ b, b ∉ Finset.univ.image (Pipeline.arrRef spec0) → X0 m c b = E0 m c b := by
  intro b hb
  refine Gen.V3_of m (outsH m) c b fun h => hb ?_
  rw [List.mem_singleton] at h
  subst h
  exact Finset.mem_image.mpr ⟨2, Finset.mem_univ _, rfl⟩

theorem hF1 (c : Dev nD) : ∀ w : Fin cfg1.W, (dat1 (E1 m) c).arrAt w cfg1.N = X1 m c (Pipeline.arrRef spec1 w)
  | 0 => ((dat1 (E1 m) c).arrAt_in 0 rfl _).trans ((A_eq1 (E1 m) c 0).trans
      ((congrFun (V7_H m c) _).symm.trans (Gen.V8_of m (outsH m) c main_v32 (by decide)).symm))
  | 1 => ((dat1 (E1 m) c).arrAt_in 1 rfl _).trans ((A_eq1 (E1 m) c 1).trans
      ((congrFun (V7_H m c) _).symm.trans (Gen.V8_of m (outsH m) c main_v58 (by decide)).symm))
  | 2 => by
    show res1 m c = Gen.V8 m (outsH m) c main_v59
    rw [V8_H, Function.update_self]
  | ⟨_ + 3, h⟩ => absurd h (Nat.not_lt.2 (Nat.le_add_left _ _))
theorem hrest1 (c : Dev nD) : ∀ b, b ∉ Finset.univ.image (Pipeline.arrRef spec1) → X1 m c b = E1 m c b := by
  intro b hb
  refine (Gen.V8_of m (outsH m) c b fun h => hb ?_).trans (congrFun (V7_H m c) _)
  rw [List.mem_singleton] at h
  subst h
  exact Finset.mem_image.mpr ⟨2, Finset.mem_univ _, rfl⟩

theorem hF2 (c : Dev nD) : ∀ w : Fin cfg2.W, (dat2 (E2 m) c).arrAt w cfg2.N = X2 m c (Pipeline.arrRef spec2 w)
  | 0 => ((dat2 (E2 m) c).arrAt_in 0 rfl _).trans ((A_eq2 (E2 m) c 0).trans
      ((congrFun (V12_H m c) _).symm.trans (Gen.V13_of m (outsH m) c main_v32 (by decide)).symm))
  | 1 => ((dat2 (E2 m) c).arrAt_in 1 rfl _).trans ((A_eq2 (E2 m) c 1).trans
      ((congrFun (V12_H m c) _).symm.trans (Gen.V13_of m (outsH m) c main_v98 (by decide)).symm))
  | 2 => by
    show res2 m c = Gen.V13 m (outsH m) c main_v99
    rw [V13_H, Function.update_self]
  | ⟨_ + 3, h⟩ => absurd h (Nat.not_lt.2 (Nat.le_add_left _ _))
theorem hrest2 (c : Dev nD) : ∀ b, b ∉ Finset.univ.image (Pipeline.arrRef spec2) → X2 m c b = E2 m c b := by
  intro b hb
  refine (Gen.V13_of m (outsH m) c b fun h => hb ?_).trans (congrFun (V12_H m c) _)
  rw [List.mem_singleton] at h
  subst h
  exact Finset.mem_image.mpr ⟨2, Finset.mem_univ _, rfl⟩

/-! ## The regions as segments

Each region is entered from the thread state "every unscoped buffer at the valuation before it, the generator
register at some state, nothing owed" and left at the same with the valuation after it. At the entry the
region's three arrays are split out of the unscoped buffers, the rest bypassing the region; the generator
register goes into the body's invariant at the first point and comes back from it at the last; at the exit the
arrays, the result array now at the fold of its write-backs, are put back among the unscoped buffers. -/

set_option backward.isDefEq.respectTransparency.types false in
/-- REGION 0: entered after the first two host stretches, left with main_v39 at what its write-backs fold to. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (Gen.V2 m c) ∗ R c)
  post c := iprop(StableHlo.held (c : Thread nD τ) (Pipeline.ucRefs τ sig) (Gen.V3 m (outsH m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun w => share0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 0 c) 0 (owed0 (E0 m) c 0) (recorded0 (E0 m) c 0))
      iexact HO
    isplitl [Hp]; · iexact Hp
    iexact Hrest
  hin c := by
    refine BIBase.Entails.trans ?_ (Entails.of_eq (Phi0_first (E0 m) c).symm)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => share0 (E0 m) c w)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 0 c) (Fin.last _) (owed0 (E0 m) c _))
    iexact HO

set_option backward.isDefEq.respectTransparency.types false in
/-- REGION 1: entered after the four host stretches that follow region 0, left with main_v59 at what its write-backs fold to. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed1 (E1 m) c t
  pre c := iprop(StableHlo.held (c : Thread nD τ) (Pipeline.ucRefs τ sig) (Gen.V7 m (outsH m) c) ∗ R c)
  post c := iprop(StableHlo.held (c : Thread nD τ) (Pipeline.ucRefs τ sig) (Gen.V8 m (outsH m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun w => share1 (E1 m) c w) (E1 m c) fun w => A_eq1 (E1 m) c w
    rw [Pipeline.unscopedBufs_held] at hsplit
    rw [V7_H]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 1 c) 0 (owed1 (E1 m) c 0) (recorded1 (E1 m) c 0))
      iexact HO
    isplitl [Hp]; · iexact Hp
    iexact Hrest
  hin c := by
    refine BIBase.Entails.trans ?_ (Entails.of_eq (Phi1_first (E1 m) c).symm)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => share1 (E1 m) c w)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 1 c) (Fin.last _) (owed1 (E1 m) c _))
    iexact HO

set_option backward.isDefEq.respectTransparency.types false in
/-- REGION 2: entered after the four host stretches that follow region 1, left with main_v99 at what its write-backs fold to. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun c t => owed2 (E2 m) c t
  pre c := iprop(StableHlo.held (c : Thread nD τ) (Pipeline.ucRefs τ sig) (Gen.V12 m (outsH m) c) ∗ R c)
  post c := iprop(StableHlo.held (c : Thread nD τ) (Pipeline.ucRefs τ sig) (Gen.V13 m (outsH m) c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) Gen.adm (pdats m) launch2.win launch2.arr_whole c
      ((pdats m 2 c).share_full fun w => share2 (E2 m) c w) (E2 m c) fun w => A_eq2 (E2 m) c w
    rw [Pipeline.unscopedBufs_held] at hsplit
    rw [V12_H]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats m 2 c) 0 (owed2 (E2 m) c 0) (recorded2 (E2 m) c 0))
      iexact HO
    isplitl [Hp]; · iexact Hp
    iexact Hrest
  hin c := by
    refine BIBase.Entails.trans ?_ (Entails.of_eq (Phi2_first (E2 m) c).symm)
    unfold Pipeline.ΦA
    iintro ⟨Hp, -, Hr⟩
    isplitl [Hr]; · iexact Hr
    iexact Hp
  hout c := by
    rw [Pipeline.ownSems0_none]
    refine BIBase.Entails.trans (hout2 (E2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => share2 (E2 m) c w)
      (E2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats m 2 c) (Fin.last _) (owed2 (E2 m) c _))
    iexact HO

/-! ## The run of @main -/

set_option backward.isDefEq.respectTransparency.types false in
/-- THE RUN: from any memory with zero counters, every weakly fair execution of @main on the TensorCores
    terminates, and in every final memory each unscoped buffer holds what the last valuation says — the three
    result arrays at what the regions leave, every later host result computed from them. The launch deals each
    core its unscoped buffers at the launch memory, its generator register and its dues at nothing; the items
    chain, each left at the valuation the next is entered from; at the end every unscoped buffer is read off the
    last thread state against the final memory. -/
theorem run_all (ρ : Dev nD → PrngReg) :
    θ_run defs (onTc (τ := τ) (main (F := F))) ⟨m, fun _ => 0, ρ⟩ (fun r => ∀ c : Dev nD, ∀ b : Ref sig .tc,
      ¬ (Proc.devRef (τ := τ) .tc b).isScoped → r.2.mem ((c.tc : Thread nD τ).loc b) = Gen.V19 m (outsH m) c (Proc.devRef .tc b)) := by
  refine Pipeline.θ_run_regions_kit_dev (pcfgs (F := F)) Gen.adm (pdats m) () cellOf_inj emb₁ defs₀ 𝒱₀ L lv m ρ main
    (Gen.segs m (outsH m) 𝒱₀ L lv (fun _ => R) () (pdats m) (reg0 m) (reg1 m) (reg2 m))
    (fun c Q => by
      rewrite [main_chain c, Pipeline.Seg.run_eq_chain,
        show (Gen.segs m (outsH m) 𝒱₀ L lv (fun _ => R) () (pdats m) (reg0 m) (reg1 m) (reg2 m) c).map Pipeline.Seg.prog = [
          StableHlo.seq hostOps0,
          StableHlo.seq hostOps0_1,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2,
          StableHlo.seq hostOps2_1,
          StableHlo.seq hostOps2_2,
          StableHlo.seq hostOps2_3,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V19 m (outsH m) c))
    (hch := fun c => ⟨.rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V19 m (outsH m) c b)
    (hfin := fun c s' => by
      iintro ⟨Hh, HSI⟩
      unfold StableHlo.held
      imodintro
      iapply (pointsTo_read_all (Pipeline.ucRefs τ sig) (fun b => ((c : Thread nD τ).1, b)) (Gen.V19 m (outsH m) c) s')
      isplitl [Hh] <;> iassumption)
    (hQ := fun s h c b hb => h c _ (mem_uc b hb))

end Cert.KernelIdeal.Hand

end
-- ==== Proof.KI.Spec.lean ====
import Idealize.ShloMosaic.Lib.StableHlo
import Idealize.ShloMosaic.PureOps

set_option synthInstance.maxSize 4096

/-! # The stages of the graph-convolution forward pass

Both programs compute, from node features, an edge list and the layer weights, two graph-convolution
layers, a soft cluster assignment, two scalar losses and class log-probabilities. Each stage below is
one short composition of host operations, stated once, generic in the float family. -/

noncomputable section

namespace Cert.Hand.Spec

open Idealize.ShloMosaic

/-! ## Shapes -/

abbrev S12000x128 : Shape := ⟨2, ![12000, 128]⟩
abbrev S2x384000 : Shape := ⟨2, ![2, 384000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S32x7 : Shape := ⟨2, ![32, 7]⟩
abbrev S7 : Shape := ⟨1, ![7]⟩
abbrev S1x384000 : Shape := ⟨2, ![1, 384000]⟩
abbrev S384000 : Shape := ⟨1, ![384000]⟩
abbrev S_ : Shape := ⟨0, ![]⟩
abbrev S12000 : Shape := ⟨1, ![12000]⟩
abbrev S384000x1 : Shape := ⟨2, ![384000, 1]⟩
abbrev S384000x2 : Shape := ⟨2, ![384000, 2]⟩
abbrev S384000x32 : Shape := ⟨2, ![384000, 32]⟩
abbrev S12288x12288 : Shape := ⟨2, ![12288, 12288]⟩
abbrev S12000x12000 : Shape := ⟨2, ![12000, 12000]⟩
abbrev S12000x32 : Shape := ⟨2, ![12000, 32]⟩
abbrev S12000x1 : Shape := ⟨2, ![12000, 1]⟩
abbrev S12288x32 : Shape := ⟨2, ![12288, 32]⟩
abbrev S1x32 : Shape := ⟨2, ![1, 32]⟩
abbrev S12000x10 : Shape := ⟨2, ![12000, 10]⟩
abbrev S1x10 : Shape := ⟨2, ![1, 10]⟩
abbrev S12288x10 : Shape := ⟨2, ![12288, 10]⟩
abbrev S10x12000 : Shape := ⟨2, ![10, 12000]⟩
abbrev S10x10 : Shape := ⟨2, ![10, 10]⟩
abbrev S12000x7 : Shape := ⟨2, ![12000, 7]⟩
abbrev S1x7 : Shape := ⟨2, ![1, 7]⟩

/-! ## Dimension records -/

/-- Scatter of one scalar per edge into a vector of nodes. -/
abbrev scatterNode : ScatterDims S12000 S384000x1 S384000 where
  updateWindowDims := []
  insertedWindowDims := [0]
  scatterDimsToOperandDims := [0]
  indexVectorDim := 1
  wf := by decide
/-- Scatter of one scalar per edge into the padded dense matrix. -/
abbrev scatterB : ScatterDims S12288x12288 S384000x2 S384000 where
  updateWindowDims := []
  insertedWindowDims := [0, 1]
  scatterDimsToOperandDims := [0, 1]
  indexVectorDim := 1
  wf := by decide
/-- Scatter of one scalar per edge into the unpadded dense matrix. -/
abbrev scatterA : ScatterDims S12000x12000 S384000x2 S384000 where
  updateWindowDims := []
  insertedWindowDims := [0, 1]
  scatterDimsToOperandDims := [0, 1]
  indexVectorDim := 1
  wf := by decide
/-- Scatter of one feature row per edge into the node rows. -/
abbrev scatterRows : ScatterDims S12000x32 S384000x1 S384000x32 where
  updateWindowDims := [1]
  insertedWindowDims := [0]
  scatterDimsToOperandDims := [0]
  indexVectorDim := 1
  wf := by decide
/-- Gather of one scalar per edge from a vector of nodes. -/
abbrev gatherNode : GatherDims S12000 S384000x1 S384000 where
  offsetDims := []
  collapsedSliceDims := [0]
  operandBatchingDims := []
  startIndicesBatchingDims := []
  startIndexMap := [0]
  indexVectorDim := 1
  sliceSizes := ![1]
  wf := by decide
/-- Gather of one feature row per edge from the node rows. -/
abbrev gatherRows : GatherDims S12000x32 S384000x1 S384000x32 where
  offsetDims := [1]
  collapsedSliceDims := [0]
  operandBatchingDims := []
  startIndicesBatchingDims := []
  startIndexMap := [0]
  indexVectorDim := 1
  sliceSizes := ![1, 32]
  wf := by decide
abbrev dotXW1 : DotDims S12000x128 S128x32 S12000x32 where
  lhsContracting := [1]
  rhsContracting := [0]
  lhsNonContracting := [0]
  rhsNonContracting := [1]
  lhsBatch := []
  rhsBatch := []
  wf := by decide
abbrev dotHW2 : DotDims S12000x32 S32x32 S12000x32 where
  lhsContracting := [1]
  rhsContracting := [0]
  lhsNonContracting := [0]
  rhsNonContracting := [1]
  lhsBatch := []
  rhsBatch := []
  wf := by decide
abbrev dotHWp : DotDims S12000x32 S32x10 S12000x10 where
  lhsContracting := [1]
  rhsContracting := [0]
  lhsNonContracting := [0]
  rhsNonContracting := [1]
  lhsBatch := []
  rhsBatch := []
  wf := by decide
abbrev dotHWc : DotDims S12000x32 S32x7 S12000x7 where
  lhsContracting := [1]
  rhsContracting := [0]
  lhsNonContracting := [0]
  rhsNonContracting := [1]
  lhsBatch := []
  rhsBatch := []
  wf := by decide
abbrev dotSS : DotDims S10x12000 S12000x10 S10x10 where
  lhsContracting := [1]
  rhsContracting := [0]
  lhsNonContracting := [0]
  rhsNonContracting := [1]
  lhsBatch := []
  rhsBatch := []
  wf := by decide
abbrev dotAS : DotDims S12000x12000 S12000x10 S12000x10 where
  lhsContracting := [1]
  rhsContracting := [0]
  lhsNonContracting := [0]
  rhsNonContracting := [1]
  lhsBatch := []
  rhsBatch := []
  wf := by decide

variable {F : FTy → Type} [FloatOps F]

/-! ## Small pieces -/

/-- The scalar constants of the programs, splat to a shape. -/
abbrev zeroF : FVec F S_ .f32 := constant S_ .f32 0x00000000#32
abbrev oneF : FVec F S_ .f32 := constant S_ .f32 0x3F800000#32
abbrev negInfF : FVec F S_ .f32 := constant S_ .f32 0xFF800000#32
abbrev tenF : FVec F S_ .f32 := constant S_ .f32 0x41200000#32

/-- A per-node scalar repeated along 32, 10 or 7 columns. -/
abbrev rows32 (v : FVec F S12000 .f32) : FVec F S12000x32 .f32 :=
  broadcastInDim S12000x32 ![0, 1] (by decide) (broadcastInDim S12000x1 ![0] (by decide) v)
abbrev rows10 (v : FVec F S12000 .f32) : FVec F S12000x10 .f32 :=
  broadcastInDim S12000x10 ![0, 1] (by decide) (broadcastInDim S12000x1 ![0] (by decide) v)
/-- A bias row repeated along the nodes. -/
abbrev bias32 (b : FVec F S32 .f32) : FVec F S12000x32 .f32 :=
  broadcastInDim S12000x32 ![0, 1] (by decide) (broadcastInDim S1x32 ![1] (by decide) b)
abbrev bias10 (b : FVec F S10 .f32) : FVec F S12000x10 .f32 :=
  broadcastInDim S12000x10 ![0, 1] (by decide) (broadcastInDim S1x10 ![1] (by decide) b)
abbrev bias7 (b : FVec F S7 .f32) : FVec F S12000x7 .f32 :=
  broadcastInDim S12000x7 ![0, 1] (by decide) (broadcastInDim S1x7 ![1] (by decide) b)
/-- An edge vector as a one-column index matrix. -/
abbrev col1 {w : Nat} (v : IVec S384000 w) : IVec S384000x1 w :=
  broadcastInDim S384000x1 ![0] (by decide) v

/-! ## The edge list -/

/-- Row 0 of the edge list: the source node of each edge. -/
def rowOf (ei : IVec S2x384000 32) : IVec S384000 32 :=
  shapeCast S384000 (extractStridedSlice S1x384000 ![0, 0] ei (by decide)) (by decide)
/-- Row 1 of the edge list: the target node of each edge. -/
def colOf (ei : IVec S2x384000 32) : IVec S384000 32 :=
  shapeCast S384000 (extractStridedSlice S1x384000 ![1, 0] ei (by decide)) (by decide)

/-- A negative index counts from the end: add the axis length n. -/
def wrap (n : BitVec 32) (v : IVec S384000 32) : IVec S384000 32 :=
  select (cmpi .slt v (broadcastInDim S384000 ![] (by decide) (constantI S_ 32 0#32)))
    (addi v (broadcastInDim S384000 ![] (by decide) (constantI S_ 32 n))) v

/-- The inverse square root of (in-degree + 1), per node. -/
def disOf (ei : IVec S2x384000 32) : FVec F S12000 .f32 :=
  Host.rsqrt (addf
    (Host.scatterAdd scatterNode
      (broadcastInDim S12000 ![] (by decide) (zeroF (F := F)))
      (col1 (wrap 12000#32 (colOf ei)))
      (broadcastInDim S384000 ![] (by decide) (oneF (F := F))))
    (broadcastInDim S12000 ![] (by decide) (oneF (F := F))))

/-! ## Dense layers -/

def linW1 (x : FVec F S12000x128 .f32) (W : FVec F S128x32 .f32) : FVec F S12000x32 .f32 :=
  Host.dotGeneral dotXW1 none x W
def linW2 (h : FVec F S12000x32 .f32) (W : FVec F S32x32 .f32) : FVec F S12000x32 .f32 :=
  Host.dotGeneral dotHW2 none h W
def linWp (h : FVec F S12000x32 .f32) (W : FVec F S32x10 .f32) : FVec F S12000x10 .f32 :=
  Host.dotGeneral dotHWp none h W
def linWc (h : FVec F S12000x32 .f32) (W : FVec F S32x7 .f32) : FVec F S12000x7 .f32 :=
  Host.dotGeneral dotHWc none h W

def relu32 (a : FVec F S12000x32 .f32) : FVec F S12000x32 .f32 :=
  maximumf a (broadcastInDim S12000x32 ![] (by decide) (zeroF (F := F)))

/-! ## The dense-matrix road -/

/-- The padded dense matrix, entry (c, r) the number of edges r → c, in bf16. -/
def Bmat (ei : IVec S2x384000 32) : FVec F S12288x12288 .bf16 :=
  truncf .bf16
    (Host.scatterAdd scatterB
      (broadcastInDim S12288x12288 ![] (by decide) (zeroF (F := F)))
      (concatenate S384000x2 1 [⟨S384000x1, col1 (wrap 12288#32 (colOf ei))⟩, ⟨S384000x1, col1 (wrap 12288#32 (rowOf ei))⟩]
        (by decide : Shape.Concatenates [S384000x1, S384000x1] S384000x2 1))
      (broadcastInDim S384000 ![] (by decide) (oneF (F := F))))
    (by decide)

/-- The scaled features, in bf16, with 288 zero rows below. -/
def padY (dis : FVec F S12000 .f32) (h : FVec F S12000x32 .f32) : FVec F S12288x32 .bf16 :=
  pad S12288x32 ![0, 0] ![288, 0] ![0, 0] (truncf .bf16 (mulf (rows32 dis) h) (by decide))
    (sitofp (F := F) .bf16 (constantI S_ 32 0#32)) (by decide) (by decide)

/-- The first 12000 rows of a matrix product with the padded matrix. -/
abbrev top32 (z : FVec F S12288x32 .f32) : FVec F S12000x32 .f32 :=
  extractStridedSlice S12000x32 ![0, 0] z (by decide)
abbrev top10 (z : FVec F S12288x10 .f32) : FVec F S12000x10 .f32 :=
  extractStridedSlice S12000x10 ![0, 0] z (by decide)

/-- One graph-convolution layer from the product z = B · padY: scale, self term, bias. -/
def gcnK (dis : FVec F S12000 .f32) (z : FVec F S12288x32 .f32) (h : FVec F S12000x32 .f32) (b : FVec F S32 .f32) :
    FVec F S12000x32 .f32 :=
  addf (addf (mulf (rows32 dis) (top32 z)) (mulf (rows32 (mulf dis dis)) h)) (bias32 b)

/-- The out-degree of each node, by a scatter-add of ones at the sources. -/
def dOfK (ei : IVec S2x384000 32) : FVec F S12000 .f32 :=
  Host.scatterAdd scatterNode
    (broadcastInDim S12000 ![] (by decide) (zeroF (F := F)))
    (col1 (wrap 12000#32 (rowOf ei)))
    (broadcastInDim S384000 ![] (by decide) (oneF (F := F)))

/-- The cluster assignment, in bf16, with 288 zero rows below. -/
def padS (s : FVec F S12000x10 .f32) : FVec F S12288x10 .bf16 :=
  pad S12288x10 ![0, 0] ![288, 0] ![0, 0] (truncf .bf16 s (by decide))
    (sitofp (F := F) .bf16 (constantI S_ 32 0#32)) (by decide) (by decide)

/-! ## The edge-list road -/

/-- The per-edge weight dis[row] · dis[col], as one column. -/
def edgeW (ei : IVec S2x384000 32) (dis : FVec F S12000 .f32) : FVec F S384000x1 .f32 :=
  broadcastInDim S384000x1 ![0] (by decide)
    (mulf (Host.gather gatherNode dis (col1 (wrap 12000#32 (rowOf ei))))
      (Host.gather gatherNode dis (col1 (wrap 12000#32 (colOf ei)))))

/-- One graph-convolution layer over the edge list: gather source rows, weigh, scatter-add at the
    targets, self term, bias. -/
def gcnR (ei : IVec S2x384000 32) (dis : FVec F S12000 .f32) (h : FVec F S12000x32 .f32) (b : FVec F S32 .f32) :
    FVec F S12000x32 .f32 :=
  addf
    (addf
      (Host.scatterAdd scatterRows
        (broadcastInDim S12000x32 ![] (by decide) (zeroF (F := F)))
        (col1 (wrap 12000#32 (colOf ei)))
        (mulf (Host.gather gatherRows h (col1 (wrap 12000#32 (rowOf ei))))
          (broadcastInDim S384000x32 ![0, 1] (by decide) (edgeW ei dis))))
      (mulf h (rows32 (mulf dis dis))))
    (bias32 b)

/-- The unpadded dense matrix, entry (r, c) the number of edges r → c. -/
def Amat (ei : IVec S2x384000 32) : FVec F S12000x12000 .f32 :=
  Host.scatterAdd scatterA
    (broadcastInDim S12000x12000 ![] (by decide) (zeroF (F := F)))
    (concatenate S384000x2 1 [⟨S384000x1, col1 (wrap 12000#32 (rowOf ei))⟩, ⟨S384000x1, col1 (wrap 12000#32 (colOf ei))⟩]
      (by decide : Shape.Concatenates [S384000x1, S384000x1] S384000x2 1))
    (broadcastInDim S384000 ![] (by decide) (oneF (F := F)))

/-- A · s and the row sums of A. -/
def AsR (ei : IVec S2x384000 32) (s : FVec F S12000x10 .f32) : FVec F S12000x10 .f32 :=
  Host.dotGeneral dotAS none (Amat (F := F) ei) s
def dOfR (ei : IVec S2x384000 32) : FVec F S12000 .f32 :=
  Host.reduceAdd (Amat (F := F) ei) (zeroF (F := F)) (by decide : S12000x12000.ReducesTo [1] S12000) (by decide)

/-! ## The shared tails -/

/-- The cluster logits h · Wp + bp. -/
def logitsP (h : FVec F S12000x32 .f32) (Wp : FVec F S32x10 .f32) (bp : FVec F S10 .f32) : FVec F S12000x10 .f32 :=
  addf (linWp h Wp) (bias10 bp)

/-- The row maximum (against −∞), the shifted exponentials, and the row-wise softmax. -/
def rowMax10 (a : FVec F S12000x10 .f32) : FVec F S12000 .f32 :=
  maximumf (broadcastInDim S12000 ![] (by decide) (negInfF (F := F)))
    (Host.reduce FloatOps.maximumf a (negInfF (F := F)) (by decide : S12000x10.ReducesTo [1] S12000) (by decide))
def expShift10 (a : FVec F S12000x10 .f32) : FVec F S12000x10 .f32 :=
  Host.exp (subf a (rows10 (rowMax10 a)))
def softmax10 (a : FVec F S12000x10 .f32) : FVec F S12000x10 .f32 :=
  Host.divf (expShift10 a)
    (rows10 (Host.reduceAdd (expShift10 a) (zeroF (F := F)) (by decide : S12000x10.ReducesTo [1] S12000) (by decide)))

/-- The soft cluster assignment. -/
def sOf (h : FVec F S12000x32 .f32) (Wp : FVec F S32x10 .f32) (bp : FVec F S10 .f32) : FVec F S12000x10 .f32 :=
  softmax10 (logitsP h Wp bp)

/-- The sum of all entries of a 12000 × 10 matrix. -/
abbrev sumAll10 (a : FVec F S12000x10 .f32) : FVec F S_ .f32 :=
  Host.reduceAdd a (zeroF (F := F)) (by decide : S12000x10.ReducesTo [0, 1] S_) (by decide)

/-- The cut loss −(Σ s ∘ As) / (Σ d ∘ s ∘ s). -/
def mcOf (s As : FVec F S12000x10 .f32) (d : FVec F S12000 .f32) : FVec F S_ .f32 :=
  Host.negf (Host.divf (sumAll10 (mulf s As)) (sumAll10 (mulf (mulf (rows10 d) s) s)))

/-- The Frobenius norm of a 10 × 10 matrix. -/
def norm10 (a : FVec F S10x10 .f32) : FVec F S_ .f32 :=
  Host.sqrt (Host.reduceAdd (mulf a a) (zeroF (F := F)) (by decide : S10x10.ReducesTo [0, 1] S_) (by decide))

/-- sᵀ s. -/
def gram (s : FVec F S12000x10 .f32) : FVec F S10x10 .f32 :=
  Host.dotGeneral dotSS none (transpose S10x12000 [1, 0] s (by decide)) s

/-- The identity over √10. -/
def eyeScaled : FVec F S10x10 .f32 :=
  Host.divf
    (uitofp .f32 (cmpi .eq (addi (iotaInDim S10x10 32 0) (broadcastInDim S10x10 ![] (by decide) (constantI S_ 32 0#32)))
      (iotaInDim S10x10 32 1)))
    (broadcastInDim S10x10 ![] (by decide) (Host.sqrt (tenF (F := F))))

/-- The orthogonality loss ‖sᵀs / ‖sᵀs‖ − I/√10‖. -/
def olossOf (s : FVec F S12000x10 .f32) : FVec F S_ .f32 :=
  norm10 (subf (Host.divf (gram s) (broadcastInDim S10x10 ![] (by decide) (norm10 (gram s)))) (eyeScaled (F := F)))

/-- The class logits h · Wc + bc. -/
def logitsC (h : FVec F S12000x32 .f32) (Wc : FVec F S32x7 .f32) (bc : FVec F S7 .f32) : FVec F S12000x7 .f32 :=
  addf (linWc h Wc) (bias7 bc)

/-- The logits shifted by their row maximum (against −∞), and the row-wise log-softmax. -/
def shift7 (a : FVec F S12000x7 .f32) : FVec F S12000x7 .f32 :=
  subf a (broadcastInDim S12000x7 ![0, 1] (by decide) (broadcastInDim S12000x1 ![0] (by decide)
    (maximumf (broadcastInDim S12000 ![] (by decide) (negInfF (F := F)))
      (Host.reduce FloatOps.maximumf a (negInfF (F := F)) (by decide : S12000x7.ReducesTo [1] S12000) (by decide)))))
def logSoftmax7 (a : FVec F S12000x7 .f32) : FVec F S12000x7 .f32 :=
  subf (shift7 a) (broadcastInDim S12000x7 ![0, 1] (by decide) (Host.log (broadcastInDim S12000x1 ![0] (by decide)
    (Host.reduceAdd (Host.exp (shift7 a)) (zeroF (F := F)) (by decide : S12000x7.ReducesTo [1] S12000) (by decide)))))

/-- The class log-probabilities. -/
def logpOf (h : FVec F S12000x32 .f32) (Wc : FVec F S32x7 .f32) (bc : FVec F S7 .f32) : FVec F S12000x7 .f32 :=
  logSoftmax7 (logitsC h Wc bc)

end Cert.Hand.Spec

end
-- ==== Proof.KI.KHost.lean ====
import proofs.«421346_j24266565222650_2_alg».proof.Proof.Gen.KernelIdeal.Regions
import proofs.«421346_j24266565222650_2_alg».proof.Proof.KI.Spec

set_option maxRecDepth 1368

noncomputable section

namespace Cert.KernelIdeal.Hand

open Idealize.ShloMosaic Idealize.ShloMosaic.TcCoe
open Idealize.SL.Sem
open Cert.Hand
open Cert.KernelIdeal.Gen

variable {F : FTy → Type} [FloatOps F]
variable (m : (ℓ : Loc nD τ sig) → Buf (Elt F) ℓ) (o : Gen.Outs (F := F))

/-! # The host stretches of the dense-matrix program, stage by stage

Between its three matrix products the program runs short stretches of host operations. Each buffer a
later item reads is written here as one stage function of earlier buffers; composed, the entry arrays
of each product and the three results are closed terms of the ten arguments and the three products. -/

/-! ## The arguments -/

abbrev Ax (c : Dev nD) : FVec F Spec.S12000x128 .f32 := m ((c : Thread nD τ).loc main_arg0)
abbrev Aei (c : Dev nD) : IVec Spec.S2x384000 32 := m ((c : Thread nD τ).loc main_arg1)
abbrev AW1 (c : Dev nD) : FVec F Spec.S128x32 .f32 := m ((c : Thread nD τ).loc main_arg2)
abbrev Ab1 (c : Dev nD) : FVec F Spec.S32 .f32 := m ((c : Thread nD τ).loc main_arg3)
abbrev AW2 (c : Dev nD) : FVec F Spec.S32x32 .f32 := m ((c : Thread nD τ).loc main_arg4)
abbrev Ab2 (c : Dev nD) : FVec F Spec.S32 .f32 := m ((c : Thread nD τ).loc main_arg5)
abbrev AWp (c : Dev nD) : FVec F Spec.S32x10 .f32 := m ((c : Thread nD τ).loc main_arg6)
abbrev Abp (c : Dev nD) : FVec F Spec.S10 .f32 := m ((c : Thread nD τ).loc main_arg7)
abbrev AWc (c : Dev nD) : FVec F Spec.S32x7 .f32 := m ((c : Thread nD τ).loc main_arg8)
abbrev Abc (c : Dev nD) : FVec F Spec.S7 .f32 := m ((c : Thread nD τ).loc main_arg9)

/-! ## Each stretch over an arbitrary valuation -/

section Stretch
variable (W : Valuation τ sig (Elt F))

theorem h0_v1 : (StableHlo.after hostOps0 W (Proc.devRef .tc main_v1) : IVec Spec.S384000 32) = Spec.rowOf (W main_arg1) := by
  after_results_simp <;> rfl
theorem h0_v15 : (StableHlo.after hostOps0 W (Proc.devRef .tc main_v15) : FVec F Spec.S12000 .f32) = Spec.disOf (W main_arg1) := by
  after_results_simp <;> rfl
theorem h0_v32 : (StableHlo.after hostOps0 W (Proc.devRef .tc main_v32) : FVec F Spec.S12288x12288 .bf16) = Spec.Bmat (W main_arg1) := by
  after_results_simp <;> rfl
theorem h0_v33 : (StableHlo.after hostOps0 W (Proc.devRef .tc main_v33) : FVec F Spec.S12000x32 .f32)
    = Spec.linW1 (W main_arg0) (W main_arg2) := by
  after_results_simp <;> rfl
theorem h0_v37 : (StableHlo.after hostOps0 W (Proc.devRef .tc main_v37) : FVec F Spec.S12000x32 .bf16)
    = truncf .bf16 (mulf (Spec.rows32 (Spec.disOf (W main_arg1))) (Spec.linW1 (W main_arg0) (W main_arg2))) (by decide) := by
  after_results_simp <;> rfl
theorem h0_c9 : (StableHlo.after hostOps0 W (Proc.devRef .tc main_c_9) : IVec Spec.S_ 32) = constantI Spec.S_ 32 0#32 := by
  after_results_simp <;> rfl

theorem h01_v38 : (StableHlo.after hostOps0_1 W (Proc.devRef .tc main_v38) : FVec F Spec.S12288x32 .bf16)
    = pad Spec.S12288x32 ![0, 0] ![288, 0] ![0, 0] (W main_v37 : FVec F Spec.S12000x32 .bf16)
        (sitofp (F := F) .bf16 (W main_c_9 : IVec Spec.S_ 32)) (by decide) (by decide) := by
  after_results_simp <;> (try simp only [StableHlo.TRef.ofBuf, StableHlo.TRef.toBuf, cast_eq]) <;> rfl

theorem h1_v51 : (StableHlo.after hostOps1 W (Proc.devRef .tc main_v51) : FVec F Spec.S12000x32 .f32)
    = Spec.gcnK (W main_v15) (W main_v39) (W main_v33) (W main_arg3) := by
  after_results <;> rfl
theorem h11_v52 : (StableHlo.after hostOps1_1 W (Proc.devRef .tc main_v52) : FVec F Spec.S12000x32 .f32)
    = Spec.relu32 (W main_v51) := by
  after_results_simp <;> (try simp only [StableHlo.TRef.ofBuf, StableHlo.TRef.toBuf, cast_eq]) <;> rfl
theorem h12_v53 : (StableHlo.after hostOps1_2 W (Proc.devRef .tc main_v53) : FVec F Spec.S12000x32 .f32)
    = Spec.linW2 (W main_v52) (W main_arg4) := by
  after_results <;> rfl
theorem h12_v57 : (StableHlo.after hostOps1_2 W (Proc.devRef .tc main_v57) : FVec F Spec.S12000x32 .bf16)
    = truncf .bf16 (mulf (Spec.rows32 (W main_v15)) (Spec.linW2 (W main_v52) (W main_arg4))) (by decide) := by
  after_results <;> rfl
theorem h12_c10 : (StableHlo.after hostOps1_2 W (Proc.devRef .tc main_c_10) : IVec Spec.S_ 32) = constantI Spec.S_ 32 0#32 := by
  after_results <;> rfl
theorem h13_v58 : (StableHlo.after hostOps1_3 W (Proc.devRef .tc main_v58) : FVec F Spec.S12288x32 .bf16)
    = pad Spec.S12288x32 ![0, 0] ![288, 0] ![0, 0] (W main_v57 : FVec F Spec.S12000x32 .bf16)
        (sitofp (F := F) .bf16 (W main_c_10 : IVec Spec.S_ 32)) (by decide) (by decide) := by
  after_results_simp <;> (try simp only [StableHlo.TRef.ofBuf, StableHlo.TRef.toBuf, cast_eq]) <;> rfl

theorem h2_v71 : (StableHlo.after hostOps2 W (Proc.devRef .tc main_v71) : FVec F Spec.S12000x32 .f32)
    = Spec.gcnK (W main_v15) (W main_v59) (W main_v53) (W main_arg5) := by
  after_results <;> rfl
theorem h21_v72 : (StableHlo.after hostOps2_1 W (Proc.devRef .tc main_v72) : FVec F Spec.S12000x32 .f32)
    = Spec.relu32 (W main_v71) := by
  after_results_simp <;> (try simp only [StableHlo.TRef.ofBuf, StableHlo.TRef.toBuf, cast_eq]) <;> rfl
theorem h22_v87 : (StableHlo.after hostOps2_2 W (Proc.devRef .tc main_v87) : FVec F Spec.S12000x10 .f32)
    = Spec.sOf (W main_v72) (W main_arg6) (W main_arg7) := by
  after_results_simp <;> rfl
theorem h22_v96 : (StableHlo.after hostOps2_2 W (Proc.devRef .tc main_v96) : FVec F Spec.S12000 .f32)
    = Host.scatterAdd Spec.scatterNode
        (broadcastInDim Spec.S12000 ![] (by decide) (Spec.zeroF (F := F)))
        (Spec.col1 (Spec.wrap 12000#32 (W main_v1)))
        (broadcastInDim Spec.S384000 ![] (by decide) (Spec.oneF (F := F))) := by
  after_results_simp <;> rfl
theorem h22_v97 : (StableHlo.after hostOps2_2 W (Proc.devRef .tc main_v97) : FVec F Spec.S12000x10 .bf16)
    = truncf .bf16 (Spec.sOf (W main_v72) (W main_arg6) (W main_arg7)) (by decide) := by
  after_results_simp <;> rfl
theorem h22_c18 : (StableHlo.after hostOps2_2 W (Proc.devRef .tc main_c_18) : IVec Spec.S_ 32) = constantI Spec.S_ 32 0#32 := by
  after_results_simp <;> rfl
theorem h23_v98 : (StableHlo.after hostOps2_3 W (Proc.devRef .tc main_v98) : FVec F Spec.S12288x10 .bf16)
    = pad Spec.S12288x10 ![0, 0] ![288, 0] ![0, 0] (W main_v97 : FVec F Spec.S12000x10 .bf16)
        (sitofp (F := F) .bf16 (W main_c_18 : IVec Spec.S_ 32)) (by decide) (by decide) := by
  after_results_simp <;> (try simp only [StableHlo.TRef.ofBuf, StableHlo.TRef.toBuf, cast_eq]) <;> rfl

theorem h3_v109 : (StableHlo.after hostOps3 W (Proc.devRef .tc main_v109) : FVec F Spec.S_ .f32)
    = Spec.mcOf (W main_v87) (Spec.top10 (W main_v99)) (W main_v96) := by
  after_results_simp <;> rfl
theorem h3_v111 : (StableHlo.after hostOps3 W (Proc.devRef .tc main_v111) : FVec F Spec.S10x10 .f32)
    = Spec.gram (W main_v87) := by
  after_results_simp <;> rfl
theorem h3_v120 : (StableHlo.after hostOps3 W (Proc.devRef .tc main_v120) : FVec F Spec.S10x10 .f32)
    = Spec.eyeScaled := by
  after_results_simp <;> rfl
theorem h31_v121 : (StableHlo.after hostOps3_1 W (Proc.devRef .tc main_v121) : FVec F Spec.S_ .f32)
    = Spec.norm10 (W main_v111) := by
  after_results_simp <;> (try simp only [StableHlo.TRef.ofBuf, StableHlo.TRef.toBuf, cast_eq]) <;> rfl
theorem h32_v124 : (StableHlo.after hostOps3_2 W (Proc.devRef .tc main_v124) : FVec F Spec.S10x10 .f32)
    = subf (Host.divf (W main_v111 : FVec F Spec.S10x10 .f32) (broadcastInDim Spec.S10x10 ![] (by decide) (W main_v121 : FVec F Spec.S_ .f32)))
        (W main_v120 : FVec F Spec.S10x10 .f32) := by
  after_results <;> rfl
theorem h33_v125 : (StableHlo.after hostOps3_3 W (Proc.devRef .tc main_v125) : FVec F Spec.S_ .f32)
    = Spec.norm10 (W main_v124) := by
  after_results_simp <;> (try simp only [StableHlo.TRef.ofBuf, StableHlo.TRef.toBuf, cast_eq]) <;> rfl
theorem h34_v129 : (StableHlo.after hostOps3_4 W (Proc.devRef .tc main_v129) : FVec F Spec.S12000x7 .f32)
    = Spec.logitsC (W main_v72) (W main_arg8) (W main_arg9) := by
  after_results <;> rfl
theorem h35_v130 : (StableHlo.after hostOps3_5 W (Proc.devRef .tc main_v130) : FVec F Spec.S12000x7 .f32)
    = Spec.logSoftmax7 (W main_v129) := by
  after_results_simp <;> (try simp only [StableHlo.TRef.ofBuf, StableHlo.TRef.toBuf, cast_eq]) <;> rfl

end Stretch

/-! ## The buffers between items, as closed terms -/

/-- The three products, as the regions leave them. -/
abbrev Kz0 (c : Dev nD) : FVec F Spec.S12288x32 .f32 := o 3 main_v39 c
abbrev Kz1 (c : Dev nD) : FVec F Spec.S12288x32 .f32 := o 8 main_v59 c
abbrev Kz2 (c : Dev nD) : FVec F Spec.S12288x10 .f32 := o 13 main_v99 c
/-- The degree scaling, the first dense layer, the two hidden layers and the cluster assignment. -/
abbrev Kdis (c : Dev nD) : FVec F Spec.S12000 .f32 := Spec.disOf (Aei m c)
abbrev Kxw (c : Dev nD) : FVec F Spec.S12000x32 .f32 := Spec.linW1 (Ax m c) (AW1 m c)
abbrev Kh1 (c : Dev nD) : FVec F Spec.S12000x32 .f32 := Spec.relu32 (Spec.gcnK (Kdis m c) (Kz0 o c) (Kxw m c) (Ab1 m c))
abbrev Khw (c : Dev nD) : FVec F Spec.S12000x32 .f32 := Spec.linW2 (Kh1 m o c) (AW2 m c)
abbrev Kh2 (c : Dev nD) : FVec F Spec.S12000x32 .f32 := Spec.relu32 (Spec.gcnK (Kdis m c) (Kz1 o c) (Khw m o c) (Ab2 m c))
abbrev Ks (c : Dev nD) : FVec F Spec.S12000x10 .f32 := Spec.sOf (Kh2 m o c) (AWp m c) (Abp m c)

/-! ### Up to the first product -/

theorem V1_v1 (c : Dev nD) : (V1 m c main_v1 : IVec Spec.S384000 32) = Spec.rowOf (Aei m c) :=
  h0_v1 (V0 m c)
theorem V1_v15 (c : Dev nD) : (V1 m c main_v15 : FVec F Spec.S12000 .f32) = Kdis m c :=
  h0_v15 (V0 m c)
theorem V1_v32 (c : Dev nD) : (V1 m c main_v32 : FVec F Spec.S12288x12288 .bf16) = Spec.Bmat (Aei m c) :=
  h0_v32 (V0 m c)
theorem V1_v33 (c : Dev nD) : (V1 m c main_v33 : FVec F Spec.S12000x32 .f32) = Kxw m c :=
  h0_v33 (V0 m c)
theorem V1_v37 (c : Dev nD) : (V1 m c main_v37 : FVec F Spec.S12000x32 .bf16) = truncf .bf16 (mulf (Spec.rows32 (Kdis m c)) (Kxw m c)) (by decide) :=
  h0_v37 (V0 m c)
theorem V1_c9 (c : Dev nD) : (V1 m c main_c_9 : IVec Spec.S_ 32) = constantI Spec.S_ 32 0#32 :=
  h0_c9 (V0 m c)
/-- The first product's left operand: the padded dense matrix. -/
theorem V2_v32 (c : Dev nD) : (V2 m c main_v32 : FVec F Spec.S12288x12288 .bf16) = Spec.Bmat (Aei m c) :=
  (V2_of m c main_v32 (by decide)).trans <| V1_v32 m c
/-- The first product's right operand: the scaled first dense layer, padded. -/
theorem V2_v38 (c : Dev nD) : (V2 m c main_v38 : FVec F Spec.S12288x32 .bf16) = Spec.padY (Kdis m c) (Kxw m c) :=
  by
  refine (h01_v38 (V1 m c)).trans ?_
  rw [V1_v37 m c, V1_c9 m c]
  try rfl

/-! ### Between the first and the second product -/

theorem V3_v39 (c : Dev nD) : (V3 m o c main_v39 : FVec F Spec.S12288x32 .f32) = Kz0 o c :=
  Function.update_self _ _ _
theorem V3_v15 (c : Dev nD) : (V3 m o c main_v15 : FVec F Spec.S12000 .f32) = Kdis m c :=
  (V3_of m o c main_v15 (by decide)).trans <| (V2_of m c main_v15 (by decide)).trans <| V1_v15 m c
theorem V3_v33 (c : Dev nD) : (V3 m o c main_v33 : FVec F Spec.S12000x32 .f32) = Kxw m c :=
  (V3_of m o c main_v33 (by decide)).trans <| (V2_of m c main_v33 (by decide)).trans <| V1_v33 m c
theorem V3_arg3 (c : Dev nD) : (V3 m o c main_arg3 : FVec F Spec.S32 .f32) = Ab1 m c :=
  (V3_of m o c main_arg3 (by decide)).trans <| (V2_of m c main_arg3 (by decide)).trans <| (V1_of m c main_arg3 (by decide)).trans <| rfl
theorem V4_v51 (c : Dev nD) : (V4 m o c main_v51 : FVec F Spec.S12000x32 .f32) = Spec.gcnK (Kdis m c) (Kz0 o c) (Kxw m c) (Ab1 m c) :=
  by
  refine (h1_v51 (V3 m o c)).trans ?_
  rw [V3_v15 m o c, V3_v39 m o c, V3_v33 m o c, V3_arg3 m o c]
theorem V5_v52 (c : Dev nD) : (V5 m o c main_v52 : FVec F Spec.S12000x32 .f32) = Kh1 m o c :=
  by
  refine (h11_v52 (V4 m o c)).trans ?_
  rw [V4_v51 m o c]
theorem V5_v15 (c : Dev nD) : (V5 m o c main_v15 : FVec F Spec.S12000 .f32) = Kdis m c :=
  (V5_of m o c main_v15 (by decide)).trans <| (V4_of m o c main_v15 (by decide)).trans <| (V3_of m o c main_v15 (by decide)).trans <| (V2_of m c main_v15 (by decide)).trans <| V1_v15 m c
theorem V5_arg4 (c : Dev nD) : (V5 m o c main_arg4 : FVec F Spec.S32x32 .f32) = AW2 m c :=
  (V5_of m o c main_arg4 (by decide)).trans <| (V4_of m o c main_arg4 (by decide)).trans <| (V3_of m o c main_arg4 (by decide)).trans <| (V2_of m c main_arg4 (by decide)).trans <| (V1_of m c main_arg4 (by decide)).trans <| rfl
theorem V6_v53 (c : Dev nD) : (V6 m o c main_v53 : FVec F Spec.S12000x32 .f32) = Khw m o c :=
  by
  refine (h12_v53 (V5 m o c)).trans ?_
  rw [V5_v52 m o c, V5_arg4 m o c]
theorem V6_v57 (c : Dev nD) : (V6 m o c main_v57 : FVec F Spec.S12000x32 .bf16) = truncf .bf16 (mulf (Spec.rows32 (Kdis m c)) (Khw m o c)) (by decide) :=
  by
  refine (h12_v57 (V5 m o c)).trans ?_
  rw [V5_v15 m o c, V5_v52 m o c, V5_arg4 m o c]
theorem V6_c10 (c : Dev nD) : (V6 m o c main_c_10 : IVec Spec.S_ 32) = constantI Spec.S_ 32 0#32 :=
  h12_c10 (V5 m o c)
/-- The second product's operands. -/
theorem V7_v32 (c : Dev nD) : (V7 m o c main_v32 : FVec F Spec.S12288x12288 .bf16) = Spec.Bmat (Aei m c) :=
  (V7_of m o c main_v32 (by decide)).trans <| (V6_of m o c main_v32 (by decide)).trans <| (V5_of m o c main_v32 (by decide)).trans <| (V4_of m o c main_v32 (by decide)).trans <| (V3_of m o c main_v32 (by decide)).trans <| V2_v32 m c
theorem V7_v58 (c : Dev nD) : (V7 m o c main_v58 : FVec F Spec.S12288x32 .bf16) = Spec.padY (Kdis m c) (Khw m o c) :=
  by
  refine (h13_v58 (V6 m o c)).trans ?_
  rw [V6_v57 m o c, V6_c10 m o c]
  try rfl

/-! ### Between the second and the third product -/

theorem V8_v59 (c : Dev nD) : (V8 m o c main_v59 : FVec F Spec.S12288x32 .f32) = Kz1 o c :=
  Function.update_self _ _ _
theorem V8_v15 (c : Dev nD) : (V8 m o c main_v15 : FVec F Spec.S12000 .f32) = Kdis m c :=
  (V8_of m o c main_v15 (by decide)).trans <| (V7_of m o c main_v15 (by decide)).trans <| (V6_of m o c main_v15 (by decide)).trans <| (V5_of m o c main_v15 (by decide)).trans <| (V4_of m o c main_v15 (by decide)).trans <| (V3_of m o c main_v15 (by decide)).trans <| (V2_of m c main_v15 (by decide)).trans <| V1_v15 m c
theorem V8_v53 (c : Dev nD) : (V8 m o c main_v53 : FVec F Spec.S12000x32 .f32) = Khw m o c :=
  (V8_of m o c main_v53 (by decide)).trans <| (V7_of m o c main_v53 (by decide)).trans <| V6_v53 m o c
theorem V8_arg5 (c : Dev nD) : (V8 m o c main_arg5 : FVec F Spec.S32 .f32) = Ab2 m c :=
  (V8_of m o c main_arg5 (by decide)).trans <| (V7_of m o c main_arg5 (by decide)).trans <| (V6_of m o c main_arg5 (by decide)).trans <| (V5_of m o c main_arg5 (by decide)).trans <| (V4_of m o c main_arg5 (by decide)).trans <| (V3_of m o c main_arg5 (by decide)).trans <| (V2_of m c main_arg5 (by decide)).trans <| (V1_of m c main_arg5 (by decide)).trans <| rfl
theorem V9_v71 (c : Dev nD) : (V9 m o c main_v71 : FVec F Spec.S12000x32 .f32) = Spec.gcnK (Kdis m c) (Kz1 o c) (Khw m o c) (Ab2 m c) :=
  by
  refine (h2_v71 (V8 m o c)).trans ?_
  rw [V8_v15 m o c, V8_v59 m o c, V8_v53 m o c, V8_arg5 m o c]
theorem V10_v72 (c : Dev nD) : (V10 m o c main_v72 : FVec F Spec.S12000x32 .f32) = Kh2 m o c :=
  by
  refine (h21_v72 (V9 m o c)).trans ?_
  rw [V9_v71 m o c]
theorem V10_v1 (c : Dev nD) : (V10 m o c main_v1 : IVec Spec.S384000 32) = Spec.rowOf (Aei m c) :=
  (V10_of m o c main_v1 (by decide)).trans <| (V9_of m o c main_v1 (by decide)).trans <| (V8_of m o c main_v1 (by decide)).trans <| (V7_of m o c main_v1 (by decide)).trans <| (V6_of m o c main_v1 (by decide)).trans <| (V5_of m o c main_v1 (by decide)).trans <| (V4_of m o c main_v1 (by decide)).trans <| (V3_of m o c main_v1 (by decide)).trans <| (V2_of m c main_v1 (by decide)).trans <| V1_v1 m c
theorem V10_arg6 (c : Dev nD) : (V10 m o c main_arg6 : FVec F Spec.S32x10 .f32) = AWp m c :=
  (V10_of m o c main_arg6 (by decide)).trans <| (V9_of m o c main_arg6 (by decide)).trans <| (V8_of m o c main_arg6 (by decide)).trans <| (V7_of m o c main_arg6 (by decide)).trans <| (V6_of m o c main_arg6 (by decide)).trans <| (V5_of m o c main_arg6 (by decide)).trans <| (V4_of m o c main_arg6 (by decide)).trans <| (V3_of m o c main_arg6 (by decide)).trans <| (V2_of m c main_arg6 (by decide)).trans <| (V1_of m c main_arg6 (by decide)).trans <| rfl
theorem V10_arg7 (c : Dev nD) : (V10 m o c main_arg7 : FVec F Spec.S10 .f32) = Abp m c :=
  (V10_of m o c main_arg7 (by decide)).trans <| (V9_of m o c main_arg7 (by decide)).trans <| (V8_of m o c main_arg7 (by decide)).trans <| (V7_of m o c main_arg7 (by decide)).trans <| (V6_of m o c main_arg7 (by decide)).trans <| (V5_of m o c main_arg7 (by decide)).trans <| (V4_of m o c main_arg7 (by decide)).trans <| (V3_of m o c main_arg7 (by decide)).trans <| (V2_of m c main_arg7 (by decide)).trans <| (V1_of m c main_arg7 (by decide)).trans <| rfl
theorem V11_v87 (c : Dev nD) : (V11 m o c main_v87 : FVec F Spec.S12000x10 .f32) = Ks m o c :=
  by
  refine (h22_v87 (V10 m o c)).trans ?_
  rw [V10_v72 m o c, V10_arg6 m o c, V10_arg7 m o c]
theorem V11_v96 (c : Dev nD) : (V11 m o c main_v96 : FVec F Spec.S12000 .f32) = Spec.dOfK (Aei m c) :=
  by
  refine (h22_v96 (V10 m o c)).trans ?_
  rw [V10_v1 m o c]
  try rfl
theorem V11_v97 (c : Dev nD) : (V11 m o c main_v97 : FVec F Spec.S12000x10 .bf16) = truncf .bf16 (Ks m o c) (by decide) :=
  by
  refine (h22_v97 (V10 m o c)).trans ?_
  rw [V10_v72 m o c, V10_arg6 m o c, V10_arg7 m o c]
theorem V11_c18 (c : Dev nD) : (V11 m o c main_c_18 : IVec Spec.S_ 32) = constantI Spec.S_ 32 0#32 :=
  h22_c18 (V10 m o c)
/-- The third product's operands. -/
theorem V12_v32 (c : Dev nD) : (V12 m o c main_v32 : FVec F Spec.S12288x12288 .bf16) = Spec.Bmat (Aei m c) :=
  (V12_of m o c main_v32 (by decide)).trans <| (V11_of m o c main_v32 (by decide)).trans <| (V10_of m o c main_v32 (by decide)).trans <| (V9_of m o c main_v32 (by decide)).trans <| (V8_of m o c main_v32 (by decide)).trans <| V7_v32 m o c
theorem V12_v98 (c : Dev nD) : (V12 m o c main_v98 : FVec F Spec.S12288x10 .bf16) = Spec.padS (Ks m o c) :=
  by
  refine (h23_v98 (V11 m o c)).trans ?_
  rw [V11_v97 m o c, V11_c18 m o c]
  try rfl

/-! ### After the third product: the three results -/

theorem V13_v99 (c : Dev nD) : (V13 m o c main_v99 : FVec F Spec.S12288x10 .f32) = Kz2 o c :=
  Function.update_self _ _ _
theorem V13_v87 (c : Dev nD) : (V13 m o c main_v87 : FVec F Spec.S12000x10 .f32) = Ks m o c :=
  (V13_of m o c main_v87 (by decide)).trans <| (V12_of m o c main_v87 (by decide)).trans <| V11_v87 m o c
theorem V13_v96 (c : Dev nD) : (V13 m o c main_v96 : FVec F Spec.S12000 .f32) = Spec.dOfK (Aei m c) :=
  (V13_of m o c main_v96 (by decide)).trans <| (V12_of m o c main_v96 (by decide)).trans <| V11_v96 m o c
theorem V14_v109 (c : Dev nD) : (V14 m o c main_v109 : FVec F Spec.S_ .f32) = Spec.mcOf (Ks m o c) (Spec.top10 (Kz2 o c)) (Spec.dOfK (Aei m c)) :=
  by
  refine (h3_v109 (V13 m o c)).trans ?_
  rw [V13_v87 m o c, V13_v99 m o c, V13_v96 m o c]
theorem V14_v111 (c : Dev nD) : (V14 m o c main_v111 : FVec F Spec.S10x10 .f32) = Spec.gram (Ks m o c) :=
  by
  refine (h3_v111 (V13 m o c)).trans ?_
  rw [V13_v87 m o c]
theorem V14_v120 (c : Dev nD) : (V14 m o c main_v120 : FVec F Spec.S10x10 .f32) = Spec.eyeScaled :=
  h3_v120 (V13 m o c)
theorem V15_v121 (c : Dev nD) : (V15 m o c main_v121 : FVec F Spec.S_ .f32) = Spec.norm10 (Spec.gram (Ks m o c)) :=
  by
  refine (h31_v121 (V14 m o c)).trans ?_
  rw [V14_v111 m o c]
theorem V15_v111 (c : Dev nD) : (V15 m o c main_v111 : FVec F Spec.S10x10 .f32) = Spec.gram (Ks m o c) :=
  (V15_of m o c main_v111 (by decide)).trans <| V14_v111 m o c
theorem V15_v120 (c : Dev nD) : (V15 m o c main_v120 : FVec F Spec.S10x10 .f32) = Spec.eyeScaled :=
  (V15_of m o c main_v120 (by decide)).trans <| V14_v120 m o c
theorem V16_v124 (c : Dev nD) : (V16 m o c main_v124 : FVec F Spec.S10x10 .f32) = subf (Host.divf (Spec.gram (Ks m o c)) (broadcastInDim Spec.S10x10 ![] (by decide) (Spec.norm10 (Spec.gram (Ks m o c))))) (Spec.eyeScaled (F := F)) :=
  by
  refine (h32_v124 (V15 m o c)).trans ?_
  rw [V15_v111 m o c, V15_v121 m o c, V15_v120 m o c]
theorem V17_v125 (c : Dev nD) : (V17 m o c main_v125 : FVec F Spec.S_ .f32) = Spec.olossOf (Ks m o c) :=
  by
  refine (h33_v125 (V16 m o c)).trans ?_
  rw [V16_v124 m o c]
  try rfl
theorem V17_v72 (c : Dev nD) : (V17 m o c main_v72 : FVec F Spec.S12000x32 .f32) = Kh2 m o c :=
  (V17_of m o c main_v72 (by decide)).trans <| (V16_of m o c main_v72 (by decide)).trans <| (V15_of m o c main_v72 (by decide)).trans <| (V14_of m o c main_v72 (by decide)).trans <| (V13_of m o c main_v72 (by decide)).trans <| (V12_of m o c main_v72 (by decide)).trans <| (V11_of m o c main_v72 (by decide)).trans <| V10_v72 m o c
theorem V17_arg8 (c : Dev nD) : (V17 m o c main_arg8 : FVec F Spec.S32x7 .f32) = AWc m c :=
  (V17_of m o c main_arg8 (by decide)).trans <| (V16_of m o c main_arg8 (by decide)).trans <| (V15_of m o c main_arg8 (by decide)).trans <| (V14_of m o c main_arg8 (by decide)).trans <| (V13_of m o c main_arg8 (by decide)).trans <| (V12_of m o c main_arg8 (by decide)).trans <| (V11_of m o c main_arg8 (by decide)).trans <| (V10_of m o c main_arg8 (by decide)).trans <| (V9_of m o c main_arg8 (by decide)).trans <| (V8_of m o c main_arg8 (by decide)).trans <| (V7_of m o c main_arg8 (by decide)).trans <| (V6_of m o c main_arg8 (by decide)).trans <| (V5_of m o c main_arg8 (by decide)).trans <| (V4_of m o c main_arg8 (by decide)).trans <| (V3_of m o c main_arg8 (by decide)).trans <| (V2_of m c main_arg8 (by decide)).trans <| (V1_of m c main_arg8 (by decide)).trans <| rfl
theorem V17_arg9 (c : Dev nD) : (V17 m o c main_arg9 : FVec F Spec.S7 .f32) = Abc m c :=
  (V17_of m o c main_arg9 (by decide)).trans <| (V16_of m o c main_arg9 (by decide)).trans <| (V15_of m o c main_arg9 (by decide)).trans <| (V14_of m o c main_arg9 (by decide)).trans <| (V13_of m o c main_arg9 (by decide)).trans <| (V12_of m o c main_arg9 (by decide)).trans <| (V11_of m o c main_arg9 (by decide)).trans <| (V10_of m o c main_arg9 (by decide)).trans <| (V9_of m o c main_arg9 (by decide)).trans <| (V8_of m o c main_arg9 (by decide)).trans <| (V7_of m o c main_arg9 (by decide)).trans <| (V6_of m o c main_arg9 (by decide)).trans <| (V5_of m o c main_arg9 (by decide)).trans <| (V4_of m o c main_arg9 (by decide)).trans <| (V3_of m o c main_arg9 (by decide)).trans <| (V2_of m c main_arg9 (by decide)).trans <| (V1_of m c main_arg9 (by decide)).trans <| rfl
theorem V18_v129 (c : Dev nD) : (V18 m o c main_v129 : FVec F Spec.S12000x7 .f32) = Spec.logitsC (Kh2 m o c) (AWc m c) (Abc m c) :=
  by
  refine (h34_v129 (V17 m o c)).trans ?_
  rw [V17_v72 m o c, V17_arg8 m o c, V17_arg9 m o c]
/-- The class log-probabilities. -/
theorem V19_v130 (c : Dev nD) : (V19 m o c main_v130 : FVec F Spec.S12000x7 .f32) = Spec.logpOf (Kh2 m o c) (AWc m c) (Abc m c) :=
  by
  refine (h35_v130 (V18 m o c)).trans ?_
  rw [V18_v129 m o c]
  try rfl
/-- The cut loss. -/
theorem V19_v109 (c : Dev nD) : (V19 m o c main_v109 : FVec F Spec.S_ .f32) = Spec.mcOf (Ks m o c) (Spec.top10 (Kz2 o c)) (Spec.dOfK (Aei m c)) :=
  (V19_of m o c main_v109 (by decide)).trans <| (V18_of m o c main_v109 (by decide)).trans <| (V17_of m o c main_v109 (by decide)).trans <| (V16_of m o c main_v109 (by decide)).trans <| (V15_of m o c main_v109 (by decide)).trans <| V14_v109 m o c
/-- The orthogonality loss. -/
theorem V19_v125 (c : Dev nD) : (V19 m o c main_v125 : FVec F Spec.S_ .f32) = Spec.olossOf (Ks m o c) :=
  (V19_of m o c main_v125 (by decide)).trans <| (V18_of m o c main_v125 (by decide)).trans <| V17_v125 m o c

end Cert.KernelIdeal.Hand

end
-- ==== Proof.KI.DenseDefs.lean ====
import Idealize.ShloMosaic.PureOps.Ideal
import Idealize.ShloMosaic.Lib.ValueIdx

noncomputable section

namespace Cert.Hand.Spec

open Idealize.ShloMosaic Idealize.ShloMosaic.ValueIdx

/-- The dense product `B · Y` over the extended reals: the entry at row `c`, column `f` is
    `∑ r, B (c, r) · Y (r, f)`, the sum over all 12288 columns of `B`. -/
def Zmm (B : (⟨2, ![12288, 12288]⟩ : Shape).Idx → EReal) (Y : (⟨2, ![12288, 32]⟩ : Shape).Idx → EReal) :
    (⟨2, ![12288, 32]⟩ : Shape).Idx → EReal :=
  fun i => ∑ r : Fin 12288, B (ix2 ⟨(i 0).val, (i 0).isLt⟩ r) * Y (ix2 r ⟨(i 1).val, (i 1).isLt⟩)

/-- The transposed dense product `Bᵀ · S` over the extended reals: the entry at row `c`, column `f` is
    `∑ r, B (r, c) · S (r, f)`, the sum over all 12288 rows of `B`. -/
def Zt (B : (⟨2, ![12288, 12288]⟩ : Shape).Idx → EReal) (S : (⟨2, ![12288, 10]⟩ : Shape).Idx → EReal) :
    (⟨2, ![12288, 10]⟩ : Shape).Idx → EReal :=
  fun i => ∑ r : Fin 12288, B (ix2 r ⟨(i 0).val, (i 0).isLt⟩) * S (ix2 r ⟨(i 1).val, (i 1).isLt⟩)

end Cert.Hand.Spec

end
-- ==== Proof.KI.DenseSum.lean ====
import proofs.«421346_j24266565222650_2_alg».proof.Proof.KI.DenseDefs
import Mathlib.Algebra.BigOperators.Fin

noncomputable section

namespace Cert.Hand.Spec

open Idealize.ShloMosaic Idealize.ShloMosaic.ValueIdx

/-- The square matrix read at natural-number coordinates: its entry inside the array, zero outside. -/
def natB (B : (⟨2, ![12288, 12288]⟩ : Shape).Idx → EReal) (r x : ℕ) : EReal :=
  if h : r < 12288 ∧ x < 12288 then B (ix2 ⟨r, h.1⟩ ⟨x, h.2⟩) else 0

/-- The tall matrix read at a natural-number row: its entry inside the array, zero outside. -/
def natY {n : ℕ} (Y : (⟨2, ![12288, n]⟩ : Shape).Idx → EReal) (x : ℕ) (q : Fin n) : EReal :=
  if h : x < 12288 then Y (ix2 ⟨x, h⟩ q) else 0

theorem natB_of_lt (B : (⟨2, ![12288, 12288]⟩ : Shape).Idx → EReal) {r x : ℕ} (hr : r < 12288) (hx : x < 12288) :
    natB B r x = B (ix2 ⟨r, hr⟩ ⟨x, hx⟩) := dif_pos ⟨hr, hx⟩

theorem natY_of_lt {n : ℕ} (Y : (⟨2, ![12288, n]⟩ : Shape).Idx → EReal) {x : ℕ} (hx : x < 12288) (q : Fin n) :
    natY Y x q = Y (ix2 ⟨x, hx⟩ q) := dif_pos hx

/-- A sum over the first `k` blocks of 4096 plus the sum over block `k` is the sum over the first `k + 1` blocks. -/
theorem sum_block_succ (f : ℕ → EReal) (k : ℕ) :
    ∑ x ∈ Finset.range (k * 4096), f x + ∑ x : Fin 4096, f (k * 4096 + x.val)
      = ∑ x ∈ Finset.range ((k + 1) * 4096), f x := by
  rw [add_mul, one_mul, Finset.sum_range_add, Finset.sum_range (fun x => f (k * 4096 + x))]

/-- Row `r` of `B` against column `q` of `Y`, summed over all 12288 natural numbers below the extent. -/
theorem sum_range_row {n : ℕ} (B : (⟨2, ![12288, 12288]⟩ : Shape).Idx → EReal) (Y : (⟨2, ![12288, n]⟩ : Shape).Idx → EReal)
    {r : ℕ} (hr : r < 12288) (q : Fin n) :
    ∑ x ∈ Finset.range 12288, natB B r x * natY Y x q = ∑ x : Fin 12288, B (ix2 ⟨r, hr⟩ x) * Y (ix2 x q) := by
  rw [Finset.sum_range]
  refine Finset.sum_congr rfl fun x _ => ?_
  rw [natB_of_lt B hr x.isLt, natY_of_lt Y x.isLt]

/-- Column `r` of `B` against column `q` of `S`, summed over all 12288 natural numbers below the extent. -/
theorem sum_range_col {n : ℕ} (B : (⟨2, ![12288, 12288]⟩ : Shape).Idx → EReal) (S : (⟨2, ![12288, n]⟩ : Shape).Idx → EReal)
    {r : ℕ} (hr : r < 12288) (q : Fin n) :
    ∑ x ∈ Finset.range 12288, natB B x r * natY S x q = ∑ x : Fin 12288, B (ix2 x ⟨r, hr⟩) * S (ix2 x q) := by
  rw [Finset.sum_range]
  refine Finset.sum_congr rfl fun x _ => ?_
  rw [natB_of_lt B x.isLt hr, natY_of_lt S x.isLt]

/-- The dense product at the index with coordinates `r`, `q`. -/
theorem Zmm_ix2 (B : (⟨2, ![12288, 12288]⟩ : Shape).Idx → EReal) (Y : (⟨2, ![12288, 32]⟩ : Shape).Idx → EReal)
    {r : ℕ} (hr : r < 12288) (q : Fin 32) :
    Zmm B Y (ix2 ⟨r, hr⟩ q) = ∑ x ∈ Finset.range 12288, natB B r x * natY Y x q :=
  (sum_range_row B Y hr q).symm

/-- The transposed dense product at the index with coordinates `r`, `q`. -/
theorem Zt_ix2 (B : (⟨2, ![12288, 12288]⟩ : Shape).Idx → EReal) (S : (⟨2, ![12288, 10]⟩ : Shape).Idx → EReal)
    {r : ℕ} (hr : r < 12288) (q : Fin 10) :
    Zt B S (ix2 ⟨r, hr⟩ q) = ∑ x ∈ Finset.range 12288, natB B x r * natY S x q :=
  (sum_range_col B S hr q).symm

end Cert.Hand.Spec

end
-- ==== Proof.KI.RegVal0.lean ====
import proofs.«421346_j24266565222650_2_alg».proof.Proof.KI.R0Body
import proofs.«421346_j24266565222650_2_alg».proof.Proof.KI.DenseSum
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hand.Spec

/-! ## Region 0: the array it leaves is the dense product of the two arrays it reads

The 18 grid points are `t = 3·i + k`: row block `i` (2048 rows) of the output, column block `k` (4096 columns) of the
square matrix. At `k = 0` the accumulator is reset and receives the first partial product; at `k = 1, 2` it receives the
next; after `k = 2` it holds the whole row-by-column sums of row block `i`, and that is what is written back. -/

/-! ### The body's two payloads at an index, over the extended reals -/

theorem lhs_mm0_0 (j : S2048x32.Idx) (k : dot_S2048x4096_S4096x32_S2048x32_1_0_0_1_n_n.contr.Idx) :
    (dot_S2048x4096_S4096x32_S2048x32_1_0_0_1_n_n.lhsIdx j k 0).val = (j 0).val := by
  unfold DotDims.lhsIdx
  rw [dif_neg (show ¬(0 : Fin S2048x4096.rank) ∈ dot_S2048x4096_S4096x32_S2048x32_1_0_0_1_n_n.lhsBatch by decide), dif_pos (show (0 : Fin S2048x4096.rank) ∈ dot_S2048x4096_S4096x32_S2048x32_1_0_0_1_n_n.lhsNonContracting by decide)]
  rfl
theorem lhs_mm0_1 (j : S2048x32.Idx) (k : dot_S2048x4096_S4096x32_S2048x32_1_0_0_1_n_n.contr.Idx) :
    (dot_S2048x4096_S4096x32_S2048x32_1_0_0_1_n_n.lhsIdx j k 1).val = (k ⟨0, by decide⟩).val :=
  dot_S2048x4096_S4096x32_S2048x32_1_0_0_1_n_n.lhsIdx_val_of_single rfl j k
theorem rhs_mm0_0 (j : S2048x32.Idx) (k : dot_S2048x4096_S4096x32_S2048x32_1_0_0_1_n_n.contr.Idx) :
    (dot_S2048x4096_S4096x32_S2048x32_1_0_0_1_n_n.rhsIdx j k 0).val = (k ⟨0, by decide⟩).val :=
  dot_S2048x4096_S4096x32_S2048x32_1_0_0_1_n_n.rhsIdx_val_of_single rfl j k
theorem rhs_mm0_1 (j : S2048x32.Idx) (k : dot_S2048x4096_S4096x32_S2048x32_1_0_0_1_n_n.contr.Idx) :
    (dot_S2048x4096_S4096x32_S2048x32_1_0_0_1_n_n.rhsIdx j k 1).val = (j 1).val := by
  unfold DotDims.rhsIdx
  rw [dif_neg (show ¬(1 : Fin S4096x32.rank) ∈ dot_S2048x4096_S4096x32_S2048x32_1_0_0_1_n_n.rhsBatch by decide), dif_pos (show (1 : Fin S4096x32.rank) ∈ dot_S2048x4096_S4096x32_S2048x32_1_0_0_1_n_n.rhsNonContracting by decide)]
  rfl

/-- The accumulating payload at `(p, q)`: what the accumulator held there plus row `p` of the left block against
    column `q` of the right block. -/
theorem pay2_apply0 (x0 : Vec Ideal S2048x4096 .bf16) (x1 : Vec Ideal S4096x32 .bf16) (a : Vec Ideal S2048x32 .f32)
    (p : Fin 2048) (q : Fin 32) :
    k0_pay2 x0 x1 a (ix2 p q) = a (ix2 p q) + ∑ x : Fin 4096, x0 (ix2 p x) * x1 (ix2 x q) := by
  unfold k0_pay2
  simp only [shapeCast_self]
  show a (ix2 p q) + matmul (F := Ideal) dot_S2048x4096_S4096x32_S2048x32_1_0_0_1_n_n none x0 x1 (constant (F := Ideal) S2048x32 .f32 0x00000000#32) (ix2 p q) = _
  congr 1
  simp only [matmul]
  rw [Ideal.matmul_constant_zero_apply, ← Equiv.sum_comp (contrEquiv1 dot_S2048x4096_S4096x32_S2048x32_1_0_0_1_n_n 4096 rfl rfl).symm]
  refine Finset.sum_congr rfl fun k _ => ?_
  have hk := contrEquiv1_symm_val dot_S2048x4096_S4096x32_S2048x32_1_0_0_1_n_n 4096 rfl rfl k
  have el : dot_S2048x4096_S4096x32_S2048x32_1_0_0_1_n_n.lhsIdx (ix2 p q) ((contrEquiv1 dot_S2048x4096_S4096x32_S2048x32_1_0_0_1_n_n 4096 rfl rfl).symm k) = ix2 p k := funext fun a => Fin.ext (by
    match a with
    | ⟨0, _⟩ => exact lhs_mm0_0 _ _
    | ⟨1, _⟩ => exact (lhs_mm0_1 _ _).trans hk)
  have er : dot_S2048x4096_S4096x32_S2048x32_1_0_0_1_n_n.rhsIdx (ix2 p q) ((contrEquiv1 dot_S2048x4096_S4096x32_S2048x32_1_0_0_1_n_n 4096 rfl rfl).symm k) = ix2 k q := funext fun a => Fin.ext (by
    match a with
    | ⟨0, _⟩ => exact (rhs_mm0_0 _ _).trans hk
    | ⟨1, _⟩ => exact rhs_mm0_1 _ _)
  rw [el, er]

/-- The resetting payload is the zero block. -/
theorem pay1_apply0 (j : S2048x32.Idx) : k0_pay1 (F := Ideal) j = 0 := by
  unfold k0_pay1
  simp only [shapeCast_self]
  exact Ideal.ofBits_zero_f32

/-! ### The blocks the body reads, as entries of the two arrays -/

/-- The printed index maps over the grid: point `t = 3·i + k` reads block `(i, k)` of the square matrix and block
    `(k, 0)` of the tall one, and its output block is `(i, 0)`. -/
theorem idx_facts0 : ∀ t : Fin cfg0.N,
    win0_0.index t (0 : Fin 2) = t.val / 3 ∧ win0_0.index t (1 : Fin 2) = t.val % 3
    ∧ win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)

/-- The same at the point with number `n`. -/
theorem idx_at0 (n : ℕ) (h : n < cfg0.N) :
    win0_0.index ⟨n, h⟩ (0 : Fin 2) = n / 3 ∧ win0_0.index ⟨n, h⟩ (1 : Fin 2) = n % 3
    ∧ win0_1.index ⟨n, h⟩ (0 : Fin 2) = n % 3 ∧ win0_1.index ⟨n, h⟩ (1 : Fin 2) = 0
    ∧ win0_2.index ⟨n, h⟩ (0 : Fin 2) = n / 3 ∧ win0_2.index ⟨n, h⟩ (1 : Fin 2) = 0 :=
  idx_facts0 ⟨n, h⟩

variable (V : (c : Dev nD) → (b : Ref sig .tc) → Buf (Elt Ideal) ((c : Thread nD τ).loc b))

/-- The left block at point `n`, entry `(p, x)`: the square matrix at row `(n / 3)·2048 + p`, column `(n % 3)·4096 + x`. -/
theorem lhs0_apply (c : Dev nD) (n : ℕ) (h : n < cfg0.N) (p : Fin 2048) (x : Fin 4096) :
    lhs0 V c ⟨n, h⟩ (ix2 p x) = natB (V c main_v32) (n / 3 * 2048 + p.val) (n % 3 * 4096 + x.val) := by
  have hN : cfg0.N = 18 := N_0
  obtain ⟨e0, e1, -, -, -, -⟩ := idx_at0 n h
  rw [natB_of_lt _ (by have := p.isLt; omega) (by have := x.isLt; omega)]
  show V c main_v32 (((cfg0.win 0).blk ⟨n, h⟩).view.emb (ix2 p x)) = _
  congr 1
  funext a; apply Fin.ext
  match a with
  | ⟨0, _⟩ => show win0_0.index ⟨n, h⟩ (0 : Fin 2) * 2048 + 1 * p.val = n / 3 * 2048 + p.val; rw [e0]; omega
  | ⟨1, _⟩ => show win0_0.index ⟨n, h⟩ (1 : Fin 2) * 4096 + 1 * x.val = n % 3 * 4096 + x.val; rw [e1]; omega

/-- The right block at point `n`, entry `(x, q)`: the tall matrix at row `(n % 3)·4096 + x`, column `q`. -/
theorem rhs0_apply (c : Dev nD) (n : ℕ) (h : n < cfg0.N) (x : Fin 4096) (q : Fin 32) :
    rhs0 V c ⟨n, h⟩ (ix2 x q) = natY (V c main_v38) (n % 3 * 4096 + x.val) q := by
  have hN : cfg0.N = 18 := N_0
  obtain ⟨-, -, e2, e3, -, -⟩ := idx_at0 n h
  rw [natY_of_lt _ (by have := x.isLt; omega)]
  show V c main_v38 (((cfg0.win 1).blk ⟨n, h⟩).view.emb (ix2 x q)) = _
  congr 1
  funext a; apply Fin.ext
  match a with
  | ⟨0, _⟩ => show win0_1.index ⟨n, h⟩ (0 : Fin 2) * 4096 + 1 * x.val = n % 3 * 4096 + x.val; rw [e2]; omega
  | ⟨1, _⟩ => show win0_1.index ⟨n, h⟩ (1 : Fin 2) * 32 + 1 * q.val = q.val; rw [e3]; omega

/-! ### The accumulator after each point -/

/-- After point `n = 3·i + k` the accumulator holds, at `(p, q)`, row `i·2048 + p` of the square matrix against column
    `q` of the tall one, summed over the first `(k + 1)·4096` columns: by induction on the point. -/
theorem acc_eq0 (c : Dev nD) (n : ℕ) : ∀ (h : n < cfg0.N) (p : Fin 2048) (q : Fin 32),
    (outsAt0 V c n h).2 (ix2 p q)
      = ∑ x ∈ Finset.range ((n % 3 + 1) * 4096), natB (V c main_v32) (n / 3 * 2048 + p.val) x * natY (V c main_v38) x q := by
  induction n using Nat.strong_induction_on with
  | _ n ih =>
    intro h p q
    have hN : cfg0.N = 18 := N_0
    by_cases h0 : n % 3 = 0
    · have e : (outsAt0 V c n h).2 = k0_pay2 (lhs0 V c ⟨n, h⟩) (rhs0 V c ⟨n, h⟩) (k0_pay1 (F := Ideal)) :=
        acc0_first V c ⟨n, h⟩ h0
      rw [e, pay2_apply0, pay1_apply0, zero_add]
      simp only [lhs0_apply, rhs0_apply]
      rw [h0]
      have s := sum_block_succ (fun x => natB (V c main_v32) (n / 3 * 2048 + p.val) x * natY (V c main_v38) x q) 0
      rw [Nat.zero_mul, Finset.range_zero, Finset.sum_empty, zero_add] at s
      exact s
    · have hlt : n - 1 < cfg0.N := by omega
      have e : (outsAt0 V c n h).2 = k0_pay2 (lhs0 V c ⟨n, h⟩) (rhs0 V c ⟨n, h⟩) (outsAt0 V c (n - 1) hlt).2 :=
        acc0_next V c ⟨n, h⟩ h0
      rw [e, pay2_apply0, ih (n - 1) (by omega) hlt p q]
      simp only [lhs0_apply, rhs0_apply]
      have e1 : (n - 1) % 3 + 1 = n % 3 := by omega
      have e2 : (n - 1) / 3 = n / 3 := by omega
      rw [e1, e2]
      exact sum_block_succ (fun x => natB (V c main_v32) (n / 3 * 2048 + p.val) x * natY (V c main_v38) x q) (n % 3)

theorem row_lt0 (n : ℕ) (h : n < cfg0.N) (p : ℕ) (hp : p < 2048) : n / 3 * 2048 + p < 12288 := by
  have hN : cfg0.N = 18 := N_0
  omega

/-- After the last point of row block `i` (`n = 3·i + 2`) the accumulator is that row block of the dense product. -/
theorem acc_last0 (c : Dev nD) (n : ℕ) (h : n < cfg0.N) (h2 : n % 3 = 2) :
    (outsAt0 V c n h).2 = fun j : S2048x32.Idx =>
      Zmm (V c main_v32) (V c main_v38) (ix2 ⟨n / 3 * 2048 + (j 0).val, row_lt0 n h _ (j 0).isLt⟩ ⟨(j 1).val, (j 1).isLt⟩) := by
  funext j
  have hj : j = ix2 (⟨(j 0).val, (j 0).isLt⟩ : Fin 2048) (⟨(j 1).val, (j 1).isLt⟩ : Fin 32) :=
    funext fun a => match a with | ⟨0, _⟩ => rfl | ⟨1, _⟩ => rfl
  refine (congrArg (outsAt0 V c n h).2 hj).trans ?_
  refine (acc_eq0 V c n h _ _).trans ?_
  rw [h2]
  exact (Zmm_ix2 (V c main_v32) (V c main_v38) (row_lt0 n h _ (j 0).isLt) ⟨(j 1).val, (j 1).isLt⟩).symm

/-! ### What is written back, the cover, the array after the region -/

/-- The write-back after point `t` (the points with `k = 2`) writes block `t` of the dense product. -/
theorem flushed_eq0 (c : Dev nD) (t : Fin cfg0.N) (hf : (cfg0.win 2).flush t = true) :
    (dat0 V c).flushed 2 t
      = ((cfg0.win 2).blk t).view.read (Elt Ideal) (Zmm (V c main_v32) (V c main_v38)) := by
  have h2 : t.val % 3 = 2 := (flush0_2 t).mp hf
  obtain ⟨-, -, -, -, e4, e5⟩ := idx_facts0 t
  show (cfg0.win 2).cut (grid0.coords t) ((dat0 V c).after 2 t) = _
  rw [after0_2, out0_last V c t h2, acc_last0 V c t.val t.isLt h2]
  funext j
  show Zmm (V c main_v32) (V c main_v38) (ix2 ⟨t.val / 3 * 2048 + (j 0).val, _⟩ ⟨(j 1).val, _⟩)
    = Zmm (V c main_v32) (V c main_v38) (((cfg0.win 2).blk t).view.emb j)
  congr 1
  funext a; apply Fin.ext
  match a with
  | ⟨0, _⟩ => show t.val / 3 * 2048 + (j 0).val = win0_2.index t (0 : Fin 2) * 2048 + 1 * (j 0).val; rw [e4]; omega
  | ⟨1, _⟩ => show (j 1).val = win0_2.index t (1 : Fin 2) * 32 + 1 * (j 1).val; rw [e5]; omega

/-- An index of the output array is in point `t`'s block iff each coordinate is in the block's range on its axis. -/
theorem mem_blk0 (t : Fin cfg0.N) (i : S12288x32.Idx) :
    i ∈ ((cfg0.win 2).blk t).view.set ↔ ∀ a : Fin 2, win0_2.index t a * S2048x32.size a ≤ (i a).val ∧ (i a).val < win0_2.index t a * S2048x32.size a + S2048x32.size a := by
  show i ∈ ((View.whole main_v39).slice (win0_2.rect t)).set ↔ _
  rw [View.set_slice_whole, Rect.mem_set_unit]
  exact Iff.rfl

/-- Every index of the output array is in the block written back after the last point of its row block. -/
theorem cover0 (i : S12288x32.Idx) :
    ∃ t : Fin cfg0.N, (cfg0.win 2).flush t = true ∧ i ∈ ((cfg0.win 2).blk t).view.set := by
  have hN : cfg0.N = 18 := N_0
  have hi0 : (i 0).val < 12288 := (i 0).isLt
  have hi1 : (i 1).val < 32 := (i 1).isLt
  have ht : 3 * ((i 0).val / 2048) + 2 < cfg0.N := by omega
  obtain ⟨-, -, -, -, e4, e5⟩ := idx_at0 (3 * ((i 0).val / 2048) + 2) ht
  refine ⟨⟨3 * ((i 0).val / 2048) + 2, ht⟩, (flush0_2 _).mpr (by show (3 * ((i 0).val / 2048) + 2) % 3 = 2; omega), ?_⟩
  rw [mem_blk0]
  intro a
  match a with
  | ⟨0, _⟩ =>
    show win0_2.index ⟨3 * ((i 0).val / 2048) + 2, ht⟩ (0 : Fin 2) * 2048 ≤ (i 0).val ∧ (i 0).val < win0_2.index ⟨3 * ((i 0).val / 2048) + 2, ht⟩ (0 : Fin 2) * 2048 + 2048
    rw [e4]; omega
  | ⟨1, _⟩ =>
    show win0_2.index ⟨3 * ((i 0).val / 2048) + 2, ht⟩ (1 : Fin 2) * 32 ≤ (i 1).val ∧ (i 1).val < win0_2.index ⟨3 * ((i 0).val / 2048) + 2, ht⟩ (1 : Fin 2) * 32 + 32
    rw [e5]; omega

/-- THE ARRAY REGION 0 LEAVES: the dense product of the square matrix and the tall one, as the region finds them. -/
theorem final0 (c : Dev nD) :
    (dat0 (F := Ideal) V c).arrAt 2 cfg0.N = Zmm (V c main_v32) (V c main_v38) :=
  (dat0 V c).arrAt_eq_of_cover 2 (Zmm (V c main_v32) (V c main_v38)) (fun t hf => flushed_eq0 V c t hf) cover0

end Cert.KernelIdeal.Hand

end
-- ==== Proof.KI.RegVal1.lean ====
import proofs.«421346_j24266565222650_2_alg».proof.Proof.KI.R1Body
import proofs.«421346_j24266565222650_2_alg».proof.Proof.KI.DenseSum
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hand.Spec

/-! ## Region 1: the array it leaves is the dense product of the two arrays it reads

The 18 grid points are `t = 3·i + k`: row block `i` (2048 rows) of the output, column block `k` (4096 columns) of the
square matrix. At `k = 0` the accumulator is reset and receives the first partial product; at `k = 1, 2` it receives the
next; after `k = 2` it holds the whole row-by-column sums of row block `i`, and that is what is written back. -/

/-! ### The body's two payloads at an index, over the extended reals -/

theorem lhs_mm1_0 (j : S2048x32.Idx) (k : dot_S2048x4096_S4096x32_S2048x32_1_0_0_1_n_n.contr.Idx) :
    (dot_S2048x4096_S4096x32_S2048x32_1_0_0_1_n_n.lhsIdx j k 0).val = (j 0).val := by
  unfold DotDims.lhsIdx
  rw [dif_neg (show ¬(0 : Fin S2048x4096.rank) ∈ dot_S2048x4096_S4096x32_S2048x32_1_0_0_1_n_n.lhsBatch by decide), dif_pos (show (0 : Fin S2048x4096.rank) ∈ dot_S2048x4096_S4096x32_S2048x32_1_0_0_1_n_n.lhsNonContracting by decide)]
  rfl
theorem lhs_mm1_1 (j : S2048x32.Idx) (k : dot_S2048x4096_S4096x32_S2048x32_1_0_0_1_n_n.contr.Idx) :
    (dot_S2048x4096_S4096x32_S2048x32_1_0_0_1_n_n.lhsIdx j k 1).val = (k ⟨0, by decide⟩).val :=
  dot_S2048x4096_S4096x32_S2048x32_1_0_0_1_n_n.lhsIdx_val_of_single rfl j k
theorem rhs_mm1_0 (j : S2048x32.Idx) (k : dot_S2048x4096_S4096x32_S2048x32_1_0_0_1_n_n.contr.Idx) :
    (dot_S2048x4096_S4096x32_S2048x32_1_0_0_1_n_n.rhsIdx j k 0).val = (k ⟨0, by decide⟩).val :=
  dot_S2048x4096_S4096x32_S2048x32_1_0_0_1_n_n.rhsIdx_val_of_single rfl j k
theorem rhs_mm1_1 (j : S2048x32.Idx) (k : dot_S2048x4096_S4096x32_S2048x32_1_0_0_1_n_n.contr.Idx) :
    (dot_S2048x4096_S4096x32_S2048x32_1_0_0_1_n_n.rhsIdx j k 1).val = (j 1).val := by
  unfold DotDims.rhsIdx
  rw [dif_neg (show ¬(1 : Fin S4096x32.rank) ∈ dot_S2048x4096_S4096x32_S2048x32_1_0_0_1_n_n.rhsBatch by decide), dif_pos (show (1 : Fin S4096x32.rank) ∈ dot_S2048x4096_S4096x32_S2048x32_1_0_0_1_n_n.rhsNonContracting by decide)]
  rfl

/-- The accumulating payload at `(p, q)`: what the accumulator held there plus row `p` of the left block against
    column `q` of the right block. -/
theorem pay2_apply1 (x0 : Vec Ideal S2048x4096 .bf16) (x1 : Vec Ideal S4096x32 .bf16) (a : Vec Ideal S2048x32 .f32)
    (p : Fin 2048) (q : Fin 32) :
    k1_pay2 x0 x1 a (ix2 p q) = a (ix2 p q) + ∑ x : Fin 4096, x0 (ix2 p x) * x1 (ix2 x q) := by
  unfold k1_pay2
  simp only [shapeCast_self]
  show a (ix2 p q) + matmul (F := Ideal) dot_S2048x4096_S4096x32_S2048x32_1_0_0_1_n_n none x0 x1 (constant (F := Ideal) S2048x32 .f32 0x00000000#32) (ix2 p q) = _
  congr 1
  simp only [matmul]
  rw [Ideal.matmul_constant_zero_apply, ← Equiv.sum_comp (contrEquiv1 dot_S2048x4096_S4096x32_S2048x32_1_0_0_1_n_n 4096 rfl rfl).symm]
  refine Finset.sum_congr rfl fun k _ => ?_
  have hk := contrEquiv1_symm_val dot_S2048x4096_S4096x32_S2048x32_1_0_0_1_n_n 4096 rfl rfl k
  have el : dot_S2048x4096_S4096x32_S2048x32_1_0_0_1_n_n.lhsIdx (ix2 p q) ((contrEquiv1 dot_S2048x4096_S4096x32_S2048x32_1_0_0_1_n_n 4096 rfl rfl).symm k) = ix2 p k := funext fun a => Fin.ext (by
    match a with
    | ⟨0, _⟩ => exact lhs_mm1_0 _ _
    | ⟨1, _⟩ => exact (lhs_mm1_1 _ _).trans hk)
  have er : dot_S2048x4096_S4096x32_S2048x32_1_0_0_1_n_n.rhsIdx (ix2 p q) ((contrEquiv1 dot_S2048x4096_S4096x32_S2048x32_1_0_0_1_n_n 4096 rfl rfl).symm k) = ix2 k q := funext fun a => Fin.ext (by
    match a with
    | ⟨0, _⟩ => exact (rhs_mm1_0 _ _).trans hk
    | ⟨1, _⟩ => exact rhs_mm1_1 _ _)
  rw [el, er]

/-- The resetting payload is the zero block. -/
theorem pay1_apply1 (j : S2048x32.Idx) : k1_pay1 (F := Ideal) j = 0 := by
  unfold k1_pay1
  simp only [shapeCast_self]
  exact Ideal.ofBits_zero_f32

/-! ### The blocks the body reads, as entries of the two arrays -/

/-- The printed index maps over the grid: point `t = 3·i + k` reads block `(i, k)` of the square matrix and block
    `(k, 0)` of the tall one, and its output block is `(i, 0)`. -/
theorem idx_facts1 : ∀ t : Fin cfg1.N,
    win1_0.index t (0 : Fin 2) = t.val / 3 ∧ win1_0.index t (1 : Fin 2) = t.val % 3
    ∧ win1_1.index t (0 : Fin 2) = t.val % 3 ∧ win1_1.index t (1 : Fin 2) = 0
    ∧ win1_2.index t (0 : Fin 2) = t.val / 3 ∧ win1_2.index t (1 : Fin 2) = 0 :=
  (by decide +kernel : ∀ t : Fin grid1.N, _)

/-- The same at the point with number `n`. -/
theorem idx_at1 (n : ℕ) (h : n < cfg1.N) :
    win1_0.index ⟨n, h⟩ (0 : Fin 2) = n / 3 ∧ win1_0.index ⟨n, h⟩ (1 : Fin 2) = n % 3
    ∧ win1_1.index ⟨n, h⟩ (0 : Fin 2) = n % 3 ∧ win1_1.index ⟨n, h⟩ (1 : Fin 2) = 0
    ∧ win1_2.index ⟨n, h⟩ (0 : Fin 2) = n / 3 ∧ win1_2.index ⟨n, h⟩ (1 : Fin 2) = 0 :=
  idx_facts1 ⟨n, h⟩

variable (V : (c : Dev nD) → (b : Ref sig .tc) → Buf (Elt Ideal) ((c : Thread nD τ).loc b))

/-- The left block at point `n`, entry `(p, x)`: the square matrix at row `(n / 3)·2048 + p`, column `(n % 3)·4096 + x`. -/
theorem lhs1_apply (c : Dev nD) (n : ℕ) (h : n < cfg1.N) (p : Fin 2048) (x : Fin 4096) :
    lhs1 V c ⟨n, h⟩ (ix2 p x) = natB (V c main_v32) (n / 3 * 2048 + p.val) (n % 3 * 4096 + x.val) := by
  have hN : cfg1.N = 18 := N_1
  obtain ⟨e0, e1, -, -, -, -⟩ := idx_at1 n h
  rw [natB_of_lt _ (by have := p.isLt; omega) (by have := x.isLt; omega)]
  show V c main_v32 (((cfg1.win 0).blk ⟨n, h⟩).view.emb (ix2 p x)) = _
  congr 1
  funext a; apply Fin.ext
  match a with
  | ⟨0, _⟩ => show win1_0.index ⟨n, h⟩ (0 : Fin 2) * 2048 + 1 * p.val = n / 3 * 2048 + p.val; rw [e0]; omega
  | ⟨1, _⟩ => show win1_0.index ⟨n, h⟩ (1 : Fin 2) * 4096 + 1 * x.val = n % 3 * 4096 + x.val; rw [e1]; omega

/-- The right block at point `n`, entry `(x, q)`: the tall matrix at row `(n % 3)·4096 + x`, column `q`. -/
theorem rhs1_apply (c : Dev nD) (n : ℕ) (h : n < cfg1.N) (x : Fin 4096) (q : Fin 32) :
    rhs1 V c ⟨n, h⟩ (ix2 x q) = natY (V c main_v58) (n % 3 * 4096 + x.val) q := by
  have hN : cfg1.N = 18 := N_1
  obtain ⟨-, -, e2, e3, -, -⟩ := idx_at1 n h
  rw [natY_of_lt _ (by have := x.isLt; omega)]
  show V c main_v58 (((cfg1.win 1).blk ⟨n, h⟩).view.emb (ix2 x q)) = _
  congr 1
  funext a; apply Fin.ext
  match a with
  | ⟨0, _⟩ => show win1_1.index ⟨n, h⟩ (0 : Fin 2) * 4096 + 1 * x.val = n % 3 * 4096 + x.val; rw [e2]; omega
  | ⟨1, _⟩ => show win1_1.index ⟨n, h⟩ (1 : Fin 2) * 32 + 1 * q.val = q.val; rw [e3]; omega

/-! ### The accumulator after each point -/

/-- After point `n = 3·i + k` the accumulator holds, at `(p, q)`, row `i·2048 + p` of the square matrix against column
    `q` of the tall one, summed over the first `(k + 1)·4096` columns: by induction on the point. -/
theorem acc_eq1 (c : Dev nD) (n : ℕ) : ∀ (h : n < cfg1.N) (p : Fin 2048) (q : Fin 32),
    (outsAt1 V c n h).2 (ix2 p q)
      = ∑ x ∈ Finset.range ((n % 3 + 1) * 4096), natB (V c main_v32) (n / 3 * 2048 + p.val) x * natY (V c main_v58) x q := by
  induction n using Nat.strong_induction_on with
  | _ n ih =>
    intro h p q
    have hN : cfg1.N = 18 := N_1
    by_cases h0 : n % 3 = 0
    · have e : (outsAt1 V c n h).2 = k1_pay2 (lhs1 V c ⟨n, h⟩) (rhs1 V c ⟨n, h⟩) (k1_pay1 (F := Ideal)) :=
        acc1_first V c ⟨n, h⟩ h0
      rw [e, pay2_apply1, pay1_apply1, zero_add]
      simp only [lhs1_apply, rhs1_apply]
      rw [h0]
      have s := sum_block_succ (fun x => natB (V c main_v32) (n / 3 * 2048 + p.val) x * natY (V c main_v58) x q) 0
      rw [Nat.zero_mul, Finset.range_zero, Finset.sum_empty, zero_add] at s
      exact s
    · have hlt : n - 1 < cfg1.N := by omega
      have e : (outsAt1 V c n h).2 = k1_pay2 (lhs1 V c ⟨n, h⟩) (rhs1 V c ⟨n, h⟩) (outsAt1 V c (n - 1) hlt).2 :=
        acc1_next V c ⟨n, h⟩ h0
      rw [e, pay2_apply1, ih (n - 1) (by omega) hlt p q]
      simp only [lhs1_apply, rhs1_apply]
      have e1 : (n - 1) % 3 + 1 = n % 3 := by omega
      have e2 : (n - 1) / 3 = n / 3 := by omega
      rw [e1, e2]
      exact sum_block_succ (fun x => natB (V c main_v32) (n / 3 * 2048 + p.val) x * natY (V c main_v58) x q) (n % 3)

theorem row_lt1 (n : ℕ) (h : n < cfg1.N) (p : ℕ) (hp : p < 2048) : n / 3 * 2048 + p < 12288 := by
  have hN : cfg1.N = 18 := N_1
  omega

/-- After the last point of row block `i` (`n = 3·i + 2`) the accumulator is that row block of the dense product. -/
theorem acc_last1 (c : Dev nD) (n : ℕ) (h : n < cfg1.N) (h2 : n % 3 = 2) :
    (outsAt1 V c n h).2 = fun j : S2048x32.Idx =>
      Zmm (V c main_v32) (V c main_v58) (ix2 ⟨n / 3 * 2048 + (j 0).val, row_lt1 n h _ (j 0).isLt⟩ ⟨(j 1).val, (j 1).isLt⟩) := by
  funext j
  have hj : j = ix2 (⟨(j 0).val, (j 0).isLt⟩ : Fin 2048) (⟨(j 1).val, (j 1).isLt⟩ : Fin 32) :=
    funext fun a => match a with | ⟨0, _⟩ => rfl | ⟨1, _⟩ => rfl
  refine (congrArg (outsAt1 V c n h).2 hj).trans ?_
  refine (acc_eq1 V c n h _ _).trans ?_
  rw [h2]
  exact (Zmm_ix2 (V c main_v32) (V c main_v58) (row_lt1 n h _ (j 0).isLt) ⟨(j 1).val, (j 1).isLt⟩).symm

/-! ### What is written back, the cover, the array after the region -/

/-- The write-back after point `t` (the points with `k = 2`) writes block `t` of the dense product. -/
theorem flushed_eq1 (c : Dev nD) (t : Fin cfg1.N) (hf : (cfg1.win 2).flush t = true) :
    (dat1 V c).flushed 2 t
      = ((cfg1.win 2).blk t).view.read (Elt Ideal) (Zmm (V c main_v32) (V c main_v58)) := by
  have h2 : t.val % 3 = 2 := (flush1_2 t).mp hf
  obtain ⟨-, -, -, -, e4, e5⟩ := idx_facts1 t
  show (cfg1.win 2).cut (grid1.coords t) ((dat1 V c).after 2 t) = _
  rw [after1_2, out1_last V c t h2, acc_last1 V c t.val t.isLt h2]
  funext j
  show Zmm (V c main_v32) (V c main_v58) (ix2 ⟨t.val / 3 * 2048 + (j 0).val, _⟩ ⟨(j 1).val, _⟩)
    = Zmm (V c main_v32) (V c main_v58) (((cfg1.win 2).blk t).view.emb j)
  congr 1
  funext a; apply Fin.ext
  match a with
  | ⟨0, _⟩ => show t.val / 3 * 2048 + (j 0).val = win1_2.index t (0 : Fin 2) * 2048 + 1 * (j 0).val; rw [e4]; omega
  | ⟨1, _⟩ => show (j 1).val = win1_2.index t (1 : Fin 2) * 32 + 1 * (j 1).val; rw [e5]; omega

/-- An index of the output array is in point `t`'s block iff each coordinate is in the block's range on its axis. -/
theorem mem_blk1 (t : Fin cfg1.N) (i : S12288x32.Idx) :
    i ∈ ((cfg1.win 2).blk t).view.set ↔ ∀ a : Fin 2, win1_2.index t a * S2048x32.size a ≤ (i a).val ∧ (i a).val < win1_2.index t a * S2048x32.size a + S2048x32.size a := by
  show i ∈ ((View.whole main_v59).slice (win1_2.rect t)).set ↔ _
  rw [View.set_slice_whole, Rect.mem_set_unit]
  exact Iff.rfl

/-- Every index of the output array is in the block written back after the last point of its row block. -/
theorem cover1 (i : S12288x32.Idx) :
    ∃ t : Fin cfg1.N, (cfg1.win 2).flush t = true ∧ i ∈ ((cfg1.win 2).blk t).view.set := by
  have hN : cfg1.N = 18 := N_1
  have hi0 : (i 0).val < 12288 := (i 0).isLt
  have hi1 : (i 1).val < 32 := (i 1).isLt
  have ht : 3 * ((i 0).val / 2048) + 2 < cfg1.N := by omega
  obtain ⟨-, -, -, -, e4, e5⟩ := idx_at1 (3 * ((i 0).val / 2048) + 2) ht
  refine ⟨⟨3 * ((i 0).val / 2048) + 2, ht⟩, (flush1_2 _).mpr (by show (3 * ((i 0).val / 2048) + 2) % 3 = 2; omega), ?_⟩
  rw [mem_blk1]
  intro a
  match a with
  | ⟨0, _⟩ =>
    show win1_2.index ⟨3 * ((i 0).val / 2048) + 2, ht⟩ (0 : Fin 2) * 2048 ≤ (i 0).val ∧ (i 0).val < win1_2.index ⟨3 * ((i 0).val / 2048) + 2, ht⟩ (0 : Fin 2) * 2048 + 2048
    rw [e4]; omega
  | ⟨1, _⟩ =>
    show win1_2.index ⟨3 * ((i 0).val / 2048) + 2, ht⟩ (1 : Fin 2) * 32 ≤ (i 1).val ∧ (i 1).val < win1_2.index ⟨3 * ((i 0).val / 2048) + 2, ht⟩ (1 : Fin 2) * 32 + 32
    rw [e5]; omega

/-- THE ARRAY REGION 1 LEAVES: the dense product of the square matrix and the tall one, as the region finds them. -/
theorem final1 (c : Dev nD) :
    (dat1 (F := Ideal) V c).arrAt 2 cfg1.N = Zmm (V c main_v32) (V c main_v58) :=
  (dat1 V c).arrAt_eq_of_cover 2 (Zmm (V c main_v32) (V c main_v58)) (fun t hf => flushed_eq1 V c t hf) cover1

end Cert.KernelIdeal.Hand

end
-- ==== Proof.KI.RegVal2.lean ====
import proofs.«421346_j24266565222650_2_alg».proof.Proof.KI.DenseSum
import proofs.«421346_j24266565222650_2_alg».proof.Proof.KI.R2Body
import proofs.«421346_j24266565222650_2_alg».proof.Proof.Gen.KernelIdeal.Launch
import proofs.«421346_j24266565222650_2_alg».proof.Proof.Gen.KernelIdeal.Skeleton
import proofs.«421346_j24266565222650_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hand.Spec

/-! ## Region 2: the array it leaves is the transposed dense product of the two arrays it reads

The 18 grid points are `t = 3·i + k`: column block `i` (2048 columns) of the square matrix, which is row block `i` of
the output, and row block `k` (4096 rows) of both inputs. The body contracts the two blocks along their rows: at
`k = 0` the accumulator is reset and receives the first partial product, at `k = 1, 2` the next; after `k = 2` it holds,
at `(p, q)`, column `i·2048 + p` of the square matrix against column `q` of the tall one, summed over all 12288 rows, and
that is what is written back. -/

/-! ### The body's two payloads at an index, over the extended reals -/

theorem lhs_mm2_0 (j : S2048x10.Idx) (k : dot_S4096x2048_S4096x10_S2048x10_0_0_1_1_n_n.contr.Idx) :
    (dot_S4096x2048_S4096x10_S2048x10_0_0_1_1_n_n.lhsIdx j k 0).val = (k ⟨0, by decide⟩).val :=
  dot_S4096x2048_S4096x10_S2048x10_0_0_1_1_n_n.lhsIdx_val_of_single rfl j k
theorem lhs_mm2_1 (j : S2048x10.Idx) (k : dot_S4096x2048_S4096x10_S2048x10_0_0_1_1_n_n.contr.Idx) :
    (dot_S4096x2048_S4096x10_S2048x10_0_0_1_1_n_n.lhsIdx j k 1).val = (j 0).val := by
  unfold DotDims.lhsIdx
  rw [dif_neg (show ¬(1 : Fin S4096x2048.rank) ∈ dot_S4096x2048_S4096x10_S2048x10_0_0_1_1_n_n.lhsBatch by decide), dif_pos (show (1 : Fin S4096x2048.rank) ∈ dot_S4096x2048_S4096x10_S2048x10_0_0_1_1_n_n.lhsNonContracting by decide)]
  rfl
theorem rhs_mm2_0 (j : S2048x10.Idx) (k : dot_S4096x2048_S4096x10_S2048x10_0_0_1_1_n_n.contr.Idx) :
    (dot_S4096x2048_S4096x10_S2048x10_0_0_1_1_n_n.rhsIdx j k 0).val = (k ⟨0, by decide⟩).val :=
  dot_S4096x2048_S4096x10_S2048x10_0_0_1_1_n_n.rhsIdx_val_of_single rfl j k
theorem rhs_mm2_1 (j : S2048x10.Idx) (k : dot_S4096x2048_S4096x10_S2048x10_0_0_1_1_n_n.contr.Idx) :
    (dot_S4096x2048_S4096x10_S2048x10_0_0_1_1_n_n.rhsIdx j k 1).val = (j 1).val := by
  unfold DotDims.rhsIdx
  rw [dif_neg (show ¬(1 : Fin S4096x10.rank) ∈ dot_S4096x2048_S4096x10_S2048x10_0_0_1_1_n_n.rhsBatch by decide), dif_pos (show (1 : Fin S4096x10.rank) ∈ dot_S4096x2048_S4096x10_S2048x10_0_0_1_1_n_n.rhsNonContracting by decide)]
  rfl

/-- The accumulating payload at `(p, q)`: what the accumulator held there plus column `p` of the left block against
    column `q` of the right block, summed over the 4096 rows the two blocks share. -/
theorem pay2_apply2 (x0 : Vec Ideal S4096x2048 .bf16) (x1 : Vec Ideal S4096x10 .bf16) (a : Vec Ideal S2048x10 .f32)
    (p : Fin 2048) (q : Fin 10) :
    k2_pay2 x0 x1 a (ix2 p q) = a (ix2 p q) + ∑ x : Fin 4096, x0 (ix2 x p) * x1 (ix2 x q) := by
  unfold k2_pay2
  simp only [shapeCast_self]
  show a (ix2 p q) + matmul (F := Ideal) dot_S4096x2048_S4096x10_S2048x10_0_0_1_1_n_n none x0 x1 (constant (F := Ideal) S2048x10 .f32 0x00000000#32) (ix2 p q) = _
  congr 1
  simp only [matmul]
  rw [Ideal.matmul_constant_zero_apply, ← Equiv.sum_comp (contrEquiv1 dot_S4096x2048_S4096x10_S2048x10_0_0_1_1_n_n 4096 rfl rfl).symm]
  refine Finset.sum_congr rfl fun k _ => ?_
  have hk := contrEquiv1_symm_val dot_S4096x2048_S4096x10_S2048x10_0_0_1_1_n_n 4096 rfl rfl k
  have el : dot_S4096x2048_S4096x10_S2048x10_0_0_1_1_n_n.lhsIdx (ix2 p q) ((contrEquiv1 dot_S4096x2048_S4096x10_S2048x10_0_0_1_1_n_n 4096 rfl rfl).symm k) = ix2 k p := funext fun a => Fin.ext (by
    match a with
    | ⟨0, _⟩ => exact (lhs_mm2_0 _ _).trans hk
    | ⟨1, _⟩ => exact lhs_mm2_1 _ _)
  have er : dot_S4096x2048_S4096x10_S2048x10_0_0_1_1_n_n.rhsIdx (ix2 p q) ((contrEquiv1 dot_S4096x2048_S4096x10_S2048x10_0_0_1_1_n_n 4096 rfl rfl).symm k) = ix2 k q := funext fun a => Fin.ext (by
    match a with
    | ⟨0, _⟩ => exact (rhs_mm2_0 _ _).trans hk
    | ⟨1, _⟩ => exact rhs_mm2_1 _ _)
  rw [el, er]

/-- The resetting payload is the zero block. -/
theorem pay1_apply2 (j : S2048x10.Idx) : k2_pay1 (F := Ideal) j = 0 := by
  unfold k2_pay1
  simp only [shapeCast_self]
  exact Ideal.ofBits_zero_f32

/-! ### The blocks the body reads, as entries of the two arrays -/

/-- The printed index maps over the grid: point `t = 3·i + k` reads block `(k, i)` of the square matrix and block
    `(k, 0)` of the tall one, and its output block is `(i, 0)`. -/
theorem idx_facts2 : ∀ t : Fin cfg2.N,
    win2_0.index t (0 : Fin 2) = t.val % 3 ∧ win2_0.index t (1 : Fin 2) = t.val / 3
    ∧ win2_1.index t (0 : Fin 2) = t.val % 3 ∧ win2_1.index t (1 : Fin 2) = 0
    ∧ win2_2.index t (0 : Fin 2) = t.val / 3 ∧ win2_2.index t (1 : Fin 2) = 0 :=
  (by decide +kernel : ∀ t : Fin grid2.N, _)

variable (V : (c : Dev nD) → (b : Ref sig .tc) → Buf (Elt Ideal) ((c : Thread nD τ).loc b))

/-- The left block at point `n`, entry `(x, p)`: the square matrix at row `(n % 3)·4096 + x`, column `(n / 3)·2048 + p`. -/
theorem lhs2_apply (c : Dev nD) (n : ℕ) (h : n < cfg2.N) (x : Fin 4096) (p : Fin 2048) :
    lhs2 V c ⟨n, h⟩ (ix2 x p) = natB (V c main_v32) (n % 3 * 4096 + x.val) (n / 3 * 2048 + p.val) := by
  have hN : cfg2.N = 18 := N_2
  have e0 : win2_0.index ⟨n, h⟩ (0 : Fin 2) = n % 3 := (idx_facts2 ⟨n, h⟩).1
  have e1 : win2_0.index ⟨n, h⟩ (1 : Fin 2) = n / 3 := (idx_facts2 ⟨n, h⟩).2.1
  rw [natB_of_lt _ (by have := x.isLt; omega) (by have := p.isLt; omega)]
  show V c main_v32 (((cfg2.win 0).blk ⟨n, h⟩).view.emb (ix2 x p)) = _
  congr 1
  funext a; apply Fin.ext
  match a with
  | ⟨0, _⟩ => show win2_0.index ⟨n, h⟩ (0 : Fin 2) * 4096 + 1 * x.val = n % 3 * 4096 + x.val; rw [e0]; omega
  | ⟨1, _⟩ => show win2_0.index ⟨n, h⟩ (1 : Fin 2) * 2048 + 1 * p.val = n / 3 * 2048 + p.val; rw [e1]; omega

/-- The right block at point `n`, entry `(x, q)`: the tall matrix at row `(n % 3)·4096 + x`, column `q`. -/
theorem rhs2_apply (c : Dev nD) (n : ℕ) (h : n < cfg2.N) (x : Fin 4096) (q : Fin 10) :
    rhs2 V c ⟨n, h⟩ (ix2 x q) = natY (V c main_v98) (n % 3 * 4096 + x.val) q := by
  have hN : cfg2.N = 18 := N_2
  have e2 : win2_1.index ⟨n, h⟩ (0 : Fin 2) = n % 3 := (idx_facts2 ⟨n, h⟩).2.2.1
  have e3 : win2_1.index ⟨n, h⟩ (1 : Fin 2) = 0 := (idx_facts2 ⟨n, h⟩).2.2.2.1
  rw [natY_of_lt _ (by have := x.isLt; omega)]
  show V c main_v98 (((cfg2.win 1).blk ⟨n, h⟩).view.emb (ix2 x q)) = _
  congr 1
  funext a; apply Fin.ext
  match a with
  | ⟨0, _⟩ => show win2_1.index ⟨n, h⟩ (0 : Fin 2) * 4096 + 1 * x.val = n % 3 * 4096 + x.val; rw [e2]; omega
  | ⟨1, _⟩ => show win2_1.index ⟨n, h⟩ (1 : Fin 2) * 10 + 1 * q.val = q.val; rw [e3]; omega

/-! ### The accumulator after each point -/

/-- After point `n = 3·i + k` the accumulator holds, at `(p, q)`, column `i·2048 + p` of the square matrix against column
    `q` of the tall one, summed over the first `(k + 1)·4096` rows: by induction on the point. -/
theorem acc_eq2 (c : Dev nD) (n : ℕ) : ∀ (h : n < cfg2.N) (p : Fin 2048) (q : Fin 10),
    (outsAt2 V c n h).2 (ix2 p q)
      = ∑ x ∈ Finset.range ((n % 3 + 1) * 4096), natB (V c main_v32) x (n / 3 * 2048 + p.val) * natY (V c main_v98) x q := by
  induction n using Nat.strong_induction_on with
  | _ n ih =>
    intro h p q
    have hN : cfg2.N = 18 := N_2
    by_cases h0 : n % 3 = 0
    · have e : (outsAt2 V c n h).2 = k2_pay2 (lhs2 V c ⟨n, h⟩) (rhs2 V c ⟨n, h⟩) (k2_pay1 (F := Ideal)) :=
        acc2_first V c ⟨n, h⟩ h0
      rw [e, pay2_apply2, pay1_apply2, zero_add]
      simp only [lhs2_apply, rhs2_apply]
      rw [h0]
      have s := sum_block_succ (fun x => natB (V c main_v32) x (n / 3 * 2048 + p.val) * natY (V c main_v98) x q) 0
      rw [Nat.zero_mul, Finset.range_zero, Finset.sum_empty, zero_add] at s
      exact s
    · have hlt : n - 1 < cfg2.N := by omega
      have e : (outsAt2 V c n h).2 = k2_pay2 (lhs2 V c ⟨n, h⟩) (rhs2 V c ⟨n, h⟩) (outsAt2 V c (n - 1) hlt).2 :=
        acc2_next V c ⟨n, h⟩ h0
      rw [e, pay2_apply2, ih (n - 1) (by omega) hlt p q]
      simp only [lhs2_apply, rhs2_apply]
      have e1 : (n - 1) % 3 + 1 = n % 3 := by omega
      have e2 : (n - 1) / 3 = n / 3 := by omega
      rw [e1, e2]
      exact sum_block_succ (fun x => natB (V c main_v32) x (n / 3 * 2048 + p.val) * natY (V c main_v98) x q) (n % 3)

theorem row_lt2 (n : ℕ) (h : n < cfg2.N) (p : ℕ) (hp : p < 2048) : n / 3 * 2048 + p < 12288 := by
  have hN : cfg2.N = 18 := N_2
  omega

/-- After the last point of row block `i` (`n = 3·i + 2`) the accumulator is that row block of the transposed dense
    product. -/
theorem acc_last2 (c : Dev nD) (n : ℕ) (h : n < cfg2.N) (h2 : n % 3 = 2) :
    (outsAt2 V c n h).2 = fun j : S2048x10.Idx =>
      Zt (V c main_v32) (V c main_v98) (ix2 ⟨n / 3 * 2048 + (j 0).val, row_lt2 n h _ (j 0).isLt⟩ ⟨(j 1).val, (j 1).isLt⟩) := by
  funext j
  obtain ⟨p, q, rfl⟩ : ∃ (p : Fin 2048) (q : Fin 10), j = ix2 p q := ⟨j 0, j 1, eq_ix2 j⟩
  rw [acc_eq2 V c n h p q, h2]
  exact (Zt_ix2 (V c main_v32) (V c main_v98) (row_lt2 n h _ p.isLt) q).symm

/-! ### What is written back, the cover, the array after the region -/

/-- The write-back after point `t` (the points with `k = 2`) writes block `t` of the transposed dense product. -/
theorem flushed_eq2 (c : Dev nD) (t : Fin cfg2.N) (hf : (cfg2.win 2).flush t = true) :
    (dat2 V c).flushed 2 t
      = ((cfg2.win 2).blk t).view.read (Elt Ideal) (Zt (V c main_v32) (V c main_v98)) := by
  have h2 : t.val % 3 = 2 := (flush2_2 t).mp hf
  obtain ⟨-, -, -, -, e4, e5⟩ := idx_facts2 t
  show (cfg2.win 2).cut (grid2.coords t) ((dat2 V c).after 2 t) = _
  rw [after2_2, out2_last V c t h2, acc_last2 V c t.val t.isLt h2]
  funext j
  show Zt (V c main_v32) (V c main_v98) (ix2 ⟨t.val / 3 * 2048 + (j 0).val, _⟩ ⟨(j 1).val, _⟩)
    = Zt (V c main_v32) (V c main_v98) (((cfg2.win 2).blk t).view.emb j)
  congr 1
  funext a; apply Fin.ext
  match a with
  | ⟨0, _⟩ => show t.val / 3 * 2048 + (j 0).val = win2_2.index t (0 : Fin 2) * 2048 + 1 * (j 0).val; rw [e4]; omega
  | ⟨1, _⟩ => show (j 1).val = win2_2.index t (1 : Fin 2) * 10 + 1 * (j 1).val; rw [e5]; omega

/-- An index of the output array is in point `t`'s block iff each coordinate is in the block's range on its axis. -/
theorem mem_blk2 (t : Fin cfg2.N) (i : S12288x10.Idx) :
    i ∈ ((cfg2.win 2).blk t).view.set ↔ ∀ a : Fin 2, win2_2.index t a * S2048x10.size a ≤ (i a).val ∧ (i a).val < win2_2.index t a * S2048x10.size a + S2048x10.size a := by
  show i ∈ ((View.whole main_v99).slice (win2_2.rect t)).set ↔ _
  rw [View.set_slice_whole, Rect.mem_set_unit]
  exact Iff.rfl

/-- Every index of the output array is in the block written back after the last point of its row block. -/
theorem cover2 (i : S12288x10.Idx) :
    ∃ t : Fin cfg2.N, (cfg2.win 2).flush t = true ∧ i ∈ ((cfg2.win 2).blk t).view.set := by
  have hN : cfg2.N = 18 := N_2
  have hi0 : (i 0).val < 12288 := (i 0).isLt
  have hi1 : (i 1).val < 10 := (i 1).isLt
  have ht : 3 * ((i 0).val / 2048) + 2 < cfg2.N := by omega
  have e4 : win2_2.index ⟨3 * ((i 0).val / 2048) + 2, ht⟩ (0 : Fin 2) = (3 * ((i 0).val / 2048) + 2) / 3 :=
    (idx_facts2 ⟨3 * ((i 0).val / 2048) + 2, ht⟩).2.2.2.2.1
  have e5 : win2_2.index ⟨3 * ((i 0).val / 2048) + 2, ht⟩ (1 : Fin 2) = 0 :=
    (idx_facts2 ⟨3 * ((i 0).val / 2048) + 2, ht⟩).2.2.2.2.2
  refine ⟨⟨3 * ((i 0).val / 2048) + 2, ht⟩, (flush2_2 _).mpr (by show (3 * ((i 0).val / 2048) + 2) % 3 = 2; omega), ?_⟩
  rw [mem_blk2]
  intro a
  match a with
  | ⟨0, _⟩ =>
    show win2_2.index ⟨3 * ((i 0).val / 2048) + 2, ht⟩ (0 : Fin 2) * 2048 ≤ (i 0).val ∧ (i 0).val < win2_2.index ⟨3 * ((i 0).val / 2048) + 2, ht⟩ (0 : Fin 2) * 2048 + 2048
    rw [e4]; omega
  | ⟨1, _⟩ =>
    show win2_2.index ⟨3 * ((i 0).val / 2048) + 2, ht⟩ (1 : Fin 2) * 10 ≤ (i 1).val ∧ (i 1).val < win2_2.index ⟨3 * ((i 0).val / 2048) + 2, ht⟩ (1 : Fin 2) * 10 + 10
    rw [e5]; omega

/-- THE ARRAY REGION 2 LEAVES: the transposed dense product of the square matrix and the tall one, as the region
    finds them. -/
theorem final2 (c : Dev nD) :
    (dat2 (F := Ideal) V c).arrAt 2 cfg2.N = Zt (V c main_v32) (V c main_v98) :=
  (dat2 V c).arrAt_eq_of_cover 2 (Zt (V c main_v32) (V c main_v98)) (fun t hf => flushed_eq2 V c t hf) cover2

end Cert.KernelIdeal.Hand

end
-- ==== Proof.KI.ScatterMath.lean ====
/-
  The host's accumulating scatter read at an index, at the ideal instance (floats are extended reals).

  `Ideal.hostScatterAdd d x idx upd i` is `x i` plus the sum of the updates whose result index is `i`; an update's
  result index is, on every operand axis, its start index (read signed off the scatter indices, not clamped) plus its
  window coordinate, and exists only when that is inside the operand on every axis. Here the three shapes of
  dimension numbers a graph convolution needs are read at an index, each for any dimension numbers whose four lists
  are the stated ones: scalars into a vector (S1), rows into a matrix (S2), scalars into a matrix at (row, column)
  pairs (S3). In each the sum over the updates' index set becomes a sum over the scatter indices `e : Fin E` of an
  `if` on the signed start index.
-/
import Idealize.ShloMosaic.Lib.ValueIdx
import Idealize.ShloMosaic.Lib.ValueIdxRank1
import Idealize.ShloMosaic.PureOps.Contract

open scoped BigOperators
open Idealize.ShloMosaic Idealize.ShloMosaic.ValueIdx

namespace Cert.Hand.GraphMath

/-- An update lands on operand index `i` exactly when start plus window coordinate is `i`'s coordinate on every axis. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only [Int.toNat_of_nonneg this.1]
    · intro hi; funext a; apply Fin.ext
      have := hi a
      simp only
      omega
  · rename_i h
    constructor
    · intro hh; cases hh
    · intro hi
      exact absurd (fun a => by have := hi a; have := (i a).isLt; omega) h

/-! ## Scalars into a vector -/

section S1
variable {n E : Nat} (d : ScatterDims (⟨1, ![n]⟩ : Shape) (⟨2, ![E, 1]⟩ : Shape) (⟨1, ![E]⟩ : Shape))
    (hu : d.updateWindowDims = []) (hi : d.insertedWindowDims = [0]) (hs : d.scatterDimsToOperandDims = [0])
    (hv : d.indexVectorDim = 1)
include hu hi hs hv

theorem S1_start {w : Nat} (j : (⟨1, ![E]⟩ : Shape).Idx) (idx : IVec (⟨2, ![E, 1]⟩ : Shape) w) :
    d.start j idx 0 = (idx (ix2 (j 0) 0)).toInt := by
  obtain ⟨uw, iw, sd, iv, wf⟩ := d
  simp only at hu hi hs hv
  subst hu hi hs hv
  unfold ScatterDims.start
  rw [dif_pos (by simp)]
  congr 2
  funext b
  match b with
  | ⟨0, _⟩ => apply Fin.ext; rfl
  | ⟨1, _⟩ => apply Fin.ext; rfl

theorem S1_window (j : (⟨1, ![E]⟩ : Shape).Idx) : d.window j 0 = 0 := by
  obtain ⟨uw, iw, sd, iv, wf⟩ := d
  simp only at hu hi hs hv
  subst hu hi hs hv
  unfold ScatterDims.window
  exact dif_neg (show (0 : Fin 1) ∉ ([] : List (Fin 1)) from List.not_mem_nil)

theorem S1_resultIdx {w : Nat} (j : (⟨1, ![E]⟩ : Shape).Idx) (idx : IVec (⟨2, ![E, 1]⟩ : Shape) w) (i : Fin n) :
    d.resultIdx? j idx = some (ix1 i) ↔ (idx (ix2 (j 0) 0)).toInt = (i.val : Int) := by
  rw [resultIdx?_eq_some_iff]
  constructor
  · intro h
    have h0 := h 0
    rw [S1_start d hu hi hs hv, S1_window d hu hi hs hv, Nat.cast_zero, add_zero] at h0
    exact h0
  · intro h a
    match a with
    | ⟨0, _⟩ =>
      show d.start j idx 0 + (d.window j 0 : Int) = _
      rw [S1_start d hu hi hs hv, S1_window d hu hi hs hv, Nat.cast_zero, add_zero]
      exact h

/-- (S1) The accumulating scatter of scalars into a vector, read at an index: the operand's element plus the
    updates whose signed start index is that index. -/
theorem hostScatterAdd_S1 {w : Nat} (x : (⟨1, ![n]⟩ : Shape).Idx → EReal) (idx : IVec (⟨2, ![E, 1]⟩ : Shape) w)
    (upd : (⟨1, ![E]⟩ : Shape).Idx → EReal) (i : Fin n) :
    Ideal.hostScatterAdd d x idx upd (ix1 i)
      = x (ix1 i) + ∑ e : Fin E, if (idx (ix2 e 0)).toInt = (i.val : Int) then upd (ix1 e) else 0 := by
  unfold Ideal.hostScatterAdd
  congr 1
  rw [Finset.sum_filter, ← Equiv.sum_comp (idxEquiv1 (n := E)).symm]
  apply Finset.sum_congr rfl
  intro e _
  exact if_congr (S1_resultIdx d hu hi hs hv (ix1 e) idx i) rfl rfl

/-- (S1) through the printed programs' spelling. -/
theorem scatterAdd_S1 {φ : FTy} {w : Nat} (x : FVec Ideal (⟨1, ![n]⟩ : Shape) φ) (idx : IVec (⟨2, ![E, 1]⟩ : Shape) w)
    (upd : FVec Ideal (⟨1, ![E]⟩ : Shape) φ) (i : Fin n) :
    Host.scatterAdd (F := Ideal) d x idx upd (ix1 i)
      = x (ix1 i) + ∑ e : Fin E, if (idx (ix2 e 0)).toInt = (i.val : Int) then upd (ix1 e) else 0 :=
  hostScatterAdd_S1 d hu hi hs hv x idx upd i

end S1

/-! ## Rows into a matrix -/

section S2
variable {n f E : Nat} (d : ScatterDims (⟨2, ![n, f]⟩ : Shape) (⟨2, ![E, 1]⟩ : Shape) (⟨2, ![E, f]⟩ : Shape))
    (hu : d.updateWindowDims = [1]) (hi : d.insertedWindowDims = [0]) (hs : d.scatterDimsToOperandDims = [0])
    (hv : d.indexVectorDim = 1)
include hu hi hs hv

theorem S2_start0 {w : Nat} (j : (⟨2, ![E, f]⟩ : Shape).Idx) (idx : IVec (⟨2, ![E, 1]⟩ : Shape) w) :
    d.start j idx 0 = (idx (ix2 (j 0) 0)).toInt := by
  obtain ⟨uw, iw, sd, iv, wf⟩ := d
  simp only at hu hi hs hv
  subst hu hi hs hv
  unfold ScatterDims.start
  rw [dif_pos (by simp)]
  congr 2
  funext b
  match b with
  | ⟨0, _⟩ => apply Fin.ext; rfl
  | ⟨1, _⟩ => apply Fin.ext; rfl

theorem S2_start1 {w : Nat} (j : (⟨2, ![E, f]⟩ : Shape).Idx) (idx : IVec (⟨2, ![E, 1]⟩ : Shape) w) :
    d.start j idx 1 = 0 := by
  obtain ⟨uw, iw, sd, iv, wf⟩ := d
  simp only at hu hi hs hv
  subst hu hi hs hv
  unfold ScatterDims.start
  exact dif_neg (show (1 : Fin 2) ∉ ([0] : List (Fin 2)) by decide)

theorem S2_window0 (j : (⟨2, ![E, f]⟩ : Shape).Idx) : d.window j 0 = 0 := by
  obtain ⟨uw, iw, sd, iv, wf⟩ := d
  simp only at hu hi hs hv
  subst hu hi hs hv
  unfold ScatterDims.window
  exact dif_neg (show (0 : Fin 2) ∉ ([1] : List (Fin 2)) by decide)

theorem S2_window1 (j : (⟨2, ![E, f]⟩ : Shape).Idx) : d.window j 1 = (j 1).val := by
  obtain ⟨uw, iw, sd, iv, wf⟩ := d
  simp only at hu hi hs hv
  subst hu hi hs hv
  unfold ScatterDims.window
  exact (dif_pos (show (1 : Fin 2) ∈ ([1] : List (Fin 2)) by decide)).trans rfl

theorem S2_resultIdx {w : Nat} (j : (⟨2, ![E, f]⟩ : Shape).Idx) (idx : IVec (⟨2, ![E, 1]⟩ : Shape) w) (i : Fin n)
    (c : Fin f) :
    d.resultIdx? j idx = some (ix2 i c) ↔ (idx (ix2 (j 0) 0)).toInt = (i.val : Int) ∧ j 1 = c := by
  rw [resultIdx?_eq_some_iff]
  constructor
  · intro h
    have h0 := h 0
    have h1 := h 1
    rw [S2_start0 d hu hi hs hv, S2_window0 d hu hi hs hv, Nat.cast_zero, add_zero] at h0
    rw [S2_start1 d hu hi hs hv, S2_window1 d hu hi hs hv, zero_add] at h1
    exact ⟨h0, Fin.ext (Int.ofNat_inj.1 h1)⟩
  · rintro ⟨h0, h1⟩ a
    match a with
    | ⟨0, _⟩ =>
      show d.start j idx 0 + (d.window j 0 : Int) = _
      rw [S2_start0 d hu hi hs hv, S2_window0 d hu hi hs hv, Nat.cast_zero, add_zero]
      exact h0
    | ⟨1, _⟩ =>
      show d.start j idx 1 + (d.window j 1 : Int) = _
      rw [S2_start1 d hu hi hs hv, S2_window1 d hu hi hs hv, zero_add, h1]

/-- (S2) The accumulating scatter of rows into a matrix, read at an index: the operand's element plus, over
    the updates whose signed start index is the row, the update row's element in that column. -/
theorem hostScatterAdd_S2 {w : Nat} (x : (⟨2, ![n, f]⟩ : Shape).Idx → EReal) (idx : IVec (⟨2, ![E, 1]⟩ : Shape) w)
    (upd : (⟨2, ![E, f]⟩ : Shape).Idx → EReal) (i : Fin n) (c : Fin f) :
    Ideal.hostScatterAdd d x idx upd (ix2 i c)
      = x (ix2 i c) + ∑ e : Fin E, if (idx (ix2 e 0)).toInt = (i.val : Int) then upd (ix2 e c) else 0 := by
  unfold Ideal.hostScatterAdd
  congr 1
  rw [Finset.sum_filter, sum_idx2]
  apply Finset.sum_congr rfl
  intro e _
  rw [Finset.sum_eq_single c]
  · exact if_congr ((S2_resultIdx d hu hi hs hv (ix2 e c) idx i c).trans ⟨fun h => h.1, fun h => ⟨h, rfl⟩⟩) rfl rfl
  · intro b _ hb
    exact if_neg (fun h => hb ((S2_resultIdx d hu hi hs hv (ix2 e b) idx i c).1 h).2)
  · intro h
    exact absurd (Finset.mem_univ c) h

/-- (S2) through the printed programs' spelling. -/
theorem scatterAdd_S2 {φ : FTy} {w : Nat} (x : FVec Ideal (⟨2, ![n, f]⟩ : Shape) φ)
    (idx : IVec (⟨2, ![E, 1]⟩ : Shape) w) (upd : FVec Ideal (⟨2, ![E, f]⟩ : Shape) φ) (i : Fin n) (c : Fin f) :
    Host.scatterAdd (F := Ideal) d x idx upd (ix2 i c)
      = x (ix2 i c) + ∑ e : Fin E, if (idx (ix2 e 0)).toInt = (i.val : Int) then upd (ix2 e c) else 0 :=
  hostScatterAdd_S2 d hu hi hs hv x idx upd i c

end S2

/-! ## Scalars into a matrix at (row, column) pairs -/

section S3
variable {p q E : Nat} (d : ScatterDims (⟨2, ![p, q]⟩ : Shape) (⟨2, ![E, 2]⟩ : Shape) (⟨1, ![E]⟩ : Shape))
    (hu : d.updateWindowDims = []) (hi : d.insertedWindowDims = [0, 1])
    (hs : d.scatterDimsToOperandDims = [0, 1]) (hv : d.indexVectorDim = 1)
include hu hi hs hv

theorem S3_start0 {w : Nat} (j : (⟨1, ![E]⟩ : Shape).Idx) (idx : IVec (⟨2, ![E, 2]⟩ : Shape) w) :
    d.start j idx 0 = (idx (ix2 (j 0) 0)).toInt := by
  obtain ⟨uw, iw, sd, iv, wf⟩ := d
  simp only at hu hi hs hv
  subst hu hi hs hv
  unfold ScatterDims.start
  rw [dif_pos (by simp)]
  congr 2
  funext b
  match b with
  | ⟨0, _⟩ => apply Fin.ext; rfl
  | ⟨1, _⟩ => apply Fin.ext; rfl

theorem S3_start1 {w : Nat} (j : (⟨1, ![E]⟩ : Shape).Idx) (idx : IVec (⟨2, ![E, 2]⟩ : Shape) w) :
    d.start j idx 1 = (idx (ix2 (j 0) 1)).toInt := by
  obtain ⟨uw, iw, sd, iv, wf⟩ := d
  simp only at hu hi hs hv
  subst hu hi hs hv
  unfold ScatterDims.start
  rw [dif_pos (by simp)]
  congr 2
  funext b
  match b with
  | ⟨0, _⟩ => apply Fin.ext; rfl
  | ⟨1, _⟩ => apply Fin.ext; rfl

theorem S3_window (j : (⟨1, ![E]⟩ : Shape).Idx) (a : Fin 2) : d.window j a = 0 := by
  obtain ⟨uw, iw, sd, iv, wf⟩ := d
  simp only at hu hi hs hv
  subst hu hi hs hv
  unfold ScatterDims.window
  exact dif_neg (show a ∉ ([] : List (Fin 2)) from List.not_mem_nil)

theorem S3_resultIdx {w : Nat} (j : (⟨1, ![E]⟩ : Shape).Idx) (idx : IVec (⟨2, ![E, 2]⟩ : Shape) w) (a : Fin p)
    (b : Fin q) :
    d.resultIdx? j idx = some (ix2 a b)
      ↔ (idx (ix2 (j 0) 0)).toInt = (a.val : Int) ∧ (idx (ix2 (j 0) 1)).toInt = (b.val : Int) := by
  rw [resultIdx?_eq_some_iff]
  constructor
  · intro h
    have h0 := h 0
    have h1 := h 1
    rw [S3_start0 d hu hi hs hv, S3_window d hu hi hs hv, Nat.cast_zero, add_zero] at h0
    rw [S3_start1 d hu hi hs hv, S3_window d hu hi hs hv, Nat.cast_zero, add_zero] at h1
    exact ⟨h0, h1⟩
  · rintro ⟨h0, h1⟩ c
    match c with
    | ⟨0, _⟩ =>
      show d.start j idx 0 + (d.window j 0 : Int) = _
      rw [S3_start0 d hu hi hs hv, S3_window d hu hi hs hv, Nat.cast_zero, add_zero]
      exact h0
    | ⟨1, _⟩ =>
      show d.start j idx 1 + (d.window j 1 : Int) = _
      rw [S3_start1 d hu hi hs hv, S3_window d hu hi hs hv, Nat.cast_zero, add_zero]
      exact h1

/-- (S3) The accumulating scatter of scalars into a matrix at (row, column) pairs, read at an index: the
    operand's element plus the updates whose signed index pair is that position. -/
theorem hostScatterAdd_S3 {w : Nat} (x : (⟨2, ![p, q]⟩ : Shape).Idx → EReal) (idx : IVec (⟨2, ![E, 2]⟩ : Shape) w)
    (upd : (⟨1, ![E]⟩ : Shape).Idx → EReal) (a : Fin p) (b : Fin q) :
    Ideal.hostScatterAdd d x idx upd (ix2 a b)
      = x (ix2 a b) + ∑ e : Fin E,
          if (idx (ix2 e 0)).toInt = (a.val : Int) ∧ (idx (ix2 e 1)).toInt = (b.val : Int) then upd (ix1 e) else 0 := by
  unfold Ideal.hostScatterAdd
  congr 1
  rw [Finset.sum_filter, ← Equiv.sum_comp (idxEquiv1 (n := E)).symm]
  apply Finset.sum_congr rfl
  intro e _
  exact if_congr (S3_resultIdx d hu hi hs hv (ix1 e) idx a b) rfl rfl

/-- (S3) through the printed programs' spelling. -/
theorem scatterAdd_S3 {φ : FTy} {w : Nat} (x : FVec Ideal (⟨2, ![p, q]⟩ : Shape) φ)
    (idx : IVec (⟨2, ![E, 2]⟩ : Shape) w) (upd : FVec Ideal (⟨1, ![E]⟩ : Shape) φ) (a : Fin p) (b : Fin q) :
    Host.scatterAdd (F := Ideal) d x idx upd (ix2 a b)
      = x (ix2 a b) + ∑ e : Fin E,
          if (idx (ix2 e 0)).toInt = (a.val : Int) ∧ (idx (ix2 e 1)).toInt = (b.val : Int) then upd (ix1 e) else 0 :=
  hostScatterAdd_S3 d hu hi hs hv x idx upd a b

end S3

end Cert.Hand.GraphMath
-- ==== Proof.KI.GraphAlg.lean ====
/-
  A dense count matrix against edge-wise accumulation, over the extended reals.

  `row, col : Fin E → Fin N` are the edges' end points and `N ≤ P` a padded extent. A count matrix's entry is the
  number of edges between two vertices, written as a sum of ones; multiplying it into a vector and summing over the
  padded range is the same as accumulating over the edges. The extended reals do not distribute in general, so the
  identity with real data goes through the reals, and the one with arbitrary extended reals only re-indexes.
-/
import Mathlib.Data.EReal.Basic
import Mathlib.Data.Fin.Embedding
import Mathlib.Algebra.BigOperators.Ring.Finset
import Mathlib.Algebra.BigOperators.Fin
import Mathlib.Tactic.Ring

open scoped BigOperators

namespace Cert.Hand.GraphMath

/-! ## Coercions of finite sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem exists_real_of_sum_coe {ι : Type*} (s : Finset ι) (f : ι → ℝ) :
    ∃ r : ℝ, ∑ i ∈ s, (f i : EReal) = (r : EReal) :=
  ⟨∑ i ∈ s, f i, (coe_finset_sum s f).symm⟩

/-- The coercion goes inside an `if`. -/
theorem coe_ite (p : Prop) [Decidable p] (a b : ℝ) :
    (((if p then a else b) : ℝ) : EReal) = if p then (a : EReal) else (b : EReal) := by
  split <;> rfl

/-- A count written with extended-real ones is the coercion of the count written with real ones. -/
theorem sum_ite_one_coe {ι : Type*} (s : Finset ι) (p : ι → Prop) [DecidablePred p] :
    (∑ i ∈ s, if p i then (1 : EReal) else 0) = ((∑ i ∈ s, if p i then (1 : ℝ) else 0 : ℝ) : EReal) := by
  rw [coe_finset_sum]
  apply Finset.sum_congr rfl
  intro i _
  rw [coe_ite, EReal.coe_one, EReal.coe_zero]

/-! ## A sum over a padded range whose padding contributes nothing -/

/-- A sum over `Fin P` of a function that vanishes from `N` on is the sum over `Fin N`. -/
theorem sum_fin_castLE {M : Type*} [AddCommMonoid M] {N P : ℕ} (h : N ≤ P) (g : Fin P → M)
    (hg : ∀ c : Fin P, N ≤ c.val → g c = 0) : ∑ c : Fin P, g c = ∑ c : Fin N, g (Fin.castLE h c) := by
  have hm : ∑ c : Fin N, g (Fin.castLE h c) = ∑ c ∈ Finset.univ.map (Fin.castLEEmb h), g c := by
    rw [Finset.sum_map]; rfl
  rw [hm]
  symm
  apply Finset.sum_subset (Finset.subset_univ _)
  intro c _ hc
  apply hg
  by_contra hlt
  exact hc (Finset.mem_map.2 ⟨⟨c.val, not_le.1 hlt⟩, Finset.mem_univ _, Fin.ext rfl⟩)

/-! ## The identities -/

section
variable {E N P : ℕ} (hNP : N ≤ P) (row col : Fin E → Fin N)

/-- (A3) Summing the counts of the edges from `r` over all targets counts the edges from `r`. -/
theorem A3 (r : Fin N) :
    ∑ c : Fin N, (∑ e : Fin E, if row e = r ∧ col e = c then (1 : EReal) else 0)
      = ∑ e : Fin E, if row e = r then (1 : EReal) else 0 := by
  rw [Finset.sum_comm]
  apply Finset.sum_congr rfl
  intro e _
  by_cases hr : row e = r
  · simp only [hr, true_and, if_true]
    rw [Finset.sum_ite_eq Finset.univ (col e), if_pos (Finset.mem_univ _)]
  · simp only [hr, false_and, if_false]
    exact Finset.sum_const_zero

include hNP in
/-- (A2) The padded product of the transposed count matrix with any extended reals is the unpadded one. -/
theorem A2 (S : Fin N → EReal) (r : Fin N) :
    ∑ c : Fin P, (∑ e : Fin E, if (col e).val = c.val ∧ row e = r then (1 : EReal) else 0)
        * (if hc : c.val < N then S ⟨c.val, hc⟩ else 0)
      = ∑ c : Fin N, (∑ e : Fin E, if row e = r ∧ col e = c then (1 : EReal) else 0) * S c := by
  rw [sum_fin_castLE hNP _ (fun c hc => by rw [dif_neg (not_lt.2 hc), mul_zero])]
  apply Finset.sum_congr rfl
  intro c _
  have hc : (Fin.castLE hNP c).val < N := c.isLt
  rw [dif_pos hc]
  congr 1
  apply Finset.sum_congr rfl
  intro e _
  exact if_congr ⟨fun h => ⟨h.2, Fin.ext h.1⟩, fun h => ⟨congrArg Fin.val h.2, h.1⟩⟩ rfl rfl

/-- The real identity behind (A1). -/
theorem A1_real (dis h : Fin N → ℝ) (c : Fin N) :
    dis c * ∑ r : Fin N, (∑ e : Fin E, if col e = c ∧ row e = r then (1 : ℝ) else 0) * (dis r * h r)
      = ∑ e : Fin E, if col e = c then h (row e) * (dis (row e) * dis (col e)) else 0 := by
  have h1 : ∀ r : Fin N, (∑ e : Fin E, if col e = c ∧ row e = r then (1 : ℝ) else 0) * (dis r * h r)
      = ∑ e : Fin E, if row e = r then (if col e = c then dis (row e) * h (row e) else 0) else 0 := by
    intro r
    rw [Finset.sum_mul]
    apply Finset.sum_congr rfl
    intro e _
    by_cases hr : row e = r
    · by_cases hc : col e = c
      · simp [hr, hc]
      · simp [hr, hc]
    · simp [hr]
  rw [Finset.sum_congr rfl (fun r _ => h1 r), Finset.sum_comm, Finset.mul_sum]
  apply Finset.sum_congr rfl
  intro e _
  rw [Finset.sum_ite_eq Finset.univ (row e), if_pos (Finset.mem_univ _)]
  by_cases hc : col e = c
  · rw [if_pos hc, if_pos hc, hc]; ring
  · rw [if_neg hc, if_neg hc, mul_zero]

include hNP in
/-- (A1) The normalised padded product of the count matrix with real data is the edge-wise accumulation. -/
theorem A1 (dis h : Fin N → ℝ) (c : Fin N) :
    (dis c : EReal) * ∑ r : Fin P, (∑ e : Fin E, if col e = c ∧ (row e).val = r.val then (1 : EReal) else 0)
        * (if hr : r.val < N then ((dis ⟨r.val, hr⟩ * h ⟨r.val, hr⟩ : ℝ) : EReal) else 0)
      = ∑ e : Fin E, if col e = c
          then ((h (row e) : ℝ) : EReal) * (((dis (row e) : ℝ) : EReal) * ((dis (col e) : ℝ) : EReal)) else 0 := by
  rw [sum_fin_castLE hNP _ (fun r hr => by rw [dif_neg (not_lt.2 hr), mul_zero])]
  have hterm : ∀ r : Fin N,
      (∑ e : Fin E, if col e = c ∧ (row e).val = (Fin.castLE hNP r).val then (1 : EReal) else 0)
        * (if hr : (Fin.castLE hNP r).val < N then
            ((dis ⟨(Fin.castLE hNP r).val, hr⟩ * h ⟨(Fin.castLE hNP r).val, hr⟩ : ℝ) : EReal) else 0)
      = (((∑ e : Fin E, if col e = c ∧ row e = r then (1 : ℝ) else 0) * (dis r * h r) : ℝ) : EReal) := by
    intro r
    have hr : (Fin.castLE hNP r).val < N := r.isLt
    rw [dif_pos hr, EReal.coe_mul (∑ e : Fin E, if col e = c ∧ row e = r then (1 : ℝ) else 0) (dis r * h r),
      ← sum_ite_one_coe]
    refine congrArg₂ (· * ·) ?_ rfl
    apply Finset.sum_congr rfl
    intro e _
    exact if_congr ⟨fun h => ⟨h.1, Fin.ext h.2⟩, fun h => ⟨h.1, congrArg Fin.val h.2⟩⟩ rfl rfl
  rw [Finset.sum_congr rfl (fun r _ => hterm r), ← coe_finset_sum, ← EReal.coe_mul, A1_real row col dis h c,
    coe_finset_sum]
  apply Finset.sum_congr rfl
  intro e _
  rw [coe_ite, EReal.coe_mul, EReal.coe_mul, EReal.coe_zero]

end

end Cert.Hand.GraphMath
-- ==== Proof.KI.RealFacts.lean ====
import proofs.«421346_j24266565222650_2_alg».proof.Proof.KI.Spec
import proofs.«421346_j24266565222650_2_alg».proof.Proof.KI.ScatterMath
import proofs.«421346_j24266565222650_2_alg».proof.Proof.KI.GraphAlg
import Idealize.ShloMosaic.Lib.ValueIdx
import Idealize.ShloMosaic.PureOps.Ideal.Laws
import Idealize.ShloMosaic.Lib.IdealHost

set_option synthInstance.maxSize 4096

/-! # The stages of the forward pass take real arrays to real arrays

At the ideal instance a float is an extended real. Every stage below, fed arrays all of whose entries are
real numbers, returns an array all of whose entries are real numbers. -/

noncomputable section

namespace Cert.Hand.Spec

open Idealize.ShloMosaic Idealize.ShloMosaic.ValueIdx
open Cert.Hand.GraphMath
open scoped BigOperators

/-- Every entry of the array is a real number. -/
abbrev Real' {s : Shape} {φ : FTy} (v : FVec Ideal s φ) : Prop := ∀ i, ∃ r : ℝ, v i = (r : EReal)

/-- Every entry of the edge list is a node number. -/
abbrev InRange (ei : IVec S2x384000 32) : Prop := ∀ i : S2x384000.Idx, 0 ≤ (ei i).toInt ∧ (ei i).toInt < 12000

/-! ## Closure of realness under the operations -/

theorem real_broadcastInDim {s t : Shape} {φ : FTy} (dims : Fin s.rank → Fin t.rank) (h : s.BroadcastsInDim t dims)
    {x : FVec Ideal s φ} (hx : Real' x) : Real' (φ := φ) (broadcastInDim t dims h x) :=
  fun _ => hx _

theorem real_gather {s si t : Shape} {φ : FTy} {w : Nat} (d : GatherDims s si t) {x : FVec Ideal s φ} (hx : Real' x)
    (idx : IVec si w) : Real' (φ := φ) (Host.gather d x idx) :=
  fun _ => hx _

theorem real_mulf {s : Shape} {φ : FTy} {a b : FVec Ideal s φ} (ha : Real' a) (hb : Real' b) : Real' (mulf a b) := by
  intro i
  obtain ⟨ra, hra⟩ := ha i
  obtain ⟨rb, hrb⟩ := hb i
  exact ⟨ra * rb, by rw [mulf_apply, hra, hrb, EReal.coe_mul]⟩

theorem real_addf {s : Shape} {φ : FTy} {a b : FVec Ideal s φ} (ha : Real' a) (hb : Real' b) : Real' (addf a b) := by
  intro i
  obtain ⟨ra, hra⟩ := ha i
  obtain ⟨rb, hrb⟩ := hb i
  exact ⟨ra + rb, by rw [addf_apply, hra, hrb, EReal.coe_add]⟩

theorem real_maximumf {s : Shape} {φ : FTy} {a b : FVec Ideal s φ} (ha : Real' a) (hb : Real' b) :
    Real' (maximumf a b) := by
  intro i
  obtain ⟨ra, hra⟩ := ha i
  obtain ⟨rb, hrb⟩ := hb i
  rw [maximumf_apply, hra, hrb]
  rcases le_total (ra : EReal) (rb : EReal) with hle | hle
  · exact ⟨rb, max_eq_right hle⟩
  · exact ⟨ra, max_eq_left hle⟩

/-- A dot product of real arrays is real: a finite sum of products of reals. -/
theorem real_dotGeneral {sl sr so : Shape} {φ₁ φ₂ : FTy} (d : DotDims sl sr so) (prec : Option ContractPrecision)
    {lhs : FVec Ideal sl φ₁} {rhs : FVec Ideal sr φ₂} (hl : Real' lhs) (hr : Real' rhs) :
    Real' (Host.dotGeneral (F := Ideal) d prec lhs rhs) := by
  intro j
  choose fl hfl using hl
  choose fr hfr using hr
  refine ⟨∑ k : d.contr.Idx, fl (d.lhsIdx j k) * fr (d.rhsIdx j k), ?_⟩
  show FloatOps.dotGeneral d prec .single lhs rhs j = _
  rw [Ideal.dotGeneral_apply, coe_finset_sum]
  apply Finset.sum_congr rfl
  intro k _
  rw [hfl, hfr, EReal.coe_mul]

/-- An accumulating scatter of real updates into a real array is real. -/
theorem real_scatterAdd {s si u : Shape} {φ : FTy} {w : Nat} (d : ScatterDims s si u) {x : FVec Ideal s φ}
    (hx : Real' x) (idx : IVec si w) {upd : FVec Ideal u φ} (hu : Real' upd) :
    Real' (Host.scatterAdd (F := Ideal) d x idx upd) := by
  intro i
  choose fx hfx using hx
  choose fu hfu using hu
  refine ⟨fx i + ∑ j ∈ Finset.univ.filter (fun j => d.resultIdx? j idx = some i), fu j, ?_⟩
  show Ideal.hostScatterAdd d x idx upd i = _
  unfold Ideal.hostScatterAdd
  rw [EReal.coe_add, coe_finset_sum, hfx]
  congr 1
  apply Finset.sum_congr rfl
  intro j _
  exact hfu j

/-- With nonnegative data the accumulating scatter is a nonnegative real. -/
theorem nonneg_scatterAdd {s si u : Shape} {φ : FTy} {w : Nat} (d : ScatterDims s si u) {x : FVec Ideal s φ}
    (hx : ∀ i, ∃ r : ℝ, 0 ≤ r ∧ x i = (r : EReal)) (idx : IVec si w) {upd : FVec Ideal u φ}
    (hu : ∀ j, ∃ r : ℝ, 0 ≤ r ∧ upd j = (r : EReal)) (i : s.Idx) :
    ∃ r : ℝ, 0 ≤ r ∧ Host.scatterAdd (F := Ideal) d x idx upd i = (r : EReal) := by
  choose fx hfx0 hfx using hx
  choose fu hfu0 hfu using hu
  refine ⟨fx i + ∑ j ∈ Finset.univ.filter (fun j => d.resultIdx? j idx = some i), fu j,
    add_nonneg (hfx0 i) (Finset.sum_nonneg (fun j _ => hfu0 j)), ?_⟩
  show Ideal.hostScatterAdd d x idx upd i = _
  unfold Ideal.hostScatterAdd
  rw [EReal.coe_add, coe_finset_sum, hfx]
  congr 1
  apply Finset.sum_congr rfl
  intro j _
  exact hfu j

/-- The host's inverse square root at an index is the extended reals' of the element. -/
theorem host_rsqrt_apply {s : Shape} {φ : FTy} (v : FVec Ideal s φ) (i : s.Idx) :
    Host.rsqrt v i = Ideal.rsqrt (v i) := rfl

/-! ## The stages -/

theorem disOf_real (ei : IVec S2x384000 32) (hin : InRange ei) : Real' (disOf (F := Ideal) ei) := by
  intro i
  obtain ⟨r, hr0, hr⟩ := nonneg_scatterAdd (φ := .f32) scatterNode
    (x := broadcastInDim S12000 ![] (by decide) (zeroF (F := Ideal)))
    (fun _ => ⟨0, le_refl _, Ideal.ofBits_zero_f32⟩)
    (col1 (wrap 12000#32 (colOf ei)))
    (upd := broadcastInDim S384000 ![] (by decide) (oneF (F := Ideal)))
    (fun _ => ⟨1, zero_le_one, Ideal.ofBits_one_f32⟩) i
  have hone : (broadcastInDim S12000 ![] (by decide) (oneF (F := Ideal)) : FVec Ideal S12000 .f32) i = ((1 : ℝ) : EReal) :=
    Ideal.ofBits_one_f32
  refine ⟨(Real.sqrt (r + 1))⁻¹, ?_⟩
  rw [disOf, host_rsqrt_apply, addf_apply, hr, hone, ← EReal.coe_add, Ideal.rsqrt_coe, if_neg (by linarith), if_neg (by linarith)]

theorem linW1_real {x : FVec Ideal S12000x128 .f32} {W : FVec Ideal S128x32 .f32} (hx : Real' x) (hW : Real' W) :
    Real' (linW1 x W) :=
  real_dotGeneral dotXW1 none hx hW

theorem linW2_real {h : FVec Ideal S12000x32 .f32} {W : FVec Ideal S32x32 .f32} (hh : Real' h) (hW : Real' W) :
    Real' (linW2 h W) :=
  real_dotGeneral dotHW2 none hh hW

theorem relu32_real {a : FVec Ideal S12000x32 .f32} (ha : Real' a) : Real' (relu32 a) :=
  real_maximumf ha (fun _ => ⟨0, Ideal.ofBits_zero_f32⟩)

theorem edgeW_real (ei : IVec S2x384000 32) {dis : FVec Ideal S12000 .f32} (hd : Real' dis) :
    Real' (edgeW ei dis) :=
  real_broadcastInDim _ _ (real_mulf (real_gather gatherNode hd _) (real_gather gatherNode hd _))

theorem gcnR_real (ei : IVec S2x384000 32) (hin : InRange ei) {dis : FVec Ideal S12000 .f32} (hd : Real' dis)
    {h : FVec Ideal S12000x32 .f32} (hh : Real' h) {b : FVec Ideal S32 .f32} (hb : Real' b) :
    Real' (gcnR ei dis h b) := by
  unfold gcnR
  refine real_addf (real_addf (real_scatterAdd scatterRows (fun _ => ⟨0, Ideal.ofBits_zero_f32⟩) _ ?_) ?_) ?_
  · exact real_mulf (real_gather gatherRows hh _) (real_broadcastInDim _ _ (edgeW_real ei hd))
  · exact real_mulf hh (real_broadcastInDim _ _ (real_broadcastInDim _ _ (real_mulf hd hd)))
  · exact real_broadcastInDim _ _ (real_broadcastInDim _ _ hb)

end Cert.Hand.Spec

end
-- ==== Proof.KI.LayerEq.lean ====
import proofs.«421346_j24266565222650_2_alg».proof.Proof.KI.Spec
import proofs.«421346_j24266565222650_2_alg».proof.Proof.KI.DenseDefs
import proofs.«421346_j24266565222650_2_alg».proof.Proof.KI.ScatterMath
import proofs.«421346_j24266565222650_2_alg».proof.Proof.KI.GraphAlg
import proofs.«421346_j24266565222650_2_alg».proof.Proof.KI.RealFacts
import Idealize.ShloMosaic.Lib.ValueIdx
import Idealize.ShloMosaic.Lib.ValueIdxRank1
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

/-!
# One graph-convolution layer: the dense count matrix against the edge list

At the ideal instance a float is an extended real and every operation is exact. For an edge list whose entries are
node numbers in range, one layer computed from the product of the dense count matrix with the padded, scaled features
equals the layer computed by gathering the source rows, weighing them and accumulating them at the targets. The host
operations are first read at an index; the identity between the two aggregations is then a re-indexing of a finite
sum of real numbers.
-/

noncomputable section

namespace Cert.Hand.Spec

open Idealize.ShloMosaic Idealize.ShloMosaic.ValueIdx
open scoped BigOperators
open Cert.Hand.GraphMath

/-! ## The edge list at an index -/

namespace LayerAux

/-- The source of edge e is the edge list's entry (0, e). -/
theorem rowOf_apply (ei : IVec S2x384000 32) (e : Fin 384000) : rowOf ei (ix1 e) = ei (ix2 0 e) := by
  unfold rowOf
  rw [shapeCast_1a_a_apply]
  exact extractStridedSlice_apply _ _ _ _ _ (fun ax => by
    match ax with
    | ⟨0, _⟩ => rfl
    | ⟨1, _⟩ => exact (Nat.zero_add _).symm)

/-- The target of edge e is the edge list's entry (1, e). -/
theorem colOf_apply (ei : IVec S2x384000 32) (e : Fin 384000) : colOf ei (ix1 e) = ei (ix2 1 e) := by
  unfold colOf
  rw [shapeCast_1a_a_apply]
  exact extractStridedSlice_apply _ _ _ _ _ (fun ax => by
    match ax with
    | ⟨0, _⟩ => rfl
    | ⟨1, _⟩ => exact (Nat.zero_add _).symm)

/-- An index that is not negative is left alone by the wrap. -/
theorem wrap_apply_of_nonneg (n : BitVec 32) (v : IVec S384000 32) (i : S384000.Idx) (h : 0 ≤ (v i).toInt) :
    wrap n v i = v i := by
  have hlt : (v i).slt 0#32 = false := by
    simp only [BitVec.slt, BitVec.toInt_zero, decide_eq_false_iff_not, Int.not_lt]
    exact h
  show (if BitVec.ofBool ((v i).slt 0#32) = 1 then _ else _) = _
  rw [hlt]
  rfl

theorem col1_apply {w : Nat} (v : IVec S384000 w) (e : Fin 384000) (u : Fin 1) : col1 v (ix2 e u) = v (ix1 e) := by
  refine broadcastInDim_apply _ _ _ _ _ (fun a => ?_)
  match a with
  | ⟨0, _⟩ => rfl

/-! ## The gathers at an index -/

/-- The gather of one scalar per edge reads the operand at the start index, read signed and clamped. -/
theorem gatherNode_apply {α : Type} (x : S12000.Idx → α) (idx : IVec S384000x1 32) (e : Fin 384000) :
    Host.gather gatherNode x idx (ix1 e) = x (ix1 ⟨min (idx (ix2 e 0)).toInt.toNat 11999, by omega⟩) := by
  unfold Host.gather
  congr 1
  funext a
  obtain rfl : a = 0 := Subsingleton.elim _ _
  refine Fin.ext ?_
  show gatherNode.start (ix1 e) idx 0 + gatherNode.batchCoord (ix1 e) 0 + gatherNode.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gatherNode.startIndexMap from List.mem_singleton.mpr rfl)]
  have hsi : gatherNode.siIdx (ix1 e) ⟨List.idxOf (0 : Fin 1) gatherNode.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of one feature row per edge reads the operand's row at the start index, read signed and clamped. -/
theorem gatherRows_apply {α : Type} (x : S12000x32.Idx → α) (idx : IVec S384000x1 32) (e : Fin 384000) (j : Fin 32) :
    Host.gather gatherRows x idx (ix2 e j) = x (ix2 ⟨min (idx (ix2 e 0)).toInt.toNat 11999, by omega⟩ j) := by
  unfold Host.gather
  congr 1
  funext a
  refine Fin.ext ?_
  match a with
  | ⟨0, _⟩ =>
    show gatherRows.start (ix2 e j) idx 0 + gatherRows.batchCoord (ix2 e j) 0 + gatherRows.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherRows.startIndexMap from List.mem_singleton.mpr rfl)]
    have hsi : gatherRows.siIdx (ix2 e j) ⟨List.idxOf (0 : Fin 2) gatherRows.startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show gatherRows.start (ix2 e j) idx 1 + gatherRows.batchCoord (ix2 e j) 1 + gatherRows.offCoord (ix2 e j) 1 = j.val
    rw [GatherDims.batchCoord_eq_zero _ _ _ List.not_mem_nil]
    have hs : gatherRows.start (ix2 e j) idx 1 = 0 := by
      unfold GatherDims.start
      exact dif_neg (show (1 : Fin 2) ∉ ([0] : List (Fin 2)) by decide)
    have ho : gatherRows.offCoord (ix2 e j) 1 = j.val := by
      unfold GatherDims.offCoord
      exact (dif_pos (show (1 : Fin 2) ∈ gatherRows.sKept by decide)).trans rfl
    rw [hs, ho]; omega

/-! ## The index columns of the scatters and gathers, in range -/

theorem idxT (ei : IVec S2x384000 32) (hin : InRange ei) (n : BitVec 32) (e : Fin 384000) (u : Fin 1) :
    col1 (wrap n (colOf ei)) (ix2 e u) = ei (ix2 1 e) := by
  rw [col1_apply, wrap_apply_of_nonneg _ _ _ (by rw [colOf_apply]; exact (hin _).1), colOf_apply]

theorem idxS (ei : IVec S2x384000 32) (hin : InRange ei) (n : BitVec 32) (e : Fin 384000) (u : Fin 1) :
    col1 (wrap n (rowOf ei)) (ix2 e u) = ei (ix2 0 e) := by
  rw [col1_apply, wrap_apply_of_nonneg _ _ _ (by rw [rowOf_apply]; exact (hin _).1), rowOf_apply]

/-- Two one-column index matrices side by side: column 0 reads the first. -/
theorem cat2_left {w : Nat} (A B : IVec S384000x1 w) (hc : Shape.Concatenates [S384000x1, S384000x1] S384000x2 1)
    (e : Fin 384000) :
    concatenate S384000x2 1 [⟨S384000x1, A⟩, ⟨S384000x1, B⟩] hc (ix2 e 0) = A (ix2 e 0) :=
  concatenate_pair_apply_left 1 A B hc (ix2 e 0) rfl (ix2 e 0) (fun b => by
    match b with
    | ⟨0, _⟩ => rfl
    | ⟨1, _⟩ => rfl)

/-- Two one-column index matrices side by side: column 1 reads the second. -/
theorem cat2_right {w : Nat} (A B : IVec S384000x1 w) (hc : Shape.Concatenates [S384000x1, S384000x1] S384000x2 1)
    (e : Fin 384000) :
    concatenate S384000x2 1 [⟨S384000x1, A⟩, ⟨S384000x1, B⟩] hc (ix2 e 1) = B (ix2 e 0) :=
  concatenate_pair_apply_right 1 A B hc (ix2 e 1) rfl rfl (ix2 e 0) (fun b hb => by
    match b with
    | ⟨0, _⟩ => rfl
    | ⟨1, _⟩ => exact absurd rfl hb) rfl

/-! ## Splat constants and broadcasts at an index -/

theorem zero12000 (i : S12000.Idx) :
    broadcastInDim S12000 ![] (by decide) (zeroF (F := Ideal)) i = 0 := by
  rw [broadcastInDim_scalar_apply]; exact Ideal.ofBits_zero_f32

theorem zero12000x32 (i : S12000x32.Idx) :
    broadcastInDim S12000x32 ![] (by decide) (zeroF (F := Ideal)) i = 0 := by
  rw [broadcastInDim_scalar_apply]; exact Ideal.ofBits_zero_f32

theorem zero12288sq (i : S12288x12288.Idx) :
    broadcastInDim S12288x12288 ![] (by decide) (zeroF (F := Ideal)) i = 0 := by
  rw [broadcastInDim_scalar_apply]; exact Ideal.ofBits_zero_f32

theorem one384000 (i : S384000.Idx) :
    broadcastInDim S384000 ![] (by decide) (oneF (F := Ideal)) i = 1 := by
  rw [broadcastInDim_scalar_apply]; exact Ideal.ofBits_one_f32

theorem one12000 (i : S12000.Idx) :
    broadcastInDim S12000 ![] (by decide) (oneF (F := Ideal)) i = 1 := by
  rw [broadcastInDim_scalar_apply]; exact Ideal.ofBits_one_f32

theorem rows32_apply (v : FVec Ideal S12000 .f32) (c : Fin 12000) (j : Fin 32) : rows32 v (ix2 c j) = v (ix1 c) := by
  refine (broadcastInDim_apply _ _ _ _ (ix2 c (0 : Fin 1)) (fun a => ?_)).trans ?_
  · match a with
    | ⟨0, _⟩ => rfl
    | ⟨1, _⟩ => rfl
  · refine broadcastInDim_apply _ _ _ _ (ix1 c) (fun a => ?_)
    match a with
    | ⟨0, _⟩ => rfl

theorem bias32_apply (b : FVec Ideal S32 .f32) (c : Fin 12000) (j : Fin 32) : bias32 b (ix2 c j) = b (ix1 j) := by
  refine (broadcastInDim_apply _ _ _ _ (ix2 (0 : Fin 1) j) (fun a => ?_)).trans ?_
  · match a with
    | ⟨0, _⟩ => rfl
    | ⟨1, _⟩ => rfl
  · refine broadcastInDim_apply _ _ _ _ (ix1 j) (fun a => ?_)
    match a with
    | ⟨0, _⟩ => rfl

theorem top32_apply (z : FVec Ideal S12288x32 .f32) (c : Fin 12000) (j : Fin 32) :
    top32 z (ix2 c j) = z (ix2 ⟨c.val, by omega⟩ j) :=
  extractStridedSlice_apply _ _ _ _ _ (fun ax => by
    match ax with
    | ⟨0, _⟩ => exact (Nat.zero_add _).symm
    | ⟨1, _⟩ => exact (Nat.zero_add _).symm)

/-! ## The end points of an edge as node numbers -/

/-- The source node of an edge, clamped into the node range. -/
def srcN (ei : IVec S2x384000 32) (e : Fin 384000) : Fin 12000 :=
  ⟨min (ei (ix2 0 e)).toInt.toNat 11999, by omega⟩
/-- The target node of an edge, clamped into the node range. -/
def tgtN (ei : IVec S2x384000 32) (e : Fin 384000) : Fin 12000 :=
  ⟨min (ei (ix2 1 e)).toInt.toNat 11999, by omega⟩

theorem srcN_val (ei : IVec S2x384000 32) (hin : InRange ei) (e : Fin 384000) :
    (ei (ix2 0 e)).toInt = ((srcN ei e).val : ℤ) := by
  have := hin (ix2 0 e)
  show _ = ((min (ei (ix2 0 e)).toInt.toNat 11999 : ℕ) : ℤ)
  omega

theorem tgtN_val (ei : IVec S2x384000 32) (hin : InRange ei) (e : Fin 384000) :
    (ei (ix2 1 e)).toInt = ((tgtN ei e).val : ℤ) := by
  have := hin (ix2 1 e)
  show _ = ((min (ei (ix2 1 e)).toInt.toNat 11999 : ℕ) : ℤ)
  omega

theorem tgt_cond (ei : IVec S2x384000 32) (hin : InRange ei) (e : Fin 384000) (c : Fin 12000) :
    (ei (ix2 1 e)).toInt = (c.val : ℤ) ↔ tgtN ei e = c := by
  rw [tgtN_val ei hin e]
  exact ⟨fun h => Fin.ext (by exact_mod_cast h), fun h => by rw [h]⟩

/-! ## The dense matrix and the padded features at an index -/

/-- Entry (c, r) of the dense matrix is the number of edges from r to c. -/
theorem Bmat_apply (ei : IVec S2x384000 32) (hin : InRange ei) (c : Fin 12000) (r : Fin 12288) :
    Bmat (F := Ideal) ei (ix2 ⟨c.val, by omega⟩ r)
      = ∑ e : Fin 384000, if tgtN ei e = c ∧ (srcN ei e).val = r.val then (1 : EReal) else 0 := by
  unfold Bmat
  rw [truncf_apply, scatterAdd_S3 scatterB rfl rfl rfl rfl, zero12288sq, zero_add]
  apply Finset.sum_congr rfl
  intro e _
  rw [cat2_left, cat2_right, idxT ei hin, idxS ei hin, one384000]
  refine if_congr ?_ rfl rfl
  rw [srcN_val ei hin e]
  exact and_congr (tgt_cond ei hin e c) ⟨fun h => by exact_mod_cast h, fun h => by exact_mod_cast h⟩

/-- The padded scaled features: row r of dis · h for a node r, zero below. -/
theorem padY_apply (dis : FVec Ideal S12000 .f32) (h : FVec Ideal S12000x32 .f32) (r : Fin 12288) (j : Fin 32) :
    padY dis h (ix2 r j) = if hr : r.val < 12000 then dis (ix1 ⟨r.val, hr⟩) * h (ix2 ⟨r.val, hr⟩ j) else 0 := by
  unfold padY
  split
  · rename_i hr
    rw [pad_apply_of_inside _ _ _ _ _ _ _ (ix2 r j) (ix2 ⟨r.val, hr⟩ j) (fun a => by
      match a with
      | ⟨0, _⟩ => show r.val = 0 + r.val * (0 + 1); omega
      | ⟨1, _⟩ => show j.val = 0 + j.val * (0 + 1); omega)]
    rw [truncf_apply, mulf_apply, rows32_apply]
  · rename_i hr
    rw [pad_apply_of_not_inside _ _ _ _ _ _ _ (ix2 r j) (0 : Fin 2) (fun hc => hr (by
      have h3 := hc.2.2
      change (r.val - 0) / (0 + 1) < 12000 at h3
      rw [Nat.sub_zero, Nat.zero_add, Nat.div_one] at h3
      exact h3))]
    show (((0#32 : BitVec 32).toInt : ℝ) : EReal) = 0
    simp

/-! ## The gathers at an in-range index -/

theorem gatherNode_src (ei : IVec S2x384000 32) (hin : InRange ei) (x : FVec Ideal S12000 .f32) (e : Fin 384000) :
    Host.gather gatherNode x (col1 (wrap 12000#32 (rowOf ei))) (ix1 e) = x (ix1 (srcN ei e)) := by
  rw [gatherNode_apply]
  simp only [idxS ei hin]
  rfl

theorem gatherNode_tgt (ei : IVec S2x384000 32) (hin : InRange ei) (x : FVec Ideal S12000 .f32) (e : Fin 384000) :
    Host.gather gatherNode x (col1 (wrap 12000#32 (colOf ei))) (ix1 e) = x (ix1 (tgtN ei e)) := by
  rw [gatherNode_apply]
  simp only [idxT ei hin]
  rfl

theorem gatherRows_src (ei : IVec S2x384000 32) (hin : InRange ei) (x : FVec Ideal S12000x32 .f32) (e : Fin 384000)
    (j : Fin 32) :
    Host.gather gatherRows x (col1 (wrap 12000#32 (rowOf ei))) (ix2 e j) = x (ix2 (srcN ei e) j) := by
  rw [gatherRows_apply]
  simp only [idxS ei hin]
  rfl

theorem edgeW_apply (ei : IVec S2x384000 32) (hin : InRange ei) (dis : FVec Ideal S12000 .f32) (e : Fin 384000)
    (u : Fin 1) : edgeW ei dis (ix2 e u) = dis (ix1 (srcN ei e)) * dis (ix1 (tgtN ei e)) := by
  unfold edgeW
  refine (broadcastInDim_apply _ _ _ _ (ix1 e) (fun a => ?_)).trans ?_
  · match a with
    | ⟨0, _⟩ => rfl
  · rw [mulf_apply, gatherNode_src ei hin, gatherNode_tgt ei hin]

/-- The edge-list aggregation at (c, j): over the edges into c, the source's feature times the edge weight. -/
theorem aggR_apply (ei : IVec S2x384000 32) (hin : InRange ei) (dis : FVec Ideal S12000 .f32)
    (h : FVec Ideal S12000x32 .f32) (c : Fin 12000) (j : Fin 32) :
    Host.scatterAdd scatterRows
        (broadcastInDim S12000x32 ![] (by decide) (zeroF (F := Ideal)))
        (col1 (wrap 12000#32 (colOf ei)))
        (mulf (Host.gather gatherRows h (col1 (wrap 12000#32 (rowOf ei))))
          (broadcastInDim S384000x32 ![0, 1] (by decide) (edgeW ei dis))) (ix2 c j)
      = ∑ e : Fin 384000, if tgtN ei e = c
          then h (ix2 (srcN ei e) j) * (dis (ix1 (srcN ei e)) * dis (ix1 (tgtN ei e))) else 0 := by
  rw [scatterAdd_S2 scatterRows rfl rfl rfl rfl, zero12000x32, zero_add]
  apply Finset.sum_congr rfl
  intro e _
  rw [idxT ei hin, mulf_apply, gatherRows_src ei hin]
  have hb : broadcastInDim S384000x32 ![0, 1] (by decide) (edgeW ei dis) (ix2 e j) = edgeW ei dis (ix2 e (0 : Fin 1)) :=
    broadcastInDim_apply _ _ _ _ (ix2 e (0 : Fin 1)) (fun a => by
      match a with
      | ⟨0, _⟩ => rfl
      | ⟨1, _⟩ => rfl)
  rw [hb, edgeW_apply ei hin]
  exact if_congr (tgt_cond ei hin e c) rfl rfl

/-! ## The layer identity -/

/-- The aggregation through the dense matrix is the aggregation over the edge list. -/
theorem agg_eq (ei : IVec S2x384000 32) (hin : InRange ei) (hd : Real' (disOf (F := Ideal) ei))
    (h : FVec Ideal S12000x32 .f32) (hh : Real' h) (c : Fin 12000) (j : Fin 32) :
    disOf (F := Ideal) ei (ix1 c) * Zmm (Bmat (F := Ideal) ei) (padY (disOf ei) h) (ix2 ⟨c.val, by omega⟩ j)
      = ∑ e : Fin 384000, if tgtN ei e = c
          then h (ix2 (srcN ei e) j)
            * (disOf (F := Ideal) ei (ix1 (srcN ei e)) * disOf (F := Ideal) ei (ix1 (tgtN ei e))) else 0 := by
  choose d hd using hd
  choose g hg using hh
  have hL : ∀ r : Fin 12288,
      Bmat (F := Ideal) ei (ix2 ⟨c.val, by omega⟩ r) * padY (disOf ei) h (ix2 r j)
        = (∑ e : Fin 384000, if tgtN ei e = c ∧ (srcN ei e).val = r.val then (1 : EReal) else 0)
          * (if hr : r.val < 12000 then ((d (ix1 ⟨r.val, hr⟩) * g (ix2 ⟨r.val, hr⟩ j) : ℝ) : EReal) else 0) := by
    intro r
    rw [Bmat_apply ei hin, padY_apply]
    by_cases hr : r.val < 12000
    · rw [dif_pos hr, dif_pos hr, hd, hg, EReal.coe_mul]
    · rw [dif_neg hr, dif_neg hr]
  have hZ : Zmm (Bmat (F := Ideal) ei) (padY (disOf ei) h) (ix2 ⟨c.val, by omega⟩ j)
      = ∑ r : Fin 12288, Bmat (F := Ideal) ei (ix2 ⟨c.val, by omega⟩ r) * padY (disOf ei) h (ix2 r j) := rfl
  rw [hZ, Finset.sum_congr rfl (fun r _ => hL r), hd (ix1 c)]
  refine (A1 (by decide : 12000 ≤ 12288) (srcN ei) (tgtN ei) (fun i => d (ix1 i)) (fun i => g (ix2 i j)) c).trans ?_
  apply Finset.sum_congr rfl
  intro e _
  rw [hg, hd, hd]

end LayerAux

open LayerAux in
/-- One graph-convolution layer through the dense count matrix is the layer over the edge list. -/
theorem layer_eq (ei : IVec S2x384000 32) (hin : InRange ei) (h : FVec Ideal S12000x32 .f32) (hh : Real' h)
    (b : FVec Ideal S32 .f32) :
    gcnK (disOf ei) (Zmm (Bmat (F := Ideal) ei) (padY (disOf ei) h)) h b = gcnR ei (disOf ei) h b := by
  funext i
  obtain ⟨c, j, rfl⟩ : ∃ c j, i = ix2 c j := ⟨i 0, i 1, eq_ix2 i⟩
  unfold gcnK gcnR
  rw [addf_apply, addf_apply]
  conv_rhs => rw [addf_apply, addf_apply]
  rw [aggR_apply ei hin, ← agg_eq ei hin (disOf_real ei hin) h hh c j]
  rw [mulf_apply, mulf_apply, mulf_apply, rows32_apply, rows32_apply, top32_apply, mulf_apply, mul_comm (h (ix2 c j))]

end Cert.Hand.Spec

end
-- ==== Proof.KI.CutEq.lean ====
import proofs.«421346_j24266565222650_2_alg».proof.Proof.KI.Spec
import proofs.«421346_j24266565222650_2_alg».proof.Proof.KI.DenseDefs
import proofs.«421346_j24266565222650_2_alg».proof.Proof.KI.ScatterMath
import proofs.«421346_j24266565222650_2_alg».proof.Proof.KI.GraphAlg
import Idealize.ShloMosaic.Lib.ValueIdx
import Idealize.ShloMosaic.Lib.ValueIdxRank1
import Idealize.ShloMosaic.Lib.KernelVsHost
import Idealize.ShloMosaic.Lib.StackMember
import Idealize.ShloMosaic.Lib.Pipeline.Value
import Idealize.ShloMosaic.PureOps.Ideal.Laws

set_option synthInstance.maxSize 4096

/-! # The two quantities of the cut loss

The transposed dense product of the padded count matrix with the padded cluster assignment, cut to its
first 12000 rows, is the product of the unpadded count matrix with the assignment; and the scatter-add
of ones at the edge sources is the vector of row sums of the unpadded count matrix. Both hold for edge
lists whose entries lie in [0, 12000) and for any extended reals in the assignment: a product with
zero is zero on every extended real, and otherwise only sums are re-indexed. -/

noncomputable section

namespace Cert.Hand.Spec

open Idealize.ShloMosaic Idealize.ShloMosaic.ValueIdx

/-! ## The edge list read at an edge -/

/-- The source row of the edge list at edge `e`. -/
theorem rowOf_apply (ei : IVec S2x384000 32) (e : Fin 384000) : rowOf ei (ix1 e) = ei (ix2 0 e) := by
  unfold rowOf
  refine (shapeCast_apply _ _ (ix1 e) (ix2 (0 : Fin 1) e) ?_).trans ?_
  · rw [Shape.rowMajor_val_two, Shape.rowMajor_val_one]
    show 0 * 384000 + e.val = e.val
    omega
  · exact extractStridedSlice_apply _ _ _ _ (ix2 0 e) fun a => match a with
      | ⟨0, _⟩ => rfl
      | ⟨1, _⟩ => by show e.val = 0 + e.val; omega

/-- The target row of the edge list at edge `e`. -/
theorem colOf_apply (ei : IVec S2x384000 32) (e : Fin 384000) : colOf ei (ix1 e) = ei (ix2 1 e) := by
  unfold colOf
  refine (shapeCast_apply _ _ (ix1 e) (ix2 (0 : Fin 1) e) ?_).trans ?_
  · rw [Shape.rowMajor_val_two, Shape.rowMajor_val_one]
    show 0 * 384000 + e.val = e.val
    omega
  · exact extractStridedSlice_apply _ _ _ _ (ix2 1 e) fun a => match a with
      | ⟨0, _⟩ => rfl
      | ⟨1, _⟩ => by show e.val = 0 + e.val; omega

/-- A non-negative index is left alone by the wrap. -/
theorem wrap_apply (n : BitVec 32) (v : IVec S384000 32) (i : S384000.Idx) (h : 0 ≤ (v i).toInt) :
    wrap n v i = v i := by
  unfold wrap
  rw [select_apply]
  have hc : cmpi .slt v (broadcastInDim S384000 ![] (by decide) (constantI S_ 32 0#32)) i = 0#1 := by
    show IntOp.cmpi .slt (v i) 0#32 = 0#1
    show BitVec.ofBool ((v i).slt 0#32) = 0#1
    have : (v i).slt 0#32 = false := by
      rw [BitVec.slt, decide_eq_false_iff_not]
      simpa using h
    rw [this]; rfl
  rw [hc, select_zero]

/-- An edge vector as a one-column matrix, read at row `e`. -/
theorem col1_apply {w : Nat} (v : IVec S384000 w) (e : Fin 384000) : col1 v (ix2 e 0) = v (ix1 e) :=
  broadcastInDim_apply _ _ _ _ (ix1 e) fun a => match a with | ⟨0, _⟩ => rfl

/-- The two-column index matrix built from two edge vectors: column 0 reads the first vector. -/
theorem pair_apply0 {w : Nat} (u v : IVec S384000 w) (e : Fin 384000) :
    concatenate S384000x2 1 [⟨S384000x1, col1 u⟩, ⟨S384000x1, col1 v⟩]
      (by decide : Shape.Concatenates [S384000x1, S384000x1] S384000x2 1) (ix2 e 0) = u (ix1 e) := by
  refine (concatenate_pair_apply_left (t := S384000x2) (s₁ := S384000x1) (s₂ := S384000x1) 1 _ _ _ (ix2 e 0) rfl (ix2 e 0) ?_).trans (col1_apply u e)
  intro b
  match b with
  | ⟨0, _⟩ => rfl
  | ⟨1, _⟩ => rfl

/-- Column 1 reads the second vector. -/
theorem pair_apply1 {w : Nat} (u v : IVec S384000 w) (e : Fin 384000) :
    concatenate S384000x2 1 [⟨S384000x1, col1 u⟩, ⟨S384000x1, col1 v⟩]
      (by decide : Shape.Concatenates [S384000x1, S384000x1] S384000x2 1) (ix2 e 1) = v (ix1 e) := by
  refine (concatenate_pair_apply_right (t := S384000x2) (s₁ := S384000x1) (s₂ := S384000x1) 1 _ _ _ (ix2 e 1) rfl rfl (ix2 e 0) ?_ ?_).trans (col1_apply v e)
  · intro b hb
    match b with
    | ⟨0, _⟩ => rfl
    | ⟨1, _⟩ => exact absurd rfl hb
  · rfl

/-! ## The splat constants -/

theorem zeros_apply {t : Shape} (h : S_.BroadcastsInDim t ![]) (j : t.Idx) :
    broadcastInDim t ![] h (zeroF (F := Ideal)) j = 0 := by
  refine (broadcastInDim_apply _ _ _ j ix0 fun a => a.elim0).trans ?_
  exact Ideal.ofBits_zero_f32

/-- The extended real the f32 word for one denotes (its value is never needed: only sums of it are re-indexed). -/
abbrev oneE : EReal := Ideal.ofBits .f32 0x3F800000#32

theorem ones_apply {t : Shape} (h : S_.BroadcastsInDim t ![]) (j : t.Idx) :
    broadcastInDim t ![] h (oneF (F := Ideal)) j = oneE :=
  broadcastInDim_apply _ _ _ j ix0 fun a => a.elim0

/-! ## The count of edges -/

/-- The number of edges with source `r` and target `c`, each counted as the f32 one. -/
def cnt (ei : IVec S2x384000 32) (r c : ℤ) : EReal :=
  ∑ e : Fin 384000, if (ei (ix2 0 e)).toInt = r ∧ (ei (ix2 1 e)).toInt = c then oneE else 0

/-- The number of edges with source `r`. -/
def outdeg (ei : IVec S2x384000 32) (r : ℤ) : EReal :=
  ∑ e : Fin 384000, if (ei (ix2 0 e)).toInt = r then oneE else 0

section InRange
variable (ei : IVec S2x384000 32) (hin : ∀ i : S2x384000.Idx, 0 ≤ (ei i).toInt ∧ (ei i).toInt < 12000)
include hin

theorem wrap_rowOf (n : BitVec 32) (e : Fin 384000) : wrap n (rowOf ei) (ix1 e) = ei (ix2 0 e) := by
  rw [wrap_apply _ _ _ (by rw [rowOf_apply]; exact (hin _).1), rowOf_apply]

theorem wrap_colOf (n : BitVec 32) (e : Fin 384000) : wrap n (colOf ei) (ix1 e) = ei (ix2 1 e) := by
  rw [wrap_apply _ _ _ (by rw [colOf_apply]; exact (hin _).1), colOf_apply]

/-- The padded dense matrix at (c, r): the number of edges r → c. -/
theorem Bmat_apply (c r : Fin 12288) : Bmat (F := Ideal) ei (ix2 c r) = cnt ei r.val c.val := by
  unfold Bmat
  refine (truncf_apply (φ := .f32) (ψ := .bf16) _ _ _).trans ?_
  refine (Cert.Hand.GraphMath.scatterAdd_S3 scatterB rfl rfl rfl rfl _ _ _ c r).trans ?_
  rw [zeros_apply, zero_add]
  unfold cnt
  refine Finset.sum_congr rfl fun e _ => ?_
  rw [pair_apply0, pair_apply1, wrap_colOf ei hin, wrap_rowOf ei hin, ones_apply]
  exact if_congr and_comm rfl rfl

/-- The unpadded dense matrix at (r, c): the number of edges r → c. -/
theorem Amat_apply (r c : Fin 12000) : Amat (F := Ideal) ei (ix2 r c) = cnt ei r.val c.val := by
  unfold Amat
  refine (Cert.Hand.GraphMath.scatterAdd_S3 scatterA rfl rfl rfl rfl _ _ _ r c).trans ?_
  rw [zeros_apply, zero_add]
  unfold cnt
  refine Finset.sum_congr rfl fun e _ => ?_
  rw [pair_apply0, pair_apply1, wrap_colOf ei hin, wrap_rowOf ei hin, ones_apply]

/-- The scatter-add of ones at the sources, at node r. -/
theorem dOfK_apply (r : Fin 12000) : dOfK (F := Ideal) ei (ix1 r) = outdeg ei r.val := by
  unfold dOfK
  refine (Cert.Hand.GraphMath.scatterAdd_S1 scatterNode rfl rfl rfl rfl _ _ _ r).trans ?_
  rw [zeros_apply, zero_add]
  unfold outdeg
  refine Finset.sum_congr rfl fun e _ => ?_
  rw [col1_apply, wrap_rowOf ei hin, ones_apply]

end InRange

/-! ## The padded assignment, the slice, the product and the row sums read at an index -/

/-- The padded assignment at a row below 12000 is the assignment there. -/
theorem padS_apply_lt (s : FVec Ideal S12000x10 .f32) (x : Fin 12288) (hx : x.val < 12000) (k : Fin 10) :
    padS (F := Ideal) s (ix2 x k) = s (ix2 ⟨x.val, hx⟩ k) := by
  unfold padS
  refine (pad_apply_of_inside _ _ _ _ _ _ _ (ix2 x k) (ix2 ⟨x.val, hx⟩ k) fun a => ?_).trans ?_
  · match a with
    | ⟨0, _⟩ => show x.val = 0 + x.val * (0 + 1); omega
    | ⟨1, _⟩ => show k.val = 0 + k.val * (0 + 1); omega
  · rfl

/-- The padded assignment at a row from 12000 on is zero. -/
theorem padS_apply_ge (s : FVec Ideal S12000x10 .f32) (x : Fin 12288) (hx : 12000 ≤ x.val) (k : Fin 10) :
    padS (F := Ideal) s (ix2 x k) = 0 := by
  unfold padS
  refine (pad_apply_of_not_inside _ _ _ _ _ _ _ (ix2 x k) 0 ?_).trans ?_
  · rintro ⟨_, _, h3⟩
    have h3' : (x.val - 0) / (0 + 1) < 12000 := h3
    omega
  · exact sitofp_zero (φ := .bf16)

/-- The first 12000 rows of a 12288-row matrix, read at an index. -/
theorem top10_apply (z : FVec Ideal S12288x10 .f32) (r : Fin 12000) (k : Fin 10) :
    top10 z (ix2 r k) = z (ix2 ⟨r.val, by have := r.isLt; omega⟩ k) :=
  extractStridedSlice_apply _ _ _ (ix2 r k) (ix2 ⟨r.val, by have := r.isLt; omega⟩ k) fun a => match a with
    | ⟨0, _⟩ => by show r.val = 0 + r.val; omega
    | ⟨1, _⟩ => by show k.val = 0 + k.val; omega

/-- The product A · s at (r, k): the sum over the 12000 columns of A. -/
theorem AsR_apply (ei : IVec S2x384000 32) (s : FVec Ideal S12000x10 .f32) (r : Fin 12000) (k : Fin 10) :
    AsR (F := Ideal) ei s (ix2 r k) = ∑ c : Fin 12000, Amat (F := Ideal) ei (ix2 r c) * s (ix2 c k) := by
  unfold AsR
  exact StackMember.dotGeneral_plain_apply (m := 12000) (n := 10) (k := 12000) none _ _ r k

/-- The row sums of A at r: the sum over the 12000 columns of A. -/
theorem dOfR_apply (ei : IVec S2x384000 32) (r : Fin 12000) :
    dOfR (F := Ideal) ei (ix1 r) = ∑ c : Fin 12000, Amat (F := Ideal) ei (ix2 r c) := by
  have hR : S12000x12000.Reduces [1] S12000 := by decide
  unfold dOfR Host.reduceAdd
  rw [Ideal.hostReduceAdd_def, Ideal.hostReduceAdd_single _ hR]
  show Ideal.ofBits .f32 0x00000000#32 + ∑ c : Fin 12000, Amat (F := Ideal) ei (hR.lift (ix1 r) c) = _
  rw [Ideal.ofBits_zero_f32, zero_add]
  refine Finset.sum_congr rfl fun c _ => ?_
  congr 1
  funext a
  match a with
  | ⟨0, _⟩ => exact Fin.ext rfl
  | ⟨1, _⟩ => exact Fin.ext rfl

/-! ## The two identities -/

section Main
variable (ei : IVec S2x384000 32) (hin : ∀ i : S2x384000.Idx, 0 ≤ (ei i).toInt ∧ (ei i).toInt < 12000)
include hin

/-- Summing the counts of the edges from `r` over all targets counts the edges from `r`: the target of each
    edge is exactly one node. -/
theorem sum_cnt (r : ℤ) : ∑ c : Fin 12000, cnt ei r c.val = outdeg ei r := by
  unfold cnt outdeg
  rw [Finset.sum_comm]
  refine Finset.sum_congr rfl fun e _ => ?_
  obtain ⟨h0, h1⟩ := hin (ix2 1 e)
  by_cases hr : (ei (ix2 0 e)).toInt = r
  · have hc : ∀ c : Fin 12000,
        (if (ei (ix2 0 e)).toInt = r ∧ (ei (ix2 1 e)).toInt = (c.val : ℤ) then oneE else 0)
          = if (ei (ix2 1 e)).toInt = (c.val : ℤ) then oneE else 0 :=
      fun c => if_congr (and_iff_right hr) rfl rfl
    rw [Finset.sum_congr rfl fun c _ => hc c, if_pos hr,
      Finset.sum_eq_single (⟨(ei (ix2 1 e)).toInt.toNat, by omega⟩ : Fin 12000)]
    · exact if_pos (by show _ = (((ei (ix2 1 e)).toInt.toNat : ℕ) : ℤ); omega)
    · intro b _ hb
      refine if_neg fun h => hb (Fin.ext ?_)
      show b.val = (ei (ix2 1 e)).toInt.toNat
      omega
    · intro h
      exact absurd (Finset.mem_univ _) h
  · rw [if_neg hr]
    exact Finset.sum_eq_zero fun c _ => if_neg fun h => hr h.1

/-- (Bᵀ · s_pad)[r, k], r < 12000, is (A · s)[r, k]: the entries B[c, r] and A[r, c] are the same count, and the
    rows of s_pad from 12000 on are zero. -/
theorem As_eq (s : FVec Ideal S12000x10 .f32) :
    top10 (F := Ideal) (Zt (Bmat (F := Ideal) ei) (padS (F := Ideal) s)) = AsR (F := Ideal) ei s := by
  funext j
  obtain ⟨r, k, rfl⟩ : ∃ (r : Fin 12000) (k : Fin 10), j = ix2 r k := ⟨j 0, j 1, eq_ix2 j⟩
  have hr : r.val < 12288 := by have := r.isLt; omega
  have hle : 12000 ≤ 12288 := by decide
  rw [top10_apply, AsR_apply]
  show ∑ x : Fin 12288, Bmat (F := Ideal) ei (ix2 x ⟨r.val, hr⟩) * padS (F := Ideal) s (ix2 x k) = _
  refine (Cert.Hand.GraphMath.sum_fin_castLE hle
    (fun x : Fin 12288 => Bmat (F := Ideal) ei (ix2 x ⟨r.val, hr⟩) * padS (F := Ideal) s (ix2 x k))
    (fun x hx => by rw [padS_apply_ge s x hx, mul_zero])).trans ?_
  refine Finset.sum_congr rfl fun c _ => ?_
  show Bmat (F := Ideal) ei (ix2 (Fin.castLE hle c) ⟨r.val, hr⟩) * padS (F := Ideal) s (ix2 (Fin.castLE hle c) k) = _
  rw [padS_apply_lt s (Fin.castLE hle c) (show (Fin.castLE hle c).val < 12000 from c.isLt) k,
    Bmat_apply ei hin, Amat_apply ei hin]
  rfl

/-- The out-degree by a scatter-add of ones at the sources is the row sums of A. -/
theorem d_eq : dOfK (F := Ideal) ei = dOfR (F := Ideal) ei := by
  funext j
  obtain ⟨r, rfl⟩ : ∃ r : Fin 12000, j = ix1 r := ⟨j 0, eq_ix1 j⟩
  rw [dOfK_apply ei hin, dOfR_apply, Finset.sum_congr rfl fun c _ => Amat_apply ei hin r c]
  exact (sum_cnt ei hin r.val).symm

end Main

end Cert.Hand.Spec

end
-- ==== Proof.KI.SpecEq.lean ====
import proofs.«421346_j24266565222650_2_alg».proof.Proof.KI.Spec
import proofs.«421346_j24266565222650_2_alg».proof.Proof.KI.DenseDefs
import proofs.«421346_j24266565222650_2_alg».proof.Proof.KI.RealFacts
import proofs.«421346_j24266565222650_2_alg».proof.Proof.KI.LayerEq
import proofs.«421346_j24266565222650_2_alg».proof.Proof.KI.CutEq

/-! # The two forward passes are one function of the inputs

The dense-matrix road (two graph-convolution layers and the cut loss computed through products with the
padded count matrix) and the edge-list road (gathers and scatter-adds over the edges) give the same three
results, at the ideal instance, for an edge list whose entries are node numbers and real features and
weights: the layer identity twice (the second layer's input is the first layer's output, the same on both
roads), then the two cut-loss identities; the tails (soft assignment, losses, log-probabilities) are the
same functions on both roads. -/

noncomputable section

namespace Cert.Hand.Spec

open Idealize.ShloMosaic

variable (ei : IVec S2x384000 32) (x : FVec Ideal S12000x128 .f32) (W1 : FVec Ideal S128x32 .f32) (b1 : FVec Ideal S32 .f32)
  (W2 : FVec Ideal S32x32 .f32) (b2 : FVec Ideal S32 .f32) (Wp : FVec Ideal S32x10 .f32) (bp : FVec Ideal S10 .f32)
  (Wc : FVec Ideal S32x7 .f32) (bc : FVec Ideal S7 .f32)

/-! ## The edge-list road -/

def h1R : FVec Ideal S12000x32 .f32 := relu32 (gcnR ei (disOf ei) (linW1 x W1) b1)
def h2R : FVec Ideal S12000x32 .f32 := relu32 (gcnR ei (disOf ei) (linW2 (h1R ei x W1 b1) W2) b2)
def sR : FVec Ideal S12000x10 .f32 := sOf (h2R ei x W1 b1 W2 b2) Wp bp

/-! ## The dense-matrix road -/

def z0K : FVec Ideal S12288x32 .f32 := Zmm (Bmat (F := Ideal) ei) (padY (disOf ei) (linW1 x W1))
def h1K : FVec Ideal S12000x32 .f32 := relu32 (gcnK (disOf ei) (z0K ei x W1) (linW1 x W1) b1)
def z1K : FVec Ideal S12288x32 .f32 := Zmm (Bmat (F := Ideal) ei) (padY (disOf ei) (linW2 (h1K ei x W1 b1) W2))
def h2K : FVec Ideal S12000x32 .f32 := relu32 (gcnK (disOf ei) (z1K ei x W1 b1 W2) (linW2 (h1K ei x W1 b1) W2) b2)
def sK : FVec Ideal S12000x10 .f32 := sOf (h2K ei x W1 b1 W2 b2) Wp bp
def z2K : FVec Ideal S12288x10 .f32 := Zt (Bmat (F := Ideal) ei) (padS (sK ei x W1 b1 W2 b2 Wp bp))

variable {ei x W1 b1 W2 b2 Wp bp}

theorem h1_eq (hin : InRange ei) (hx : Real' x) (hW1 : Real' W1) : h1K ei x W1 b1 = h1R ei x W1 b1 := by
  unfold h1K h1R z0K
  rw [layer_eq ei hin (linW1 x W1) (linW1_real hx hW1) b1]

theorem h2_eq (hin : InRange ei) (hx : Real' x) (hW1 : Real' W1) (hb1 : Real' b1) (hW2 : Real' W2) :
    h2K ei x W1 b1 W2 b2 = h2R ei x W1 b1 W2 b2 := by
  unfold h2K h2R z1K
  rw [h1_eq hin hx hW1]
  have hh1 : Real' (h1R ei x W1 b1) :=
    relu32_real (gcnR_real ei hin (disOf_real ei hin) (linW1_real hx hW1) hb1)
  rw [layer_eq ei hin (linW2 (h1R ei x W1 b1) W2) (linW2_real hh1 hW2) b2]

theorem s_eq (hin : InRange ei) (hx : Real' x) (hW1 : Real' W1) (hb1 : Real' b1) (hW2 : Real' W2) :
    sK ei x W1 b1 W2 b2 Wp bp = sR ei x W1 b1 W2 b2 Wp bp := by
  unfold sK sR; rw [h2_eq hin hx hW1 hb1 hW2]

/-- The class log-probabilities agree. -/
theorem res0_eq (hin : InRange ei) (hx : Real' x) (hW1 : Real' W1) (hb1 : Real' b1) (hW2 : Real' W2) :
    logpOf (h2K ei x W1 b1 W2 b2) Wc bc = logpOf (h2R ei x W1 b1 W2 b2) Wc bc := by
  rw [h2_eq hin hx hW1 hb1 hW2]

/-- The cut losses agree. -/
theorem res1_eq (hin : InRange ei) (hx : Real' x) (hW1 : Real' W1) (hb1 : Real' b1) (hW2 : Real' W2) :
    mcOf (sK ei x W1 b1 W2 b2 Wp bp) (top10 (z2K ei x W1 b1 W2 b2 Wp bp)) (dOfK (F := Ideal) ei)
      = mcOf (sR ei x W1 b1 W2 b2 Wp bp) (AsR ei (sR ei x W1 b1 W2 b2 Wp bp)) (dOfR (F := Ideal) ei) := by
  unfold z2K
  rw [As_eq ei hin, d_eq ei hin, s_eq hin hx hW1 hb1 hW2]

/-- The orthogonality losses agree. -/
theorem res2_eq (hin : InRange ei) (hx : Real' x) (hW1 : Real' W1) (hb1 : Real' b1) (hW2 : Real' W2) :
    olossOf (sK ei x W1 b1 W2 b2 Wp bp) = olossOf (sR ei x W1 b1 W2 b2 Wp bp) := by
  rw [s_eq hin hx hW1 hb1 hW2]

end Cert.Hand.Spec

end
-- ==== Proof.KI.KBridge.lean ====
import proofs.«421346_j24266565222650_2_alg».proof.Proof.Gen.KernelIdeal.Regions
import proofs.«421346_j24266565222650_2_alg».proof.Proof.KI.Regs
import proofs.«421346_j24266565222650_2_alg».proof.Proof.KI.RegVal0
import proofs.«421346_j24266565222650_2_alg».proof.Proof.KI.RegVal1
import proofs.«421346_j24266565222650_2_alg».proof.Proof.KI.RegVal2
import proofs.«421346_j24266565222650_2_alg».proof.Proof.KI.KHost
import proofs.«421346_j24266565222650_2_alg».proof.Proof.KI.SpecEq

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window BodyObligation cellOf)
open Cert.Hand

/-! # The dense-matrix program's three results as closed terms of its ten arguments

Each of the three matrix products is entered at arrays the host stretches before it computed, and leaves
the product of those arrays; the host stretches after it read the product. Composed from the launch
memory on: the first product is the count matrix times the scaled, padded features of layer one; the
second the same of layer two, whose features are computed from the first product; the third the
transposed count matrix times the padded cluster assignment, computed from the second product. The three
results of the program are then the shared tails applied to these. -/

variable (m : (ℓ : Loc nD τ sig) → Buf (Elt Ideal) ℓ) (c : Dev nD)

/-! ## The stages after a product, given the products so far -/

section Stages
variable (o : Gen.Outs (F := Ideal))

/-- Layer one's output from the first product. -/
theorem Kh1_eq (h0 : Kz0 o c = Spec.z0K (Aei m c) (Ax m c) (AW1 m c)) :
    Kh1 m o c = Spec.h1K (Aei m c) (Ax m c) (AW1 m c) (Ab1 m c) := by
  unfold Spec.h1K
  show Spec.relu32 (Spec.gcnK _ (Kz0 o c) _ _) = _
  rw [h0]

/-- Layer two's linear part. -/
theorem Khw_eq (h0 : Kz0 o c = Spec.z0K (Aei m c) (Ax m c) (AW1 m c)) :
    Khw m o c = Spec.linW2 (Spec.h1K (Aei m c) (Ax m c) (AW1 m c) (Ab1 m c)) (AW2 m c) := by
  show Spec.linW2 (Kh1 m o c) _ = _
  rw [Kh1_eq m c o h0]

/-- Layer two's output from the two products. -/
theorem Kh2_eq (h0 : Kz0 o c = Spec.z0K (Aei m c) (Ax m c) (AW1 m c))
    (h1 : Kz1 o c = Spec.z1K (Aei m c) (Ax m c) (AW1 m c) (Ab1 m c) (AW2 m c)) :
    Kh2 m o c = Spec.h2K (Aei m c) (Ax m c) (AW1 m c) (Ab1 m c) (AW2 m c) (Ab2 m c) := by
  unfold Spec.h2K
  show Spec.relu32 (Spec.gcnK _ (Kz1 o c) (Khw m o c) _) = _
  rw [h1, Khw_eq m c o h0]

/-- The cluster assignment from the two products. -/
theorem Ks_eq (h0 : Kz0 o c = Spec.z0K (Aei m c) (Ax m c) (AW1 m c))
    (h1 : Kz1 o c = Spec.z1K (Aei m c) (Ax m c) (AW1 m c) (Ab1 m c) (AW2 m c)) :
    Ks m o c = Spec.sK (Aei m c) (Ax m c) (AW1 m c) (Ab1 m c) (AW2 m c) (Ab2 m c) (AWp m c) (Abp m c) := by
  unfold Spec.sK
  show Spec.sOf (Kh2 m o c) _ _ = _
  rw [Kh2_eq m c o h0 h1]

end Stages

/-! ## The three products -/

/-- Region 0 leaves the count matrix times the scaled, padded features of layer one. -/
theorem kz0_eq : (res0 m c : FVec Ideal Spec.S12288x32 .f32) = Spec.z0K (Aei m c) (Ax m c) (AW1 m c) := by
  unfold Spec.z0K
  rw [← V2_v32 m c, ← V2_v38 m c]
  exact final0 (E0 m) c

/-- Region 1 leaves the count matrix times the scaled, padded features of layer two. -/
theorem kz1_eq : (res1 m c : FVec Ideal Spec.S12288x32 .f32)
    = Spec.z1K (Aei m c) (Ax m c) (AW1 m c) (Ab1 m c) (AW2 m c) := by
  have h0 : Kz0 (outsA m) c = Spec.z0K (Aei m c) (Ax m c) (AW1 m c) := (outsA_3 m c).trans (kz0_eq m c)
  unfold Spec.z1K
  rw [← Khw_eq m c (outsA m) h0, ← V7_v32 m (outsA m) c, ← V7_v58 m (outsA m) c]
  exact final1 (E1 m) c

/-- Region 2 leaves the transposed count matrix times the padded cluster assignment. -/
theorem kz2_eq : (res2 m c : FVec Ideal Spec.S12288x10 .f32)
    = Spec.z2K (Aei m c) (Ax m c) (AW1 m c) (Ab1 m c) (AW2 m c) (Ab2 m c) (AWp m c) (Abp m c) := by
  have h0 : Kz0 (outsB m) c = Spec.z0K (Aei m c) (Ax m c) (AW1 m c) := (outsB_3 m c).trans (kz0_eq m c)
  have h1 : Kz1 (outsB m) c = Spec.z1K (Aei m c) (Ax m c) (AW1 m c) (Ab1 m c) (AW2 m c) := (outsB_8 m c).trans (kz1_eq m c)
  unfold Spec.z2K
  rw [← Ks_eq m c (outsB m) h0 h1, ← V12_v32 m (outsB m) c, ← V12_v98 m (outsB m) c]
  exact final2 (E2 m) c

/-! ## The three results -/

theorem outsH_z0 : Kz0 (outsH m) c = Spec.z0K (Aei m c) (Ax m c) (AW1 m c) := (outsH_3 m c).trans (kz0_eq m c)
theorem outsH_z1 : Kz1 (outsH m) c = Spec.z1K (Aei m c) (Ax m c) (AW1 m c) (Ab1 m c) (AW2 m c) := (outsH_8 m c).trans (kz1_eq m c)
theorem outsH_z2 : Kz2 (outsH m) c = Spec.z2K (Aei m c) (Ax m c) (AW1 m c) (Ab1 m c) (AW2 m c) (Ab2 m c) (AWp m c) (Abp m c) :=
  (outsH_13 m c).trans (kz2_eq m c)

/-- The class log-probabilities the program ends with. -/
theorem kres_logp : (Gen.V19 m (outsH m) c main_v130 : FVec Ideal Spec.S12000x7 .f32)
    = Spec.logpOf (Spec.h2K (Aei m c) (Ax m c) (AW1 m c) (Ab1 m c) (AW2 m c) (Ab2 m c)) (AWc m c) (Abc m c) := by
  rw [V19_v130 m (outsH m) c, Kh2_eq m c (outsH m) (outsH_z0 m c) (outsH_z1 m c)]

/-- The cut loss the program ends with. -/
theorem kres_mc : (Gen.V19 m (outsH m) c main_v109 : FVec Ideal Spec.S_ .f32)
    = Spec.mcOf (Spec.sK (Aei m c) (Ax m c) (AW1 m c) (Ab1 m c) (AW2 m c) (Ab2 m c) (AWp m c) (Abp m c))
        (Spec.top10 (Spec.z2K (Aei m c) (Ax m c) (AW1 m c) (Ab1 m c) (AW2 m c) (Ab2 m c) (AWp m c) (Abp m c)))
        (Spec.dOfK (Aei m c)) := by
  rw [V19_v109 m (outsH m) c, Ks_eq m c (outsH m) (outsH_z0 m c) (outsH_z1 m c), outsH_z2 m c]

/-- The orthogonality loss the program ends with. -/
theorem kres_oloss : (Gen.V19 m (outsH m) c main_v125 : FVec Ideal Spec.S_ .f32)
    = Spec.olossOf (Spec.sK (Aei m c) (Ax m c) (AW1 m c) (Ab1 m c) (AW2 m c) (Ab2 m c) (AWp m c) (Abp m c)) := by
  rw [V19_v125 m (outsH m) c, Ks_eq m c (outsH m) (outsH_z0 m c) (outsH_z1 m c)]

end Cert.KernelIdeal.Hand

end
-- ==== Proof.KI.PreFacts.lean ====
/-
  The precondition read back. `Cert.Pre_finite_inputs.fn` is the conjunction (a chain of `and`s of reductions by `and`
  from 1) of: for each of the nine float arguments, every entry x has max x (−x) < +∞; and every entry e of the
  [2, 384000] table of 32-bit words has 0 ≤ e and e < 12000, both read signed. When the function is the constant 1:
  each `and` gives its two sides (`IntOp.andi_eq_one`), a reduction by `and` into the one-index result that is 1 had
  a 1 at every operand index (`Host.reduce_andi_all`), an extended real whose absolute value lies strictly below +∞ is
  a real (the two infinities have absolute value +∞), and a signed comparison word that is 1 states the order of its
  operands' signed values (`IntOp.cmpi_sge`, `IntOp.cmpi_slt`).
-/
import proofs.«421346_j24266565222650_2_alg».proof.Defs
import Idealize.ShloMosaic.Lib.ReduceAll
import Idealize.ShloMosaic.Lib.ValueIdx

noncomputable section

namespace Cert.KernelIdeal.Hand

open Idealize.ShloMosaic Idealize.SL.Sem

/-- The rank-0 shape has one index. -/
instance : Subsingleton Cert.Pre_finite_inputs.S_.Idx := ⟨fun a b => funext fun d => d.elim0⟩

/-- The pattern 0x7F800000 (exponent all ones, fraction zero, sign clear) denotes +∞. -/
theorem ofBits_inf : Ideal.ofBits .f32 0x7F800000#32 = (⊤ : EReal) := by
  simp [Ideal.ofBits, Ideal.ieee]

/-- An extended real whose absolute value max x (−x) lies strictly below +∞ is a real: at −∞ and at +∞ the
    absolute value is +∞. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

section OneConjunct

variable {s : Shape} {axes : List (Fin s.rank)}

/-- One float conjunct: "all of |x| < +∞" is 1, so every entry of x is a real. -/
theorem real_of_all (x : FVec Ideal s .f32)
    (bc : Cert.Pre_finite_inputs.S_.BroadcastsInDim s (![] : Fin 0 → Fin s.rank))
    (red : s.ReducesTo axes Cert.Pre_finite_inputs.S_) (hS : 0 < Cert.Pre_finite_inputs.S_.numel)
    (j : Cert.Pre_finite_inputs.S_.Idx)
    (e : Host.reduce IntOp.andi
        (cmpf .olt (Host.absf x)
          (broadcastInDim s ![] bc (constant (F := Ideal) Cert.Pre_finite_inputs.S_ .f32 0x7F800000#32)))
        (constantI Cert.Pre_finite_inputs.S_ 1 1#1) red hS j = 1#1) (i : s.Idx) :
    ∃ r : ℝ, x i = (r : EReal) :=
  real_of_abs_lt (x i) (Host.reduce_andi_all _ _ red hS j e i)

/-- The integer conjunct: "all of (lo ≤ e and e < hi)", signed, is 1, so every entry lies in [lo, hi). -/
theorem range_of_all (ei : IVec s 32) (lo hi : BitVec 32)
    (bc : Cert.Pre_finite_inputs.S_.BroadcastsInDim s (![] : Fin 0 → Fin s.rank))
    (red : s.ReducesTo axes Cert.Pre_finite_inputs.S_) (hS : 0 < Cert.Pre_finite_inputs.S_.numel)
    (j : Cert.Pre_finite_inputs.S_.Idx)
    (e : Host.reduce IntOp.andi
        (andi (cmpi .sge ei (broadcastInDim s ![] bc (constantI Cert.Pre_finite_inputs.S_ 32 lo)))
          (cmpi .slt ei (broadcastInDim s ![] bc (constantI Cert.Pre_finite_inputs.S_ 32 hi))))
        (constantI Cert.Pre_finite_inputs.S_ 1 1#1) red hS j = 1#1) (i : s.Idx) :
    lo.toInt ≤ (ei i).toInt ∧ (ei i).toInt < hi.toInt := by
  obtain ⟨h1, h2⟩ := IntOp.andi_eq_one.1 (Host.reduce_andi_all _ _ red hS j e i)
  exact ⟨IntOp.cmpi_sge.1 h1, IntOp.cmpi_slt.1 h2⟩

end OneConjunct

variable [Cert.Pre_finite_inputs.Facts]

section Decode

open Cert.Pre_finite_inputs

/-- THE PRECONDITION DECODED, over any ten arrays of the arguments' types: the nine float arrays hold reals and
    every word of the integer table lies in [0, 12000), read signed. -/
theorem pre_decode
    (x0 : FVec Ideal S12000x128 .f32) (ei : IVec S2x384000 32) (x2 : FVec Ideal S128x32 .f32)
    (x3 : FVec Ideal S32 .f32) (x4 : FVec Ideal S32x32 .f32) (x5 : FVec Ideal S32 .f32)
    (x6 : FVec Ideal S32x10 .f32) (x7 : FVec Ideal S10 .f32) (x8 : FVec Ideal S32x7 .f32) (x9 : FVec Ideal S7 .f32)
    (h : fn (F := Ideal) x0 ei x2 x3 x4 x5 x6 x7 x8 x9 = fun _ => 1#1) :
    (∀ i, ∃ r : ℝ, x0 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ (∀ i, ∃ r : ℝ, x6 i = (r : EReal))
      ∧ (∀ i, ∃ r : ℝ, x7 i = (r : EReal)) ∧ (∀ i, ∃ r : ℝ, x8 i = (r : EReal)) ∧ (∀ i, ∃ r : ℝ, x9 i = (r : EReal))
      ∧ (∀ i, 0 ≤ (ei i).toInt ∧ (ei i).toInt < 12000) := by
  have e := congrFun h ValueIdx.ix0
  dsimp only [fn, fn_part1, fn_part2] at e
  obtain ⟨e, h1⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h0, h2⟩ := IntOp.andi_eq_one.1 e
  refine ⟨real_of_all x0 _ _ _ _ h0, real_of_all x2 _ _ _ _ h2, real_of_all x3 _ _ _ _ h3, real_of_all x4 _ _ _ _ h4,
    real_of_all x5 _ _ _ _ h5, real_of_all x6 _ _ _ _ h6, real_of_all x7 _ _ _ _ h7, real_of_all x8 _ _ _ _ h8,
    real_of_all x9 _ _ _ _ h9, fun i => ?_⟩
  have hr := range_of_all ei 0#32 12000#32 _ _ _ _ h1 i
  have z : (0#32 : BitVec 32).toInt = 0 := by decide
  have t : (12000#32 : BitVec 32).toInt = 12000 := by decide
  rw [z, t] at hr
  exact hr

end Decode

section AtTheArguments

open Cert.KernelIdeal

variable (m : (ℓ : Loc nD τ sig) → Buf (Elt Ideal) ℓ)

/-- Every entry of argument 0 is a real. -/
theorem pre_real_arg0 (h : Cert.Pre_KernelIdeal m) (c : Dev nD) (i : S12000x128.Idx) :
    ∃ r : ℝ, m ((c.tc : Thread nD τ).loc main_arg0) i = (r : EReal) :=
  (pre_decode _ _ _ _ _ _ _ _ _ _ (h c)).1 i

/-- Every entry of argument 2 is a real. -/
theorem pre_real_arg2 (h : Cert.Pre_KernelIdeal m) (c : Dev nD) (i : S128x32.Idx) :
    ∃ r : ℝ, m ((c.tc : Thread nD τ).loc main_arg2) i = (r : EReal) :=
  (pre_decode _ _ _ _ _ _ _ _ _ _ (h c)).2.1 i

/-- Every entry of argument 3 is a real. -/
theorem pre_real_arg3 (h : Cert.Pre_KernelIdeal m) (c : Dev nD) (i : S32.Idx) :
    ∃ r : ℝ, m ((c.tc : Thread nD τ).loc main_arg3) i = (r : EReal) :=
  (pre_decode _ _ _ _ _ _ _ _ _ _ (h c)).2.2.1 i

/-- Every entry of argument 4 is a real. -/
theorem pre_real_arg4 (h : Cert.Pre_KernelIdeal m) (c : Dev nD) (i : S32x32.Idx) :
    ∃ r : ℝ, m ((c.tc : Thread nD τ).loc main_arg4) i = (r : EReal) :=
  (pre_decode _ _ _ _ _ _ _ _ _ _ (h c)).2.2.2.1 i

/-- Every entry of argument 5 is a real. -/
theorem pre_real_arg5 (h : Cert.Pre_KernelIdeal m) (c : Dev nD) (i : S32.Idx) :
    ∃ r : ℝ, m ((c.tc : Thread nD τ).loc main_arg5) i = (r : EReal) :=
  (pre_decode _ _ _ _ _ _ _ _ _ _ (h c)).2.2.2.2.1 i

/-- Every entry of argument 6 is a real. -/
theorem pre_real_arg6 (h : Cert.Pre_KernelIdeal m) (c : Dev nD) (i : S32x10.Idx) :
    ∃ r : ℝ, m ((c.tc : Thread nD τ).loc main_arg6) i = (r : EReal) :=
  (pre_decode _ _ _ _ _ _ _ _ _ _ (h c)).2.2.2.2.2.1 i

/-- Every entry of argument 7 is a real. -/
theorem pre_real_arg7 (h : Cert.Pre_KernelIdeal m) (c : Dev nD) (i : S10.Idx) :
    ∃ r : ℝ, m ((c.tc : Thread nD τ).loc main_arg7) i = (r : EReal) :=
  (pre_decode _ _ _ _ _ _ _ _ _ _ (h c)).2.2.2.2.2.2.1 i

/-- Every entry of argument 8 is a real. -/
theorem pre_real_arg8 (h : Cert.Pre_KernelIdeal m) (c : Dev nD) (i : S32x7.Idx) :
    ∃ r : ℝ, m ((c.tc : Thread nD τ).loc main_arg8) i = (r : EReal) :=
  (pre_decode _ _ _ _ _ _ _ _ _ _ (h c)).2.2.2.2.2.2.2.1 i

/-- Every entry of argument 9 is a real. -/
theorem pre_real_arg9 (h : Cert.Pre_KernelIdeal m) (c : Dev nD) (i : S7.Idx) :
    ∃ r : ℝ, m ((c.tc : Thread nD τ).loc main_arg9) i = (r : EReal) :=
  (pre_decode _ _ _ _ _ _ _ _ _ _ (h c)).2.2.2.2.2.2.2.2.1 i

/-- Every word of the edge table lies in [0, 12000), read signed. -/
theorem pre_edge_range (h : Cert.Pre_KernelIdeal m) (c : Dev nD) (i : S2x384000.Idx) :
    0 ≤ (m ((c.tc : Thread nD τ).loc main_arg1) i).toInt ∧ (m ((c.tc : Thread nD τ).loc main_arg1) i).toInt < 12000 :=
  (pre_decode _ _ _ _ _ _ _ _ _ _ (h c)).2.2.2.2.2.2.2.2.2 i

end AtTheArguments

end Cert.KernelIdeal.Hand

end
-- ==== Proof.KI.RefOps.lean ====
/- The reference's @main is a straight line of 226 host operations. They are listed here as nine consecutive
   lists, cut where one stage of the computation ends and the next begins:
   A  the two rows of the edge array and the normalised degrees  (deg + 1)^(-1/2);
   B  the first graph convolution (x·W1 gathered along the edges, weighted, scatter-added at the targets,
      the self term, the bias) and its relu;
   C  the second graph convolution and its relu;
   D  the cluster assignment: the row softmax of h·Wp + bp;
   E  the wrapped source and target indices, each as one index column;
   E2 the dense adjacency matrix: the two columns side by side, and a scatter-add of ones at those pairs
      (the list is cut before the concatenation, so that its operands are buffers of the stage before);
   F  the cut loss  −Σ s∘(A·s) / Σ d∘s∘s;
   G  the orthogonality loss  ‖sᵀs/‖sᵀs‖ − I/√10‖;
   H  the class log-probabilities: the row log-softmax of h·Wc + bc.
   @main is the run of their concatenation. Each list touches TensorCore references only, allocates nothing,
   and writes exactly the buffers listed beside it; a buffer outside that list keeps its contents through it. -/
import proofs.«421346_j24266565222650_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage A: the edge rows and the normalised degrees (operations 1 … 21 of 226). -/
abbrev opsA : List (HloOp τ sig (Elt F)) :=
  [ unary main_arg1 main_v0 ((extractStridedSlice S1x384000 ![0, 0] · slices_S2x384000_S1x384000_0_0) : (⟨S2x384000, .i32⟩ : BufTy).Contents (Elt F) → (⟨S1x384000, .i32⟩ : BufTy).Contents (Elt F)),
    reshape main_v0 main_v1 rfl shapeCasts_S1x384000_S384000,
    unary main_arg1 main_v2 ((extractStridedSlice S1x384000 ![1, 0] · slices_S2x384000_S1x384000_1_0) : (⟨S2x384000, .i32⟩ : BufTy).Contents (Elt F) → (⟨S1x384000, .i32⟩ : BufTy).Contents (Elt F)),
    reshape main_v2 main_v3 rfl shapeCasts_S1x384000_S384000,
    nullary main_cst (constant S_ .f32 0x00000000#32),
    unary main_cst main_v4 (broadcastInDim S12000 ![] bcast_S_S12000 : (⟨S_, .f32⟩ : BufTy).Contents (Elt F) → (⟨S12000, .f32⟩ : BufTy).Contents (Elt F)),
    nullary main_cst_0 (constant S_ .f32 0x3F800000#32),
    unary main_cst_0 main_v5 (broadcastInDim S384000 ![] bcast_S_S384000 : (⟨S_, .f32⟩ : BufTy).Contents (Elt F) → (⟨S384000, .f32⟩ : BufTy).Contents (Elt F)),
    nullary main_c (constantI S_ 32 0#32),
    unary main_c main_v6 (broadcastInDim S384000 ![] bcast_S_S384000 : (⟨S_, .i32⟩ : BufTy).Contents (Elt F) → (⟨S384000, .i32⟩ : BufTy).Contents (Elt F)),
    binary main_v3 main_v6 main_v7 (cmpi .slt : (⟨S384000, .i32⟩ : BufTy).Contents (Elt F) → (⟨S384000, .i32⟩ : BufTy).Contents (Elt F) → (⟨S384000, .i1⟩ : BufTy).Contents (Elt F)),
    nullary main_c_1 (constantI S_ 32 12000#32),
    unary main_c_1 main_v8 (broadcastInDim S384000 ![] bcast_S_S384000 : (⟨S_, .i32⟩ : BufTy).Contents (Elt F) → (⟨S384000, .i32⟩ : BufTy).Contents (Elt F)),
    binary main_v3 main_v8 main_v9 (addi : (⟨S384000, .i32⟩ : BufTy).Contents (Elt F) → (⟨S384000, .i32⟩ : BufTy).Contents (Elt F) → (⟨S384000, .i32⟩ : BufTy).Contents (Elt F)),
    ternary main_v7 main_v9 main_v3 main_v10 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v10 main_v11 (broadcastInDim S384000x1 ![0] bcast_S384000_S384000x1_0 : (⟨S384000, .i32⟩ : BufTy).Contents (Elt F) → (⟨S384000x1, .i32⟩ : BufTy).Contents (Elt F)),
    ternary main_v4 main_v11 main_v5 main_v12 ((fun x i u => Host.scatterAdd scatter_S12000_S384000x1_S384000_n_0_0_1 x i u) : (⟨S12000, .f32⟩ : BufTy).Contents (Elt F) → (⟨S384000x1, .i32⟩ : BufTy).Contents (Elt F) → (⟨S384000, .f32⟩ : BufTy).Contents (Elt F) → (⟨S12000, .f32⟩ : BufTy).Contents (Elt F)),
    nullary main_cst_2 (constant S_ .f32 0x3F800000#32),
    unary main_cst_2 main_v13 (broadcastInDim S12000 ![] bcast_S_S12000 : (⟨S_, .f32⟩ : BufTy).Contents (Elt F) → (⟨S12000, .f32⟩ : BufTy).Contents (Elt F)),
    binary main_v12 main_v13 main_v14 (addf : (⟨S12000, .f32⟩ : BufTy).Contents (Elt F) → (⟨S12000, .f32⟩ : BufTy).Contents (Elt F) → (⟨S12000, .f32⟩ : BufTy).Contents (Elt F)),
    unary main_v14 main_v15 (Host.rsqrt : (⟨S12000, .f32⟩ : BufTy).Contents (Elt F) → (⟨S12000, .f32⟩ : BufTy).Contents (Elt F)) ]

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub ..⟩

set_option maxRecDepth 8192 in
theorem opsA_fresh : ∀ op ∈ (opsA : List (HloOp τ sig (Elt F))), op.fresh = ∅ := by
  intro _ h; (repeat (cases h with | head => rfl | tail _ h => ?_)); exact nomatch h

/-- The buffers stage A writes. -/
abbrev opsA_W : List (Ref sig .tc) := [main_v0, main_v1, main_v2, main_v3, main_cst, main_v4, main_cst_0, main_v5, main_c, main_v6, main_v7, main_c_1, main_v8, main_v9, main_v10, main_v11, main_v12, main_cst_2, main_v13, main_v14, main_v15]

set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage B: the first graph convolution and its relu (operations 22 … 75 of 226). -/
abbrev opsB : List (HloOp τ sig (Elt F)) :=
  [ binary main_arg0 main_arg2 main_v16 ((fun l r => Host.dotGeneral dot_S12000x128_S128x32_S12000x32_1_0_0_1_n_n none l r) : (⟨S12000x128, .f32⟩ : BufTy).Contents (Elt F) → (⟨S128x32, .f32⟩ : BufTy).Contents (Elt F) → (⟨S12000x32, .f32⟩ : BufTy).Contents (Elt F)),
    nullary main_c_3 (constantI S_ 32 0#32),
    unary main_c_3 main_v17 (broadcastInDim S384000 ![] bcast_S_S384000 : (⟨S_, .i32⟩ : BufTy).Contents (Elt F) → (⟨S384000, .i32⟩ : BufTy).Contents (Elt F)),
    binary main_v1 main_v17 main_v18 (cmpi .slt : (⟨S384000, .i32⟩ : BufTy).Contents (Elt F) → (⟨S384000, .i32⟩ : BufTy).Contents (Elt F) → (⟨S384000, .i1⟩ : BufTy).Contents (Elt F)),
    nullary main_c_4 (constantI S_ 32 12000#32),
    unary main_c_4 main_v19 (broadcastInDim S384000 ![] bcast_S_S384000 : (⟨S_, .i32⟩ : BufTy).Contents (Elt F) → (⟨S384000, .i32⟩ : BufTy).Contents (Elt F)),
    binary main_v1 main_v19 main_v20 (addi : (⟨S384000, .i32⟩ : BufTy).Contents (Elt F) → (⟨S384000, .i32⟩ : BufTy).Contents (Elt F) → (⟨S384000, .i32⟩ : BufTy).Contents (Elt F)),
    ternary main_v18 main_v20 main_v1 main_v21 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v21 main_v22 (broadcastInDim S384000x1 ![0] bcast_S384000_S384000x1_0 : (⟨S384000, .i32⟩ : BufTy).Contents (Elt F) → (⟨S384000x1, .i32⟩ : BufTy).Contents (Elt F)),
    binary main_v15 main_v22 main_v23 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    nullary main_c_5 (constantI S_ 32 0#32),
    unary main_c_5 main_v24 (broadcastInDim S384000 ![] bcast_S_S384000 : (⟨S_, .i32⟩ : BufTy).Contents (Elt F) → (⟨S384000, .i32⟩ : BufTy).Contents (Elt F)),
    binary main_v3 main_v24 main_v25 (cmpi .slt : (⟨S384000, .i32⟩ : BufTy).Contents (Elt F) → (⟨S384000, .i32⟩ : BufTy).Contents (Elt F) → (⟨S384000, .i1⟩ : BufTy).Contents (Elt F)),
    nullary main_c_6 (constantI S_ 32 12000#32),
    unary main_c_6 main_v26 (broadcastInDim S384000 ![] bcast_S_S384000 : (⟨S_, .i32⟩ : BufTy).Contents (Elt F) → (⟨S384000, .i32⟩ : BufTy).Contents (Elt F)),
    binary main_v3 main_v26 main_v27 (addi : (⟨S384000, .i32⟩ : BufTy).Contents (Elt F) → (⟨S384000, .i32⟩ : BufTy).Contents (Elt F) → (⟨S384000, .i32⟩ : BufTy).Contents (Elt F)),
    ternary main_v25 main_v27 main_v3 main_v28 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v28 main_v29 (broadcastInDim S384000x1 ![0] bcast_S384000_S384000x1_0 : (⟨S384000, .i32⟩ : BufTy).Contents (Elt F) → (⟨S384000x1, .i32⟩ : BufTy).Contents (Elt F)),
    binary main_v15 main_v29 main_v30 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v23 main_v30 main_v31 (mulf : (⟨S384000, .f32⟩ : BufTy).Contents (Elt F) → (⟨S384000, .f32⟩ : BufTy).Contents (Elt F) → (⟨S384000, .f32⟩ : BufTy).Contents (Elt F)),
    unary main_v31 main_v32 (broadcastInDim S384000x1 ![0] bcast_S384000_S384000x1_0 : (⟨S384000, .f32⟩ : BufTy).Contents (Elt F) → (⟨S384000x1, .f32⟩ : BufTy).Contents (Elt F)),
    nullary main_cst_7 (constant S_ .f32 0x00000000#32),
    unary main_cst_7 main_v33 (broadcastInDim S12000x32 ![] bcast_S_S12000x32 : (⟨S_, .f32⟩ : BufTy).Contents (Elt F) → (⟨S12000x32, .f32⟩ : BufTy).Contents (Elt F)),
    nullary main_c_8 (constantI S_ 32 0#32),
    unary main_c_8 main_v34 (broadcastInDim S384000 ![] bcast_S_S384000 : (⟨S_, .i32⟩ : BufTy).Contents (Elt F) → (⟨S384000, .i32⟩ : BufTy).Contents (Elt F)),
    binary main_v1 main_v34 main_v35 (cmpi .slt : (⟨S384000, .i32⟩ : BufTy).Contents (Elt F) → (⟨S384000, .i32⟩ : BufTy).Contents (Elt F) → (⟨S384000, .i1⟩ : BufTy).Contents (Elt F)),
    nullary main_c_9 (constantI S_ 32 12000#32),
    unary main_c_9 main_v36 (broadcastInDim S384000 ![] bcast_S_S384000 : (⟨S_, .i32⟩ : BufTy).Contents (Elt F) → (⟨S384000, .i32⟩ : BufTy).Contents (Elt F)),
    binary main_v1 main_v36 main_v37 (addi : (⟨S384000, .i32⟩ : BufTy).Contents (Elt F) → (⟨S384000, .i32⟩ : BufTy).Contents (Elt F) → (⟨S384000, .i32⟩ : BufTy).Contents (Elt F)),
    ternary main_v35 main_v37 main_v1 main_v38 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v38 main_v39 (broadcastInDim S384000x1 ![0] bcast_S384000_S384000x1_0 : (⟨S384000, .i32⟩ : BufTy).Contents (Elt F) → (⟨S384000x1, .i32⟩ : BufTy).Contents (Elt F)),
    binary main_v16 main_v39 main_v40 ((fun x i => Host.gather gather_S12000x32_S384000x1_S384000x32_1_0_n_n_0_1_132 x i) : (⟨S12000x32, .f32⟩ : BufTy).Contents (Elt F) → (⟨S384000x1, .i32⟩ : BufTy).Contents (Elt F) → (⟨S384000x32, .f32⟩ : BufTy).Contents (Elt F)),
    unary main_v32 main_v41 (broadcastInDim S384000x32 ![0, 1] bcast_S384000x1_S384000x32_0_1 : (⟨S384000x1, .f32⟩ : BufTy).Contents (Elt F) → (⟨S384000x32, .f32⟩ : BufTy).Contents (Elt F)),
    binary main_v40 main_v41 main_v42 (mulf : (⟨S384000x32, .f32⟩ : BufTy).Contents (Elt F) → (⟨S384000x32, .f32⟩ : BufTy).Contents (Elt F) → (⟨S384000x32, .f32⟩ : BufTy).Contents (Elt F)),
    nullary main_c_10 (constantI S_ 32 0#32),
    unary main_c_10 main_v43 (broadcastInDim S384000 ![] bcast_S_S384000 : (⟨S_, .i32⟩ : BufTy).Contents (Elt F) → (⟨S384000, .i32⟩ : BufTy).Contents (Elt F)),
    binary main_v3 main_v43 main_v44 (cmpi .slt : (⟨S384000, .i32⟩ : BufTy).Contents (Elt F) → (⟨S384000, .i32⟩ : BufTy).Contents (Elt F) → (⟨S384000, .i1⟩ : BufTy).Contents (Elt F)),
    nullary main_c_11 (constantI S_ 32 12000#32),
    unary main_c_11 main_v45 (broadcastInDim S384000 ![] bcast_S_S384000 : (⟨S_, .i32⟩ : BufTy).Contents (Elt F) → (⟨S384000, .i32⟩ : BufTy).Contents (Elt F)),
    binary main_v3 main_v45 main_v46 (addi : (⟨S384000, .i32⟩ : BufTy).Contents (Elt F) → (⟨S384000, .i32⟩ : BufTy).Contents (Elt F) → (⟨S384000, .i32⟩ : BufTy).Contents (Elt F)),
    ternary main_v44 main_v46 main_v3 main_v47 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v47 main_v48 (broadcastInDim S384000x1 ![0] bcast_S384000_S384000x1_0 : (⟨S384000, .i32⟩ : BufTy).Contents (Elt F) → (⟨S384000x1, .i32⟩ : BufTy).Contents (Elt F)),
    ternary main_v33 main_v48 main_v42 main_v49 ((fun x i u => Host.scatterAdd scatter_S12000x32_S384000x1_S384000x32_1_0_0_1 x i u) : (⟨S12000x32, .f32⟩ : BufTy).Contents (Elt F) → (⟨S384000x1, .i32⟩ : BufTy).Contents (Elt F) → (⟨S384000x32, .f32⟩ : BufTy).Contents (Elt F) → (⟨S12000x32, .f32⟩ : BufTy).Contents (Elt F)),
    binary main_v15 main_v15 main_v50 (mulf : (⟨S12000, .f32⟩ : BufTy).Contents (Elt F) → (⟨S12000, .f32⟩ : BufTy).Contents (Elt F) → (⟨S12000, .f32⟩ : BufTy).Contents (Elt F)),
    unary main_v50 main_v51 (broadcastInDim S12000x1 ![0] bcast_S12000_S12000x1_0 : (⟨S12000, .f32⟩ : BufTy).Contents (Elt F) → (⟨S12000x1, .f32⟩ : BufTy).Contents (Elt F)),
    unary main_v51 main_v52 (broadcastInDim S12000x32 ![0, 1] bcast_S12000x1_S12000x32_0_1 : (⟨S12000x1, .f32⟩ : BufTy).Contents (Elt F) → (⟨S12000x32, .f32⟩ : BufTy).Contents (Elt F)),
    binary main_v16 main_v52 main_v53 (mulf : (⟨S12000x32, .f32⟩ : BufTy).Contents (Elt F) → (⟨S12000x32, .f32⟩ : BufTy).Contents (Elt F) → (⟨S12000x32, .f32⟩ : BufTy).Contents (Elt F)),
    binary main_v49 main_v53 main_v54 (addf : (⟨S12000x32, .f32⟩ : BufTy).Contents (Elt F) → (⟨S12000x32, .f32⟩ : BufTy).Contents (Elt F) → (⟨S12000x32, .f32⟩ : BufTy).Contents (Elt F)),
    unary main_arg3 main_v55 (broadcastInDim S1x32 ![1] bcast_S32_S1x32_1 : (⟨S32, .f32⟩ : BufTy).Contents (Elt F) → (⟨S1x32, .f32⟩ : BufTy).Contents (Elt F)),
    unary main_v55 main_v56 (broadcastInDim S12000x32 ![0, 1] bcast_S1x32_S12000x32_0_1 : (⟨S1x32, .f32⟩ : BufTy).Contents (Elt F) → (⟨S12000x32, .f32⟩ : BufTy).Contents (Elt F)),
    binary main_v54 main_v56 main_v57 (addf : (⟨S12000x32, .f32⟩ : BufTy).Contents (Elt F) → (⟨S12000x32, .f32⟩ : BufTy).Contents (Elt F) → (⟨S12000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S12000x32, .f32⟩) main_call0_v0) (broadcastInDim S12000x32 ![] bcast_S_S12000x32),
    TRef.binary (TRef.of (T := ⟨S12000x32, .f32⟩) main_v57) (TRef.of (T := ⟨S12000x32, .f32⟩) main_call0_v0) (TRef.of (T := ⟨S12000x32, .f32⟩) main_v58) maximumf ]

set_option maxRecDepth 8192 in
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem opsB_fresh : ∀ op ∈ (opsB : List (HloOp τ sig (Elt F))), op.fresh = ∅ := by
  intro _ h; (repeat (cases h with | head => rfl | tail _ h => ?_)); exact nomatch h

/-- The buffers stage B writes. -/
abbrev opsB_W : List (Ref sig .tc) := [main_v16, main_c_3, main_v17, main_v18, main_c_4, main_v19, main_v20, main_v21, main_v22, main_v23, main_c_5, main_v24, main_v25, main_c_6, main_v26, main_v27, main_v28, main_v29, main_v30, main_v31, main_v32, main_cst_7, main_v33, main_c_8, main_v34, main_v35, main_c_9, main_v36, main_v37, main_v38, main_v39, main_v40, main_v41, main_v42, main_c_10, main_v43, main_v44, main_c_11, main_v45, main_v46, main_v47, main_v48, main_v49, main_v50, main_v51, main_v52, main_v53, main_v54, main_v55, main_v56, main_v57, main_call0_cst, main_call0_v0, main_v58]

set_option maxRecDepth 8192 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage C: the second graph convolution and its relu (operations 76 … 129 of 226). -/
abbrev opsC : List (HloOp τ sig (Elt F)) :=
  [ binary main_v58 main_arg4 main_v59 ((fun l r => Host.dotGeneral dot_S12000x32_S32x32_S12000x32_1_0_0_1_n_n none l r) : (⟨S12000x32, .f32⟩ : BufTy).Contents (Elt F) → (⟨S32x32, .f32⟩ : BufTy).Contents (Elt F) → (⟨S12000x32, .f32⟩ : BufTy).Contents (Elt F)),
    nullary main_c_12 (constantI S_ 32 0#32),
    unary main_c_12 main_v60 (broadcastInDim S384000 ![] bcast_S_S384000 : (⟨S_, .i32⟩ : BufTy).Contents (Elt F) → (⟨S384000, .i32⟩ : BufTy).Contents (Elt F)),
    binary main_v1 main_v60 main_v61 (cmpi .slt : (⟨S384000, .i32⟩ : BufTy).Contents (Elt F) → (⟨S384000, .i32⟩ : BufTy).Contents (Elt F) → (⟨S384000, .i1⟩ : BufTy).Contents (Elt F)),
    nullary main_c_13 (constantI S_ 32 12000#32),
    unary main_c_13 main_v62 (broadcastInDim S384000 ![] bcast_S_S384000 : (⟨S_, .i32⟩ : BufTy).Contents (Elt F) → (⟨S384000, .i32⟩ : BufTy).Contents (Elt F)),
    binary main_v1 main_v62 main_v63 (addi : (⟨S384000, .i32⟩ : BufTy).Contents (Elt F) → (⟨S384000, .i32⟩ : BufTy).Contents (Elt F) → (⟨S384000, .i32⟩ : BufTy).Contents (Elt F)),
    ternary main_v61 main_v63 main_v1 main_v64 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v64 main_v65 (broadcastInDim S384000x1 ![0] bcast_S384000_S384000x1_0 : (⟨S384000, .i32⟩ : BufTy).Contents (Elt F) → (⟨S384000x1, .i32⟩ : BufTy).Contents (Elt F)),
    binary main_v15 main_v65 main_v66 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    nullary main_c_14 (constantI S_ 32 0#32),
    unary main_c_14 main_v67 (broadcastInDim S384000 ![] bcast_S_S384000 : (⟨S_, .i32⟩ : BufTy).Contents (Elt F) → (⟨S384000, .i32⟩ : BufTy).Contents (Elt F)),
    binary main_v3 main_v67 main_v68 (cmpi .slt : (⟨S384000, .i32⟩ : BufTy).Contents (Elt F) → (⟨S384000, .i32⟩ : BufTy).Contents (Elt F) → (⟨S384000, .i1⟩ : BufTy).Contents (Elt F)),
    nullary main_c_15 (constantI S_ 32 12000#32),
    unary main_c_15 main_v69 (broadcastInDim S384000 ![] bcast_S_S384000 : (⟨S_, .i32⟩ : BufTy).Contents (Elt F) → (⟨S384000, .i32⟩ : BufTy).Contents (Elt F)),
    binary main_v3 main_v69 main_v70 (addi : (⟨S384000, .i32⟩ : BufTy).Contents (Elt F) → (⟨S384000, .i32⟩ : BufTy).Contents (Elt F) → (⟨S384000, .i32⟩ : BufTy).Contents (Elt F)),
    ternary main_v68 main_v70 main_v3 main_v71 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v71 main_v72 (broadcastInDim S384000x1 ![0] bcast_S384000_S384000x1_0 : (⟨S384000, .i32⟩ : BufTy).Contents (Elt F) → (⟨S384000x1, .i32⟩ : BufTy).Contents (Elt F)),
    binary main_v15 main_v72 main_v73 ((fun x i => Host.gather gather_S12000_S384000x1_S384000_n_0_n_n_0_1_1 x i) : (⟨S12000, .f32⟩ : BufTy).Contents (Elt F) → (⟨S384000x1, .i32⟩ : BufTy).Contents (Elt F) → (⟨S384000, .f32⟩ : BufTy).Contents (Elt F)),
    binary main_v66 main_v73 main_v74 (mulf : (⟨S384000, .f32⟩ : BufTy).Contents (Elt F) → (⟨S384000, .f32⟩ : BufTy).Contents (Elt F) → (⟨S384000, .f32⟩ : BufTy).Contents (Elt F)),
    unary main_v74 main_v75 (broadcastInDim S384000x1 ![0] bcast_S384000_S384000x1_0 : (⟨S384000, .f32⟩ : BufTy).Contents (Elt F) → (⟨S384000x1, .f32⟩ : BufTy).Contents (Elt F)),
    nullary main_cst_16 (constant S_ .f32 0x00000000#32),
    unary main_cst_16 main_v76 (broadcastInDim S12000x32 ![] bcast_S_S12000x32 : (⟨S_, .f32⟩ : BufTy).Contents (Elt F) → (⟨S12000x32, .f32⟩ : BufTy).Contents (Elt F)),
    nullary main_c_17 (constantI S_ 32 0#32),
    unary main_c_17 main_v77 (broadcastInDim S384000 ![] bcast_S_S384000 : (⟨S_, .i32⟩ : BufTy).Contents (Elt F) → (⟨S384000, .i32⟩ : BufTy).Contents (Elt F)),
    binary main_v1 main_v77 main_v78 (cmpi .slt : (⟨S384000, .i32⟩ : BufTy).Contents (Elt F) → (⟨S384000, .i32⟩ : BufTy).Contents (Elt F) → (⟨S384000, .i1⟩ : BufTy).Contents (Elt F)),
    nullary main_c_18 (constantI S_ 32 12000#32),
    unary main_c_18 main_v79 (broadcastInDim S384000 ![] bcast_S_S384000 : (⟨S_, .i32⟩ : BufTy).Contents (Elt F) → (⟨S384000, .i32⟩ : BufTy).Contents (Elt F)),
    binary main_v1 main_v79 main_v80 (addi : (⟨S384000, .i32⟩ : BufTy).Contents (Elt F) → (⟨S384000, .i32⟩ : BufTy).Contents (Elt F) → (⟨S384000, .i32⟩ : BufTy).Contents (Elt F)),
    ternary main_v78 main_v80 main_v1 main_v81 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v81 main_v82 (broadcastInDim S384000x1 ![0] bcast_S384000_S384000x1_0 : (⟨S384000, .i32⟩ : BufTy).Contents (Elt F) → (⟨S384000x1, .i32⟩ : BufTy).Contents (Elt F)),
    binary main_v59 main_v82 main_v83 ((fun x i => Host.gather gather_S12000x32_S384000x1_S384000x32_1_0_n_n_0_1_132 x i) : (⟨S12000x32, .f32⟩ : BufTy).Contents (Elt F) → (⟨S384000x1, .i32⟩ : BufTy).Contents (Elt F) → (⟨S384000x32, .f32⟩ : BufTy).Contents (Elt F)),
    unary main_v75 main_v84 (broadcastInDim S384000x32 ![0, 1] bcast_S384000x1_S384000x32_0_1 : (⟨S384000x1, .f32⟩ : BufTy).Contents (Elt F) → (⟨S384000x32, .f32⟩ : BufTy).Contents (Elt F)),
    binary main_v83 main_v84 main_v85 (mulf : (⟨S384000x32, .f32⟩ : BufTy).Contents (Elt F) → (⟨S384000x32, .f32⟩ : BufTy).Contents (Elt F) → (⟨S384000x32, .f32⟩ : BufTy).Contents (Elt F)),
    nullary main_c_19 (constantI S_ 32 0#32),
    unary main_c_19 main_v86 (broadcastInDim S384000 ![] bcast_S_S384000 : (⟨S_, .i32⟩ : BufTy).Contents (Elt F) → (⟨S384000, .i32⟩ : BufTy).Contents (Elt F)),
    binary main_v3 main_v86 main_v87 (cmpi .slt : (⟨S384000, .i32⟩ : BufTy).Contents (Elt F) → (⟨S384000, .i32⟩ : BufTy).Contents (Elt F) → (⟨S384000, .i1⟩ : BufTy).Contents (Elt F)),
    nullary main_c_20 (constantI S_ 32 12000#32),
    unary main_c_20 main_v88 (broadcastInDim S384000 ![] bcast_S_S384000 : (⟨S_, .i32⟩ : BufTy).Contents (Elt F) → (⟨S384000, .i32⟩ : BufTy).Contents (Elt F)),
    binary main_v3 main_v88 main_v89 (addi : (⟨S384000, .i32⟩ : BufTy).Contents (Elt F) → (⟨S384000, .i32⟩ : BufTy).Contents (Elt F) → (⟨S384000, .i32⟩ : BufTy).Contents (Elt F)),
    ternary main_v87 main_v89 main_v3 main_v90 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v90 main_v91 (broadcastInDim S384000x1 ![0] bcast_S384000_S384000x1_0 : (⟨S384000, .i32⟩ : BufTy).Contents (Elt F) → (⟨S384000x1, .i32⟩ : BufTy).Contents (Elt F)),
    ternary main_v76 main_v91 main_v85 main_v92 ((fun x i u => Host.scatterAdd scatter_S12000x32_S384000x1_S384000x32_1_0_0_1 x i u) : (⟨S12000x32, .f32⟩ : BufTy).Contents (Elt F) → (⟨S384000x1, .i32⟩ : BufTy).Contents (Elt F) → (⟨S384000x32, .f32⟩ : BufTy).Contents (Elt F) → (⟨S12000x32, .f32⟩ : BufTy).Contents (Elt F)),
    binary main_v15 main_v15 main_v93 (mulf : (⟨S12000, .f32⟩ : BufTy).Contents (Elt F) → (⟨S12000, .f32⟩ : BufTy).Contents (Elt F) → (⟨S12000, .f32⟩ : BufTy).Contents (Elt F)),
    unary main_v93 main_v94 (broadcastInDim S12000x1 ![0] bcast_S12000_S12000x1_0 : (⟨S12000, .f32⟩ : BufTy).Contents (Elt F) → (⟨S12000x1, .f32⟩ : BufTy).Contents (Elt F)),
    unary main_v94 main_v95 (broadcastInDim S12000x32 ![0, 1] bcast_S12000x1_S12000x32_0_1 : (⟨S12000x1, .f32⟩ : BufTy).Contents (Elt F) → (⟨S12000x32, .f32⟩ : BufTy).Contents (Elt F)),
    binary main_v59 main_v95 main_v96 (mulf : (⟨S12000x32, .f32⟩ : BufTy).Contents (Elt F) → (⟨S12000x32, .f32⟩ : BufTy).Contents (Elt F) → (⟨S12000x32, .f32⟩ : BufTy).Contents (Elt F)),
    binary main_v92 main_v96 main_v97 (addf : (⟨S12000x32, .f32⟩ : BufTy).Contents (Elt F) → (⟨S12000x32, .f32⟩ : BufTy).Contents (Elt F) → (⟨S12000x32, .f32⟩ : BufTy).Contents (Elt F)),
    unary main_arg5 main_v98 (broadcastInDim S1x32 ![1] bcast_S32_S1x32_1 : (⟨S32, .f32⟩ : BufTy).Contents (Elt F) → (⟨S1x32, .f32⟩ : BufTy).Contents (Elt F)),
    unary main_v98 main_v99 (broadcastInDim S12000x32 ![0, 1] bcast_S1x32_S12000x32_0_1 : (⟨S1x32, .f32⟩ : BufTy).Contents (Elt F) → (⟨S12000x32, .f32⟩ : BufTy).Contents (Elt F)),
    binary main_v97 main_v99 main_v100 (addf : (⟨S12000x32, .f32⟩ : BufTy).Contents (Elt F) → (⟨S12000x32, .f32⟩ : BufTy).Contents (Elt F) → (⟨S12000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S12000x32, .f32⟩) main_call1_v0) (broadcastInDim S12000x32 ![] bcast_S_S12000x32),
    TRef.binary (TRef.of (T := ⟨S12000x32, .f32⟩) main_v100) (TRef.of (T := ⟨S12000x32, .f32⟩) main_call1_v0) (TRef.of (T := ⟨S12000x32, .f32⟩) main_v101) maximumf ]

set_option maxRecDepth 8192 in
theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem opsC_fresh : ∀ op ∈ (opsC : List (HloOp τ sig (Elt F))), op.fresh = ∅ := by
  intro _ h; (repeat (cases h with | head => rfl | tail _ h => ?_)); exact nomatch h

/-- The buffers stage C writes. -/
abbrev opsC_W : List (Ref sig .tc) := [main_v59, main_c_12, main_v60, main_v61, main_c_13, main_v62, main_v63, main_v64, main_v65, main_v66, main_c_14, main_v67, main_v68, main_c_15, main_v69, main_v70, main_v71, main_v72, main_v73, main_v74, main_v75, main_cst_16, main_v76, main_c_17, main_v77, main_v78, main_c_18, main_v79, main_v80, main_v81, main_v82, main_v83, main_v84, main_v85, main_c_19, main_v86, main_v87, main_c_20, main_v88, main_v89, main_v90, main_v91, main_v92, main_v93, main_v94, main_v95, main_v96, main_v97, main_v98, main_v99, main_v100, main_call1_cst, main_call1_v0, main_v101]

set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage D: the cluster softmax (operations 130 … 147 of 226). -/
abbrev opsD : List (HloOp τ sig (Elt F)) :=
  [ binary main_v101 main_arg6 main_v102 ((fun l r => Host.dotGeneral dot_S12000x32_S32x10_S12000x10_1_0_0_1_n_n none l r) : (⟨S12000x32, .f32⟩ : BufTy).Contents (Elt F) → (⟨S32x10, .f32⟩ : BufTy).Contents (Elt F) → (⟨S12000x10, .f32⟩ : BufTy).Contents (Elt F)),
    unary main_arg7 main_v103 (broadcastInDim S1x10 ![1] bcast_S10_S1x10_1 : (⟨S10, .f32⟩ : BufTy).Contents (Elt F) → (⟨S1x10, .f32⟩ : BufTy).Contents (Elt F)),
    unary main_v103 main_v104 (broadcastInDim S12000x10 ![0, 1] bcast_S1x10_S12000x10_0_1 : (⟨S1x10, .f32⟩ : BufTy).Contents (Elt F) → (⟨S12000x10, .f32⟩ : BufTy).Contents (Elt F)),
    binary main_v102 main_v104 main_v105 (addf : (⟨S12000x10, .f32⟩ : BufTy).Contents (Elt F) → (⟨S12000x10, .f32⟩ : BufTy).Contents (Elt F) → (⟨S12000x10, .f32⟩ : BufTy).Contents (Elt F)),
    nullary main_cst_21 (constant S_ .f32 0xFF800000#32),
    binary main_v105 main_cst_21 main_v106 ((fun x v => Host.reduce FloatOps.maximumf x v reducesTo_S12000x10_S12000_d1 h_S_) : (⟨S12000x10, .f32⟩ : BufTy).Contents (Elt F) → (⟨S_, .f32⟩ : BufTy).Contents (Elt F) → (⟨S12000, .f32⟩ : BufTy).Contents (Elt F)),
    nullary main_cst_22 (constant S_ .f32 0xFF800000#32),
    unary main_cst_22 main_v107 (broadcastInDim S12000 ![] bcast_S_S12000 : (⟨S_, .f32⟩ : BufTy).Contents (Elt F) → (⟨S12000, .f32⟩ : BufTy).Contents (Elt F)),
    binary main_v107 main_v106 main_v108 (maximumf : (⟨S12000, .f32⟩ : BufTy).Contents (Elt F) → (⟨S12000, .f32⟩ : BufTy).Contents (Elt F) → (⟨S12000, .f32⟩ : BufTy).Contents (Elt F)),
    unary main_v108 main_v109 (broadcastInDim S12000x1 ![0] bcast_S12000_S12000x1_0 : (⟨S12000, .f32⟩ : BufTy).Contents (Elt F) → (⟨S12000x1, .f32⟩ : BufTy).Contents (Elt F)),
    unary main_v109 main_v110 (broadcastInDim S12000x10 ![0, 1] bcast_S12000x1_S12000x10_0_1 : (⟨S12000x1, .f32⟩ : BufTy).Contents (Elt F) → (⟨S12000x10, .f32⟩ : BufTy).Contents (Elt F)),
    binary main_v105 main_v110 main_v111 (subf : (⟨S12000x10, .f32⟩ : BufTy).Contents (Elt F) → (⟨S12000x10, .f32⟩ : BufTy).Contents (Elt F) → (⟨S12000x10, .f32⟩ : BufTy).Contents (Elt F)),
    unary main_v111 main_v112 (Host.exp : (⟨S12000x10, .f32⟩ : BufTy).Contents (Elt F) → (⟨S12000x10, .f32⟩ : BufTy).Contents (Elt F)),
    nullary main_cst_23 (constant S_ .f32 0x00000000#32),
    binary main_v112 main_cst_23 main_v113 ((fun x v => Host.reduceAdd x v reducesTo_S12000x10_S12000_d1 h_S_) : (⟨S12000x10, .f32⟩ : BufTy).Contents (Elt F) → (⟨S_, .f32⟩ : BufTy).Contents (Elt F) → (⟨S12000, .f32⟩ : BufTy).Contents (Elt F)),
    unary main_v113 main_v114 (broadcastInDim S12000x1 ![0] bcast_S12000_S12000x1_0 : (⟨S12000, .f32⟩ : BufTy).Contents (Elt F) → (⟨S12000x1, .f32⟩ : BufTy).Contents (Elt F)),
    unary main_v114 main_v115 (broadcastInDim S12000x10 ![0, 1] bcast_S12000x1_S12000x10_0_1 : (⟨S12000x1, .f32⟩ : BufTy).Contents (Elt F) → (⟨S12000x10, .f32⟩ : BufTy).Contents (Elt F)),
    binary main_v112 main_v115 main_v116 (Host.divf : (⟨S12000x10, .f32⟩ : BufTy).Contents (Elt F) → (⟨S12000x10, .f32⟩ : BufTy).Contents (Elt F) → (⟨S12000x10, .f32⟩ : BufTy).Contents (Elt F)) ]

set_option maxRecDepth 8192 in
theorem opsD_sub : (opsD : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
theorem opsD_fresh : ∀ op ∈ (opsD : List (HloOp τ sig (Elt F))), op.fresh = ∅ := by
  intro _ h; (repeat (cases h with | head => rfl | tail _ h => ?_)); exact nomatch h

/-- The buffers stage D writes. -/
abbrev opsD_W : List (Ref sig .tc) := [main_v102, main_v103, main_v104, main_v105, main_cst_21, main_v106, main_cst_22, main_v107, main_v108, main_v109, main_v110, main_v111, main_v112, main_cst_23, main_v113, main_v114, main_v115, main_v116]

set_option maxRecDepth 8192 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage E: the wrapped source and target indices as two index columns (operations 148 … 165 of 226). -/
abbrev opsE : List (HloOp τ sig (Elt F)) :=
  [ nullary main_cst_24 (constant S_ .f32 0x00000000#32),
    unary main_cst_24 main_v117 (broadcastInDim S12000x12000 ![] bcast_S_S12000x12000 : (⟨S_, .f32⟩ : BufTy).Contents (Elt F) → (⟨S12000x12000, .f32⟩ : BufTy).Contents (Elt F)),
    nullary main_c_25 (constantI S_ 32 0#32),
    unary main_c_25 main_v118 (broadcastInDim S384000 ![] bcast_S_S384000 : (⟨S_, .i32⟩ : BufTy).Contents (Elt F) → (⟨S384000, .i32⟩ : BufTy).Contents (Elt F)),
    binary main_v1 main_v118 main_v119 (cmpi .slt : (⟨S384000, .i32⟩ : BufTy).Contents (Elt F) → (⟨S384000, .i32⟩ : BufTy).Contents (Elt F) → (⟨S384000, .i1⟩ : BufTy).Contents (Elt F)),
    nullary main_c_26 (constantI S_ 32 12000#32),
    unary main_c_26 main_v120 (broadcastInDim S384000 ![] bcast_S_S384000 : (⟨S_, .i32⟩ : BufTy).Contents (Elt F) → (⟨S384000, .i32⟩ : BufTy).Contents (Elt F)),
    binary main_v1 main_v120 main_v121 (addi : (⟨S384000, .i32⟩ : BufTy).Contents (Elt F) → (⟨S384000, .i32⟩ : BufTy).Contents (Elt F) → (⟨S384000, .i32⟩ : BufTy).Contents (Elt F)),
    ternary main_v119 main_v121 main_v1 main_v122 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    nullary main_c_27 (constantI S_ 32 0#32),
    unary main_c_27 main_v123 (broadcastInDim S384000 ![] bcast_S_S384000 : (⟨S_, .i32⟩ : BufTy).Contents (Elt F) → (⟨S384000, .i32⟩ : BufTy).Contents (Elt F)),
    binary main_v3 main_v123 main_v124 (cmpi .slt : (⟨S384000, .i32⟩ : BufTy).Contents (Elt F) → (⟨S384000, .i32⟩ : BufTy).Contents (Elt F) → (⟨S384000, .i1⟩ : BufTy).Contents (Elt F)),
    nullary main_c_28 (constantI S_ 32 12000#32),
    unary main_c_28 main_v125 (broadcastInDim S384000 ![] bcast_S_S384000 : (⟨S_, .i32⟩ : BufTy).Contents (Elt F) → (⟨S384000, .i32⟩ : BufTy).Contents (Elt F)),
    binary main_v3 main_v125 main_v126 (addi : (⟨S384000, .i32⟩ : BufTy).Contents (Elt F) → (⟨S384000, .i32⟩ : BufTy).Contents (Elt F) → (⟨S384000, .i32⟩ : BufTy).Contents (Elt F)),
    ternary main_v124 main_v126 main_v3 main_v127 (select : (⟨S384000, .i1⟩ : BufTy).Contents (Elt F) → (⟨S384000, .i32⟩ : BufTy).Contents (Elt F) → (⟨S384000, .i32⟩ : BufTy).Contents (Elt F) → (⟨S384000, .i32⟩ : BufTy).Contents (Elt F)),
    unary main_v122 main_v128 (broadcastInDim S384000x1 ![0] bcast_S384000_S384000x1_0 : (⟨S384000, .i32⟩ : BufTy).Contents (Elt F) → (⟨S384000x1, .i32⟩ : BufTy).Contents (Elt F)),
    unary main_v127 main_v129 (broadcastInDim S384000x1 ![0] bcast_S384000_S384000x1_0 : (⟨S384000, .i32⟩ : BufTy).Contents (Elt F) → (⟨S384000x1, .i32⟩ : BufTy).Contents (Elt F)) ]

set_option maxRecDepth 8192 in
theorem opsE_sub : (opsE : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in
theorem opsE_fresh : ∀ op ∈ (opsE : List (HloOp τ sig (Elt F))), op.fresh = ∅ := by
  intro _ h; (repeat (cases h with | head => rfl | tail _ h => ?_)); exact nomatch h

/-- The buffers stage E writes. -/
abbrev opsE_W : List (Ref sig .tc) := [main_cst_24, main_v117, main_c_25, main_v118, main_v119, main_c_26, main_v120, main_v121, main_v122, main_c_27, main_v123, main_v124, main_c_28, main_v125, main_v126, main_v127, main_v128, main_v129]

set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage E2: the dense adjacency matrix: the two columns side by side, and the scatter-add of ones at those pairs (operations 166 … 169 of 226). -/
abbrev opsE2 : List (HloOp τ sig (Elt F)) :=
  [ binary main_v128 main_v129 main_v130 ((fun a b => concatenate S384000x2 1 [⟨S384000x1, a⟩, ⟨S384000x1, b⟩] concatenates_S384000x1_S384000x1_S384000x2_d1) : (⟨S384000x1, .i32⟩ : BufTy).Contents (Elt F) → (⟨S384000x1, .i32⟩ : BufTy).Contents (Elt F) → (⟨S384000x2, .i32⟩ : BufTy).Contents (Elt F)),
    nullary main_cst_29 (constant S_ .f32 0x3F800000#32),
    unary main_cst_29 main_v131 (broadcastInDim S384000 ![] bcast_S_S384000 : (⟨S_, .f32⟩ : BufTy).Contents (Elt F) → (⟨S384000, .f32⟩ : BufTy).Contents (Elt F)),
    ternary main_v117 main_v130 main_v131 main_v132 ((fun x i u => Host.scatterAdd scatter_S12000x12000_S384000x2_S384000_n_01_01_1 x i u) : (⟨S12000x12000, .f32⟩ : BufTy).Contents (Elt F) → (⟨S384000x2, .i32⟩ : BufTy).Contents (Elt F) → (⟨S384000, .f32⟩ : BufTy).Contents (Elt F) → (⟨S12000x12000, .f32⟩ : BufTy).Contents (Elt F)) ]

set_option maxRecDepth 8192 in
theorem opsE2_sub : (opsE2 : List (HloOp τ sig (Elt F))).Forall fun op => op.bufs ⊆ tcRefs τ sig :=
  ⟨binary_bufs_sub .., nullary_bufs_sub .., unary_bufs_sub .., ternary_bufs_sub ..⟩

set_option maxRecDepth 8192 in
theorem opsE2_fresh : ∀ op ∈ (opsE2 : List (HloOp τ sig (Elt F))), op.fresh = ∅ := by
  intro _ h; (repeat (cases h with | head => rfl | tail _ h => ?_)); exact nomatch h

/-- The buffers stage E2 writes. -/
abbrev opsE2_W : List (Ref sig .tc) := [main_v130, main_cst_29, main_v131, main_v132]

set_option maxRecDepth 8192 in
theorem opsE2_writes : (opsE2 : List (HloOp τ sig (Elt F))).Forall fun op => op.writes ⊆ (opsE2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage F: the cut loss (operations 170 … 183 of 226). -/
abbrev opsF : List (HloOp τ sig (Elt F)) :=
  [ binary main_v132 main_v116 main_v133 ((fun l r => Host.dotGeneral dot_S12000x12000_S12000x10_S12000x10_1_0_0_1_n_n none l r) : (⟨S12000x12000, .f32⟩ : BufTy).Contents (Elt F) → (⟨S12000x10, .f32⟩ : BufTy).Contents (Elt F) → (⟨S12000x10, .f32⟩ : BufTy).Contents (Elt F)),
    binary main_v116 main_v133 main_v134 (mulf : (⟨S12000x10, .f32⟩ : BufTy).Contents (Elt F) → (⟨S12000x10, .f32⟩ : BufTy).Contents (Elt F) → (⟨S12000x10, .f32⟩ : BufTy).Contents (Elt F)),
    nullary main_cst_30 (constant S_ .f32 0x00000000#32),
    binary main_v134 main_cst_30 main_v135 ((fun x v => Host.reduceAdd x v reducesTo_S12000x10_S_d0_1 h_S_) : (⟨S12000x10, .f32⟩ : BufTy).Contents (Elt F) → (⟨S_, .f32⟩ : BufTy).Contents (Elt F) → (⟨S_, .f32⟩ : BufTy).Contents (Elt F)),
    nullary main_cst_31 (constant S_ .f32 0x00000000#32),
    binary main_v132 main_cst_31 main_v136 ((fun x v => Host.reduceAdd x v reducesTo_S12000x12000_S12000_d1 h_S_) : (⟨S12000x12000, .f32⟩ : BufTy).Contents (Elt F) → (⟨S_, .f32⟩ : BufTy).Contents (Elt F) → (⟨S12000, .f32⟩ : BufTy).Contents (Elt F)),
    unary main_v136 main_v137 (broadcastInDim S12000x1 ![0] bcast_S12000_S12000x1_0 : (⟨S12000, .f32⟩ : BufTy).Contents (Elt F) → (⟨S12000x1, .f32⟩ : BufTy).Contents (Elt F)),
    unary main_v137 main_v138 (broadcastInDim S12000x10 ![0, 1] bcast_S12000x1_S12000x10_0_1 : (⟨S12000x1, .f32⟩ : BufTy).Contents (Elt F) → (⟨S12000x10, .f32⟩ : BufTy).Contents (Elt F)),
    binary main_v138 main_v116 main_v139 (mulf : (⟨S12000x10, .f32⟩ : BufTy).Contents (Elt F) → (⟨S12000x10, .f32⟩ : BufTy).Contents (Elt F) → (⟨S12000x10, .f32⟩ : BufTy).Contents (Elt F)),
    binary main_v139 main_v116 main_v140 (mulf : (⟨S12000x10, .f32⟩ : BufTy).Contents (Elt F) → (⟨S12000x10, .f32⟩ : BufTy).Contents (Elt F) → (⟨S12000x10, .f32⟩ : BufTy).Contents (Elt F)),
    nullary main_cst_32 (constant S_ .f32 0x00000000#32),
    binary main_v140 main_cst_32 main_v141 ((fun x v => Host.reduceAdd x v reducesTo_S12000x10_S_d0_1 h_S_) : (⟨S12000x10, .f32⟩ : BufTy).Contents (Elt F) → (⟨S_, .f32⟩ : BufTy).Contents (Elt F) → (⟨S_, .f32⟩ : BufTy).Contents (Elt F)),
    binary main_v135 main_v141 main_v142 (Host.divf : (⟨S_, .f32⟩ : BufTy).Contents (Elt F) → (⟨S_, .f32⟩ : BufTy).Contents (Elt F) → (⟨S_, .f32⟩ : BufTy).Contents (Elt F)),
    unary main_v142 main_v143 (Host.negf : (⟨S_, .f32⟩ : BufTy).Contents (Elt F) → (⟨S_, .f32⟩ : BufTy).Contents (Elt F)) ]

set_option maxRecDepth 8192 in
theorem opsF_sub : (opsF : List (HloOp τ sig (Elt F))).Forall fun op => op.bufs ⊆ tcRefs τ sig :=
  ⟨binary_bufs_sub .., binary_bufs_sub .., nullary_bufs_sub .., binary_bufs_sub .., nullary_bufs_sub .., binary_bufs_sub .., unary_bufs_sub .., unary_bufs_sub .., binary_bufs_sub .., binary_bufs_sub .., nullary_bufs_sub .., binary_bufs_sub .., binary_bufs_sub .., unary_bufs_sub ..⟩

set_option maxRecDepth 8192 in
theorem opsF_fresh : ∀ op ∈ (opsF : List (HloOp τ sig (Elt F))), op.fresh = ∅ := by
  intro _ h; (repeat (cases h with | head => rfl | tail _ h => ?_)); exact nomatch h

/-- The buffers stage F writes. -/
abbrev opsF_W : List (Ref sig .tc) := [main_v133, main_v134, main_cst_30, main_v135, main_cst_31, main_v136, main_v137, main_v138, main_v139, main_v140, main_cst_32, main_v141, main_v142, main_v143]

set_option maxRecDepth 8192 in
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage G: the orthogonality loss (operations 184 … 207 of 226). -/
abbrev opsG : List (HloOp τ sig (Elt F)) :=
  [ unary main_v116 main_v144 ((transpose S10x12000 [1, 0] · transposes_S12000x10_S10x12000_1_0) : (⟨S12000x10, .f32⟩ : BufTy).Contents (Elt F) → (⟨S10x12000, .f32⟩ : BufTy).Contents (Elt F)),
    binary main_v144 main_v116 main_v145 ((fun l r => Host.dotGeneral dot_S10x12000_S12000x10_S10x10_1_0_0_1_n_n none l r) : (⟨S10x12000, .f32⟩ : BufTy).Contents (Elt F) → (⟨S12000x10, .f32⟩ : BufTy).Contents (Elt F) → (⟨S10x10, .f32⟩ : BufTy).Contents (Elt F)),
    nullary main_v146 (iotaInDim S10x10 32 0),
    nullary main_v147 (iotaInDim S10x10 32 1),
    nullary main_c_33 (constantI S_ 32 0#32),
    unary main_c_33 main_v148 (broadcastInDim S10x10 ![] bcast_S_S10x10 : (⟨S_, .i32⟩ : BufTy).Contents (Elt F) → (⟨S10x10, .i32⟩ : BufTy).Contents (Elt F)),
    binary main_v146 main_v148 main_v149 (addi : (⟨S10x10, .i32⟩ : BufTy).Contents (Elt F) → (⟨S10x10, .i32⟩ : BufTy).Contents (Elt F) → (⟨S10x10, .i32⟩ : BufTy).Contents (Elt F)),
    binary main_v149 main_v147 main_v150 (cmpi .eq : (⟨S10x10, .i32⟩ : BufTy).Contents (Elt F) → (⟨S10x10, .i32⟩ : BufTy).Contents (Elt F) → (⟨S10x10, .i1⟩ : BufTy).Contents (Elt F)),
    unary main_v150 main_v151 (uitofp .f32 : (⟨S10x10, .i1⟩ : BufTy).Contents (Elt F) → (⟨S10x10, .f32⟩ : BufTy).Contents (Elt F)),
    nullary main_cst_34 (constant S_ .f32 0x41200000#32),
    unary main_cst_34 main_v152 (Host.sqrt : (⟨S_, .f32⟩ : BufTy).Contents (Elt F) → (⟨S_, .f32⟩ : BufTy).Contents (Elt F)),
    unary main_v152 main_v153 (broadcastInDim S10x10 ![] bcast_S_S10x10 : (⟨S_, .f32⟩ : BufTy).Contents (Elt F) → (⟨S10x10, .f32⟩ : BufTy).Contents (Elt F)),
    binary main_v151 main_v153 main_v154 (Host.divf : (⟨S10x10, .f32⟩ : BufTy).Contents (Elt F) → (⟨S10x10, .f32⟩ : BufTy).Contents (Elt F) → (⟨S10x10, .f32⟩ : BufTy).Contents (Elt F)),
    TRef.binary (TRef.of (T := ⟨S10x10, .f32⟩) main_v145) (TRef.of (T := ⟨S10x10, .f32⟩) main_v145) (TRef.of (T := ⟨S10x10, .f32⟩) main_call2_v0) mulf,
    TRef.nullary (TRef.of (T := ⟨S_, .f32⟩) main_call2_cst) (constant S_ .f32 0x00000000#32),
    TRef.binary (TRef.of (T := ⟨S10x10, .f32⟩) main_call2_v0) (TRef.of (T := ⟨S_, .f32⟩) main_call2_cst) (TRef.of (T := ⟨S_, .f32⟩) main_call2_v1) (fun x v => Host.reduceAdd x v reducesTo_S10x10_S_d0_1 h_S_),
    TRef.unary (TRef.of (T := ⟨S_, .f32⟩) main_call2_v1) (TRef.of (T := ⟨S_, .f32⟩) main_v155) Host.sqrt,
    unary main_v155 main_v156 (broadcastInDim S10x10 ![] bcast_S_S10x10 : (⟨S_, .f32⟩ : BufTy).Contents (Elt F) → (⟨S10x10, .f32⟩ : BufTy).Contents (Elt F)),
    binary main_v145 main_v156 main_v157 (Host.divf : (⟨S10x10, .f32⟩ : BufTy).Contents (Elt F) → (⟨S10x10, .f32⟩ : BufTy).Contents (Elt F) → (⟨S10x10, .f32⟩ : BufTy).Contents (Elt F)),
    binary main_v157 main_v154 main_v158 (subf : (⟨S10x10, .f32⟩ : BufTy).Contents (Elt F) → (⟨S10x10, .f32⟩ : BufTy).Contents (Elt F) → (⟨S10x10, .f32⟩ : BufTy).Contents (Elt F)),
    TRef.binary (TRef.of (T := ⟨S10x10, .f32⟩) main_v158) (TRef.of (T := ⟨S10x10, .f32⟩) main_v158) (TRef.of (T := ⟨S10x10, .f32⟩) main_call3_v0) mulf,
    TRef.nullary (TRef.of (T := ⟨S_, .f32⟩) main_call3_cst) (constant S_ .f32 0x00000000#32),
    TRef.binary (TRef.of (T := ⟨S10x10, .f32⟩) main_call3_v0) (TRef.of (T := ⟨S_, .f32⟩) main_call3_cst) (TRef.of (T := ⟨S_, .f32⟩) main_call3_v1) (fun x v => Host.reduceAdd x v reducesTo_S10x10_S_d0_1 h_S_),
    TRef.unary (TRef.of (T := ⟨S_, .f32⟩) main_call3_v1) (TRef.of (T := ⟨S_, .f32⟩) main_v159) Host.sqrt ]

set_option maxRecDepth 8192 in
theorem opsG_sub : (opsG : List (HloOp τ sig (Elt F))).Forall fun op => op.bufs ⊆ tcRefs τ sig :=
  ⟨unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., binary_bufs_sub .., binary_bufs_sub .., nullary_bufs_sub .., binary_bufs_sub .., unary_bufs_sub .., unary_bufs_sub .., binary_bufs_sub .., binary_bufs_sub .., binary_bufs_sub .., nullary_bufs_sub .., binary_bufs_sub .., unary_bufs_sub ..⟩

set_option maxRecDepth 8192 in
theorem opsG_fresh : ∀ op ∈ (opsG : List (HloOp τ sig (Elt F))), op.fresh = ∅ := by
  intro _ h; (repeat (cases h with | head => rfl | tail _ h => ?_)); exact nomatch h

/-- The buffers stage G writes. -/
abbrev opsG_W : List (Ref sig .tc) := [main_v144, main_v145, main_v146, main_v147, main_c_33, main_v148, main_v149, main_v150, main_v151, main_cst_34, main_v152, main_v153, main_v154, main_call2_v0, main_call2_cst, main_call2_v1, main_v155, main_v156, main_v157, main_v158, main_call3_v0, main_call3_cst, main_call3_v1, main_v159]

set_option maxRecDepth 8192 in
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Stage H: the class log-probabilities (operations 208 … 226 of 226). -/
abbrev opsH : List (HloOp τ sig (Elt F)) :=
  [ binary main_v101 main_arg8 main_v160 ((fun l r => Host.dotGeneral dot_S12000x32_S32x7_S12000x7_1_0_0_1_n_n none l r) : (⟨S12000x32, .f32⟩ : BufTy).Contents (Elt F) → (⟨S32x7, .f32⟩ : BufTy).Contents (Elt F) → (⟨S12000x7, .f32⟩ : BufTy).Contents (Elt F)),
    unary main_arg9 main_v161 (broadcastInDim S1x7 ![1] bcast_S7_S1x7_1 : (⟨S7, .f32⟩ : BufTy).Contents (Elt F) → (⟨S1x7, .f32⟩ : BufTy).Contents (Elt F)),
    unary main_v161 main_v162 (broadcastInDim S12000x7 ![0, 1] bcast_S1x7_S12000x7_0_1 : (⟨S1x7, .f32⟩ : BufTy).Contents (Elt F) → (⟨S12000x7, .f32⟩ : BufTy).Contents (Elt F)),
    binary main_v160 main_v162 main_v163 (addf : (⟨S12000x7, .f32⟩ : BufTy).Contents (Elt F) → (⟨S12000x7, .f32⟩ : BufTy).Contents (Elt F) → (⟨S12000x7, .f32⟩ : BufTy).Contents (Elt F)),
    TRef.nullary (TRef.of (T := ⟨S_, .f32⟩) main_call4_cst) (constant S_ .f32 0xFF800000#32),
    TRef.binary (TRef.of (T := ⟨S12000x7, .f32⟩) main_v163) (TRef.of (T := ⟨S_, .f32⟩) main_call4_cst) (TRef.of (T := ⟨S12000, .f32⟩) main_call4_v0) (fun x v => Host.reduce FloatOps.maximumf x v reducesTo_S12000x7_S12000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S12000, .f32⟩) main_call4_v1) (broadcastInDim S12000 ![] bcast_S_S12000),
    TRef.binary (TRef.of (T := ⟨S12000, .f32⟩) main_call4_v1) (TRef.of (T := ⟨S12000, .f32⟩) main_call4_v0) (TRef.of (T := ⟨S12000, .f32⟩) main_call4_v2) maximumf,
    TRef.unary (TRef.of (T := ⟨S12000, .f32⟩) main_call4_v2) (TRef.of (T := ⟨S12000x1, .f32⟩) main_call4_v3) (broadcastInDim S12000x1 ![0] bcast_S12000_S12000x1_0),
    TRef.unary (TRef.of (T := ⟨S12000x1, .f32⟩) main_call4_v3) (TRef.of (T := ⟨S12000x7, .f32⟩) main_call4_v4) (broadcastInDim S12000x7 ![0, 1] bcast_S12000x1_S12000x7_0_1),
    TRef.binary (TRef.of (T := ⟨S12000x7, .f32⟩) main_v163) (TRef.of (T := ⟨S12000x7, .f32⟩) main_call4_v4) (TRef.of (T := ⟨S12000x7, .f32⟩) main_call4_v5) subf,
    TRef.unary (TRef.of (T := ⟨S12000x7, .f32⟩) main_call4_v5) (TRef.of (T := ⟨S12000x7, .f32⟩) main_call4_v6) Host.exp,
    TRef.nullary (TRef.of (T := ⟨S_, .f32⟩) main_call4_cst_1) (constant S_ .f32 0x00000000#32),
    TRef.binary (TRef.of (T := ⟨S12000x7, .f32⟩) main_call4_v6) (TRef.of (T := ⟨S_, .f32⟩) main_call4_cst_1) (TRef.of (T := ⟨S12000, .f32⟩) main_call4_v7) (fun x v => Host.reduceAdd x v reducesTo_S12000x7_S12000_d1 h_S_),
    TRef.unary (TRef.of (T := ⟨S12000, .f32⟩) main_call4_v7) (TRef.of (T := ⟨S12000x1, .f32⟩) main_call4_v8) (broadcastInDim S12000x1 ![0] bcast_S12000_S12000x1_0),
    TRef.unary (TRef.of (T := ⟨S12000x1, .f32⟩) main_call4_v8) (TRef.of (T := ⟨S12000x1, .f32⟩) main_call4_v9) Host.log,
    TRef.unary (TRef.of (T := ⟨S12000x1, .f32⟩) main_call4_v9) (TRef.of (T := ⟨S12000x7, .f32⟩) main_call4_v10) (broadcastInDim S12000x7 ![0, 1] bcast_S12000x1_S12000x7_0_1),
    TRef.binary (TRef.of (T := ⟨S12000x7, .f32⟩) main_call4_v5) (TRef.of (T := ⟨S12000x7, .f32⟩) main_call4_v10) (TRef.of (T := ⟨S12000x7, .f32⟩) main_v164) subf ]

set_option maxRecDepth 8192 in
theorem opsH_sub : (opsH : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem opsH_fresh : ∀ op ∈ (opsH : List (HloOp τ sig (Elt F))), op.fresh = ∅ := by
  intro _ h; (repeat (cases h with | head => rfl | tail _ h => ?_)); exact nomatch h

/-- The buffers stage H writes. -/
abbrev opsH_W : List (Ref sig .tc) := [main_v160, main_v161, main_v162, main_v163, main_call4_cst, main_call4_v0, main_call4_cst_0, main_call4_v1, main_call4_v2, main_call4_v3, main_call4_v4, main_call4_v5, main_call4_v6, main_call4_cst_1, main_call4_v7, main_call4_v8, main_call4_v9, main_call4_v10, main_v164]

set_option maxRecDepth 8192 in
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's 226 operations in order: the stages one after the other. -/
abbrev ops : List (HloOp τ sig (Elt F)) := opsA ++ (opsB ++ (opsC ++ (opsD ++ (opsE ++ (opsE2 ++ (opsF ++ (opsG ++ (opsH))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h | h | h | h | h | h
  exacts [List.forall_iff_forall_mem.1 opsA_sub op h, List.forall_iff_forall_mem.1 opsB_sub op h, List.forall_iff_forall_mem.1 opsC_sub op h, List.forall_iff_forall_mem.1 opsD_sub op h, List.forall_iff_forall_mem.1 opsE_sub op h, List.forall_iff_forall_mem.1 opsE2_sub op h, List.forall_iff_forall_mem.1 opsF_sub op h, List.forall_iff_forall_mem.1 opsG_sub op h, List.forall_iff_forall_mem.1 opsH_sub op h]

theorem ops_fresh : ∀ op ∈ (ops : List (HloOp τ sig (Elt F))), op.fresh = ∅ := by
  intro op h
  simp only [ops, List.mem_append] at h
  rcases h with h | h | h | h | h | h | h | h | h
  exacts [opsA_fresh op h, opsB_fresh op h, opsC_fresh op h, opsD_fresh op h, opsE_fresh op h, opsE2_fresh op h, opsF_fresh op h, opsG_fresh op h, opsH_fresh op h]

end Cert.ReferenceIdeal.Hand

end
-- ==== Proof.KI.RHost.lean ====
/- The reference's run, read buffer by buffer.

   @main is the run of the nine stage lists in order, so every weakly fair execution terminates and each
   TensorCore buffer ends at the fold of the operations' results over the launch contents. The fold is taken
   stage by stage: R_A … R_H (with R_E2 between R_E and R_F) are the buffer contents after each stage. A stage's result buffer is a stage
   function of earlier buffers; a buffer a stage does not write is carried through it unchanged. Composing the
   stage equations gives the three results in closed form over the ten argument arrays:
     dis = disOf ei,
     h1  = relu32 (gcnR ei dis (x·W1) b1),   h2 = relu32 (gcnR ei dis (h1·W2) b2),
     s   = sOf h2 Wp bp,
     log-probabilities = logpOf h2 Wc bc,   cut loss = mcOf s (A·s) (row sums of A),   orthogonality loss = olossOf s,
   and the ten arguments are unchanged. -/
import proofs.«421346_j24266565222650_2_alg».proof.Proof.KI.RefOps
import proofs.«421346_j24266565222650_2_alg».proof.Proof.KI.Spec

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Hand

variable {F : FTy → Type} [FloatOps F]

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- On every device, from any memory with zero counters: every weakly fair execution of @main terminates
    with each TensorCore buffer at the fold of the 226 operations' results over its launch contents. -/
theorem ref_run (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = after ops (launchContents m d) (Proc.devRef .tc b)) :=
  run_seq scopedRefs_eq scopedSems_eq defs main (fun _ => ops) main_eq (fun _ => ops_sub) m ρ (fun _ => ops_fresh)

section Stages

variable (m : (ℓ : Loc nD τ sig) → Buf (Elt F) ℓ) (d : Dev nD)

/-! ## The buffer contents after each stage -/

def RA : Valuation τ sig (Elt F) := after opsA (launchContents m d)
def RB : Valuation τ sig (Elt F) := after opsB (RA m d)
def RC : Valuation τ sig (Elt F) := after opsC (RB m d)
def RD : Valuation τ sig (Elt F) := after opsD (RC m d)
def RE : Valuation τ sig (Elt F) := after opsE (RD m d)
def RE2 : Valuation τ sig (Elt F) := after opsE2 (RE m d)
def RF : Valuation τ sig (Elt F) := after opsF (RE2 m d)
def RG : Valuation τ sig (Elt F) := after opsG (RF m d)
def RH : Valuation τ sig (Elt F) := after opsH (RG m d)

/-- The fold over all 226 operations is the contents after the last stage. -/
theorem after_ops : after ops (launchContents m d) = RH m d := by
  show after (opsA ++ (opsB ++ (opsC ++ (opsD ++ (opsE ++ (opsE2 ++ (opsF ++ (opsG ++ opsH)))))))) (launchContents m d) = _
  rw [after_app, after_app, after_app, after_app, after_app, after_app, after_app, after_app]
  rfl

/-! ## A buffer a stage does not write keeps its contents through it -/

theorem RA_keep (r : Ref sig .tc) (h : r ∉ opsA_W) : RA m d (Proc.devRef .tc r) = m ((d.tc : Thread nD τ).loc r) :=
  after_of_writes_sub opsA _ opsA_writes h
theorem RB_keep (r : Ref sig .tc) (h : r ∉ opsB_W) : RB m d (Proc.devRef .tc r) = RA m d (Proc.devRef .tc r) :=
  after_of_writes_sub opsB _ opsB_writes h
theorem RC_keep (r : Ref sig .tc) (h : r ∉ opsC_W) : RC m d (Proc.devRef .tc r) = RB m d (Proc.devRef .tc r) :=
  after_of_writes_sub opsC _ opsC_writes h
theorem RD_keep (r : Ref sig .tc) (h : r ∉ opsD_W) : RD m d (Proc.devRef .tc r) = RC m d (Proc.devRef .tc r) :=
  after_of_writes_sub opsD _ opsD_writes h
theorem RE_keep (r : Ref sig .tc) (h : r ∉ opsE_W) : RE m d (Proc.devRef .tc r) = RD m d (Proc.devRef .tc r) :=
  after_of_writes_sub opsE _ opsE_writes h
theorem RE2_keep (r : Ref sig .tc) (h : r ∉ opsE2_W) : RE2 m d (Proc.devRef .tc r) = RE m d (Proc.devRef .tc r) :=
  after_of_writes_sub opsE2 _ opsE2_writes h
theorem RF_keep (r : Ref sig .tc) (h : r ∉ opsF_W) : RF m d (Proc.devRef .tc r) = RE2 m d (Proc.devRef .tc r) :=
  after_of_writes_sub opsF _ opsF_writes h
theorem RG_keep (r : Ref sig .tc) (h : r ∉ opsG_W) : RG m d (Proc.devRef .tc r) = RF m d (Proc.devRef .tc r) :=
  after_of_writes_sub opsG _ opsG_writes h
theorem RH_keep (r : Ref sig .tc) (h : r ∉ opsH_W) : RH m d (Proc.devRef .tc r) = RG m d (Proc.devRef .tc r) :=
  after_of_writes_sub opsH _ opsH_writes h

/-- A buffer no stage so far writes still holds its launch contents. -/
theorem RB_init (r : Ref sig .tc) (hA : r ∉ opsA_W) (hB : r ∉ opsB_W) :
    RB m d (Proc.devRef .tc r) = m ((d.tc : Thread nD τ).loc r) := (RB_keep m d r hB).trans (RA_keep m d r hA)
theorem RC_init (r : Ref sig .tc) (hA : r ∉ opsA_W) (hB : r ∉ opsB_W) (hC : r ∉ opsC_W) :
    RC m d (Proc.devRef .tc r) = m ((d.tc : Thread nD τ).loc r) := (RC_keep m d r hC).trans (RB_init m d r hA hB)
theorem RD_init (r : Ref sig .tc) (hA : r ∉ opsA_W) (hB : r ∉ opsB_W) (hC : r ∉ opsC_W) (hD : r ∉ opsD_W) :
    RD m d (Proc.devRef .tc r) = m ((d.tc : Thread nD τ).loc r) := (RD_keep m d r hD).trans (RC_init m d r hA hB hC)
theorem RE_init (r : Ref sig .tc) (hA : r ∉ opsA_W) (hB : r ∉ opsB_W) (hC : r ∉ opsC_W) (hD : r ∉ opsD_W) (hE : r ∉ opsE_W) :
    RE m d (Proc.devRef .tc r) = m ((d.tc : Thread nD τ).loc r) := (RE_keep m d r hE).trans (RD_init m d r hA hB hC hD)
theorem RE2_init (r : Ref sig .tc) (hA : r ∉ opsA_W) (hB : r ∉ opsB_W) (hC : r ∉ opsC_W) (hD : r ∉ opsD_W) (hE : r ∉ opsE_W)
    (hE2 : r ∉ opsE2_W) :
    RE2 m d (Proc.devRef .tc r) = m ((d.tc : Thread nD τ).loc r) := (RE2_keep m d r hE2).trans (RE_init m d r hA hB hC hD hE)
theorem RF_init (r : Ref sig .tc) (hA : r ∉ opsA_W) (hB : r ∉ opsB_W) (hC : r ∉ opsC_W) (hD : r ∉ opsD_W) (hE : r ∉ opsE_W)
    (hE2 : r ∉ opsE2_W) (hF : r ∉ opsF_W) :
    RF m d (Proc.devRef .tc r) = m ((d.tc : Thread nD τ).loc r) := (RF_keep m d r hF).trans (RE2_init m d r hA hB hC hD hE hE2)
theorem RG_init (r : Ref sig .tc) (hA : r ∉ opsA_W) (hB : r ∉ opsB_W) (hC : r ∉ opsC_W) (hD : r ∉ opsD_W) (hE : r ∉ opsE_W)
    (hE2 : r ∉ opsE2_W) (hF : r ∉ opsF_W) (hG : r ∉ opsG_W) :
    RG m d (Proc.devRef .tc r) = m ((d.tc : Thread nD τ).loc r) := (RG_keep m d r hG).trans (RF_init m d r hA hB hC hD hE hE2 hF)
theorem RH_init (r : Ref sig .tc) (hA : r ∉ opsA_W) (hB : r ∉ opsB_W) (hC : r ∉ opsC_W) (hD : r ∉ opsD_W) (hE : r ∉ opsE_W)
    (hE2 : r ∉ opsE2_W) (hF : r ∉ opsF_W) (hG : r ∉ opsG_W) (hH : r ∉ opsH_W) :
    RH m d (Proc.devRef .tc r) = m ((d.tc : Thread nD τ).loc r) := (RH_keep m d r hH).trans (RG_init m d r hA hB hC hD hE hE2 hF hG)

/-! ## The ten argument arrays and the closed forms -/

abbrev inX : FVec F Spec.S12000x128 .f32 := m ((d.tc : Thread nD τ).loc main_arg0)
abbrev inEi : IVec Spec.S2x384000 32 := m ((d.tc : Thread nD τ).loc main_arg1)
abbrev inW1 : FVec F Spec.S128x32 .f32 := m ((d.tc : Thread nD τ).loc main_arg2)
abbrev inB1 : FVec F Spec.S32 .f32 := m ((d.tc : Thread nD τ).loc main_arg3)
abbrev inW2 : FVec F Spec.S32x32 .f32 := m ((d.tc : Thread nD τ).loc main_arg4)
abbrev inB2 : FVec F Spec.S32 .f32 := m ((d.tc : Thread nD τ).loc main_arg5)
abbrev inWp : FVec F Spec.S32x10 .f32 := m ((d.tc : Thread nD τ).loc main_arg6)
abbrev inBp : FVec F Spec.S10 .f32 := m ((d.tc : Thread nD τ).loc main_arg7)
abbrev inWc : FVec F Spec.S32x7 .f32 := m ((d.tc : Thread nD τ).loc main_arg8)
abbrev inBc : FVec F Spec.S7 .f32 := m ((d.tc : Thread nD τ).loc main_arg9)

/-- The normalised degrees. -/
abbrev cDis : FVec F Spec.S12000 .f32 := Spec.disOf (inEi m d)
/-- The first layer's activations. -/
abbrev cH1 : FVec F Spec.S12000x32 .f32 :=
  Spec.relu32 (Spec.gcnR (inEi m d) (cDis m d) (Spec.linW1 (inX m d) (inW1 m d)) (inB1 m d))
/-- The second layer's activations. -/
abbrev cH2 : FVec F Spec.S12000x32 .f32 :=
  Spec.relu32 (Spec.gcnR (inEi m d) (cDis m d) (Spec.linW2 (cH1 m d) (inW2 m d)) (inB2 m d))
/-- The cluster assignment. -/
abbrev cS : FVec F Spec.S12000x10 .f32 := Spec.sOf (cH2 m d) (inWp m d) (inBp m d)

/-! ## Stage A: the edge rows and the normalised degrees -/

theorem RA_v1 : RA m d (Proc.devRef .tc main_v1) = Spec.rowOf (inEi m d) := by
  unfold RA
  simp only [opsA]
  after_results_simp
  rfl

theorem RA_v3 : RA m d (Proc.devRef .tc main_v3) = Spec.colOf (inEi m d) := by
  unfold RA
  simp only [opsA]
  after_results_simp
  rfl

theorem RA_v15 : RA m d (Proc.devRef .tc main_v15) = cDis m d := by
  unfold RA
  simp only [opsA]
  after_results_simp
  rfl

/-! ## Stage B: the first graph convolution and its relu -/

theorem RB_v58 : RB m d (Proc.devRef .tc main_v58) = cH1 m d := by
  have e1 := RA_v1 m d
  have e3 := RA_v3 m d
  have e15 := RA_v15 m d
  have a0 := RA_keep m d main_arg0 (by decide)
  have a2 := RA_keep m d main_arg2 (by decide)
  have a3 := RA_keep m d main_arg3 (by decide)
  unfold RB
  generalize RA m d = V at e1 e3 e15 a0 a2 a3 ⊢
  simp only [opsB]
  after_results_simp
  simp only [e1, e3, e15, a0, a2, a3]
  rfl

/-! ## Stage C: the second graph convolution and its relu -/

theorem RB_v1 : RB m d (Proc.devRef .tc main_v1) = Spec.rowOf (inEi m d) := (RB_keep m d main_v1 (by decide)).trans (RA_v1 m d)
theorem RB_v3 : RB m d (Proc.devRef .tc main_v3) = Spec.colOf (inEi m d) := (RB_keep m d main_v3 (by decide)).trans (RA_v3 m d)
theorem RB_v15 : RB m d (Proc.devRef .tc main_v15) = cDis m d := (RB_keep m d main_v15 (by decide)).trans (RA_v15 m d)

theorem RC_v101 : RC m d (Proc.devRef .tc main_v101) = cH2 m d := by
  have e1 := RB_v1 m d
  have e3 := RB_v3 m d
  have e15 := RB_v15 m d
  have e58 := RB_v58 m d
  have a4 := RB_init m d main_arg4 (by decide) (by decide)
  have a5 := RB_init m d main_arg5 (by decide) (by decide)
  unfold RC
  generalize RB m d = V at e1 e3 e15 e58 a4 a5 ⊢
  simp only [opsC]
  after_results_simp
  simp only [e1, e3, e15, e58, a4, a5]
  rfl

/-! ## Stage D: the cluster softmax -/

theorem RD_v116 : RD m d (Proc.devRef .tc main_v116) = cS m d := by
  have e101 := RC_v101 m d
  have a6 := RC_init m d main_arg6 (by decide) (by decide) (by decide)
  have a7 := RC_init m d main_arg7 (by decide) (by decide) (by decide)
  unfold RD
  generalize RC m d = V at e101 a6 a7 ⊢
  simp only [opsD]
  after_results_simp
  simp only [e101, a6, a7]
  rfl

/-! ## Stage E: the wrapped indices as index columns, and the zero matrix -/

theorem RD_v1 : RD m d (Proc.devRef .tc main_v1) = Spec.rowOf (inEi m d) :=
  (RD_keep m d main_v1 (by decide)).trans ((RC_keep m d main_v1 (by decide)).trans (RB_v1 m d))
theorem RD_v3 : RD m d (Proc.devRef .tc main_v3) = Spec.colOf (inEi m d) :=
  (RD_keep m d main_v3 (by decide)).trans ((RC_keep m d main_v3 (by decide)).trans (RB_v3 m d))

theorem RE_v117 : RE m d (Proc.devRef .tc main_v117)
    = broadcastInDim Spec.S12000x12000 ![] (by decide) (Spec.zeroF (F := F)) := by
  unfold RE
  generalize RD m d = V
  simp only [opsE]
  after_results_simp

theorem RE_v128 : RE m d (Proc.devRef .tc main_v128) = Spec.col1 (Spec.wrap 12000#32 (Spec.rowOf (inEi m d))) := by
  have e1 := RD_v1 m d
  unfold RE
  generalize RD m d = V at e1 ⊢
  simp only [opsE]
  after_results_simp
  simp only [e1]
  rfl

theorem RE_v129 : RE m d (Proc.devRef .tc main_v129) = Spec.col1 (Spec.wrap 12000#32 (Spec.colOf (inEi m d))) := by
  have e3 := RD_v3 m d
  unfold RE
  generalize RD m d = V at e3 ⊢
  simp only [opsE]
  after_results_simp
  simp only [e3]
  rfl

/-! ## Stage E2: the dense adjacency matrix -/

theorem RE2_v132 : RE2 m d (Proc.devRef .tc main_v132) = Spec.Amat (inEi m d) := by
  have e117 := RE_v117 m d
  have e128 := RE_v128 m d
  have e129 := RE_v129 m d
  unfold RE2
  generalize RE m d = V at e117 e128 e129 ⊢
  simp only [opsE2]
  after_results_simp
  rw [e117, e128, e129]
  rfl

/-! ## Stage F: the cut loss -/

theorem RE2_v116 : RE2 m d (Proc.devRef .tc main_v116) = cS m d :=
  (RE2_keep m d main_v116 (by decide)).trans ((RE_keep m d main_v116 (by decide)).trans (RD_v116 m d))

theorem RF_v143 : RF m d (Proc.devRef .tc main_v143)
    = Spec.mcOf (cS m d) (Spec.AsR (inEi m d) (cS m d)) (Spec.dOfR (inEi m d)) := by
  have e132 := RE2_v132 m d
  have e116 := RE2_v116 m d
  unfold RF
  generalize RE2 m d = V at e132 e116 ⊢
  simp only [opsF]
  after_results_simp
  simp only [e132, e116]
  rfl

/-! ## Stage G: the orthogonality loss -/

theorem RF_v116 : RF m d (Proc.devRef .tc main_v116) = cS m d := (RF_keep m d main_v116 (by decide)).trans (RE2_v116 m d)

theorem RG_v159 : RG m d (Proc.devRef .tc main_v159) = Spec.olossOf (cS m d) := by
  have e116 := RF_v116 m d
  unfold RG
  generalize RF m d = V at e116 ⊢
  simp only [opsG]
  after_results_simp
  simp only [e116]
  rfl

/-! ## Stage H: the class log-probabilities -/

theorem RG_v101 : RG m d (Proc.devRef .tc main_v101) = cH2 m d :=
  (RG_keep m d main_v101 (by decide)).trans ((RF_keep m d main_v101 (by decide)).trans ((RE2_keep m d main_v101 (by decide)).trans
    ((RE_keep m d main_v101 (by decide)).trans ((RD_keep m d main_v101 (by decide)).trans (RC_v101 m d)))))

set_option maxRecDepth 8192 in
theorem RH_v164 : RH m d (Proc.devRef .tc main_v164) = Spec.logpOf (cH2 m d) (inWc m d) (inBc m d) := by
  have e101 := RG_v101 m d
  have a8 := RG_init m d main_arg8 (by decide) (by decide) (by decide) (by decide) (by decide) (by decide) (by decide) (by decide)
  have a9 := RG_init m d main_arg9 (by decide) (by decide) (by decide) (by decide) (by decide) (by decide) (by decide) (by decide)
  unfold RH
  generalize RG m d = V at e101 a8 a9 ⊢
  simp only [opsH]
  after_results_simp
  simp only [e101, a8, a9]
  try simp only [TRef.ofBuf, TRef.toBuf, cast_eq]
  rfl

/-! ## The three results and the ten arguments after the last stage -/

theorem RH_v143 : RH m d (Proc.devRef .tc main_v143)
    = Spec.mcOf (cS m d) (Spec.AsR (inEi m d) (cS m d)) (Spec.dOfR (inEi m d)) :=
  (RH_keep m d main_v143 (by decide)).trans ((RG_keep m d main_v143 (by decide)).trans (RF_v143 m d))
theorem RH_v159 : RH m d (Proc.devRef .tc main_v159) = Spec.olossOf (cS m d) :=
  (RH_keep m d main_v159 (by decide)).trans (RG_v159 m d)

/-- An argument array is written by no stage. -/
theorem RH_arg (r : Ref sig .tc)
    (h : r ∉ opsA_W ∧ r ∉ opsB_W ∧ r ∉ opsC_W ∧ r ∉ opsD_W ∧ r ∉ opsE_W ∧ r ∉ opsE2_W ∧ r ∉ opsF_W ∧ r ∉ opsG_W ∧ r ∉ opsH_W) :
    RH m d (Proc.devRef .tc r) = m ((d.tc : Thread nD τ).loc r) :=
  RH_init m d r h.1 h.2.1 h.2.2.1 h.2.2.2.1 h.2.2.2.2.1 h.2.2.2.2.2.1 h.2.2.2.2.2.2.1 h.2.2.2.2.2.2.2.1 h.2.2.2.2.2.2.2.2

end Stages

/-- On every device, from any memory with zero counters: every weakly fair execution of @main terminates with
    the three results at their closed forms over the ten argument arrays and the arguments unchanged. -/
theorem ref_values (m : (ℓ : Loc nD τ sig) → Buf (Elt F) ℓ) (ρ : Dev nD → PrngReg) :
    θ_run defs (onTc (τ := τ) (main (F := F))) ⟨m, fun _ => 0, ρ⟩ fun r => ∀ d : Dev nD,
      r.2.mem ((d.tc : Thread nD τ).loc main_v164) = Spec.logpOf (cH2 m d) (inWc m d) (inBc m d)
      ∧ r.2.mem ((d.tc : Thread nD τ).loc main_v143) = Spec.mcOf (cS m d) (Spec.AsR (inEi m d) (cS m d)) (Spec.dOfR (inEi m d))
      ∧ r.2.mem ((d.tc : Thread nD τ).loc main_v159) = Spec.olossOf (cS m d)
      ∧ r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9) :=
  (θ_run defs _ _).mono (fun _ h d =>
    have key : ∀ b : Ref sig .tc, _ = RH m d (Proc.devRef .tc b) := fun b => (h d b).trans (congrFun (after_ops m d) _)
    ⟨(key main_v164).trans (RH_v164 m d), (key main_v143).trans (RH_v143 m d), (key main_v159).trans (RH_v159 m d),
      (key main_arg0).trans (RH_arg m d main_arg0 (by decide)), (key main_arg1).trans (RH_arg m d main_arg1 (by decide)),
      (key main_arg2).trans (RH_arg m d main_arg2 (by decide)), (key main_arg3).trans (RH_arg m d main_arg3 (by decide)),
      (key main_arg4).trans (RH_arg m d main_arg4 (by decide)), (key main_arg5).trans (RH_arg m d main_arg5 (by decide)),
      (key main_arg6).trans (RH_arg m d main_arg6 (by decide)), (key main_arg7).trans (RH_arg m d main_arg7 (by decide)),
      (key main_arg8).trans (RH_arg m d main_arg8 (by decide)), (key main_arg9).trans (RH_arg m d main_arg9 (by decide))⟩)
    (ref_run m ρ)

end Cert.ReferenceIdeal.Hand

end
-- ==== Proof.KI.AlgTop.lean ====
import proofs.«421346_j24266565222650_2_alg».proof.Defs
import proofs.«421346_j24266565222650_2_alg».proof.Proof.Gen.Pre_finite_inputs
import proofs.«421346_j24266565222650_2_alg».proof.Proof.Gen.ReferenceIdeal
import proofs.«421346_j24266565222650_2_alg».proof.Proof.K.Regs
import proofs.«421346_j24266565222650_2_alg».proof.Proof.KI.Regs
import proofs.«421346_j24266565222650_2_alg».proof.Proof.KI.KHost
import proofs.«421346_j24266565222650_2_alg».proof.Proof.KI.KBridge
import proofs.«421346_j24266565222650_2_alg».proof.Proof.KI.PreFacts
import proofs.«421346_j24266565222650_2_alg».proof.Proof.KI.RHost
import proofs.«421346_j24266565222650_2_alg».proof.Proof.KI.SpecEq

/-! # The five claims

The dense-matrix program (as printed and at the ideal instance) and the edge-list program run from any
memory with zero counters and leave their ten argument arrays unchanged; at the ideal instance, from
memories agreeing on the arguments, under the precondition (real features and weights, edge entries node
numbers), the three results of the two programs are equal: each is a closed term of the ten arrays, and the
two closed terms are equal by the layer identity (twice) and the two cut-loss identities. -/

noncomputable section

namespace Cert.Proof.Top

open Idealize.ShloMosaic Idealize.SL.Sem Idealize.ShloMosaic.TcCoe
open Cert.Hand

/-! ## The dense-matrix program as printed: the arguments end unchanged -/

section Printed
open Cert.Kernel

theorem frame_kernel : Cert.frame_Kernel (hKernel := Cert.Kernel.Gen.facts)
    (hPre_finite_inputs := Cert.Pre_finite_inputs.Gen.facts) := fun m ρ _ =>
  (θ_run Cert.Kernel.defs _ _).mono (fun r h c =>
    ⟨(h c main_arg0 (by decide)).trans (Cert.Kernel.Gen.V19_main_arg0 m (Cert.Kernel.Hand.outsH m) c),
     (h c main_arg1 (by decide)).trans (Cert.Kernel.Gen.V19_main_arg1 m (Cert.Kernel.Hand.outsH m) c),
     (h c main_arg2 (by decide)).trans (Cert.Kernel.Gen.V19_main_arg2 m (Cert.Kernel.Hand.outsH m) c),
     (h c main_arg3 (by decide)).trans (Cert.Kernel.Gen.V19_main_arg3 m (Cert.Kernel.Hand.outsH m) c),
     (h c main_arg4 (by decide)).trans (Cert.Kernel.Gen.V19_main_arg4 m (Cert.Kernel.Hand.outsH m) c),
     (h c main_arg5 (by decide)).trans (Cert.Kernel.Gen.V19_main_arg5 m (Cert.Kernel.Hand.outsH m) c),
     (h c main_arg6 (by decide)).trans (Cert.Kernel.Gen.V19_main_arg6 m (Cert.Kernel.Hand.outsH m) c),
     (h c main_arg7 (by decide)).trans (Cert.Kernel.Gen.V19_main_arg7 m (Cert.Kernel.Hand.outsH m) c),
     (h c main_arg8 (by decide)).trans (Cert.Kernel.Gen.V19_main_arg8 m (Cert.Kernel.Hand.outsH m) c),
     (h c main_arg9 (by decide)).trans (Cert.Kernel.Gen.V19_main_arg9 m (Cert.Kernel.Hand.outsH m) c)⟩)
    (Cert.Kernel.Hand.run_all (F := Bits) m ρ)

end Printed

/-! ## The dense-matrix program at the ideal instance -/

section IdealK
open Cert.KernelIdeal Cert.KernelIdeal.Hand

theorem frame_kernelIdeal : Cert.frame_KernelIdeal (hKernelIdeal := Cert.KernelIdeal.Gen.facts)
    (hPre_finite_inputs := Cert.Pre_finite_inputs.Gen.facts) := fun m ρ _ =>
  (θ_run Cert.KernelIdeal.defs _ _).mono (fun r h c =>
    ⟨(h c main_arg0 (by decide)).trans (Cert.KernelIdeal.Gen.V19_main_arg0 m (outsH m) c),
     (h c main_arg1 (by decide)).trans (Cert.KernelIdeal.Gen.V19_main_arg1 m (outsH m) c),
     (h c main_arg2 (by decide)).trans (Cert.KernelIdeal.Gen.V19_main_arg2 m (outsH m) c),
     (h c main_arg3 (by decide)).trans (Cert.KernelIdeal.Gen.V19_main_arg3 m (outsH m) c),
     (h c main_arg4 (by decide)).trans (Cert.KernelIdeal.Gen.V19_main_arg4 m (outsH m) c),
     (h c main_arg5 (by decide)).trans (Cert.KernelIdeal.Gen.V19_main_arg5 m (outsH m) c),
     (h c main_arg6 (by decide)).trans (Cert.KernelIdeal.Gen.V19_main_arg6 m (outsH m) c),
     (h c main_arg7 (by decide)).trans (Cert.KernelIdeal.Gen.V19_main_arg7 m (outsH m) c),
     (h c main_arg8 (by decide)).trans (Cert.KernelIdeal.Gen.V19_main_arg8 m (outsH m) c),
     (h c main_arg9 (by decide)).trans (Cert.KernelIdeal.Gen.V19_main_arg9 m (outsH m) c)⟩)
    (Cert.KernelIdeal.Hand.run_all (F := Ideal) m ρ)

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-! ### The precondition at the stage identities' hypotheses -/

theorem pre_in (h : Cert.Pre_KernelIdeal m) (c : Dev nD) : Spec.InRange (Aei m c) := fun i => pre_edge_range m h c i
theorem pre_x (h : Cert.Pre_KernelIdeal m) (c : Dev nD) : Spec.Real' (Ax m c) := fun i => pre_real_arg0 m h c i
theorem pre_W1 (h : Cert.Pre_KernelIdeal m) (c : Dev nD) : Spec.Real' (AW1 m c) := fun i => pre_real_arg2 m h c i
theorem pre_b1 (h : Cert.Pre_KernelIdeal m) (c : Dev nD) : Spec.Real' (Ab1 m c) := fun i => pre_real_arg3 m h c i
theorem pre_W2 (h : Cert.Pre_KernelIdeal m) (c : Dev nD) : Spec.Real' (AW2 m c) := fun i => pre_real_arg4 m h c i

/-! ### The three results: the edge-list program's closed term is the dense-matrix program's buffer -/

open Cert.ReferenceIdeal.Hand in
theorem alg0 (hpre : Cert.Pre_KernelIdeal m) (c : Dev nD)
    (e0 : inX m' c = Ax m c) (e1 : inEi m' c = Aei m c) (e2 : inW1 m' c = AW1 m c) (e3 : inB1 m' c = Ab1 m c)
    (e4 : inW2 m' c = AW2 m c) (e5 : inB2 m' c = Ab2 m c) (e8 : inWc m' c = AWc m c) (e9 : inBc m' c = Abc m c) :
    Spec.logpOf (cH2 m' c) (inWc m' c) (inBc m' c)
      = (Cert.KernelIdeal.Gen.V19 m (outsH m) c main_v130 : FVec Ideal Spec.S12000x7 .f32) := by
  rw [kres_logp m c]
  show Spec.logpOf (Spec.h2R (inEi m' c) (inX m' c) (inW1 m' c) (inB1 m' c) (inW2 m' c) (inB2 m' c)) (inWc m' c) (inBc m' c) = _
  rw [e0, e1, e2, e3, e4, e5, e8, e9]
  exact (Spec.res0_eq _ _ (pre_in m hpre c) (pre_x m hpre c) (pre_W1 m hpre c) (pre_b1 m hpre c) (pre_W2 m hpre c)).symm

open Cert.ReferenceIdeal.Hand in
theorem alg1 (hpre : Cert.Pre_KernelIdeal m) (c : Dev nD)
    (e0 : inX m' c = Ax m c) (e1 : inEi m' c = Aei m c) (e2 : inW1 m' c = AW1 m c) (e3 : inB1 m' c = Ab1 m c)
    (e4 : inW2 m' c = AW2 m c) (e5 : inB2 m' c = Ab2 m c) (e6 : inWp m' c = AWp m c) (e7 : inBp m' c = Abp m c) :
    Spec.mcOf (cS m' c) (Spec.AsR (inEi m' c) (cS m' c)) (Spec.dOfR (inEi m' c))
      = (Cert.KernelIdeal.Gen.V19 m (outsH m) c main_v109 : FVec Ideal Spec.S_ .f32) := by
  rw [kres_mc m c]
  show Spec.mcOf (Spec.sR (inEi m' c) (inX m' c) (inW1 m' c) (inB1 m' c) (inW2 m' c) (inB2 m' c) (inWp m' c) (inBp m' c))
      (Spec.AsR (inEi m' c) (Spec.sR (inEi m' c) (inX m' c) (inW1 m' c) (inB1 m' c) (inW2 m' c) (inB2 m' c) (inWp m' c) (inBp m' c)))
      (Spec.dOfR (inEi m' c)) = _
  rw [e0, e1, e2, e3, e4, e5, e6, e7]
  exact (Spec.res1_eq (pre_in m hpre c) (pre_x m hpre c) (pre_W1 m hpre c) (pre_b1 m hpre c) (pre_W2 m hpre c)).symm

open Cert.ReferenceIdeal.Hand in
theorem alg2 (hpre : Cert.Pre_KernelIdeal m) (c : Dev nD)
    (e0 : inX m' c = Ax m c) (e1 : inEi m' c = Aei m c) (e2 : inW1 m' c = AW1 m c) (e3 : inB1 m' c = Ab1 m c)
    (e4 : inW2 m' c = AW2 m c) (e5 : inB2 m' c = Ab2 m c) (e6 : inWp m' c = AWp m c) (e7 : inBp m' c = Abp m c) :
    Spec.olossOf (cS m' c) = (Cert.KernelIdeal.Gen.V19 m (outsH m) c main_v125 : FVec Ideal Spec.S_ .f32) := by
  rw [kres_oloss m c]
  show Spec.olossOf (Spec.sR (inEi m' c) (inX m' c) (inW1 m' c) (inB1 m' c) (inW2 m' c) (inB2 m' c) (inWp m' c) (inBp m' c)) = _
  rw [e0, e1, e2, e3, e4, e5, e6, e7]
  exact (Spec.res2_eq (pre_in m hpre c) (pre_x m hpre c) (pre_W1 m hpre c) (pre_b1 m hpre c) (pre_W2 m hpre c)).symm

/-- Both programs run; the three results are equal and the arguments end unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Gen.V19 m (outsH m) c main_v130, fun c => Cert.KernelIdeal.Gen.V19 m (outsH m) c main_v109,
    fun c => Cert.KernelIdeal.Gen.V19 m (outsH m) c main_v125, ?_, ?_⟩
  · exact (θ_run Cert.KernelIdeal.defs _ _).mono (fun r h c =>
      ⟨h c main_v130 (by decide), h c main_v109 (by decide), h c main_v125 (by decide),
       (h c main_arg0 (by decide)).trans (Cert.KernelIdeal.Gen.V19_main_arg0 m (outsH m) c),
       (h c main_arg1 (by decide)).trans (Cert.KernelIdeal.Gen.V19_main_arg1 m (outsH m) c),
       (h c main_arg2 (by decide)).trans (Cert.KernelIdeal.Gen.V19_main_arg2 m (outsH m) c),
       (h c main_arg3 (by decide)).trans (Cert.KernelIdeal.Gen.V19_main_arg3 m (outsH m) c),
       (h c main_arg4 (by decide)).trans (Cert.KernelIdeal.Gen.V19_main_arg4 m (outsH m) c),
       (h c main_arg5 (by decide)).trans (Cert.KernelIdeal.Gen.V19_main_arg5 m (outsH m) c),
       (h c main_arg6 (by decide)).trans (Cert.KernelIdeal.Gen.V19_main_arg6 m (outsH m) c),
       (h c main_arg7 (by decide)).trans (Cert.KernelIdeal.Gen.V19_main_arg7 m (outsH m) c),
       (h c main_arg8 (by decide)).trans (Cert.KernelIdeal.Gen.V19_main_arg8 m (outsH m) c),
       (h c main_arg9 (by decide)).trans (Cert.KernelIdeal.Gen.V19_main_arg9 m (outsH m) c)⟩)
      (Cert.KernelIdeal.Hand.run_all (F := Ideal) m g)
  · refine (θ_run Cert.ReferenceIdeal.defs _ _).mono (fun r h c => ?_) (Cert.ReferenceIdeal.Hand.ref_values (F := Ideal) m' g')
    obtain ⟨e0, e1, e2, e3, e4, e5, e6, e7, e8, e9⟩ := hagree c
    obtain ⟨h0, h1, h2, hargs⟩ := h c
    exact ⟨h0.trans (alg0 m m' hpre c e0 e1 e2 e3 e4 e5 e8 e9), h1.trans (alg1 m m' hpre c e0 e1 e2 e3 e4 e5 e6 e7),
      h2.trans (alg2 m m' hpre c e0 e1 e2 e3 e4 e5 e6 e7), hargs⟩

end IdealK

end Cert.Proof.Top

end
-- ==== Proof.KI.RFrame.lean ====
/- The reference runs from any memory with zero counters and leaves its ten argument arrays unchanged: the
   run's closed forms, read at the arguments. -/
import proofs.«421346_j24266565222650_2_alg».proof.Proof.KI.RHost
import proofs.«421346_j24266565222650_2_alg».proof.Defs
import proofs.«421346_j24266565222650_2_alg».proof.Proof.Gen.Pre_finite_inputs

noncomputable section

namespace Cert.ReferenceIdeal.Hand

open Idealize.ShloMosaic Idealize.SL.Sem

theorem frame_ref : Cert.frame_ReferenceIdeal (hReferenceIdeal := Cert.ReferenceIdeal.Gen.facts)
    (hPre_finite_inputs := Cert.Pre_finite_inputs.Gen.facts) := by
  intro m g _
  exact (θ_run _ _ _).mono (fun _ h c => (h c).2.2.2) (ref_values (F := Ideal) m g)

end Cert.ReferenceIdeal.Hand

end
-- ==== Proof.lean ====
/- The five claims about the graph-convolution forward pass, assembled.

   The dense-matrix program (read as printed and at the ideal instance) and the edge-list program each run from
   any memory with zero counters — every weakly fair execution terminates without fault — and leave their ten
   argument arrays as they were. The idealization rewrote no operation. At the ideal instance, from memories that
   agree on the arguments and under the precondition (every feature, weight and bias a real number, every entry
   of the edge list a node number), the class log-probabilities, the cut loss and the orthogonality loss of the
   two programs are equal: a product with the padded count matrix is the gather / scatter-add over the edges
   (twice, once per layer), the product with its transpose is the product with the unpadded count matrix, and a
   scatter-add of ones at the sources is that matrix's row sums. -/
import proofs.«421346_j24266565222650_2_alg».proof.Defs
import proofs.«421346_j24266565222650_2_alg».proof.Proof.KI.AlgTop
import proofs.«421346_j24266565222650_2_alg».proof.Proof.KI.RFrame

noncomputable section

namespace Cert.Proof

theorem claim : Cert.Claim :=
  ⟨Cert.Kernel.Gen.facts, Cert.KernelIdeal.Gen.facts, Cert.ReferenceIdeal.Gen.facts, Cert.Pre_finite_inputs.Gen.facts,
    Top.frame_kernel, Top.frame_kernelIdeal, Cert.ReferenceIdeal.Hand.frame_ref, trivial, Top.algebraic⟩

end Cert.Proof

end
